-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 4096]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S4096x4096 : Shape := ⟨2, ![4096, 4096]⟩
abbrev S16384x1024 : Shape := ⟨2, ![16384, 1024]⟩
abbrev S4x4096x1024 : Shape := ⟨3, ![4, 4096, 1024]⟩
abbrev S2x512x1024 : Shape := ⟨3, ![2, 512, 1024]⟩
abbrev S3x2 : Shape := ⟨2, ![3, 2]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1 : Shape := ⟨2, ![1, 1]⟩
abbrev S2048x1024 : Shape := ⟨2, ![2048, 1024]⟩
abbrev S1x2048x1024 : Shape := ⟨3, ![1, 2048, 1024]⟩
abbrev S4096x1024 : Shape := ⟨2, ![4096, 1024]⟩
abbrev S1x4096x1024 : Shape := ⟨3, ![1, 4096, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S16384x1024, .bf16⟩
  | .local _ .vmem, ⟨0, _⟩ => ⟨S4x4096x1024, .bf16⟩
  | .local _ .vmem, ⟨1, _⟩ => ⟨S2x512x1024, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) (c1_i32_37 : BitVec 32) : Fin 2 → Nat :=
  let c0_i32_48 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32 : BitVec 32 := 1024#32
  let v72 : BitVec 32 := Scalar.muli v71 c1024_i32
  ![0, v72.toNat]
def k0_off2 (d0 : Dev nD) (c1_i32_37 : BitVec 32) : Fin 2 → Nat :=
  let c512_i32 : BitVec 32 := 512#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32 : BitVec 32 := 1024#32
  let v72 : BitVec 32 := Scalar.muli v71 c1024_i32
  ![512, v72.toNat]
def k0_off3 (d0 : Dev nD) (c1_i32_37 : BitVec 32) : Fin 2 → Nat :=
  let c1024_i32_67 : BitVec 32 := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32 : BitVec 32 := 1024#32
  let v72 : BitVec 32 := Scalar.muli v71 c1024_i32
  ![1024, v72.toNat]
def k0_off4 (d0 : Dev nD) (c1_i32_37 : BitVec 32) : Fin 2 → Nat :=
  let c1536_i32 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32 : BitVec 32 := 1024#32
  let v72 : BitVec 32 := Scalar.muli v71 c1024_i32
  ![1536, v72.toNat]
def k0_off5 (d0 : Dev nD) (c0_i32_101 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v137 : BitVec 32 := Scalar.muli v8 c4096_i32
  let v138 : BitVec 32 := Scalar.addi v137 c0_i32_101
  let c0_i32_111 : BitVec 32 := 0#32
  ![v138.toNat, 0]
def k0_dev4 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v139 : BitVec 32 := Scalar.muli v2 c8_i32_107
  let v140 : BitVec 32 := Scalar.addi c0_i32_108 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v141 : BitVec 32 := Scalar.muli v5 c4_i32_109
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1_i32_110 : BitVec 32 := 1#32
  let v143 : BitVec 32 := Scalar.muli v71 c1_i32_110
  let v144 : BitVec 32 := Scalar.addi v142 v143
  v144.toNat
def k0_off6 (d0 : Dev nD) (c1_i32_37 : BitVec 32) : Fin 2 → Nat :=
  let c2048_i32 : BitVec 32 := 2048#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32_114 : BitVec 32 := 1024#32
  let v152 : BitVec 32 := Scalar.muli v71 c1024_i32_114
  ![2048, v152.toNat]
def k0_off7 (d0 : Dev nD) (c1_i32_37 : BitVec 32) : Fin 2 → Nat :=
  let c2560_i32 : BitVec 32 := 2560#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32_114 : BitVec 32 := 1024#32
  let v152 : BitVec 32 := Scalar.muli v71 c1024_i32_114
  ![2560, v152.toNat]
def k0_off8 (d0 : Dev nD) (c1_i32_37 : BitVec 32) : Fin 2 → Nat :=
  let c3072_i32 : BitVec 32 := 3072#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32_114 : BitVec 32 := 1024#32
  let v152 : BitVec 32 := Scalar.muli v71 c1024_i32_114
  ![3072, v152.toNat]
def k0_off9 (d0 : Dev nD) (c1_i32_37 : BitVec 32) : Fin 2 → Nat :=
  let c3584_i32 : BitVec 32 := 3584#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32_114 : BitVec 32 := 1024#32
  let v152 : BitVec 32 := Scalar.muli v71 c1024_i32_114
  ![3584, v152.toNat]
def k0_dev5 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_178 : BitVec 32 := 8#32
  let v219 : BitVec 32 := Scalar.muli v2 c8_i32_178
  let v220 : BitVec 32 := Scalar.addi c0_i32_179 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180 : BitVec 32 := 4#32
  let v221 : BitVec 32 := Scalar.muli v5 c4_i32_180
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1_i32_181 : BitVec 32 := 1#32
  let v223 : BitVec 32 := Scalar.muli v71 c1_i32_181
  let v224 : BitVec 32 := Scalar.addi v222 v223
  v224.toNat
def k0_dev6 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v310 : BitVec 32 := Scalar.muli v2 c8_i32_264
  let v311 : BitVec 32 := Scalar.addi c0_i32_265 v310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_266 : BitVec 32 := 4#32
  let v312 : BitVec 32 := Scalar.muli v5 c4_i32_266
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_185 : BitVec 32 := 2#32
  let v232 : BitVec 32 := Scalar.addi v8 c2_i32_185
  let c4_i32_186 : BitVec 32 := 4#32
  let c0_i32_187 : BitVec 32 := 0#32
  let v233 : BitVec 1 := Scalar.cmpi .eq c4_i32_186 c0_i32_187
  let c1_i32_188 : BitVec 32 := 1#32
  let v234 : BitVec 32 := Scalar.select v233 c1_i32_188 c4_i32_186
  let v235 : BitVec 32 := Scalar.remsi v232 v234
  let c0_i32_190 : BitVec 32 := 0#32
  let v237 : BitVec 1 := Scalar.cmpi .slt v235 c0_i32_190
  let c0_i32_191 : BitVec 32 := 0#32
  let v238 : BitVec 1 := Scalar.cmpi .slt v234 c0_i32_191
  let v239 : BitVec 1 := Scalar.xori v237 v238
  let c0_i32_189 : BitVec 32 := 0#32
  let v236 : BitVec 1 := Scalar.cmpi .ne v235 c0_i32_189
  let v240 : BitVec 1 := Scalar.andi v239 v236
  let v241 : BitVec 32 := Scalar.addi v235 v234
  let v242 : BitVec 32 := Scalar.select v240 v241 v235
  let c1_i32_267 : BitVec 32 := 1#32
  let v314 : BitVec 32 := Scalar.muli v242 c1_i32_267
  let v315 : BitVec 32 := Scalar.addi v313 v314
  v315.toNat
def k0_dev7 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v390 : BitVec 32 := Scalar.muli v2 c8_i32_343
  let v391 : BitVec 32 := Scalar.addi c0_i32_344 v390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_345 : BitVec 32 := 4#32
  let v392 : BitVec 32 := Scalar.muli v5 c4_i32_345
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_185 : BitVec 32 := 2#32
  let v232 : BitVec 32 := Scalar.addi v8 c2_i32_185
  let c4_i32_186 : BitVec 32 := 4#32
  let c0_i32_187 : BitVec 32 := 0#32
  let v233 : BitVec 1 := Scalar.cmpi .eq c4_i32_186 c0_i32_187
  let c1_i32_188 : BitVec 32 := 1#32
  let v234 : BitVec 32 := Scalar.select v233 c1_i32_188 c4_i32_186
  let v235 : BitVec 32 := Scalar.remsi v232 v234
  let c0_i32_190 : BitVec 32 := 0#32
  let v237 : BitVec 1 := Scalar.cmpi .slt v235 c0_i32_190
  let c0_i32_191 : BitVec 32 := 0#32
  let v238 : BitVec 1 := Scalar.cmpi .slt v234 c0_i32_191
  let v239 : BitVec 1 := Scalar.xori v237 v238
  let c0_i32_189 : BitVec 32 := 0#32
  let v236 : BitVec 1 := Scalar.cmpi .ne v235 c0_i32_189
  let v240 : BitVec 1 := Scalar.andi v239 v236
  let v241 : BitVec 32 := Scalar.addi v235 v234
  let v242 : BitVec 32 := Scalar.select v240 v241 v235
  let c1_i32_346 : BitVec 32 := 1#32
  let v394 : BitVec 32 := Scalar.muli v242 c1_i32_346
  let v395 : BitVec 32 := Scalar.addi v393 v394
  v395.toNat
def k0_dev8 (d0 : Dev nD) : Nat :=
  let c0_i32_429 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_428 : BitVec 32 := 8#32
  let v481 : BitVec 32 := Scalar.muli v2 c8_i32_428
  let v482 : BitVec 32 := Scalar.addi c0_i32_429 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_430 : BitVec 32 := 4#32
  let v483 : BitVec 32 := Scalar.muli v5 c4_i32_430
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_350 : BitVec 32 := 3#32
  let v403 : BitVec 32 := Scalar.addi v8 c3_i32_350
  let c4_i32_351 : BitVec 32 := 4#32
  let c0_i32_352 : BitVec 32 := 0#32
  let v404 : BitVec 1 := Scalar.cmpi .eq c4_i32_351 c0_i32_352
  let c1_i32_353 : BitVec 32 := 1#32
  let v405 : BitVec 32 := Scalar.select v404 c1_i32_353 c4_i32_351
  let v406 : BitVec 32 := Scalar.remsi v403 v405
  let c0_i32_355 : BitVec 32 := 0#32
  let v408 : BitVec 1 := Scalar.cmpi .slt v406 c0_i32_355
  let c0_i32_356 : BitVec 32 := 0#32
  let v409 : BitVec 1 := Scalar.cmpi .slt v405 c0_i32_356
  let v410 : BitVec 1 := Scalar.xori v408 v409
  let c0_i32_354 : BitVec 32 := 0#32
  let v407 : BitVec 1 := Scalar.cmpi .ne v406 c0_i32_354
  let v411 : BitVec 1 := Scalar.andi v410 v407
  let v412 : BitVec 32 := Scalar.addi v406 v405
  let v413 : BitVec 32 := Scalar.select v411 v412 v406
  let c1_i32_431 : BitVec 32 := 1#32
  let v485 : BitVec 32 := Scalar.muli v413 c1_i32_431
  let v486 : BitVec 32 := Scalar.addi v484 v485
  v486.toNat
def k0_dev9 (d0 : Dev nD) : Nat :=
  let c0_i32_508 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_507 : BitVec 32 := 8#32
  let v561 : BitVec 32 := Scalar.muli v2 c8_i32_507
  let v562 : BitVec 32 := Scalar.addi c0_i32_508 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_509 : BitVec 32 := 4#32
  let v563 : BitVec 32 := Scalar.muli v5 c4_i32_509
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_350 : BitVec 32 := 3#32
  let v403 : BitVec 32 := Scalar.addi v8 c3_i32_350
  let c4_i32_351 : BitVec 32 := 4#32
  let c0_i32_352 : BitVec 32 := 0#32
  let v404 : BitVec 1 := Scalar.cmpi .eq c4_i32_351 c0_i32_352
  let c1_i32_353 : BitVec 32 := 1#32
  let v405 : BitVec 32 := Scalar.select v404 c1_i32_353 c4_i32_351
  let v406 : BitVec 32 := Scalar.remsi v403 v405
  let c0_i32_355 : BitVec 32 := 0#32
  let v408 : BitVec 1 := Scalar.cmpi .slt v406 c0_i32_355
  let c0_i32_356 : BitVec 32 := 0#32
  let v409 : BitVec 1 := Scalar.cmpi .slt v405 c0_i32_356
  let v410 : BitVec 1 := Scalar.xori v408 v409
  let c0_i32_354 : BitVec 32 := 0#32
  let v407 : BitVec 1 := Scalar.cmpi .ne v406 c0_i32_354
  let v411 : BitVec 1 := Scalar.andi v410 v407
  let v412 : BitVec 32 := Scalar.addi v406 v405
  let v413 : BitVec 32 := Scalar.select v411 v412 v406
  let c1_i32_510 : BitVec 32 := 1#32
  let v565 : BitVec 32 := Scalar.muli v413 c1_i32_510
  let v566 : BitVec 32 := Scalar.addi v564 v565
  v566.toNat
def k0_off10 (d0 : Dev nD) : Fin 2 → Nat :=
  let c0_i32_519 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![0, v574.toNat]
def k0_off11 (d0 : Dev nD) : Fin 2 → Nat :=
  let c512_i32_524 : BitVec 32 := 512#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![512, v574.toNat]
def k0_off12 (d0 : Dev nD) : Fin 2 → Nat :=
  let c1024_i32_539 : BitVec 32 := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![1024, v574.toNat]
def k0_off13 (d0 : Dev nD) : Fin 2 → Nat :=
  let c1536_i32_555 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![1536, v574.toNat]
def k0_off14 (d0 : Dev nD) : Fin 2 → Nat :=
  let c2048_i32_571 : BitVec 32 := 2048#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![2048, v574.toNat]
def k0_off15 (d0 : Dev nD) : Fin 2 → Nat :=
  let c2560_i32_587 : BitVec 32 := 2560#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![2560, v574.toNat]
def k0_off16 (d0 : Dev nD) : Fin 2 → Nat :=
  let c3072_i32_603 : BitVec 32 := 3072#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![3072, v574.toNat]
def k0_off17 (d0 : Dev nD) : Fin 2 → Nat :=
  let c3584_i32_619 : BitVec 32 := 3584#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_514 : BitVec 32 := 1024#32
  let v574 : BitVec 32 := Scalar.muli v8 c1024_i32_514
  ![3584, v574.toNat]
def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_642 : BitVec 32 := 4096#32
  let v703 : BitVec 32 := Scalar.muli v8 c4096_i32_642
  let c0_i32_644 : BitVec 32 := 0#32
  ![v703.toNat, 0]
def k0_off19 (d0 : Dev nD) (c1_i32_647 : BitVec 32) (c0_i32_655 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v707 : BitVec 32 := Scalar.subi v8 c1_i32_647
  let c4_i32_648 : BitVec 32 := 4#32
  let c0_i32_649 : BitVec 32 := 0#32
  let v708 : BitVec 1 := Scalar.cmpi .eq c4_i32_648 c0_i32_649
  let c1_i32_650 : BitVec 32 := 1#32
  let v709 : BitVec 32 := Scalar.select v708 c1_i32_650 c4_i32_648
  let v710 : BitVec 32 := Scalar.remsi v707 v709
  let c0_i32_652 : BitVec 32 := 0#32
  let v712 : BitVec 1 := Scalar.cmpi .slt v710 c0_i32_652
  let c0_i32_653 : BitVec 32 := 0#32
  let v713 : BitVec 1 := Scalar.cmpi .slt v709 c0_i32_653
  let v714 : BitVec 1 := Scalar.xori v712 v713
  let c0_i32_651 : BitVec 32 := 0#32
  let v711 : BitVec 1 := Scalar.cmpi .ne v710 c0_i32_651
  let v715 : BitVec 1 := Scalar.andi v714 v711
  let v716 : BitVec 32 := Scalar.addi v710 v709
  let v717 : BitVec 32 := Scalar.select v715 v716 v710
  let c4096_i32_654 : BitVec 32 := 4096#32
  let v718 : BitVec 32 := Scalar.muli v717 c4096_i32_654
  let v719 : BitVec 32 := Scalar.addi v718 c0_i32_655
  let c0_i32_665 : BitVec 32 := 0#32
  ![v719.toNat, 0]

class Facts₀ : Prop where
  hamt_1 : (1#32 : BitVec 32).msb = false
  hamt_3 : (3#32 : BitVec 32).msb = false
  inb_S2_S1_0 : ∀ a, (![0] : Fin 1 → Nat) a + S1.size a ≤ S2.size a
  squeezes_S1_S_ : S1.Squeezes S_
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  h_S1x512x1024 : 0 < S1x512x1024.numel
  shapeCasts_S1x512x1024_S512x1024 : S1x512x1024.ShapeCasts S512x1024
  bitsLt_bf16_f32 : FTy.bits .bf16 < FTy.bits .f32
  inb_S4x4096x1024_S1x512x1024_0_0_0 : ∀ a, (![0, 0, 0] : Fin 3 → Nat) a + S1x512x1024.size a ≤ S4x4096x1024.size a
  shapeCasts_S512x1024_S1x512x1024 : S512x1024.ShapeCasts S1x512x1024
  packedbf16_S4x4096x1024_S1x512x1024_0_0_0 : (Rect.unit (s := S4x4096x1024) ![0, 0, 0] S1x512x1024.size inb_S4x4096x1024_S1x512x1024_0_0_0).PackedRows (EltTy.packing .bf16)
  inb_S4x4096x1024_S1x512x1024_0_512_0 : ∀ a, (![0, 512, 0] : Fin 3 → Nat) a + S1x512x1024.size a ≤ S4x4096x1024.size a
  packedbf16_S4x4096x1024_S1x512x1024_0_512_0 : (Rect.unit (s := S4x4096x1024) ![0, 512, 0] S1x512x1024.size inb_S4x4096x1024_S1x512x1024_0_512_0).PackedRows (EltTy.packing .bf16)
  inb_S4x4096x1024_S1x512x1024_0_1024_0 : ∀ a, (![0, 1024, 0] : Fin 3 → Nat) a + S1x512x1024.size a ≤ S4x4096x1024.size a
  packedbf16_S4x4096x1024_S1x512x1024_0_1024_0 : (Rect.unit (s := S4x4096x1024) ![0, 1024, 0] S1x512x1024.size inb_S4x4096x1024_S1x512x1024_0_1024_0).PackedRows (EltTy.packing .bf16)
  inb_S4x4096x1024_S1x512x1024_0_1536_0 : ∀ a, (![0, 1536, 0] : Fin 3 → Nat) a + S1x512x1024.size a ≤ S4x4096x1024.size a
  packedbf16_S4x4096x1024_S1x512x1024_0_1536_0 : (Rect.unit (s := S4x4096x1024) ![0, 1536, 0] S1x512x1024.size inb_S4x4096x1024_S1x512x1024_0_1536_0).PackedRows (EltTy.packing .bf16)
  inb_S3x2_S1x1_0_0 : ∀ a, (![0, 0] : Fin 2 → Nat) a + S1x1.size a ≤ S3x2.size a
  squeezes_S1x1_S_ : S1x1.Squeezes S_
  inb_S4x4096x1024_S1x2048x1024_0_0_0 : ∀ a, (![0, 0, 0] : Fin 3 → Nat) a + S1x2048x1024.size a ≤ S4x4096x1024.size a
  squeezes_S1x2048x1024_S2048x1024 : S1x2048x1024.Squeezes S2048x1024
  wordsbf16_S4x4096x1024_S1x2048x1024_0_0_0 : (Rect.unit (s := S4x4096x1024) ![0, 0, 0] S1x2048x1024.size inb_S4x4096x1024_S1x2048x1024_0_0_0).WholeWords (EltTy.packing .bf16)
  inb_S4x4096x1024_S1x512x1024_0_2048_0 : ∀ a, (![0, 2048, 0] : Fin 3 → Nat) a + S1x512x1024.size a ≤ S4x4096x1024.size a
  packedbf16_S4x4096x1024_S1x512x1024_0_2048_0 : (Rect.unit (s := S4x4096x1024) ![0, 2048, 0] S1x512x1024.size inb_S4x4096x1024_S1x512x1024_0_2048_0).PackedRows (EltTy.packing .bf16)
  inb_S4x4096x1024_S1x512x1024_0_2560_0 : ∀ a, (![0, 2560, 0] : Fin 3 → Nat) a + S1x512x1024.size a ≤ S4x4096x1024.size a
  packedbf16_S4x4096x1024_S1x512x1024_0_2560_0 : (Rect.unit (s := S4x4096x1024) ![0, 2560, 0] S1x512x1024.size inb_S4x4096x1024_S1x512x1024_0_2560_0).PackedRows (EltTy.packing .bf16)
  inb_S4x4096x1024_S1x512x1024_0_3072_0 : ∀ a, (![0, 3072, 0] : Fin 3 → Nat) a + S1x512x1024.size a ≤ S4x4096x1024.size a
  packedbf16_S4x4096x1024_S1x512x1024_0_3072_0 : (Rect.unit (s := S4x4096x1024) ![0, 3072, 0] S1x512x1024.size inb_S4x4096x1024_S1x512x1024_0_3072_0).PackedRows (EltTy.packing .bf16)
  inb_S4x4096x1024_S1x512x1024_0_3584_0 : ∀ a, (![0, 3584, 0] : Fin 3 → Nat) a + S1x512x1024.size a ≤ S4x4096x1024.size a
  packedbf16_S4x4096x1024_S1x512x1024_0_3584_0 : (Rect.unit (s := S4x4096x1024) ![0, 3584, 0] S1x512x1024.size inb_S4x4096x1024_S1x512x1024_0_3584_0).PackedRows (EltTy.packing .bf16)
  inb_S3x2_S1x1_0_1 : ∀ a, (![0, 1] : Fin 2 → Nat) a + S1x1.size a ≤ S3x2.size a
  inb_S4x4096x1024_S1x2048x1024_0_2048_0 : ∀ a, (![0, 2048, 0] : Fin 3 → Nat) a + S1x2048x1024.size a ≤ S4x4096x1024.size a
  wordsbf16_S4x4096x1024_S1x2048x1024_0_2048_0 : (Rect.unit (s := S4x4096x1024) ![0, 2048, 0] S1x2048x1024.size inb_S4x4096x1024_S1x2048x1024_0_2048_0).WholeWords (EltTy.packing .bf16)
  inb_S4x4096x1024_S1x512x1024_1_0_0 : ∀ a, (![1, 0, 0] : Fin 3 → Nat) a + S1x512x1024.size a ≤ S4x4096x1024.size a
  packedbf16_S4x4096x1024_S1x512x1024_1_0_0 : (Rect.unit (s := S4x4096x1024) ![1, 0, 0] S1x512x1024.size inb_S4x4096x1024_S1x512x1024_1_0_0).PackedRows (EltTy.packing .bf16)
  inb_S4x4096x1024_S1x512x1024_1_512_0 : ∀ a, (![1, 512, 0] : Fin 3 → Nat) a + S1x512x1024.size a ≤ S4x4096x1024.size a
  packedbf16_S4x4096x1024_S1x512x1024_1_512_0 : (Rect.unit (s := S4x4096x1024) ![1, 512, 0] S1x512x1024.size inb_S4x4096x1024_S1x512x1024_1_512_0).PackedRows (EltTy.packing .bf16)
  inb_S4x4096x1024_S1x512x1024_1_1024_0 : ∀ a, (![1, 1024, 0] : Fin 3 → Nat) a + S1x512x1024.size a ≤ S4x4096x1024.size a
  packedbf16_S4x4096x1024_S1x512x1024_1_1024_0 : (Rect.unit (s := S4x4096x1024) ![1, 1024, 0] S1x512x1024.size inb_S4x4096x1024_S1x512x1024_1_1024_0).PackedRows (EltTy.packing .bf16)
  inb_S4x4096x1024_S1x512x1024_1_1536_0 : ∀ a, (![1, 1536, 0] : Fin 3 → Nat) a + S1x512x1024.size a ≤ S4x4096x1024.size a
  packedbf16_S4x4096x1024_S1x512x1024_1_1536_0 : (Rect.unit (s := S4x4096x1024) ![1, 1536, 0] S1x512x1024.size inb_S4x4096x1024_S1x512x1024_1_1536_0).PackedRows (EltTy.packing .bf16)
  inb_S3x2_S1x1_1_0 : ∀ a, (![1, 0] : Fin 2 → Nat) a + S1x1.size a ≤ S3x2.size a
  inb_S4x4096x1024_S1x2048x1024_1_0_0 : ∀ a, (![1, 0, 0] : Fin 3 → Nat) a + S1x2048x1024.size a ≤ S4x4096x1024.size a
  wordsbf16_S4x4096x1024_S1x2048x1024_1_0_0 : (Rect.unit (s := S4x4096x1024) ![1, 0, 0] S1x2048x1024.size inb_S4x4096x1024_S1x2048x1024_1_0_0).WholeWords (EltTy.packing .bf16)
  inb_S4x4096x1024_S1x512x1024_1_2048_0 : ∀ a, (![1, 2048, 0] : Fin 3 → Nat) a + S1x512x1024.size a ≤ S4x4096x1024.size a
  packedbf16_S4x4096x1024_S1x512x1024_1_2048_0 : (Rect.unit (s := S4x4096x1024) ![1, 2048, 0] S1x512x1024.size inb_S4x4096x1024_S1x512x1024_1_2048_0).PackedRows (EltTy.packing .bf16)
  inb_S4x4096x1024_S1x512x1024_1_2560_0 : ∀ a, (![1, 2560, 0] : Fin 3 → Nat) a + S1x512x1024.size a ≤ S4x4096x1024.size a
  packedbf16_S4x4096x1024_S1x512x1024_1_2560_0 : (Rect.unit (s := S4x4096x1024) ![1, 2560, 0] S1x512x1024.size inb_S4x4096x1024_S1x512x1024_1_2560_0).PackedRows (EltTy.packing .bf16)
  inb_S4x4096x1024_S1x512x1024_1_3072_0 : ∀ a, (![1, 3072, 0] : Fin 3 → Nat) a + S1x512x1024.size a ≤ S4x4096x1024.size a
  packedbf16_S4x4096x1024_S1x512x1024_1_3072_0 : (Rect.unit (s := S4x4096x1024) ![1, 3072, 0] S1x512x1024.size inb_S4x4096x1024_S1x512x1024_1_3072_0).PackedRows (EltTy.packing .bf16)
  inb_S4x4096x1024_S1x512x1024_1_3584_0 : ∀ a, (![1, 3584, 0] : Fin 3 → Nat) a + S1x512x1024.size a ≤ S4x4096x1024.size a
  packedbf16_S4x4096x1024_S1x512x1024_1_3584_0 : (Rect.unit (s := S4x4096x1024) ![1, 3584, 0] S1x512x1024.size inb_S4x4096x1024_S1x512x1024_1_3584_0).PackedRows (EltTy.packing .bf16)
  inb_S3x2_S1x1_1_1 : ∀ a, (![1, 1] : Fin 2 → Nat) a + S1x1.size a ≤ S3x2.size a
  inb_S4x4096x1024_S1x2048x1024_1_2048_0 : ∀ a, (![1, 2048, 0] : Fin 3 → Nat) a + S1x2048x1024.size a ≤ S4x4096x1024.size a
  wordsbf16_S4x4096x1024_S1x2048x1024_1_2048_0 : (Rect.unit (s := S4x4096x1024) ![1, 2048, 0] S1x2048x1024.size inb_S4x4096x1024_S1x2048x1024_1_2048_0).WholeWords (EltTy.packing .bf16)
  inb_S4x4096x1024_S1x512x1024_2_0_0 : ∀ a, (![2, 0, 0] : Fin 3 → Nat) a + S1x512x1024.size a ≤ S4x4096x1024.size a
  packedbf16_S4x4096x1024_S1x512x1024_2_0_0 : (Rect.unit (s := S4x4096x1024) ![2, 0, 0] S1x512x1024.size inb_S4x4096x1024_S1x512x1024_2_0_0).PackedRows (EltTy.packing .bf16)
  inb_S4x4096x1024_S1x512x1024_2_512_0 : ∀ a, (![2, 512, 0] : Fin 3 → Nat) a + S1x512x1024.size a ≤ S4x4096x1024.size a
  packedbf16_S4x4096x1024_S1x512x1024_2_512_0 : (Rect.unit (s := S4x4096x1024) ![2, 512, 0] S1x512x1024.size inb_S4x4096x1024_S1x512x1024_2_512_0).PackedRows (EltTy.packing .bf16)
  inb_S4x4096x1024_S1x512x1024_2_1024_0 : ∀ a, (![2, 1024, 0] : Fin 3 → Nat) a + S1x512x1024.size a ≤ S4x4096x1024.size a
  packedbf16_S4x4096x1024_S1x512x1024_2_1024_0 : (Rect.unit (s := S4x4096x1024) ![2, 1024, 0] S1x512x1024.size inb_S4x4096x1024_S1x512x1024_2_1024_0).PackedRows (EltTy.packing .bf16)
  inb_S4x4096x1024_S1x512x1024_2_1536_0 : ∀ a, (![2, 1536, 0] : Fin 3 → Nat) a + S1x512x1024.size a ≤ S4x4096x1024.size a
  packedbf16_S4x4096x1024_S1x512x1024_2_1536_0 : (Rect.unit (s := S4x4096x1024) ![2, 1536, 0] S1x512x1024.size inb_S4x4096x1024_S1x512x1024_2_1536_0).PackedRows (EltTy.packing .bf16)
  inb_S3x2_S1x1_2_0 : ∀ a, (![2, 0] : Fin 2 → Nat) a + S1x1.size a ≤ S3x2.size a
  inb_S4x4096x1024_S1x2048x1024_2_0_0 : ∀ a, (![2, 0, 0] : Fin 3 → Nat) a + S1x2048x1024.size a ≤ S4x4096x1024.size a
  wordsbf16_S4x4096x1024_S1x2048x1024_2_0_0 : (Rect.unit (s := S4x4096x1024) ![2, 0, 0] S1x2048x1024.size inb_S4x4096x1024_S1x2048x1024_2_0_0).WholeWords (EltTy.packing .bf16)
  inb_S4x4096x1024_S1x512x1024_2_2048_0 : ∀ a, (![2, 2048, 0] : Fin 3 → Nat) a + S1x512x1024.size a ≤ S4x4096x1024.size a
  packedbf16_S4x4096x1024_S1x512x1024_2_2048_0 : (Rect.unit (s := S4x4096x1024) ![2, 2048, 0] S1x512x1024.size inb_S4x4096x1024_S1x512x1024_2_2048_0).PackedRows (EltTy.packing .bf16)
  inb_S4x4096x1024_S1x512x1024_2_2560_0 : ∀ a, (![2, 2560, 0] : Fin 3 → Nat) a + S1x512x1024.size a ≤ S4x4096x1024.size a
  packedbf16_S4x4096x1024_S1x512x1024_2_2560_0 : (Rect.unit (s := S4x4096x1024) ![2, 2560, 0] S1x512x1024.size inb_S4x4096x1024_S1x512x1024_2_2560_0).PackedRows (EltTy.packing .bf16)
  inb_S4x4096x1024_S1x512x1024_2_3072_0 : ∀ a, (![2, 3072, 0] : Fin 3 → Nat) a + S1x512x1024.size a ≤ S4x4096x1024.size a
  packedbf16_S4x4096x1024_S1x512x1024_2_3072_0 : (Rect.unit (s := S4x4096x1024) ![2, 3072, 0] S1x512x1024.size inb_S4x4096x1024_S1x512x1024_2_3072_0).PackedRows (EltTy.packing .bf16)
  inb_S4x4096x1024_S1x512x1024_2_3584_0 : ∀ a, (![2, 3584, 0] : Fin 3 → Nat) a + S1x512x1024.size a ≤ S4x4096x1024.size a
  packedbf16_S4x4096x1024_S1x512x1024_2_3584_0 : (Rect.unit (s := S4x4096x1024) ![2, 3584, 0] S1x512x1024.size inb_S4x4096x1024_S1x512x1024_2_3584_0).PackedRows (EltTy.packing .bf16)
  inb_S3x2_S1x1_2_1 : ∀ a, (![2, 1] : Fin 2 → Nat) a + S1x1.size a ≤ S3x2.size a
  inb_S4x4096x1024_S1x2048x1024_2_2048_0 : ∀ a, (![2, 2048, 0] : Fin 3 → Nat) a + S1x2048x1024.size a ≤ S4x4096x1024.size a
  wordsbf16_S4x4096x1024_S1x2048x1024_2_2048_0 : (Rect.unit (s := S4x4096x1024) ![2, 2048, 0] S1x2048x1024.size inb_S4x4096x1024_S1x2048x1024_2_2048_0).WholeWords (EltTy.packing .bf16)
  inb_S4x4096x1024_S1x512x1024_3_0_0 : ∀ a, (![3, 0, 0] : Fin 3 → Nat) a + S1x512x1024.size a ≤ S4x4096x1024.size a
  packedbf16_S4x4096x1024_S1x512x1024_3_0_0 : (Rect.unit (s := S4x4096x1024) ![3, 0, 0] S1x512x1024.size inb_S4x4096x1024_S1x512x1024_3_0_0).PackedRows (EltTy.packing .bf16)
  inb_S4x4096x1024_S1x512x1024_3_512_0 : ∀ a, (![3, 512, 0] : Fin 3 → Nat) a + S1x512x1024.size a ≤ S4x4096x1024.size a
  packedbf16_S4x4096x1024_S1x512x1024_3_512_0 : (Rect.unit (s := S4x4096x1024) ![3, 512, 0] S1x512x1024.size inb_S4x4096x1024_S1x512x1024_3_512_0).PackedRows (EltTy.packing .bf16)
  inb_S4x4096x1024_S1x512x1024_3_1024_0 : ∀ a, (![3, 1024, 0] : Fin 3 → Nat) a + S1x512x1024.size a ≤ S4x4096x1024.size a
  packedbf16_S4x4096x1024_S1x512x1024_3_1024_0 : (Rect.unit (s := S4x4096x1024) ![3, 1024, 0] S1x512x1024.size inb_S4x4096x1024_S1x512x1024_3_1024_0).PackedRows (EltTy.packing .bf16)
  inb_S4x4096x1024_S1x512x1024_3_1536_0 : ∀ a, (![3, 1536, 0] : Fin 3 → Nat) a + S1x512x1024.size a ≤ S4x4096x1024.size a
  packedbf16_S4x4096x1024_S1x512x1024_3_1536_0 : (Rect.unit (s := S4x4096x1024) ![3, 1536, 0] S1x512x1024.size inb_S4x4096x1024_S1x512x1024_3_1536_0).PackedRows (EltTy.packing .bf16)
  inb_S4x4096x1024_S1x512x1024_3_2048_0 : ∀ a, (![3, 2048, 0] : Fin 3 → Nat) a + S1x512x1024.size a ≤ S4x4096x1024.size a
  packedbf16_S4x4096x1024_S1x512x1024_3_2048_0 : (Rect.unit (s := S4x4096x1024) ![3, 2048, 0] S1x512x1024.size inb_S4x4096x1024_S1x512x1024_3_2048_0).PackedRows (EltTy.packing .bf16)
  inb_S4x4096x1024_S1x512x1024_3_2560_0 : ∀ a, (![3, 2560, 0] : Fin 3 → Nat) a + S1x512x1024.size a ≤ S4x4096x1024.size a
  packedbf16_S4x4096x1024_S1x512x1024_3_2560_0 : (Rect.unit (s := S4x4096x1024) ![3, 2560, 0] S1x512x1024.size inb_S4x4096x1024_S1x512x1024_3_2560_0).PackedRows (EltTy.packing .bf16)
  inb_S4x4096x1024_S1x512x1024_3_3072_0 : ∀ a, (![3, 3072, 0] : Fin 3 → Nat) a + S1x512x1024.size a ≤ S4x4096x1024.size a
  packedbf16_S4x4096x1024_S1x512x1024_3_3072_0 : (Rect.unit (s := S4x4096x1024) ![3, 3072, 0] S1x512x1024.size inb_S4x4096x1024_S1x512x1024_3_3072_0).PackedRows (EltTy.packing .bf16)
  inb_S4x4096x1024_S1x512x1024_3_3584_0 : ∀ a, (![3, 3584, 0] : Fin 3 → Nat) a + S1x512x1024.size a ≤ S4x4096x1024.size a
  packedbf16_S4x4096x1024_S1x512x1024_3_3584_0 : (Rect.unit (s := S4x4096x1024) ![3, 3584, 0] S1x512x1024.size inb_S4x4096x1024_S1x512x1024_3_3584_0).PackedRows (EltTy.packing .bf16)
  inb_S4x4096x1024_S1x4096x1024_3_0_0 : ∀ a, (![3, 0, 0] : Fin 3 → Nat) a + S1x4096x1024.size a ≤ S4x4096x1024.size a
  squeezes_S1x4096x1024_S4096x1024 : S1x4096x1024.Squeezes S4096x1024
  wordsbf16_S4x4096x1024_S1x4096x1024_3_0_0 : (Rect.unit (s := S4x4096x1024) ![3, 0, 0] S1x4096x1024.size inb_S4x4096x1024_S1x4096x1024_3_0_0).WholeWords (EltTy.packing .bf16)
  hcc0_scratch2 : 0 + S3x2.numel ≤ 15
  hcc0_scratch3 : 6 + S3x2.numel ≤ 15
  hcc0_scratch4 : 12 + S2.numel ≤ 15
  hcc0_scratch5 : 14 + S_.numel ≤ 15
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S512x1024.size a ≤ S4096x4096.size a
  k0_off2_inb : ∀ d0 : Dev nD, ∀ (r : Fin 3), ∀ a, (k0_off2 d0 (BitVec.ofNat 32 (1 + r.val))) a + S512x1024.size a ≤ S4096x4096.size a
  k0_off3_inb : ∀ d0 : Dev nD, ∀ (r : Fin 3), ∀ a, (k0_off3 d0 (BitVec.ofNat 32 (1 + r.val))) a + S512x1024.size a ≤ S4096x4096.size a
  k0_off4_inb : ∀ d0 : Dev nD, ∀ (r : Fin 3), ∀ a, (k0_off4 d0 (BitVec.ofNat 32 (1 + r.val))) a + S512x1024.size a ≤ S4096x4096.size a
  k0_off5_inb : ∀ d0 : Dev nD, ∀ (r : Fin 2), ∀ a, (k0_off5 d0 (BitVec.ofNat 32 (2048 * r.val))) a + S2048x1024.size a ≤ S16384x1024.size a
  k0_off5_wordsbf16 : ∀ d0 : Dev nD, ∀ (r : Fin 2), (Rect.unit (s := S16384x1024) (k0_off5 d0 (BitVec.ofNat 32 (2048 * r.val))) S2048x1024.size (k0_off5_inb d0 r)).WholeWords (EltTy.packing .bf16)
  k0_dev4_lt : ∀ d0 : Dev nD, (k0_dev4 d0) < nD
  k0_off6_inb : ∀ d0 : Dev nD, ∀ (r : Fin 3), ∀ a, (k0_off6 d0 (BitVec.ofNat 32 (1 + r.val))) a + S512x1024.size a ≤ S4096x4096.size a
  k0_off7_inb : ∀ d0 : Dev nD, ∀ (r : Fin 3), ∀ a, (k0_off7 d0 (BitVec.ofNat 32 (1 + r.val))) a + S512x1024.size a ≤ S4096x4096.size a
  k0_off8_inb : ∀ d0 : Dev nD, ∀ (r : Fin 3), ∀ a, (k0_off8 d0 (BitVec.ofNat 32 (1 + r.val))) a + S512x1024.size a ≤ S4096x4096.size a
  k0_off9_inb : ∀ d0 : Dev nD, ∀ (r : Fin 3), ∀ a, (k0_off9 d0 (BitVec.ofNat 32 (1 + r.val))) a + S512x1024.size a ≤ S4096x4096.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off10_inb : ∀ d0 : Dev nD, ∀ a, (k0_off10 d0) a + S512x1024.size a ≤ S4096x4096.size a
  k0_off11_inb : ∀ d0 : Dev nD, ∀ a, (k0_off11 d0) a + S512x1024.size a ≤ S4096x4096.size a
  k0_off12_inb : ∀ d0 : Dev nD, ∀ a, (k0_off12 d0) a + S512x1024.size a ≤ S4096x4096.size a
  k0_off13_inb : ∀ d0 : Dev nD, ∀ a, (k0_off13 d0) a + S512x1024.size a ≤ S4096x4096.size a
  k0_off14_inb : ∀ d0 : Dev nD, ∀ a, (k0_off14 d0) a + S512x1024.size a ≤ S4096x4096.size a
  k0_off15_inb : ∀ d0 : Dev nD, ∀ a, (k0_off15 d0) a + S512x1024.size a ≤ S4096x4096.size a
  k0_off16_inb : ∀ d0 : Dev nD, ∀ a, (k0_off16 d0) a + S512x1024.size a ≤ S4096x4096.size a
  k0_off17_inb : ∀ d0 : Dev nD, ∀ a, (k0_off17 d0) a + S512x1024.size a ≤ S4096x4096.size a
  k0_off18_inb : ∀ d0 : Dev nD, ∀ a, (k0_off18 d0) a + S4096x1024.size a ≤ S16384x1024.size a
  k0_off18_wordsbf16 : ∀ d0 : Dev nD, (Rect.unit (s := S16384x1024) (k0_off18 d0) S4096x1024.size (k0_off18_inb d0)).WholeWords (EltTy.packing .bf16)
  k0_off19_inb : ∀ d0 : Dev nD, ∀ (r₁ : Fin 3) (r₂ : Fin 2), ∀ a, (k0_off19 d0 (BitVec.ofNat 32 (1 + r₁.val)) (BitVec.ofNat 32 (2048 * r₂.val))) a + S2048x1024.size a ≤ S16384x1024.size a
  k0_off19_wordsbf16 : ∀ d0 : Dev nD, ∀ (r₁ : Fin 3) (r₂ : Fin 2), (Rect.unit (s := S16384x1024) (k0_off19 d0 (BitVec.ofNat 32 (1 + r₁.val)) (BitVec.ofNat 32 (2048 * r₂.val))) S2048x1024.size (k0_off19_inb d0 r₁ r₂)).WholeWords (EltTy.packing .bf16)

variable [Facts₀]

abbrev cc0_scratch2 : DmaSems sig S3x2 := SemArray.consecutive 0 S3x2 hcc0_scratch2
abbrev cc0_scratch3 : DmaSems sig S3x2 := SemArray.consecutive 6 S3x2 hcc0_scratch3
abbrev cc0_scratch4 : DmaSems sig S2 := SemArray.consecutive 12 S2 hcc0_scratch4
abbrev cc0_scratch5 : DmaSems sig S_ := SemArray.consecutive 14 S_ hcc0_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Spec.lean ====
/-
  What every device of the mesh ends with, named once, for the all-to-all along the mesh's last axis.

  The sixteen devices are numbered row-major over the mesh (2, 2, 4): device `c` has the coordinate `c % 4` on the
  last axis, and the four devices `c / 4 * 4 + j` (`j < 4`) are its ring. Device `c` holds the rows of the whole
  input its ring position names, as a 4096 × 4096 array; the result it must end with is the column block
  `c % 4` (1024 columns) of every row of the whole input: rows `4096 j … 4096 j + 4095` of its result are what
  ring member `j` holds, at the columns `1024 (c % 4) …`, each element narrowed to the result's format.
-/
import proofs.«900645_g7700000000000646_dist_a2a_v7x_xyz2x2x4_z_m4096_n1024_bf16_1_alg».proof.KernelIdeal
import Idealize.ShloMosaic.Lib.ValueIdx

noncomputable section

namespace Cert.KernelIdeal.Spec

open Cert.KernelIdeal
open Idealize.ShloMosaic Idealize.ShloMosaic.TcCoe Idealize.ShloMosaic.ValueIdx

variable {F : FTy → Type} [FloatOps F]

/-- The ring member `k` places after `c` (cyclically) on the mesh's last axis. -/
def pe (c : Dev nD) (k : ℕ) : Dev nD := ⟨c.val / 4 * 4 + (c.val + k) % 4, by have h : c.val < 16 := c.isLt; show _ < 16; omega⟩

/-- The member of `c`'s ring whose coordinate on the last axis is `j % 4`. -/
def ringAt (c : Dev nD) (j : ℕ) : Dev nD := ⟨c.val / 4 * 4 + j % 4, by have h : c.val < 16 := c.isLt; show _ < 16; omega⟩

theorem pe_val (c : Dev nD) (k : ℕ) : (pe c k).val = c.val / 4 * 4 + (c.val + k) % 4 := rfl
theorem ringAt_val (c : Dev nD) (j : ℕ) : (ringAt c j).val = c.val / 4 * 4 + j % 4 := rfl

variable (m : (ℓ : Loc nD τ sig) → Buf (Elt F) ℓ)

/-- Device `c`'s rows of the input, as launched. -/
def X (c : Dev nD) : S4096x4096.Idx → F .f32 := m ((c : Thread nD τ).loc main_arg0)

/-- One element narrowed to the result's format. -/
def nar (x : F .f32) : F .bf16 := FloatOps.truncf .bf16 (by decide) x

/-- What device `c`'s result array ends holding: at row `R`, column `q`, the element of ring member `R / 4096`'s
    input at row `R % 4096`, column `1024 (c % 4) + q`, narrowed. -/
def OUT (c : Dev nD) : S16384x1024.Idx → F .bf16 := fun i =>
  nar (X m (ringAt c ((i 0).val / 4096))
    (ix2 ⟨(i 0).val % 4096, Nat.mod_lt _ (by decide)⟩
         ⟨1024 * (c.val % 4) + (i 1).val, by have := (i 1).isLt; have : (i 1).val < 1024 := this; omega⟩))

/-- What device `c`'s narrowed staging array holds once every block is converted: slab `a < 3` the columns of the
    ring member `a + 1` places on, slab `3` its own columns. -/
def XBF (c : Dev nD) : S4x4096x1024.Idx → F .bf16 := fun i =>
  nar (X m c
    (ix2 ⟨(i 1).val, (i 1).isLt⟩
         ⟨1024 * ((c.val + ((i 0).val + 1)) % 4) + (i 2).val, by have := (i 2).isLt; have : (i 2).val < 1024 := this; omega⟩))

end Cert.KernelIdeal.Spec

end
-- ==== Proof.RefValue.lean ====
/-
  The reference's side, and the kernel's result as the reference's.
-/
import proofs.«900645_g7700000000000646_dist_a2a_v7x_xyz2x2x4_z_m4096_n1024_bf16_1_alg».proof.Defs
import proofs.«900645_g7700000000000646_dist_a2a_v7x_xyz2x2x4_z_m4096_n1024_bf16_1_alg».proof.Proof.Gen.ReferenceIdeal
import proofs.«900645_g7700000000000646_dist_a2a_v7x_xyz2x2x4_z_m4096_n1024_bf16_1_alg».proof.Proof.Gen.ReferenceIdeal.Run
import proofs.«900645_g7700000000000646_dist_a2a_v7x_xyz2x2x4_z_m4096_n1024_bf16_1_alg».proof.Proof.Gen.ReferenceIdeal.Read
import proofs.«900645_g7700000000000646_dist_a2a_v7x_xyz2x2x4_z_m4096_n1024_bf16_1_alg».proof.Proof.Gen.Pre_finite_inputs_ReferenceIdeal
import proofs.«900645_g7700000000000646_dist_a2a_v7x_xyz2x2x4_z_m4096_n1024_bf16_1_alg».proof.Proof.Spec
import Idealize.ShloMosaic.Lib.Layout
import Idealize.ShloMosaic.Lib.ValueIdx
import Idealize.ShloMosaic.Lib.StableHlo.Run

noncomputable section

namespace Cert.Proof.RefValue

open Idealize.ShloMosaic Idealize.ShloMosaic.TcCoe Idealize.SL.Sem Idealize.ShloMosaic.ValueIdx

/-- The reference's result array as a function of its argument array. -/
def refV (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v0) :=
  truncf (F := Ideal) (s := Cert.ReferenceIdeal.S16384x4096) (φ := .f32) .bf16
    (m' (((0 : Dev Cert.ReferenceIdeal.nD).tc : Thread Cert.ReferenceIdeal.nD Cert.ReferenceIdeal.τ).loc Cert.ReferenceIdeal.main_arg0))
    Cert.ReferenceIdeal.Gen.bitsLt_bf16_f32

theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0) = refV m'
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0)
    (Cert.ReferenceIdeal.Value.run (F := Ideal) m' g')

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2)
    (Cert.ReferenceIdeal.Value.run (F := Ideal) m ρ)

/-- On the mesh (2, 2, 4), a dimension cut along the last axis gives device `n` the block `n % 4`. -/
theorem lin2 (n : ℕ) : Layout.meshLin [2, 2, 4] n [2] = n % 4 := by
  show n / 1 % 4 * 1 + 0 = n % 4
  omega

/-- A dimension that is not cut is one block. -/
theorem lin0 (n : ℕ) : Layout.meshLin [2, 2, 4] n [] = 0 := rfl

/-- Device `c`'s result, as the kernel leaves it, is its column block of the reference's result. -/
theorem out_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 2, 4] ![[2], []] c) (m' (((0 : Dev Cert.ReferenceIdeal.nD).tc : Thread Cert.ReferenceIdeal.nD Cert.ReferenceIdeal.τ).loc Cert.ReferenceIdeal.main_arg0)))
    (c : Dev Cert.KernelIdeal.nD) :
    (Cert.KernelIdeal.Spec.OUT (F := Ideal) m c : Buf (Elt Ideal) ((c.tc : Thread Cert.KernelIdeal.nD Cert.KernelIdeal.τ).loc Cert.KernelIdeal.main_v1))
      = Layout.blockN ⟨2, ![16384, 1024]⟩ ⟨2, ![16384, 4096]⟩ (Layout.meshBlock [2, 2, 4] ![[], [2]] c) (refV m') := by
  funext i
  unfold Cert.KernelIdeal.Spec.OUT Cert.KernelIdeal.Spec.X
  rw [hagree (Cert.KernelIdeal.Spec.ringAt c _)]
  have hn : ∀ x : Ideal .f32, Cert.KernelIdeal.Spec.nar (F := Ideal) x = x := fun _ => rfl
  have hr : ∀ j : Cert.ReferenceIdeal.S16384x4096.Idx, refV m' j
      = m' (((0 : Dev Cert.ReferenceIdeal.nD).tc : Thread Cert.ReferenceIdeal.nD Cert.ReferenceIdeal.τ).loc Cert.ReferenceIdeal.main_arg0) j :=
    fun _ => rfl
  rw [Layout.blockN_apply, Layout.blockN_apply, hn, hr]
  congr 1
  funext b
  apply Fin.ext
  rw [Layout.TilesN.idx_val, Layout.TilesN.idx_val]
  have h0 : (i 0).val < 16384 := (i 0).isLt
  have h1 : (i 1).val < 1024 := (i 1).isLt
  have hc : c.val < 16 := c.isLt
  match b with
  | ⟨0, _⟩ =>
    show Layout.meshLin [2, 2, 4] (Cert.KernelIdeal.Spec.ringAt c ((i 0).val / 4096)).val [2] * 4096 + (i 0).val % 4096
      = Layout.meshLin [2, 2, 4] c.val [] * 16384 + (i 0).val
    rw [lin2, lin0, Cert.KernelIdeal.Spec.ringAt_val]
    omega
  | ⟨1, _⟩ =>
    show Layout.meshLin [2, 2, 4] (Cert.KernelIdeal.Spec.ringAt c ((i 0).val / 4096)).val [] * 4096 + (1024 * (c.val % 4) + (i 1).val)
      = Layout.meshLin [2, 2, 4] c.val [2] * 1024 + (i 1).val
    rw [lin2, lin0]
    omega

end Cert.Proof.RefValue

end
-- ==== Proof.Views.lean ====
/-
  The memory views and semaphore cells of the all-to-all, named once.

  Every device converts, for each of the three other members of its ring, the 1024 columns of its input that member
  is to receive, half the rows (2048) at a time, into slab `a` (`a = 0, 1, 2` for the member `a + 1` places on) of a
  narrowed staging array, and sends each half to that member's result array at the rows its own ring position
  names; its own columns go to slab 3 and from there, by a local copy, to its own rows of its result. A send
  `k = 2 a + h` (slab `a`, half `h`) has a send cell on the sender and a receive cell on the receiver.
-/
import proofs.«900645_g7700000000000646_dist_a2a_v7x_xyz2x2x4_z_m4096_n1024_bf16_1_alg».proof.Proof.Gen.KernelIdeal.Frame
import proofs.«900645_g7700000000000646_dist_a2a_v7x_xyz2x2x4_z_m4096_n1024_bf16_1_alg».proof.Proof.Gen.KernelIdeal.Skeleton
import proofs.«900645_g7700000000000646_dist_a2a_v7x_xyz2x2x4_z_m4096_n1024_bf16_1_alg».proof.Proof.Spec
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Who is addressed -/

theorem dev1_eq (c : Dev nD) : (⟨k0_dev1 c, k0_dev1_lt c⟩ : Dev nD) = pe c 1 := by revert c; decide +kernel
theorem dev2_eq (c : Dev nD) : (⟨k0_dev2 c, k0_dev2_lt c⟩ : Dev nD) = pe c 2 := by revert c; decide +kernel
theorem dev3_eq (c : Dev nD) : (⟨k0_dev3 c, k0_dev3_lt c⟩ : Dev nD) = pe c 3 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 2 := by revert c; decide +kernel
theorem dev7_eq (c : Dev nD) : (⟨k0_dev7 c, k0_dev7_lt c⟩ : Dev nD) = pe c 2 := by revert c; decide +kernel
theorem dev8_eq (c : Dev nD) : (⟨k0_dev8 c, k0_dev8_lt c⟩ : Dev nD) = pe c 3 := by revert c; decide +kernel
theorem dev9_eq (c : Dev nD) : (⟨k0_dev9 c, k0_dev9_lt c⟩ : Dev nD) = pe c 3 := by revert c; decide +kernel

/-- Going `a` places on and then `b` is going `a + b` places on; four places on is staying. -/
theorem pe_pe (c : Dev nD) (a b : ℕ) : pe (pe c a) b = pe c (a + b) := by
  apply Fin.ext; have h : c.val < 16 := c.isLt; simp only [pe_val]; omega
theorem pe_four (c : Dev nD) : pe c 4 = c := by
  apply Fin.ext; have h : c.val < 16 := c.isLt; simp only [pe_val]; omega
theorem pe_mod (c : Dev nD) (k : ℕ) : (pe c k).val % 4 = (c.val + k) % 4 := by
  have h : c.val < 16 := c.isLt; simp only [pe_val]; omega
theorem pe_div (c : Dev nD) (k : ℕ) : (pe c k).val / 4 = c.val / 4 := by
  have h : c.val < 16 := c.isLt; simp only [pe_val]; omega

/-! ## Where the input's chunks are read: the column offsets in closed form -/

theorem off1_eq : ∀ d0 : Dev nD, ∀ r : Fin 3, k0_off1 d0 (BitVec.ofNat 32 (1 + r.val)) = ![0, 1024 * ((d0.val + (1 + r.val)) % 4)] := by decide +kernel
theorem off2_eq : ∀ d0 : Dev nD, ∀ r : Fin 3, k0_off2 d0 (BitVec.ofNat 32 (1 + r.val)) = ![512, 1024 * ((d0.val + (1 + r.val)) % 4)] := by decide +kernel
theorem off3_eq : ∀ d0 : Dev nD, ∀ r : Fin 3, k0_off3 d0 (BitVec.ofNat 32 (1 + r.val)) = ![1024, 1024 * ((d0.val + (1 + r.val)) % 4)] := by decide +kernel
theorem off4_eq : ∀ d0 : Dev nD, ∀ r : Fin 3, k0_off4 d0 (BitVec.ofNat 32 (1 + r.val)) = ![1536, 1024 * ((d0.val + (1 + r.val)) % 4)] := by decide +kernel
theorem off6_eq : ∀ d0 : Dev nD, ∀ r : Fin 3, k0_off6 d0 (BitVec.ofNat 32 (1 + r.val)) = ![2048, 1024 * ((d0.val + (1 + r.val)) % 4)] := by decide +kernel
theorem off7_eq : ∀ d0 : Dev nD, ∀ r : Fin 3, k0_off7 d0 (BitVec.ofNat 32 (1 + r.val)) = ![2560, 1024 * ((d0.val + (1 + r.val)) % 4)] := by decide +kernel
theorem off8_eq : ∀ d0 : Dev nD, ∀ r : Fin 3, k0_off8 d0 (BitVec.ofNat 32 (1 + r.val)) = ![3072, 1024 * ((d0.val + (1 + r.val)) % 4)] := by decide +kernel
theorem off9_eq : ∀ d0 : Dev nD, ∀ r : Fin 3, k0_off9 d0 (BitVec.ofNat 32 (1 + r.val)) = ![3584, 1024 * ((d0.val + (1 + r.val)) % 4)] := by decide +kernel

/-! ## The arrays and their windows -/

abbrev xM : Memref sig .tc .hbm S4096x4096 .f32 := Memref.whole main_arg0
abbrev oM : Memref sig .tc .hbm S16384x1024 .bf16 := Memref.whole main_v1
abbrev bM : Memref sig .tc .vmem S4x4096x1024 .bf16 := Memref.whole cc0_scratch0
abbrev gM : Memref sig .tc .vmem S2x512x1024 .f32 := Memref.whole cc0_scratch1

/-- Send `k`'s window of the narrowed staging array starts at slab `k / 2`, row `2048 (k % 2)`. -/
abbrev srcOff : Fin 6 → Fin 3 → Nat
  | 0 => ![0, 0, 0] | 1 => ![0, 2048, 0] | 2 => ![1, 0, 0] | 3 => ![1, 2048, 0] | 4 => ![2, 0, 0] | 5 => ![2, 2048, 0]
theorem srcInb : ∀ (k : Fin 6) (a : Fin 3), srcOff k a + S1x2048x1024.size a ≤ S4x4096x1024.size a := by decide
/-- The half slab send `k` reads. -/
abbrev srcM (k : Fin 6) : Memref sig .tc .vmem S2048x1024 .bf16 :=
  (bM.slice (Rect.unit (s := S4x4096x1024) (srcOff k) S1x2048x1024.size (srcInb k)) (fun _ => rfl)).squeeze S2048x1024 squeezes_S1x2048x1024_S2048x1024
/-- Slab 3, the device's own columns: what the local copy reads. -/
abbrev lsrcM : Memref sig .tc .vmem S4096x1024 .bf16 :=
  (bM.slice (Rect.unit (s := S4x4096x1024) ![3, 0, 0] S1x4096x1024.size inb_S4x4096x1024_S1x4096x1024_3_0_0) (fun _ => rfl)).squeeze S4096x1024 squeezes_S1x4096x1024_S4096x1024
/-- The rows of a result array that sender `s` writes with its half `h`: `4096 (s % 4) + 2048 h` on. -/
abbrev dstM (s : Dev nD) (h : Fin 2) : Memref sig .tc .hbm S2048x1024 .bf16 :=
  oM.slice (Rect.unit (s := S16384x1024) (k0_off5 s (BitVec.ofNat 32 (2048 * h.val))) S2048x1024.size (k0_off5_inb s h)) (fun _ => rfl)
/-- The rows of its own result array a device fills by its local copy: `4096 (c % 4)` on. -/
abbrev ldstM (c : Dev nD) : Memref sig .tc .hbm S4096x1024 .bf16 :=
  oM.slice (Rect.unit (s := S16384x1024) (k0_off18 c) S4096x1024.size (k0_off18_inb c)) (fun _ => rfl)

/-- Slot `j` of the two-slot f32 staging array the input's chunks are copied into. -/
abbrev slotOff : Fin 2 → Fin 3 → Nat
  | 0 => ![0, 0, 0] | 1 => ![1, 0, 0]
theorem slotInb : ∀ (j : Fin 2) (a : Fin 3), slotOff j a + S1x512x1024.size a ≤ S2x512x1024.size a := by decide
abbrev slotM (j : Fin 2) : Memref sig .tc .vmem S512x1024 .f32 :=
  (gM.slice (Rect.unit (s := S2x512x1024) (slotOff j) S1x512x1024.size (slotInb j)) (fun _ => rfl)).squeeze S512x1024 squeezes_S1x512x1024_S512x1024

/-! ## The semaphore cells -/

abbrev barS : Sem sig := (SemArray.scalar (sig.barrier 0 rfl) : Sems sig S_).sem
/-- Send `k`'s send semaphore (on the sender) and receive semaphore (on the receiver). -/
abbrev sendS (k : Fin 6) : DmaSem sig := ⟨k.val, by have := k.isLt; show k.val < 15; omega⟩
abbrev recvS (k : Fin 6) : DmaSem sig := ⟨6 + k.val, by have := k.isLt; show 6 + k.val < 15; omega⟩
abbrev stageS (j : Fin 2) : DmaSem sig := ⟨12 + j.val, by have := j.isLt; show 12 + j.val < 15; omega⟩
abbrev localS : DmaSem sig := ⟨14, by show 14 < 15; omega⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- What one half-slab transfer credits each of its two cells. -/
abbrev N : ℕ := (srcM 0).view.dmaCredit
theorem N_pos : 0 < N := View.dmaCredit_pos _ (by decide)

end Cert.KernelIdeal.A2A

end
-- ==== Proof.Regions.lean ====
/-
  How a device's result array and its narrowed staging array fall into the windows the transfers write and read:
  seven windows each, pairwise disjoint, covering the array.
-/
import proofs.«900645_g7700000000000646_dist_a2a_v7x_xyz2x2x4_z_m4096_n1024_bf16_1_alg».proof.Proof.Views

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type}

local notation "𝕃" => MT nD τ sig Ix (Elt F) Name U Lvl

/-- Membership in a sender's half block of the result array: its 2048 rows. -/
theorem mem_dstM (s : Dev nD) (h : Fin 2) (i : S16384x1024.Idx) :
    i ∈ (dstM s h).view.set ↔
      (4096 * (s.val % 4) + 2048 * h.val ≤ (i 0).val ∧ (i 0).val < 4096 * (s.val % 4) + 2048 * h.val + 2048) := by
  have e : (dstM s h).view.set = (Rect.unit (s := S16384x1024) (k0_off5 s (BitVec.ofNat 32 (2048 * h.val))) S2048x1024.size (k0_off5_inb s h)).set :=
    View.set_slice_whole main_v1 _
  rw [e, Rect.mem_set_unit, k0_off5_eq]
  have h1 : (i 1).val < 1024 := (i 1).isLt
  rw [Fin.forall_fin_two]
  simp only [Matrix.cons_val_zero, Matrix.cons_val_one]
  omega

/-- Membership in the block a device fills itself: its 4096 rows. -/
theorem mem_ldstM (c : Dev nD) (i : S16384x1024.Idx) :
    i ∈ (ldstM c).view.set ↔ (4096 * (c.val % 4) ≤ (i 0).val ∧ (i 0).val < 4096 * (c.val % 4) + 4096) := by
  have e : (ldstM c).view.set = (Rect.unit (s := S16384x1024) (k0_off18 c) S4096x1024.size (k0_off18_inb c)).set :=
    View.set_slice_whole main_v1 _
  rw [e, Rect.mem_set_unit, k0_off18_eq]
  have h1 : (i 1).val < 1024 := (i 1).isLt
  rw [Fin.forall_fin_two]
  simp only [Matrix.cons_val_zero, Matrix.cons_val_one]
  omega

/-- The seven windows of device `c`'s result array. -/
def outK (c : Dev nD) : Fin 7 → Finset (Idx ((c : Thread nD τ).loc main_v1))
  | 0 => (dstM (pe c 1) 0).view.set
  | 1 => (dstM (pe c 1) 1).view.set
  | 2 => (dstM (pe c 2) 0).view.set
  | 3 => (dstM (pe c 2) 1).view.set
  | 4 => (dstM (pe c 3) 0).view.set
  | 5 => (dstM (pe c 3) 1).view.set
  | 6 => (ldstM c).view.set

/-- The rows of window `t`: from `lo` on, `len` of them. -/
def outLo (c : Dev nD) : Fin 7 → ℕ
  | 0 => 4096 * ((c.val + 1) % 4)
  | 1 => 4096 * ((c.val + 1) % 4) + 2048
  | 2 => 4096 * ((c.val + 2) % 4)
  | 3 => 4096 * ((c.val + 2) % 4) + 2048
  | 4 => 4096 * ((c.val + 3) % 4)
  | 5 => 4096 * ((c.val + 3) % 4) + 2048
  | 6 => 4096 * (c.val % 4)
def outLen : Fin 7 → ℕ
  | 0 => 2048 | 1 => 2048 | 2 => 2048 | 3 => 2048 | 4 => 2048 | 5 => 2048 | 6 => 4096

theorem mem_outK (c : Dev nD) (t : Fin 7) (i : S16384x1024.Idx) :
    i ∈ outK c t ↔ (outLo c t ≤ (i 0).val ∧ (i 0).val < outLo c t + outLen t) := by
  fin_cases t
  · show i ∈ (dstM (pe c 1) 0).view.set ↔ _
    rw [mem_dstM, pe_mod]; simp only [outLo, outLen]; omega
  · show i ∈ (dstM (pe c 1) 1).view.set ↔ _
    rw [mem_dstM, pe_mod]; simp only [outLo, outLen]; omega
  · show i ∈ (dstM (pe c 2) 0).view.set ↔ _
    rw [mem_dstM, pe_mod]; simp only [outLo, outLen]; omega
  · show i ∈ (dstM (pe c 2) 1).view.set ↔ _
    rw [mem_dstM, pe_mod]; simp only [outLo, outLen]; omega
  · show i ∈ (dstM (pe c 3) 0).view.set ↔ _
    rw [mem_dstM, pe_mod]; simp only [outLo, outLen]; omega
  · show i ∈ (dstM (pe c 3) 1).view.set ↔ _
    rw [mem_dstM, pe_mod]; simp only [outLo, outLen]; omega
  · show i ∈ (ldstM c).view.set ↔ _
    rw [mem_ldstM]; simp only [outLo, outLen]

theorem out_cover (c : Dev nD) :
    (Finset.univ : Finset (Idx ((c : Thread nD τ).loc main_v1))) = Finset.univ.biUnion (outK c) := by
  ext i
  simp only [Finset.mem_univ, Finset.mem_biUnion, true_and, true_iff]
  have hi : (i 0).val < 16384 := (i 0).isLt
  have hc : c.val % 4 = 0 ∨ c.val % 4 = 1 ∨ c.val % 4 = 2 ∨ c.val % 4 = 3 := by omega
  by_contra hne
  have n0 : ¬ i ∈ outK c 0 := fun h => hne ⟨0, h⟩
  have n1 : ¬ i ∈ outK c 1 := fun h => hne ⟨1, h⟩
  have n2 : ¬ i ∈ outK c 2 := fun h => hne ⟨2, h⟩
  have n3 : ¬ i ∈ outK c 3 := fun h => hne ⟨3, h⟩
  have n4 : ¬ i ∈ outK c 4 := fun h => hne ⟨4, h⟩
  have n5 : ¬ i ∈ outK c 5 := fun h => hne ⟨5, h⟩
  have n6 : ¬ i ∈ outK c 6 := fun h => hne ⟨6, h⟩
  rw [mem_outK] at n0 n1 n2 n3 n4 n5 n6
  simp only [outLo, outLen] at n0 n1 n2 n3 n4 n5 n6
  rcases hc with hc | hc | hc | hc <;> omega

theorem out_disj (c : Dev nD) (t t' : Fin 7) (h : t ≠ t') : Disjoint (outK c t) (outK c t') := by
  rw [Finset.disjoint_left]
  intro i h1 h2
  rw [mem_outK] at h1 h2
  have hc : c.val % 4 = 0 ∨ c.val % 4 = 1 ∨ c.val % 4 = 2 ∨ c.val % 4 = 3 := by omega
  have ht : t.val ≠ t'.val := fun e => h (Fin.ext e)
  fin_cases t <;> fin_cases t' <;> simp only [outLo, outLen] at h1 h2 <;> first | exact absurd rfl ht | (rcases hc with hc | hc | hc | hc <;> omega)

/-- A device's result array, held whole, is its seven windows: the six half blocks the three other members of its
    ring write (sender `pe c j`, half `h`) and the block it fills itself. -/
theorem out_split (c : Dev nD) (f : Buf (Elt F) ((c : Thread nD τ).loc main_v1)) :
    ((((c : Thread nD τ).loc main_v1) ↦{fullShare} f : sProp 𝕃))
      ⊣⊢ iprop(((dstM (pe c 1) 0).view.loc (c : Thread nD τ) ↦[(dstM (pe c 1) 0).view.set]{fullShare} f)
        ∗ ((dstM (pe c 1) 1).view.loc (c : Thread nD τ) ↦[(dstM (pe c 1) 1).view.set]{fullShare} f)
        ∗ ((dstM (pe c 2) 0).view.loc (c : Thread nD τ) ↦[(dstM (pe c 2) 0).view.set]{fullShare} f)
        ∗ ((dstM (pe c 2) 1).view.loc (c : Thread nD τ) ↦[(dstM (pe c 2) 1).view.set]{fullShare} f)
        ∗ ((dstM (pe c 3) 0).view.loc (c : Thread nD τ) ↦[(dstM (pe c 3) 0).view.set]{fullShare} f)
        ∗ ((dstM (pe c 3) 1).view.loc (c : Thread nD τ) ↦[(dstM (pe c 3) 1).view.set]{fullShare} f)
        ∗ ((ldstM c).view.loc (c : Thread nD τ) ↦[(ldstM c).view.set]{fullShare} f)) := by
  refine BIBase.BiEntails.of_eq ?_
  rw [out_cover c, pointsTo_biUnion Finset.univ (outK c) (fun t _ t' _ h => out_disj c t t' h),
    bigSep_univ_eq_bigSepL [0, 1, 2, 3, 4, 5, 6] (by decide) (by decide)]
  rfl

theorem forall_fin3 {P : Fin 3 → Prop} : (∀ a, P a) ↔ P 0 ∧ P 1 ∧ P 2 :=
  ⟨fun h => ⟨h 0, h 1, h 2⟩, fun ⟨h0, h1, h2⟩ a => by fin_cases a <;> assumption⟩

/-- Membership in the half slab send `k` reads: slab `k / 2`, its rows from `2048 (k % 2)` on. -/
theorem mem_srcM (k : Fin 6) (i : S4x4096x1024.Idx) :
    i ∈ (srcM k).view.set ↔
      ((i 0).val = k.val / 2 ∧ 2048 * (k.val % 2) ≤ (i 1).val ∧ (i 1).val < 2048 * (k.val % 2) + 2048) := by
  have e : (srcM k).view.set = (Rect.unit (s := S4x4096x1024) (srcOff k) S1x2048x1024.size (srcInb k)).set :=
    (View.set_reshape _ _).trans (View.set_slice_whole cc0_scratch0 _)
  rw [e, Rect.mem_set_unit, forall_fin3]
  have h2 : (i 2).val < 1024 := (i 2).isLt
  fin_cases k <;> simp only [srcOff, Matrix.cons_val_zero, Matrix.cons_val_one, Matrix.cons_val_two, Matrix.head_cons, Matrix.tail_cons] <;> omega

/-- Membership in slab 3. -/
theorem mem_lsrcM (i : S4x4096x1024.Idx) : i ∈ lsrcM.view.set ↔ (i 0).val = 3 := by
  have e : lsrcM.view.set = (Rect.unit (s := S4x4096x1024) ![3, 0, 0] S1x4096x1024.size inb_S4x4096x1024_S1x4096x1024_3_0_0).set :=
    (View.set_reshape _ _).trans (View.set_slice_whole cc0_scratch0 _)
  rw [e, Rect.mem_set_unit, forall_fin3]
  have h1 : (i 1).val < 4096 := (i 1).isLt
  have h2 : (i 2).val < 1024 := (i 2).isLt
  simp only [Matrix.cons_val_zero, Matrix.cons_val_one, Matrix.cons_val_two, Matrix.head_cons, Matrix.tail_cons]
  omega

/-- The seven windows of a device's narrowed staging array. -/
def xbfK (c : Dev nD) : Fin 7 → Finset (Idx ((c : Thread nD τ).loc cc0_scratch0))
  | 0 => (srcM 0).view.set
  | 1 => (srcM 1).view.set
  | 2 => (srcM 2).view.set
  | 3 => (srcM 3).view.set
  | 4 => (srcM 4).view.set
  | 5 => (srcM 5).view.set
  | 6 => lsrcM.view.set

/-- Window `t` lies in slab `xSlab t`, at the rows from `xLo t` on, `xLen t` of them. -/
def xSlab : Fin 7 → ℕ
  | 0 => 0 | 1 => 0 | 2 => 1 | 3 => 1 | 4 => 2 | 5 => 2 | 6 => 3
def xLo : Fin 7 → ℕ
  | 0 => 0 | 1 => 2048 | 2 => 0 | 3 => 2048 | 4 => 0 | 5 => 2048 | 6 => 0
def xLen : Fin 7 → ℕ
  | 0 => 2048 | 1 => 2048 | 2 => 2048 | 3 => 2048 | 4 => 2048 | 5 => 2048 | 6 => 4096

theorem mem_xbfK (c : Dev nD) (t : Fin 7) (i : S4x4096x1024.Idx) :
    i ∈ xbfK c t ↔ ((i 0).val = xSlab t ∧ xLo t ≤ (i 1).val ∧ (i 1).val < xLo t + xLen t) := by
  have h1 : (i 1).val < 4096 := (i 1).isLt
  fin_cases t
  · show i ∈ (srcM 0).view.set ↔ _
    rw [mem_srcM]; simp only [xSlab, xLo, xLen]; omega
  · show i ∈ (srcM 1).view.set ↔ _
    rw [mem_srcM]; simp only [xSlab, xLo, xLen]; omega
  · show i ∈ (srcM 2).view.set ↔ _
    rw [mem_srcM]; simp only [xSlab, xLo, xLen]; omega
  · show i ∈ (srcM 3).view.set ↔ _
    rw [mem_srcM]; simp only [xSlab, xLo, xLen]; omega
  · show i ∈ (srcM 4).view.set ↔ _
    rw [mem_srcM]; simp only [xSlab, xLo, xLen]; omega
  · show i ∈ (srcM 5).view.set ↔ _
    rw [mem_srcM]; simp only [xSlab, xLo, xLen]; omega
  · show i ∈ lsrcM.view.set ↔ _
    rw [mem_lsrcM]; simp only [xSlab, xLo, xLen]; omega

theorem xbf_cover (c : Dev nD) :
    (Finset.univ : Finset (Idx ((c : Thread nD τ).loc cc0_scratch0))) = Finset.univ.biUnion (xbfK c) := by
  ext i
  simp only [Finset.mem_univ, Finset.mem_biUnion, true_and, true_iff]
  have h0 : (i 0).val < 4 := (i 0).isLt
  have h1 : (i 1).val < 4096 := (i 1).isLt
  by_contra hne
  have n0 : ¬ i ∈ xbfK c 0 := fun h => hne ⟨0, h⟩
  have n1 : ¬ i ∈ xbfK c 1 := fun h => hne ⟨1, h⟩
  have n2 : ¬ i ∈ xbfK c 2 := fun h => hne ⟨2, h⟩
  have n3 : ¬ i ∈ xbfK c 3 := fun h => hne ⟨3, h⟩
  have n4 : ¬ i ∈ xbfK c 4 := fun h => hne ⟨4, h⟩
  have n5 : ¬ i ∈ xbfK c 5 := fun h => hne ⟨5, h⟩
  have n6 : ¬ i ∈ xbfK c 6 := fun h => hne ⟨6, h⟩
  rw [mem_xbfK] at n0 n1 n2 n3 n4 n5 n6
  simp only [xSlab, xLo, xLen] at n0 n1 n2 n3 n4 n5 n6
  omega

theorem xbf_disj (c : Dev nD) (t t' : Fin 7) (h : t ≠ t') : Disjoint (xbfK c t) (xbfK c t') := by
  rw [Finset.disjoint_left]
  intro i h1 h2
  rw [mem_xbfK] at h1 h2
  have ht : t.val ≠ t'.val := fun e => h (Fin.ext e)
  fin_cases t <;> fin_cases t' <;> simp only [xSlab, xLo, xLen] at h1 h2 <;> first | exact absurd rfl ht | omega

/-- A device's narrowed staging array, held whole, is its seven windows: the six half slabs the sends read and
    slab 3. -/
theorem xbf_split (c : Dev nD) (f : Buf (Elt F) ((c : Thread nD τ).loc cc0_scratch0)) :
    ((((c : Thread nD τ).loc cc0_scratch0) ↦{fullShare} f : sProp 𝕃))
      ⊣⊢ iprop(((srcM 0).view.loc (c : Thread nD τ) ↦[(srcM 0).view.set]{fullShare} f)
        ∗ ((srcM 1).view.loc (c : Thread nD τ) ↦[(srcM 1).view.set]{fullShare} f)
        ∗ ((srcM 2).view.loc (c : Thread nD τ) ↦[(srcM 2).view.set]{fullShare} f)
        ∗ ((srcM 3).view.loc (c : Thread nD τ) ↦[(srcM 3).view.set]{fullShare} f)
        ∗ ((srcM 4).view.loc (c : Thread nD τ) ↦[(srcM 4).view.set]{fullShare} f)
        ∗ ((srcM 5).view.loc (c : Thread nD τ) ↦[(srcM 5).view.set]{fullShare} f)
        ∗ (lsrcM.view.loc (c : Thread nD τ) ↦[lsrcM.view.set]{fullShare} f)) := by
  refine BIBase.BiEntails.of_eq ?_
  rw [xbf_cover c, pointsTo_biUnion Finset.univ (xbfK c) (fun t _ t' _ h => xbf_disj c t t' h),
    bigSep_univ_eq_bigSepL [0, 1, 2, 3, 4, 5, 6] (by decide) (by decide)]
  rfl

/-- Membership in slot `j` of the two-slot staging array. -/
theorem mem_slotM (j : Fin 2) (i : S2x512x1024.Idx) : i ∈ (slotM j).view.set ↔ (i 0).val = j.val := by
  have e : (slotM j).view.set = (Rect.unit (s := S2x512x1024) (slotOff j) S1x512x1024.size (slotInb j)).set :=
    (View.set_reshape _ _).trans (View.set_slice_whole cc0_scratch1 _)
  rw [e, Rect.mem_set_unit, forall_fin3]
  have h1 : (i 1).val < 512 := (i 1).isLt
  have h2 : (i 2).val < 1024 := (i 2).isLt
  fin_cases j <;> simp only [slotOff, Matrix.cons_val_zero, Matrix.cons_val_one, Matrix.cons_val_two, Matrix.head_cons, Matrix.tail_cons] <;> omega

/-- The two windows of a device's two-slot staging array. -/
def stageK (c : Dev nD) : Fin 2 → Finset (Idx ((c : Thread nD τ).loc cc0_scratch1))
  | 0 => (slotM 0).view.set
  | 1 => (slotM 1).view.set

theorem mem_stageK (c : Dev nD) (t : Fin 2) (i : S2x512x1024.Idx) : i ∈ stageK c t ↔ (i 0).val = t.val := by
  fin_cases t
  · exact mem_slotM 0 i
  · exact mem_slotM 1 i

theorem stage_cover (c : Dev nD) :
    (Finset.univ : Finset (Idx ((c : Thread nD τ).loc cc0_scratch1))) = Finset.univ.biUnion (stageK c) := by
  ext i
  simp only [Finset.mem_univ, Finset.mem_biUnion, true_and, true_iff]
  have h0 : (i 0).val < 2 := (i 0).isLt
  by_contra hne
  have n0 : ¬ (i 0).val = 0 := fun h => hne ⟨0, (mem_stageK c 0 i).mpr h⟩
  have n1 : ¬ (i 0).val = 1 := fun h => hne ⟨1, (mem_stageK c 1 i).mpr h⟩
  omega

theorem stage_disj (c : Dev nD) (t t' : Fin 2) (h : t ≠ t') : Disjoint (stageK c t) (stageK c t') := by
  rw [Finset.disjoint_left]
  intro i h1 h2
  have e1 := (mem_stageK c t i).mp h1
  have e2 := (mem_stageK c t' i).mp h2
  exact h (Fin.ext (e1.symm.trans e2))

/-- The two-slot staging array, held whole, is its two slots. -/
theorem stage_split (c : Dev nD) (f : Buf (Elt F) ((c : Thread nD τ).loc cc0_scratch1)) :
    ((((c : Thread nD τ).loc cc0_scratch1) ↦{fullShare} f : sProp 𝕃))
      ⊣⊢ iprop(((slotM 0).view.loc (c : Thread nD τ) ↦[(slotM 0).view.set]{fullShare} f)
        ∗ ((slotM 1).view.loc (c : Thread nD τ) ↦[(slotM 1).view.set]{fullShare} f)) := by
  refine BIBase.BiEntails.of_eq ?_
  rw [stage_cover c, pointsTo_biUnion Finset.univ (stageK c) (fun t _ t' _ h => stage_disj c t t' h),
    bigSep_univ_eq_bigSepL [0, 1] (by decide) (by decide)]
  rfl

/-- The two slots together are the whole two-slot staging array. -/
theorem stage_union (c : Dev nD) :
    ((slotM 0).view.set ∪ (slotM 1).view.set : Finset (Idx ((c : Thread nD τ).loc cc0_scratch1))) = Finset.univ := by
  ext i
  simp only [Finset.mem_union, Finset.mem_univ, iff_true]
  have h0 : (i 0).val < 2 := (i 0).isLt
  rcases (show (i 0).val = 0 ∨ (i 0).val = 1 by omega) with h | h
  · exact Or.inl ((mem_slotM 0 i).mpr h)
  · exact Or.inr ((mem_slotM 1 i).mpr h)

/-- The two slots, each at its own contents, are the staging array whole at some contents. -/
theorem stage_join (c : Dev nD) (f0 f1 : Buf (Elt F) ((c : Thread nD τ).loc cc0_scratch1)) :
    iprop(((slotM 0).view.loc (c : Thread nD τ) ↦[(slotM 0).view.set]{fullShare} f0)
        ∗ ((slotM 1).view.loc (c : Thread nD τ) ↦[(slotM 1).view.set]{fullShare} f1))
      ⊢ (iprop(∃ f : Buf (Elt F) ((c : Thread nD τ).loc cc0_scratch1), ((c : Thread nD τ).loc cc0_scratch1) ↦{fullShare} f) : sProp 𝕃) := by
  have hd : Disjoint ((slotM 0).view.set : Finset (Idx ((c : Thread nD τ).loc cc0_scratch1))) (slotM 1).view.set :=
    stage_disj c 0 1 (by decide)
  have key : iprop((((c : Thread nD τ).loc cc0_scratch1) ↦[(slotM 0).view.set]{fullShare} f0)
        ∗ (((c : Thread nD τ).loc cc0_scratch1) ↦[(slotM 1).view.set]{fullShare} f1))
      ⊢ ((((c : Thread nD τ).loc cc0_scratch1) ↦{fullShare} ((slotM 1).view.set.piecewise f1 f0)) : sProp 𝕃) := by
    have h := pointsTo_join (Ix := Ix) (Name := Name) (U := U) (Lvl := Lvl) (q := fullShare) (f := f0) (g := f1) hd
    rwa [stage_union c] at h
  iintro H
  iexists ((slotM 1).view.set.piecewise f1 f0)
  iapply key
  iexact H

end Cert.KernelIdeal.A2A

end
-- ==== Proof.Sched.lean ====
/-
  The protocol of the all-to-all under the rounds discipline: one round per semaphore cell.

  A device's barrier cell has three unit duties, duty `j` paid by the ring member `3 - j` places on (its signal
  `j + 1`); that member hands over with it the two half blocks of ITS result array that this device will write
  (this device's rows of it). A send cell and a receive cell have one duty each, of the half block's credit: the send
  cell gives the sender its half slab back, the receive cell gives the receiver the half block of its result array
  holding what the sender's slab held. Barrier cells lie above the local cells and below the receive cells, so a
  device may wait on its barrier while it still owes its six transfers, and on its local copies at any time.
-/
import proofs.«900645_g7700000000000646_dist_a2a_v7x_xyz2x2x4_z_m4096_n1024_bf16_1_alg».proof.Proof.Views

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
/-- The user algebra: the pipeline library's copy of the rounds algebra, this protocol's copy (duties `Fin 3`), and the
    exclusive counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The payloads -/

/-- Device `d`'s result array as launched. -/
def V (d : Dev nD) : Buf (Elt F) ((d : Thread nD τ).loc main_v1) := m ((d : Thread nD τ).loc main_v1)

/-- The half block `h` that sender `s` writes, on device `d`'s result array, still as launched. -/
def outInit (s : Dev nD) (h : Fin 2) (d : Dev nD) : sProp 𝕄 :=
  (dstM s h).view.loc (d : Thread nD τ) ↦[(dstM s h).view.set]{fullShare} (V m d)
/-- The same half block once sender `s`'s send `k` has landed in it: the sender's converted half slab written
    over it. -/
def outDone (s : Dev nD) (h : Fin 2) (k : Fin 6) (d : Dev nD) : sProp 𝕄 :=
  (dstM s h).view.loc (d : Thread nD τ) ↦[(dstM s h).view.set]{fullShare}
    ((dstM s h).view.write (Elt F) (V m d) ((srcM k).view.read (Elt F) (XBF m s)) Finset.univ)
/-- Send `k`'s half slab on device `c`, converted. -/
def slabDone (c : Dev nD) (k : Fin 6) : sProp 𝕄 :=
  (srcM k).view.loc (c : Thread nD τ) ↦[(srcM k).view.set]{fullShare} (XBF m c)

/-- What the ring member `3 - j` places on hands device `c` with its barrier signal: the two half blocks of its own
    result array that `c` writes. -/
def barPay (c : Dev nD) (j : Fin 3) : sProp 𝕄 :=
  iprop(outInit m c 0 (pe c (3 - j.val)) ∗ outInit m c 1 (pe c (3 - j.val)))

/-- Which transfer a DMA semaphore belongs to, if any: `(false, k)` send `k`'s send semaphore, `(true, k)` its
    receive semaphore. -/
def xferOf : SemLoc sig → Option (Bool × Fin 6)
  | .dma q => if h : q.val < 6 then some (false, ⟨q.val, h⟩) else if h2 : q.val < 12 then some (true, ⟨q.val - 6, by omega⟩) else none
  | .reg _ => none

theorem xferOf_send (k : Fin 6) : xferOf (.dma (sendS k) : SemLoc sig) = some (false, k) := by
  revert k; decide
theorem xferOf_recv (k : Fin 6) : xferOf (.dma (recvS k) : SemLoc sig) = some (true, k) := by
  revert k; decide
theorem xferOf_bar : xferOf (.reg barS : SemLoc sig) = none := rfl

/-- The ring member that pays receive cell `k` of a device is the one `k / 2 + 1` places BACK, which is
    `3 - k / 2` places on. -/
def senderOf (c : Dev nD) (k : Fin 6) : Dev nD := pe c (3 - k.val / 2)
def halfOf (k : Fin 6) : Fin 2 := ⟨k.val % 2, Nat.mod_lt _ (by decide)⟩

def Rd : Rounds.Schedule (GSem nD τ sig) (Fin 3) 𝕄 where
  duties g r :=
    if r = 0 ∧ g.1.2 = .tc ∧ g.2 = .reg barS then Finset.univ
    else if r = 0 ∧ g.1.2 = .tc ∧ (xferOf g.2).isSome then {0} else ∅
  unitless _ := False
  amount g _ _ := if g.2 = .reg barS then 1 else N
  payload g _ d :=
    if g.2 = .reg barS then barPay m g.1.1 d
    else match xferOf g.2 with
      | some (false, k) => slabDone m g.1.1 k
      | some (true, k) => outDone m (senderOf g.1.1 k) (halfOf k) k g.1.1
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (if g.2 = .reg barS then barPay m g.1.1 d
    else match xferOf g.2 with
      | some (false, k) => slabDone m g.1.1 k
      | some (true, k) => outDone m (senderOf g.1.1 k) (halfOf k) k g.1.1
      | none => iprop(emp))
  unfold barPay outInit slabDone outDone
  (repeat' split) <;> infer_instance

/-! ## The schedule's tables -/

section Tables
variable (c : Dev nD)

theorem duties_bar : (Rd (F := F) m).duties (barCell c) 0 = Finset.univ := by dsimp only [Rd]; exact if_pos ⟨rfl, rfl, rfl⟩
theorem duties_send (k : Fin 6) : (Rd (F := F) m).duties (sendCell c k) 0 = {0} := by
  dsimp only [Rd]; rw [if_neg (fun h => by cases h.2.2), if_pos ⟨rfl, rfl, by rw [xferOf_send]; rfl⟩]
theorem duties_recv (k : Fin 6) : (Rd (F := F) m).duties (recvCell c k) 0 = {0} := by
  dsimp only [Rd]; rw [if_neg (fun h => by cases h.2.2), if_pos ⟨rfl, rfl, by rw [xferOf_recv]; rfl⟩]
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (k : Fin 6) (d : Fin 3) : (Rd (F := F) m).amount (sendCell c k) 0 d = N := by
  dsimp only [Rd]; exact if_neg (fun h => by cases h)
theorem amount_recv (k : Fin 6) (d : Fin 3) : (Rd (F := F) m).amount (recvCell c k) 0 d = N := by
  dsimp only [Rd]; exact if_neg (fun h => by cases h)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (k : Fin 6) : (Rd (F := F) m).expect (sendCell c k) 0 = N := by
  unfold Schedule.expect Schedule.amountOf; rw [duties_send, Finset.sum_singleton, amount_send]
theorem expect_recv (k : Fin 6) : (Rd (F := F) m).expect (recvCell c k) 0 = N := by
  unfold Schedule.expect Schedule.amountOf; rw [duties_recv, Finset.sum_singleton, amount_recv]

theorem payload_bar (j : Fin 3) : (Rd (F := F) m).payload (barCell c) 0 j = barPay m c j := by dsimp only [Rd]; rw [if_pos rfl]
theorem payload_send (k : Fin 6) (d : Fin 3) : (Rd (F := F) m).payload (sendCell c k) 0 d
    = ((srcM k).view.loc (c : Thread nD τ) ↦[(srcM k).view.set]{fullShare} (XBF m c)) := by
  dsimp only [Rd]; rw [if_neg (fun h => by cases h), xferOf_send]; rfl
theorem payload_recv (k : Fin 6) (d : Fin 3) : (Rd (F := F) m).payload (recvCell c k) 0 d = outDone m (senderOf c k) (halfOf k) k c := by
  dsimp only [Rd]; rw [if_neg (fun h => by cases h), xferOf_recv]

/-- Send 0 of device `c` lands on the member 1 place on: that member's receive cell 0 hands it the half block. -/
theorem payload_recv_to0 (d : Fin 3) : (Rd (F := F) m).payload (recvCell (pe c 1) 0) 0 d
    = ((dstM c 0).view.loc (pe c 1 : Thread nD τ) ↦[(dstM c 0).view.set]{fullShare}
        ((dstM c 0).view.write (Elt F) (V m (pe c 1)) ((srcM 0).view.read (Elt F) (XBF m c)) Finset.univ)) := by
  rw [payload_recv]; unfold outDone
  have e1 : senderOf (pe c 1) 0 = c := by unfold senderOf; rw [pe_pe]; exact pe_four c
  have e2 : halfOf 0 = 0 := rfl
  rw [e1, e2]

/-- Send 1 of device `c` lands on the member 1 place on: that member's receive cell 1 hands it the half block. -/
theorem payload_recv_to1 (d : Fin 3) : (Rd (F := F) m).payload (recvCell (pe c 1) 1) 0 d
    = ((dstM c 1).view.loc (pe c 1 : Thread nD τ) ↦[(dstM c 1).view.set]{fullShare}
        ((dstM c 1).view.write (Elt F) (V m (pe c 1)) ((srcM 1).view.read (Elt F) (XBF m c)) Finset.univ)) := by
  rw [payload_recv]; unfold outDone
  have e1 : senderOf (pe c 1) 1 = c := by unfold senderOf; rw [pe_pe]; exact pe_four c
  have e2 : halfOf 1 = 1 := rfl
  rw [e1, e2]

/-- Send 2 of device `c` lands on the member 2 places on: that member's receive cell 2 hands it the half block. -/
theorem payload_recv_to2 (d : Fin 3) : (Rd (F := F) m).payload (recvCell (pe c 2) 2) 0 d
    = ((dstM c 0).view.loc (pe c 2 : Thread nD τ) ↦[(dstM c 0).view.set]{fullShare}
        ((dstM c 0).view.write (Elt F) (V m (pe c 2)) ((srcM 2).view.read (Elt F) (XBF m c)) Finset.univ)) := by
  rw [payload_recv]; unfold outDone
  have e1 : senderOf (pe c 2) 2 = c := by unfold senderOf; rw [pe_pe]; exact pe_four c
  have e2 : halfOf 2 = 0 := rfl
  rw [e1, e2]

/-- Send 3 of device `c` lands on the member 2 places on: that member's receive cell 3 hands it the half block. -/
theorem payload_recv_to3 (d : Fin 3) : (Rd (F := F) m).payload (recvCell (pe c 2) 3) 0 d
    = ((dstM c 1).view.loc (pe c 2 : Thread nD τ) ↦[(dstM c 1).view.set]{fullShare}
        ((dstM c 1).view.write (Elt F) (V m (pe c 2)) ((srcM 3).view.read (Elt F) (XBF m c)) Finset.univ)) := by
  rw [payload_recv]; unfold outDone
  have e1 : senderOf (pe c 2) 3 = c := by unfold senderOf; rw [pe_pe]; exact pe_four c
  have e2 : halfOf 3 = 1 := rfl
  rw [e1, e2]

/-- Send 4 of device `c` lands on the member 3 places on: that member's receive cell 4 hands it the half block. -/
theorem payload_recv_to4 (d : Fin 3) : (Rd (F := F) m).payload (recvCell (pe c 3) 4) 0 d
    = ((dstM c 0).view.loc (pe c 3 : Thread nD τ) ↦[(dstM c 0).view.set]{fullShare}
        ((dstM c 0).view.write (Elt F) (V m (pe c 3)) ((srcM 4).view.read (Elt F) (XBF m c)) Finset.univ)) := by
  rw [payload_recv]; unfold outDone
  have e1 : senderOf (pe c 3) 4 = c := by unfold senderOf; rw [pe_pe]; exact pe_four c
  have e2 : halfOf 4 = 0 := rfl
  rw [e1, e2]

/-- Send 5 of device `c` lands on the member 3 places on: that member's receive cell 5 hands it the half block. -/
theorem payload_recv_to5 (d : Fin 3) : (Rd (F := F) m).payload (recvCell (pe c 3) 5) 0 d
    = ((dstM c 1).view.loc (pe c 3 : Thread nD τ) ↦[(dstM c 1).view.set]{fullShare}
        ((dstM c 1).view.write (Elt F) (V m (pe c 3)) ((srcM 5).view.read (Elt F) (XBF m c)) Finset.univ)) := by
  rw [payload_recv]; unfold outDone
  have e1 : senderOf (pe c 3) 5 = c := by unfold senderOf; rw [pe_pe]; exact pe_four c
  have e2 : halfOf 5 = 1 := rfl
  rw [e1, e2]

/-- Device `c`'s signal 1 pays duty 0 of the barrier cell of the member 1 place on, and hands over the two half
    blocks of `c`'s own result array that member writes. -/
theorem payload_bar_to1 : (Rd (F := F) m).payload (barCell (pe c 1)) 0 0
    = iprop(((dstM (pe c 1) 0).view.loc (c : Thread nD τ) ↦[(dstM (pe c 1) 0).view.set]{fullShare} (V m c))
      ∗ ((dstM (pe c 1) 1).view.loc (c : Thread nD τ) ↦[(dstM (pe c 1) 1).view.set]{fullShare} (V m c))) := by
  rw [payload_bar]; unfold barPay outInit
  have e1 : pe (pe c 1) (3 - (0 : Fin 3).val) = c := by rw [pe_pe]; exact pe_four c
  rw [e1]

/-- Device `c`'s signal 2 pays duty 1 of the barrier cell of the member 2 places on, and hands over the two half
    blocks of `c`'s own result array that member writes. -/
theorem payload_bar_to2 : (Rd (F := F) m).payload (barCell (pe c 2)) 0 1
    = iprop(((dstM (pe c 2) 0).view.loc (c : Thread nD τ) ↦[(dstM (pe c 2) 0).view.set]{fullShare} (V m c))
      ∗ ((dstM (pe c 2) 1).view.loc (c : Thread nD τ) ↦[(dstM (pe c 2) 1).view.set]{fullShare} (V m c))) := by
  rw [payload_bar]; unfold barPay outInit
  have e1 : pe (pe c 2) (3 - (1 : Fin 3).val) = c := by rw [pe_pe]; exact pe_four c
  rw [e1]

/-- Device `c`'s signal 3 pays duty 2 of the barrier cell of the member 3 places on, and hands over the two half
    blocks of `c`'s own result array that member writes. -/
theorem payload_bar_to3 : (Rd (F := F) m).payload (barCell (pe c 3)) 0 2
    = iprop(((dstM (pe c 3) 0).view.loc (c : Thread nD τ) ↦[(dstM (pe c 3) 0).view.set]{fullShare} (V m c))
      ∗ ((dstM (pe c 3) 1).view.loc (c : Thread nD τ) ↦[(dstM (pe c 3) 1).view.set]{fullShare} (V m c))) := by
  rw [payload_bar]; unfold barPay outInit
  have e1 : pe (pe c 3) (3 - (2 : Fin 3).val) = c := by rw [pe_pe]; exact pe_four c
  rw [e1]

/-- What the barrier wait hands device `c`: from each of the three other members of its ring, the two half blocks of
    that member's result array that `c` writes, as launched. -/
theorem bar_payloads : bigSep Finset.univ (fun d : Fin 3 => (Rd (F := F) m).payload (barCell c) 0 d)
    = iprop((outInit m c 0 (pe c 3) ∗ outInit m c 1 (pe c 3)) ∗ (outInit m c 0 (pe c 2) ∗ outInit m c 1 (pe c 2))
        ∗ (outInit m c 0 (pe c 1) ∗ outInit m c 1 (pe c 1))) := by
  rw [bigSep_univ_eq_bigSepL [0, 1, 2] (by decide) (by decide), bigSepL_cons_cons, bigSepL_cons_cons, bigSepL_singleton,
    payload_bar, payload_bar, payload_bar]
  rfl

end Tables

/-! ## What each device owes at launch; the levels -/

/-- What device `c` owes receive cell `k` of the member it sends `k` to. -/
abbrev owedRecv (c : Dev nD) (k : Fin 6) : CellTallies nD τ sig Unit := tallyAt (recvCell (pe c (k.val / 2 + 1)) k) () N

/-- The receive credits still owed once the first `6 - n` sends are issued (send 0 is issued first and peels the last
    summand). -/
def OR (c : Dev nD) : ℕ → CellTallies nD τ sig Unit
  | 0 => 0
  | 1 => owedRecv c 5
  | 2 => owedRecv c 5 + owedRecv c 4
  | 3 => owedRecv c 5 + owedRecv c 4 + owedRecv c 3
  | 4 => owedRecv c 5 + owedRecv c 4 + owedRecv c 3 + owedRecv c 2
  | 5 => owedRecv c 5 + owedRecv c 4 + owedRecv c 3 + owedRecv c 2 + owedRecv c 1
  | _ => owedRecv c 5 + owedRecv c 4 + owedRecv c 3 + owedRecv c 2 + owedRecv c 1 + owedRecv c 0

/-- At launch: the six receive credits and one unit to each other member's barrier cell (signal 1 peels the last). -/
def O₀ (c : Dev nD) : CellTallies nD τ sig Unit :=
  owedRecv c 5 + owedRecv c 4 + owedRecv c 3 + owedRecv c 2 + owedRecv c 1 + owedRecv c 0
    + tallyAt (barCell (pe c 3)) () 1 + tallyAt (barCell (pe c 2)) () 1 + tallyAt (barCell (pe c 1)) () 1

def isRecvSem : SemLoc sig → Bool
  | .dma q => decide (6 ≤ q.val ∧ q.val < 12)
  | .reg _ => false

def L (g : GSem nD τ sig) : Finset Unit := if g.1.2 = .tc then {()} else ∅
/-- Barrier cells at 1, receive cells at 2, every other cell at 0. -/
def semLv (sm : SemLoc sig) : ℕ := if sm = .reg barS then 1 else if isRecvSem sm then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := by unfold lv semLv; exact if_pos rfl
theorem lv_recv (d : Dev nD) (k : Fin 6) : lv (recvCell d k) () = 2 := by
  unfold lv semLv; rw [if_neg (fun h => by cases h)]
  have : isRecvSem (recvCell d k).2 = true := by show decide (6 ≤ 6 + k.val ∧ 6 + k.val < 12) = true; have := k.isLt; exact decide_eq_true ⟨by omega, by omega⟩
  rw [if_pos this]

/-- Everything owed lies on TensorCore cells strictly above level `b`. -/
def OnlyAbove (b : ℕ) (O : CellTallies nD τ sig Unit) : Prop := ∀ g u, 0 < O g u → g.1.2 = .tc ∧ b < lv g u

theorem onlyAbove_zero (b : ℕ) : OnlyAbove b (0 : CellTallies nD τ sig Unit) := fun g u h => absurd h (Nat.lt_irrefl 0)
theorem onlyAbove_add {b : ℕ} {A B : CellTallies nD τ sig Unit} (hA : OnlyAbove b A) (hB : OnlyAbove b B) : OnlyAbove b (A + B) :=
  fun g u h => (Pipeline.add_pos_cases h).elim (hA g u) (hB g u)
theorem onlyAbove_recv {b : ℕ} (hb : b < 2) (d : Dev nD) (k : Fin 6) (n : ℕ) : OnlyAbove b (tallyAt (recvCell d k) () n) := fun g u h => by
  rw [tallyAt_apply] at h
  by_cases hg : g = recvCell d k ∧ u = ()
  · rw [hg.1]; exact ⟨rfl, by rw [lv_recv]; exact hb⟩
  · rw [if_neg hg] at h; exact absurd h (Nat.lt_irrefl 0)
theorem onlyAbove_bar {b : ℕ} (hb : b < 1) (d : Dev nD) (n : ℕ) : OnlyAbove b (tallyAt (barCell d) () n) := fun g u h => by
  rw [tallyAt_apply] at h
  by_cases hg : g = barCell d ∧ u = ()
  · rw [hg.1]; exact ⟨rfl, by rw [lv_bar]; exact hb⟩
  · rw [if_neg hg] at h; exact absurd h (Nat.lt_irrefl 0)

/-- A device may wait on a cell at level at most `b` while everything it owes lies above `b`. -/
theorem mayWait_below (c : Dev nD) (sm : SemLoc sig) (b : ℕ) (hsm : semLv sm ≤ b)
    (O : CellTallies nD τ sig Unit) (hO : OnlyAbove b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by
      have h1 := (hO g u hg).1
      obtain ⟨⟨d, pr⟩, sm'⟩ := g
      simp only at h1; subst h1
      rw [L_tc]; exact Finset.mem_singleton_self _)
    (fun p hp => by rw [Finset.mem_singleton.mp hp]; exact hsm)
    (fun g u hg => (hO g u hg).2)

theorem onlyAbove_OR (c : Dev nD) : ∀ n, OnlyAbove 1 (OR c n)
  | 0 => onlyAbove_zero 1
  | 1 => onlyAbove_recv (by decide) _ _ _
  | 2 => onlyAbove_add (onlyAbove_recv (by decide) _ _ _) (onlyAbove_recv (by decide) _ _ _)
  | 3 => onlyAbove_add (onlyAbove_add (onlyAbove_recv (by decide) _ _ _) (onlyAbove_recv (by decide) _ _ _)) (onlyAbove_recv (by decide) _ _ _)
  | 4 => onlyAbove_add (onlyAbove_add (onlyAbove_add (onlyAbove_recv (by decide) _ _ _) (onlyAbove_recv (by decide) _ _ _)) (onlyAbove_recv (by decide) _ _ _)) (onlyAbove_recv (by decide) _ _ _)
  | 5 => onlyAbove_add (onlyAbove_add (onlyAbove_add (onlyAbove_add (onlyAbove_recv (by decide) _ _ _) (onlyAbove_recv (by decide) _ _ _)) (onlyAbove_recv (by decide) _ _ _)) (onlyAbove_recv (by decide) _ _ _)) (onlyAbove_recv (by decide) _ _ _)
  | (n + 6) => onlyAbove_add (onlyAbove_add (onlyAbove_add (onlyAbove_add (onlyAbove_add (onlyAbove_recv (by decide) _ _ _) (onlyAbove_recv (by decide) _ _ _)) (onlyAbove_recv (by decide) _ _ _)) (onlyAbove_recv (by decide) _ _ _)) (onlyAbove_recv (by decide) _ _ _)) (onlyAbove_recv (by decide) _ _ _)

theorem OnlyAbove.mono {a b : ℕ} (hab : a ≤ b) {O : CellTallies nD τ sig Unit} (h : OnlyAbove b O) : OnlyAbove a O :=
  fun g u hg => ⟨(h g u hg).1, Nat.lt_of_le_of_lt hab (h g u hg).2⟩

/-- On a cell at level 0 a device may wait whatever receive credits it still owes. -/
theorem mayWait_low (c : Dev nD) (n : ℕ) (sm : SemLoc sig) (hsm : semLv sm = 0) :
    (levAts L lv : sProp 𝕄) ⊢ MayWait (c : Thread nD τ) sm () (OR c n) :=
  mayWait_below c sm 0 (Nat.le_of_eq hsm) _ ((onlyAbove_OR c n).mono (Nat.zero_le 1))

/-- On its barrier cell (level 1) a device may wait while it owes its six receive credits (level 2). -/
theorem mayWait_bar (c : Dev nD) :
    (levAts L lv : sProp 𝕄) ⊢ MayWait (c : Thread nD τ) (.reg barS) () (OR c 6) :=
  mayWait_below c _ 1 (by unfold semLv; rw [if_pos rfl]) _ (onlyAbove_OR c 6)

end Cert.KernelIdeal.A2A

end
-- ==== Proof.Vals.lean ====
/-
  What the converted slabs and the landed half blocks hold, index by index.

  A chunk of 512 rows of the input (1024 columns of it) is copied into a slot of the two-slot staging array, read back,
  narrowed element by element and stored at its rows of a slab; four chunks fill a half slab, eight fill slab 3. A half
  slab written over a half block of a result array makes that half block the narrowed input of the sender at the
  receiver's columns.
-/
import proofs.«900645_g7700000000000646_dist_a2a_v7x_xyz2x2x4_z_m4096_n1024_bf16_1_alg».proof.Proof.Regions
import proofs.«900645_g7700000000000646_dist_a2a_v7x_xyz2x2x4_z_m4096_n1024_bf16_1_alg».proof.Proof.Sched
import Idealize.ShloMosaic.Lib.Pipeline.Value
import Idealize.ShloMosaic.Lib.ValueIdx

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- A vector narrowed element by element. -/
def narV {s : Shape} (v : s.Idx → F .f32) : s.Idx → F .bf16 := fun j => nar (v j)

/-! ## Every chunk's payload narrows element by element (the shape casts undo each other) -/

/-- Dropping the unit axis, narrowing, and putting the unit axis back is narrowing element by element: the two shape
    casts undo each other, and narrowing a vector narrows each element. -/
theorem narV_roundtrip (h1 : S1x512x1024.ShapeCasts S512x1024) (h2 : S512x1024.ShapeCasts S1x512x1024)
    (hb : FTy.bits .bf16 < FTy.bits .f32) (v : S1x512x1024.Idx → F .f32) :
    shapeCast S1x512x1024 (truncf .bf16 (shapeCast S512x1024 v h1) hb) h2 = narV v := by
  have e : truncf .bf16 (shapeCast S512x1024 v h1) hb = shapeCast S512x1024 (narV v) h1 := rfl
  rw [e, shapeCast_shapeCast]

theorem pay1_eq : (k0_pay1 : (S1x512x1024.Idx → F .f32) → (S1x512x1024.Idx → F .bf16)) = narV :=
  funext fun v => narV_roundtrip _ _ _ v
theorem pay2_eq : (k0_pay2 : (S1x512x1024.Idx → F .f32) → (S1x512x1024.Idx → F .bf16)) = narV :=
  funext fun v => narV_roundtrip _ _ _ v
theorem pay4_3_eq : (fun v => k0_pay4 (k0_pay3 v) : (S1x512x1024.Idx → F .f32) → (S1x512x1024.Idx → F .bf16)) = narV :=
  funext fun v => narV_roundtrip _ _ _ v
theorem pay5_eq : (k0_pay5 : (S1x512x1024.Idx → F .f32) → (S1x512x1024.Idx → F .bf16)) = narV :=
  funext fun v => narV_roundtrip _ _ _ v
theorem pay6_eq : (k0_pay6 : (S1x512x1024.Idx → F .f32) → (S1x512x1024.Idx → F .bf16)) = narV :=
  funext fun v => narV_roundtrip _ _ _ v
theorem pay7_eq : (k0_pay7 : (S1x512x1024.Idx → F .f32) → (S1x512x1024.Idx → F .bf16)) = narV :=
  funext fun v => narV_roundtrip _ _ _ v
theorem pay8_eq : (k0_pay8 : (S1x512x1024.Idx → F .f32) → (S1x512x1024.Idx → F .bf16)) = narV :=
  funext fun v => narV_roundtrip _ _ _ v
theorem pay9_eq : (k0_pay9 : (S1x512x1024.Idx → F .f32) → (S1x512x1024.Idx → F .bf16)) = narV :=
  funext fun v => narV_roundtrip _ _ _ v
theorem pay10_eq : (k0_pay10 : (S1x512x1024.Idx → F .f32) → (S1x512x1024.Idx → F .bf16)) = narV :=
  funext fun v => narV_roundtrip _ _ _ v
theorem pay11_eq : (k0_pay11 : (S1x512x1024.Idx → F .f32) → (S1x512x1024.Idx → F .bf16)) = narV :=
  funext fun v => narV_roundtrip _ _ _ v
theorem pay13_12_eq : (fun v => k0_pay13 (k0_pay12 v) : (S1x512x1024.Idx → F .f32) → (S1x512x1024.Idx → F .bf16)) = narV :=
  funext fun v => narV_roundtrip _ _ _ v
theorem pay14_eq : (k0_pay14 : (S1x512x1024.Idx → F .f32) → (S1x512x1024.Idx → F .bf16)) = narV :=
  funext fun v => narV_roundtrip _ _ _ v
theorem pay15_eq : (k0_pay15 : (S1x512x1024.Idx → F .f32) → (S1x512x1024.Idx → F .bf16)) = narV :=
  funext fun v => narV_roundtrip _ _ _ v
theorem pay16_eq : (k0_pay16 : (S1x512x1024.Idx → F .f32) → (S1x512x1024.Idx → F .bf16)) = narV :=
  funext fun v => narV_roundtrip _ _ _ v
theorem pay17_eq : (k0_pay17 : (S1x512x1024.Idx → F .f32) → (S1x512x1024.Idx → F .bf16)) = narV :=
  funext fun v => narV_roundtrip _ _ _ v
theorem pay18_eq : (k0_pay18 : (S1x512x1024.Idx → F .f32) → (S1x512x1024.Idx → F .bf16)) = narV :=
  funext fun v => narV_roundtrip _ _ _ v
theorem pay19_eq : (k0_pay19 : (S1x512x1024.Idx → F .f32) → (S1x512x1024.Idx → F .bf16)) = narV :=
  funext fun v => narV_roundtrip _ _ _ v
theorem pay20_eq : (k0_pay20 : (S1x512x1024.Idx → F .f32) → (S1x512x1024.Idx → F .bf16)) = narV :=
  funext fun v => narV_roundtrip _ _ _ v
theorem pay21_eq : (k0_pay21 : (S1x512x1024.Idx → F .f32) → (S1x512x1024.Idx → F .bf16)) = narV :=
  funext fun v => narV_roundtrip _ _ _ v
theorem pay22_eq : (k0_pay22 : (S1x512x1024.Idx → F .f32) → (S1x512x1024.Idx → F .bf16)) = narV :=
  funext fun v => narV_roundtrip _ _ _ v
theorem pay23_eq : (k0_pay23 : (S1x512x1024.Idx → F .f32) → (S1x512x1024.Idx → F .bf16)) = narV :=
  funext fun v => narV_roundtrip _ _ _ v
theorem pay24_eq : (k0_pay24 : (S1x512x1024.Idx → F .f32) → (S1x512x1024.Idx → F .bf16)) = narV :=
  funext fun v => narV_roundtrip _ _ _ v
theorem pay26_25_eq : (fun v => k0_pay26 (k0_pay25 v) : (S1x512x1024.Idx → F .f32) → (S1x512x1024.Idx → F .bf16)) = narV :=
  funext fun v => narV_roundtrip _ _ _ v
theorem pay27_eq : (k0_pay27 : (S1x512x1024.Idx → F .f32) → (S1x512x1024.Idx → F .bf16)) = narV :=
  funext fun v => narV_roundtrip _ _ _ v
theorem pay28_eq : (k0_pay28 : (S1x512x1024.Idx → F .f32) → (S1x512x1024.Idx → F .bf16)) = narV :=
  funext fun v => narV_roundtrip _ _ _ v
theorem pay29_eq : (k0_pay29 : (S1x512x1024.Idx → F .f32) → (S1x512x1024.Idx → F .bf16)) = narV :=
  funext fun v => narV_roundtrip _ _ _ v
theorem pay30_eq : (k0_pay30 : (S1x512x1024.Idx → F .f32) → (S1x512x1024.Idx → F .bf16)) = narV :=
  funext fun v => narV_roundtrip _ _ _ v
theorem pay31_eq : (k0_pay31 : (S1x512x1024.Idx → F .f32) → (S1x512x1024.Idx → F .bf16)) = narV :=
  funext fun v => narV_roundtrip _ _ _ v
theorem pay33_32_eq : (fun v => k0_pay33 (k0_pay32 v) : (S1x512x1024.Idx → F .f32) → (S1x512x1024.Idx → F .bf16)) = narV :=
  funext fun v => narV_roundtrip _ _ _ v
theorem pay34_eq : (k0_pay34 : (S1x512x1024.Idx → F .f32) → (S1x512x1024.Idx → F .bf16)) = narV :=
  funext fun v => narV_roundtrip _ _ _ v
theorem pay35_eq : (k0_pay35 : (S1x512x1024.Idx → F .f32) → (S1x512x1024.Idx → F .bf16)) = narV :=
  funext fun v => narV_roundtrip _ _ _ v
theorem pay36_eq : (k0_pay36 : (S1x512x1024.Idx → F .f32) → (S1x512x1024.Idx → F .bf16)) = narV :=
  funext fun v => narV_roundtrip _ _ _ v

/-! ## One chunk: copied into a slot, read back, narrowed, stored at its box -/

/-- What a load of slot `j` through the whole staging array reads when the newest write of the slot is the chunk of the
    input at `o`: at `(0, r, q)`, the input at `(o 0 + r, o 1 + q)`. -/
theorem slot_load (c : Dev nD) (j : Fin 2) {o : Fin 2 → ℕ} {inbo : ∀ a, o a + S512x1024.size a ≤ S4096x4096.size a}
    {hs : ∀ a, (Rect.unit (s := S4096x4096) o S512x1024.size inbo).stride a = 1}
    (P : List (View.Piece (Elt F) S512x1024 .f32)) (y : S1x512x1024.Idx) :
    View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P)) y
      = X m c (ix2 ⟨o 0 + (y 1).val, by have := inbo 0; have : (y 1).val < 512 := (y 1).isLt; have h : o 0 + 512 ≤ 4096 := inbo 0; omega⟩
                   ⟨o 1 + (y 2).val, by have : (y 2).val < 1024 := (y 2).isLt; have h : o 1 + 1024 ≤ 4096 := inbo 1; omega⟩) := by
  -- the load at the slot's box is the slot's own read with the unit axis put back
  have e1 : ∀ W, View.readAt (Elt F) gM.view (Rect.unit (s := S2x512x1024) (slotOff j) S1x512x1024.size (slotInb j)).toLoadRect W
      = shapeCast S1x512x1024 ((slotM j).view.read (Elt F) W) shapeCasts_S512x1024_S1x512x1024 := by
    intro W
    rw [Memref.read_squeeze_slice gM _ _ _ shapeCasts_S1x512x1024_S512x1024]
    exact (shapeCast_shapeCast (s := S1x512x1024) (t := S512x1024) _ _ _).symm
  rw [e1, shapeCast_addUnit_apply]
  have e2 := View.read_writes_cons_emb (slotM j).view (slotM j).view.junk (Rect.whole S512x1024)
    (ReadAs.same.apply (View.read (Elt F) (xM.slice (Rect.unit (s := S4096x4096) o S512x1024.size inbo) hs).view (X m c))) P
    (fun a => y a.succ)
  have e3 : (Rect.whole S512x1024).emb (fun a : Fin 2 => y a.succ : S512x1024.Idx) = (fun a : Fin 2 => y a.succ : S512x1024.Idx) :=
    Rect.emb_whole_apply S512x1024 _
  rw [e3] at e2
  rw [e2]
  show X m c _ = X m c _
  refine congrArg (X m c) ?_
  funext a
  match a with
  | ⟨0, _⟩ => exact Fin.ext (by show o 0 + 1 * (y 1).val = o 0 + (y 1).val; omega)
  | ⟨1, _⟩ => exact Fin.ext (by show o 1 + 1 * (y 2).val = o 1 + (y 2).val; omega)

/-- A store of a chunk through the narrowed staging array at a box leaves, under the box, the payload at the box's own
    index; -/
theorem store_in (c : Dev nD) {off : Fin 3 → ℕ} (inb : ∀ a, off a + S1x512x1024.size a ≤ S4x4096x1024.size a)
    (f : Buf (Elt F) ((c : Thread nD τ).loc cc0_scratch0)) (w : S1x512x1024.Idx → F .bf16) (y : S1x512x1024.Idx) :
    View.write (Elt F) (bM.access (Rect.unit (s := S4x4096x1024) off S1x512x1024.size inb)) f w Finset.univ
      ((Rect.unit (s := S4x4096x1024) off S1x512x1024.size inb).emb y) = w y :=
  View.write_emb_of_mem (v := bM.access (Rect.unit (s := S4x4096x1024) off S1x512x1024.size inb)) (Val := Elt F) f w
    (M := Finset.univ) (x := y) (Finset.mem_univ _)

/-- and off the box what was there. -/
theorem store_out (c : Dev nD) {off : Fin 3 → ℕ} (inb : ∀ a, off a + S1x512x1024.size a ≤ S4x4096x1024.size a)
    (f : Buf (Elt F) ((c : Thread nD τ).loc cc0_scratch0)) (w : S1x512x1024.Idx → F .bf16) (i : S4x4096x1024.Idx)
    (hi : i ∉ (Rect.unit (s := S4x4096x1024) off S1x512x1024.size inb).set) :
    View.write (Elt F) (bM.access (Rect.unit (s := S4x4096x1024) off S1x512x1024.size inb)) f w Finset.univ i = f i :=
  View.write_of_not_mem _ _ _ (by rw [View.setOn_univ, View.set_slice_whole]; exact hi)

/-- Membership in a chunk's box, axis by axis. -/
theorem mem_box {off : Fin 3 → ℕ} (inb : ∀ a, off a + S1x512x1024.size a ≤ S4x4096x1024.size a) (i : S4x4096x1024.Idx) :
    i ∈ (Rect.unit (s := S4x4096x1024) off S1x512x1024.size inb).set ↔
      (off 0 ≤ (i 0).val ∧ (i 0).val < off 0 + 1) ∧ (off 1 ≤ (i 1).val ∧ (i 1).val < off 1 + 512)
        ∧ (off 2 ≤ (i 2).val ∧ (i 2).val < off 2 + 1024) := by
  rw [Rect.mem_set_unit, forall_fin3]; exact Iff.rfl

/-- One chunk: under its box the stored array holds the narrowed input, when the box's rows are the chunk's rows of the
    input, its slab `a` names the columns of the ring member `a + 1` places on, and it spans all 1024 columns. -/
theorem chunk_val (c : Dev nD) {off : Fin 3 → ℕ} (inb : ∀ a, off a + S1x512x1024.size a ≤ S4x4096x1024.size a) (j : Fin 2)
    {o : Fin 2 → ℕ} {inbo : ∀ a, o a + S512x1024.size a ≤ S4096x4096.size a}
    {hs : ∀ a, (Rect.unit (s := S4096x4096) o S512x1024.size inbo).stride a = 1}
    (P : List (View.Piece (Elt F) S512x1024 .f32))
    (PAY : (S1x512x1024.Idx → F .f32) → (S1x512x1024.Idx → F .bf16)) (hP : PAY = narV)
    (f : Buf (Elt F) ((c : Thread nD τ).loc cc0_scratch0))
    (h0 : o 0 = off 1) (h1 : o 1 = 1024 * ((c.val + (off 0 + 1)) % 4)) (h2 : off 2 = 0)
    (i : S4x4096x1024.Idx) (hi : i ∈ (Rect.unit (s := S4x4096x1024) off S1x512x1024.size inb).set) :
    View.write (Elt F) (bM.access (Rect.unit (s := S4x4096x1024) off S1x512x1024.size inb)) f
      (PAY (View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P))))
      Finset.univ i = XBF m c i := by
  obtain ⟨y, rfl⟩ := (Rect.unit (s := S4x4096x1024) off S1x512x1024.size inb).exists_idx_of_mem hi
  subst hP
  have e := store_in c inb f (narV (View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P)))) y
  refine e.trans ?_
  show nar _ = nar _
  rw [slot_load]
  have y0 : (y 0).val < 1 := (y 0).isLt
  show nar (X m c _) = nar (X m c _)
  refine congrArg nar (congrArg (X m c) ?_)
  funext a
  match a with
  | ⟨0, _⟩ =>
    refine Fin.ext ?_
    show o 0 + (y 1).val = off 1 + 1 * (y 1).val
    omega
  | ⟨1, _⟩ =>
    refine Fin.ext ?_
    show o 1 + (y 2).val = 1024 * ((c.val + ((off 0 + 1 * (y 0).val) + 1)) % 4) + (off 2 + 1 * (y 2).val)
    have y00 : (y 0).val = 0 := by omega
    rw [h1, h2, y00]; omega

/-! ## Where the chunks of a half slab are stored -/

/-- Chunk `t` of send `k`'s half slab: slab `k / 2`, rows `2048 (k % 2) + 512 t` on. -/
abbrev cOff (k : Fin 6) (t : Fin 4) : Fin 3 → ℕ := ![k.val / 2, 2048 * (k.val % 2) + 512 * t.val, 0]
theorem cInb : ∀ (k : Fin 6) (t : Fin 4) (a : Fin 3), cOff k t a + S1x512x1024.size a ≤ S4x4096x1024.size a := by decide
/-- Chunk `t` of slab 3: rows `512 t` on. -/
abbrev lOff (t : Fin 8) : Fin 3 → ℕ := ![3, 512 * t.val, 0]
theorem lInb : ∀ (t : Fin 8) (a : Fin 3), lOff t a + S1x512x1024.size a ≤ S4x4096x1024.size a := by decide

/-- Membership in chunk `t`'s box of send `k`'s half slab. -/
theorem mem_cbox (k : Fin 6) (t : Fin 4) (i : S4x4096x1024.Idx) :
    i ∈ (Rect.unit (s := S4x4096x1024) (cOff k t) S1x512x1024.size (cInb k t)).set ↔
      (i 0).val = k.val / 2 ∧ 2048 * (k.val % 2) + 512 * t.val ≤ (i 1).val
        ∧ (i 1).val < 2048 * (k.val % 2) + 512 * t.val + 512 := by
  rw [mem_box]
  have h2 : (i 2).val < 1024 := (i 2).isLt
  show (k.val / 2 ≤ (i 0).val ∧ (i 0).val < k.val / 2 + 1)
      ∧ (2048 * (k.val % 2) + 512 * t.val ≤ (i 1).val ∧ (i 1).val < 2048 * (k.val % 2) + 512 * t.val + 512)
      ∧ (0 ≤ (i 2).val ∧ (i 2).val < 0 + 1024) ↔ _
  omega

/-- Membership in chunk `t`'s box of slab 3. -/
theorem mem_lbox (t : Fin 8) (i : S4x4096x1024.Idx) :
    i ∈ (Rect.unit (s := S4x4096x1024) (lOff t) S1x512x1024.size (lInb t)).set ↔
      (i 0).val = 3 ∧ 512 * t.val ≤ (i 1).val ∧ (i 1).val < 512 * t.val + 512 := by
  rw [mem_box]
  have h2 : (i 2).val < 1024 := (i 2).isLt
  show (3 ≤ (i 0).val ∧ (i 0).val < 3 + 1) ∧ (512 * t.val ≤ (i 1).val ∧ (i 1).val < 512 * t.val + 512)
      ∧ (0 ≤ (i 2).val ∧ (i 2).val < 0 + 1024) ↔ _
  omega

/-- Four chunks stored one after the other fill send `k`'s half slab with the narrowed input at the columns of the ring
    member `k / 2 + 1` places on: whatever the array held before, and whatever else the staging slots were written with
    earlier (the tails `P`). -/
theorem slab_val (c : Dev nD) (k : Fin 6) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    {o0 : Fin 2 → ℕ} (ho0 : o0 = ![2048 * (k.val % 2) + 512 * 0, 1024 * ((c.val + (k.val / 2 + 1)) % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![2048 * (k.val % 2) + 512 * 1, 1024 * ((c.val + (k.val / 2 + 1)) % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![2048 * (k.val % 2) + 512 * 2, 1024 * ((c.val + (k.val / 2 + 1)) % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![2048 * (k.val % 2) + 512 * 3, 1024 * ((c.val + (k.val / 2 + 1)) % 4)]) {inb3 : ∀ a, o3 a + S512x1024.size a ≤ S4096x4096.size a} {hs3 : ∀ a, (Rect.unit (s := S4096x4096) o3 S512x1024.size inb3).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)} :
    ∀ i ∈ (srcM k).view.set,
      (View.write (Elt F) (bM.access (Rect.unit (s := S4x4096x1024) (cOff k 3) S1x512x1024.size (cInb k 3))) (View.write (Elt F) (bM.access (Rect.unit (s := S4x4096x1024) (cOff k 2) S1x512x1024.size (cInb k 2))) (View.write (Elt F) (bM.access (Rect.unit (s := S4x4096x1024) (cOff k 1) S1x512x1024.size (cInb k 1))) (View.write (Elt F) (bM.access (Rect.unit (s := S4x4096x1024) (cOff k 0) S1x512x1024.size (cInb k 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ) i
      = XBF m c i := by
  intro i hi
  subst ho0 ho1 ho2 ho3
  have hsrc := (mem_srcM k i).mp hi
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  -- peel the stores from the newest: the index is under exactly one chunk's box
  by_cases h3 : i ∈ (Rect.unit (s := S4x4096x1024) (cOff k 3) S1x512x1024.size (cInb k 3)).set
  · exact chunk_val m c (cInb k 3) 1 P3 PAY3 hP3 _ (by rfl) (by rfl) (by rfl) i h3
  rw [store_out c (cInb k 3) _ _ i h3]
  by_cases h2 : i ∈ (Rect.unit (s := S4x4096x1024) (cOff k 2) S1x512x1024.size (cInb k 2)).set
  · exact chunk_val m c (cInb k 2) 0 P2 PAY2 hP2 _ (by rfl) (by rfl) (by rfl) i h2
  rw [store_out c (cInb k 2) _ _ i h2]
  by_cases h1 : i ∈ (Rect.unit (s := S4x4096x1024) (cOff k 1) S1x512x1024.size (cInb k 1)).set
  · exact chunk_val m c (cInb k 1) 1 P1 PAY1 hP1 _ (by rfl) (by rfl) (by rfl) i h1
  rw [store_out c (cInb k 1) _ _ i h1]
  by_cases h0 : i ∈ (Rect.unit (s := S4x4096x1024) (cOff k 0) S1x512x1024.size (cInb k 0)).set
  · exact chunk_val m c (cInb k 0) 0 P0 PAY0 hP0 _ (by rfl) (by rfl) (by rfl) i h0
  exfalso
  rw [mem_cbox] at h0 h1 h2 h3
  omega

/-- Eight chunks fill slab 3 with the narrowed input at the device's own columns. -/
theorem lslab_val (c : Dev nD) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    (PAY4 : (S1x512x1024.Idx → F .f32) → (S1x512x1024.Idx → F .bf16)) (hP4 : PAY4 = narV)
    (PAY5 : (S1x512x1024.Idx → F .f32) → (S1x512x1024.Idx → F .bf16)) (hP5 : PAY5 = narV)
    (PAY6 : (S1x512x1024.Idx → F .f32) → (S1x512x1024.Idx → F .bf16)) (hP6 : PAY6 = narV)
    (PAY7 : (S1x512x1024.Idx → F .f32) → (S1x512x1024.Idx → F .bf16)) (hP7 : PAY7 = narV)
    {o0 : Fin 2 → ℕ} (ho0 : o0 = ![512 * 0, 1024 * (c.val % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![512 * 1, 1024 * (c.val % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![512 * 2, 1024 * (c.val % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![512 * 3, 1024 * (c.val % 4)]) {inb3 : ∀ a, o3 a + S512x1024.size a ≤ S4096x4096.size a} {hs3 : ∀ a, (Rect.unit (s := S4096x4096) o3 S512x1024.size inb3).stride a = 1}
    {o4 : Fin 2 → ℕ} (ho4 : o4 = ![512 * 4, 1024 * (c.val % 4)]) {inb4 : ∀ a, o4 a + S512x1024.size a ≤ S4096x4096.size a} {hs4 : ∀ a, (Rect.unit (s := S4096x4096) o4 S512x1024.size inb4).stride a = 1}
    {o5 : Fin 2 → ℕ} (ho5 : o5 = ![512 * 5, 1024 * (c.val % 4)]) {inb5 : ∀ a, o5 a + S512x1024.size a ≤ S4096x4096.size a} {hs5 : ∀ a, (Rect.unit (s := S4096x4096) o5 S512x1024.size inb5).stride a = 1}
    {o6 : Fin 2 → ℕ} (ho6 : o6 = ![512 * 6, 1024 * (c.val % 4)]) {inb6 : ∀ a, o6 a + S512x1024.size a ≤ S4096x4096.size a} {hs6 : ∀ a, (Rect.unit (s := S4096x4096) o6 S512x1024.size inb6).stride a = 1}
    {o7 : Fin 2 → ℕ} (ho7 : o7 = ![512 * 7, 1024 * (c.val % 4)]) {inb7 : ∀ a, o7 a + S512x1024.size a ≤ S4096x4096.size a} {hs7 : ∀ a, (Rect.unit (s := S4096x4096) o7 S512x1024.size inb7).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)}
    {P4 : List (View.Piece (Elt F) S512x1024 .f32)}
    {P5 : List (View.Piece (Elt F) S512x1024 .f32)}
    {P6 : List (View.Piece (Elt F) S512x1024 .f32)}
    {P7 : List (View.Piece (Elt F) S512x1024 .f32)} :
    ∀ i ∈ lsrcM.view.set,
      (View.write (Elt F) (bM.access (Rect.unit (s := S4x4096x1024) (lOff 7) S1x512x1024.size (lInb 7))) (View.write (Elt F) (bM.access (Rect.unit (s := S4x4096x1024) (lOff 6) S1x512x1024.size (lInb 6))) (View.write (Elt F) (bM.access (Rect.unit (s := S4x4096x1024) (lOff 5) S1x512x1024.size (lInb 5))) (View.write (Elt F) (bM.access (Rect.unit (s := S4x4096x1024) (lOff 4) S1x512x1024.size (lInb 4))) (View.write (Elt F) (bM.access (Rect.unit (s := S4x4096x1024) (lOff 3) S1x512x1024.size (lInb 3))) (View.write (Elt F) (bM.access (Rect.unit (s := S4x4096x1024) (lOff 2) S1x512x1024.size (lInb 2))) (View.write (Elt F) (bM.access (Rect.unit (s := S4x4096x1024) (lOff 1) S1x512x1024.size (lInb 1))) (View.write (Elt F) (bM.access (Rect.unit (s := S4x4096x1024) (lOff 0) S1x512x1024.size (lInb 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ)
        (PAY4 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o4 S512x1024.size inb4) hs4).view (X m c))⟩ :: P4)))) Finset.univ)
        (PAY5 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o5 S512x1024.size inb5) hs5).view (X m c))⟩ :: P5)))) Finset.univ)
        (PAY6 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o6 S512x1024.size inb6) hs6).view (X m c))⟩ :: P6)))) Finset.univ)
        (PAY7 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o7 S512x1024.size inb7) hs7).view (X m c))⟩ :: P7)))) Finset.univ) i
      = XBF m c i := by
  intro i hi
  subst ho0 ho1 ho2 ho3 ho4 ho5 ho6 ho7
  have hsrc := (mem_lsrcM i).mp hi
  have hrow : (i 1).val < 4096 := (i 1).isLt
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  have hcol : 1024 * (c.val % 4) = 1024 * ((c.val + (3 + 1)) % 4) := by omega
  -- peel the stores from the newest: the index is under exactly one chunk's box
  by_cases h7 : i ∈ (Rect.unit (s := S4x4096x1024) (lOff 7) S1x512x1024.size (lInb 7)).set
  · exact chunk_val m c (lInb 7) 1 P7 PAY7 hP7 _ (by rfl) hcol (by rfl) i h7
  rw [store_out c (lInb 7) _ _ i h7]
  by_cases h6 : i ∈ (Rect.unit (s := S4x4096x1024) (lOff 6) S1x512x1024.size (lInb 6)).set
  · exact chunk_val m c (lInb 6) 0 P6 PAY6 hP6 _ (by rfl) hcol (by rfl) i h6
  rw [store_out c (lInb 6) _ _ i h6]
  by_cases h5 : i ∈ (Rect.unit (s := S4x4096x1024) (lOff 5) S1x512x1024.size (lInb 5)).set
  · exact chunk_val m c (lInb 5) 1 P5 PAY5 hP5 _ (by rfl) hcol (by rfl) i h5
  rw [store_out c (lInb 5) _ _ i h5]
  by_cases h4 : i ∈ (Rect.unit (s := S4x4096x1024) (lOff 4) S1x512x1024.size (lInb 4)).set
  · exact chunk_val m c (lInb 4) 0 P4 PAY4 hP4 _ (by rfl) hcol (by rfl) i h4
  rw [store_out c (lInb 4) _ _ i h4]
  by_cases h3 : i ∈ (Rect.unit (s := S4x4096x1024) (lOff 3) S1x512x1024.size (lInb 3)).set
  · exact chunk_val m c (lInb 3) 1 P3 PAY3 hP3 _ (by rfl) hcol (by rfl) i h3
  rw [store_out c (lInb 3) _ _ i h3]
  by_cases h2 : i ∈ (Rect.unit (s := S4x4096x1024) (lOff 2) S1x512x1024.size (lInb 2)).set
  · exact chunk_val m c (lInb 2) 0 P2 PAY2 hP2 _ (by rfl) hcol (by rfl) i h2
  rw [store_out c (lInb 2) _ _ i h2]
  by_cases h1 : i ∈ (Rect.unit (s := S4x4096x1024) (lOff 1) S1x512x1024.size (lInb 1)).set
  · exact chunk_val m c (lInb 1) 1 P1 PAY1 hP1 _ (by rfl) hcol (by rfl) i h1
  rw [store_out c (lInb 1) _ _ i h1]
  by_cases h0 : i ∈ (Rect.unit (s := S4x4096x1024) (lOff 0) S1x512x1024.size (lInb 0)).set
  · exact chunk_val m c (lInb 0) 0 P0 PAY0 hP0 _ (by rfl) hcol (by rfl) i h0
  exfalso
  rw [mem_lbox] at h0 h1 h2 h3 h4 h5 h6 h7
  omega

end Cert.KernelIdeal.A2A

end
-- ==== Proof.Landed.lean ====
/-
  A converted half slab written over a half block of a result array makes that half block the narrowed input of the
  sender at the receiver's columns, which is what the receiver's result array must end with there.
-/
import proofs.«900645_g7700000000000646_dist_a2a_v7x_xyz2x2x4_z_m4096_n1024_bf16_1_alg».proof.Proof.Regions
import proofs.«900645_g7700000000000646_dist_a2a_v7x_xyz2x2x4_z_m4096_n1024_bf16_1_alg».proof.Proof.Sched
import Idealize.ShloMosaic.Lib.Pipeline.Value
import Idealize.ShloMosaic.Lib.ValueIdx
import Idealize.ShloMosaic.Lib.ValueLayout

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- Two rank-2 indices with equal coordinates are equal. -/
theorem ix2_congr {n0 n1 : ℕ} {a a' : Fin n0} {b b' : Fin n1} (ha : a.val = a'.val) (hb : b.val = b'.val) :
    ix2 a b = ix2 a' b' := by
  have ea : a = a' := Fin.ext ha
  have eb : b = b' := Fin.ext hb
  subst ea eb; rfl

/-- The narrowed staging array of `s` at slab `p 0`, row `p 1`, column `p 2` is what a member `r` of `s`'s ring whose
    ring coordinate is `s`'s moved `p 0 + 1` places on must end with at row `4096 (s % 4) + p 1`, column `p 2`. -/
theorem XBF_eq_OUT (s r : Dev nD) (p : S4x4096x1024.Idx) (i : S16384x1024.Idx)
    (hd : r.val / 4 = s.val / 4) (hm : r.val % 4 = (s.val + ((p 0).val + 1)) % 4)
    (h0 : (i 0).val = 4096 * (s.val % 4) + (p 1).val) (h1 : (i 1).val = (p 2).val) :
    XBF m s p = OUT m r i := by
  have hp1 : (p 1).val < 4096 := (p 1).isLt
  have hs : s.val < 16 := s.isLt
  have hr : ringAt r ((i 0).val / 4096) = s := by
    apply Fin.ext; rw [ringAt_val]; omega
  unfold XBF OUT
  rw [hr]
  refine congrArg nar (congrArg (X m s) (ix2_congr ?_ ?_))
  · show (p 1).val = (i 0).val % 4096
    omega
  · show 1024 * ((s.val + ((p 0).val + 1)) % 4) + (p 2).val = 1024 * (r.val % 4) + (i 1).val
    omega

/-- Where a sender's half block puts its local row and column in the result array. -/
theorem dstM_emb (s : Dev nD) (h : Fin 2) (y : S2048x1024.Idx) :
    (((dstM s h).view.emb y : S16384x1024.Idx) 0).val = 4096 * (s.val % 4) + 2048 * h.val + (y 0).val
    ∧ (((dstM s h).view.emb y : S16384x1024.Idx) 1).val = (y 1).val := by
  have e := k0_off5_eq s h
  constructor
  · show (k0_off5 s (BitVec.ofNat 32 (2048 * h.val))) 0 + 1 * (y 0).val = _
    rw [e]; simp only [Matrix.cons_val_zero]; omega
  · show (k0_off5 s (BitVec.ofNat 32 (2048 * h.val))) 1 + 1 * (y 1).val = _
    rw [e]; simp only [Matrix.cons_val_one, Matrix.cons_val_zero, Matrix.head_cons]; omega

/-- Where the block a device fills itself puts its local row and column in the result array. -/
theorem ldstM_emb (c : Dev nD) (y : S4096x1024.Idx) :
    (((ldstM c).view.emb y : S16384x1024.Idx) 0).val = 4096 * (c.val % 4) + (y 0).val
    ∧ (((ldstM c).view.emb y : S16384x1024.Idx) 1).val = (y 1).val := by
  have e := k0_off18_eq c
  constructor
  · show (k0_off18 c) 0 + 1 * (y 0).val = _
    rw [e]; simp only [Matrix.cons_val_zero]; omega
  · show (k0_off18 c) 1 + 1 * (y 1).val = _
    rw [e]; simp only [Matrix.cons_val_one, Matrix.cons_val_zero, Matrix.head_cons]; omega

/-- Where send `k`'s half slab puts its local row and column in the narrowed staging array: slab `k / 2`, the rows from
    `2048 (k % 2)` on. -/
theorem srcM_emb (k : Fin 6) (y : S2048x1024.Idx) :
    (((srcM k).view.emb y : S4x4096x1024.Idx) 0).val = k.val / 2
    ∧ (((srcM k).view.emb y : S4x4096x1024.Idx) 1).val = 2048 * (k.val % 2) + (y 0).val
    ∧ (((srcM k).view.emb y : S4x4096x1024.Idx) 2).val = (y 1).val := by
  obtain ⟨a, b, rfl⟩ : ∃ a b, y = ix2 a b := ⟨y 0, y 1, eq_ix2 y⟩
  have e : (srcM k).view.emb (ix2 a b)
      = (Rect.unit (s := S4x4096x1024) (srcOff k) S1x2048x1024.size (srcInb k)).emb (ix3 (⟨0, Nat.one_pos⟩ : Fin 1) a b) :=
    congrArg (Rect.unit (s := S4x4096x1024) (srcOff k) S1x2048x1024.size (srcInb k)).emb (reshapeEquiv_ix2_1ab _ a b)
  rw [e]
  refine ⟨?_, ?_, ?_⟩
  · show srcOff k 0 + 1 * 0 = _
    fin_cases k <;> simp only [srcOff, Matrix.cons_val_zero, Matrix.cons_val_one, Matrix.cons_val_two, Matrix.head_cons, Matrix.tail_cons] <;> omega
  · show srcOff k 1 + 1 * a.val = 2048 * (k.val % 2) + a.val
    fin_cases k <;> simp only [srcOff, Matrix.cons_val_zero, Matrix.cons_val_one, Matrix.cons_val_two, Matrix.head_cons, Matrix.tail_cons] <;> omega
  · show srcOff k 2 + 1 * b.val = b.val
    fin_cases k <;> simp only [srcOff, Matrix.cons_val_zero, Matrix.cons_val_one, Matrix.cons_val_two, Matrix.head_cons, Matrix.tail_cons] <;> omega

/-- Where slab 3 puts its local row and column in the narrowed staging array. -/
theorem lsrcM_emb (y : S4096x1024.Idx) :
    ((lsrcM.view.emb y : S4x4096x1024.Idx) 0).val = 3
    ∧ ((lsrcM.view.emb y : S4x4096x1024.Idx) 1).val = (y 0).val
    ∧ ((lsrcM.view.emb y : S4x4096x1024.Idx) 2).val = (y 1).val := by
  obtain ⟨a, b, rfl⟩ : ∃ a b, y = ix2 a b := ⟨y 0, y 1, eq_ix2 y⟩
  have e : lsrcM.view.emb (ix2 a b)
      = (Rect.unit (s := S4x4096x1024) ![3, 0, 0] S1x4096x1024.size inb_S4x4096x1024_S1x4096x1024_3_0_0).emb (ix3 (⟨0, Nat.one_pos⟩ : Fin 1) a b) :=
    congrArg (Rect.unit (s := S4x4096x1024) ![3, 0, 0] S1x4096x1024.size inb_S4x4096x1024_S1x4096x1024_3_0_0).emb (reshapeEquiv_ix2_1ab _ a b)
  rw [e]
  refine ⟨?_, ?_, ?_⟩
  · show (![3, 0, 0] : Fin 3 → ℕ) 0 + 1 * 0 = 3
    simp only [Matrix.cons_val_zero]
  · show (![3, 0, 0] : Fin 3 → ℕ) 1 + 1 * a.val = a.val
    simp only [Matrix.cons_val_one, Matrix.cons_val_zero, Matrix.head_cons]; omega
  · show (![3, 0, 0] : Fin 3 → ℕ) 2 + 1 * b.val = b.val
    simp only [Matrix.cons_val_two, Matrix.cons_val_one, Matrix.cons_val_zero, Matrix.head_cons, Matrix.tail_cons]; omega

/-- Send `k` of sender `s`, landed on the member `k / 2 + 1` places on, makes the half block it writes what that member's
    result array must end with. -/
theorem landed_val (s : Dev nD) (k : Fin 6) (fd : Buf (Elt F) ((pe s (k.val / 2 + 1) : Thread nD τ).loc main_v1)) :
    ∀ i ∈ (dstM s (halfOf k)).view.set,
      (dstM s (halfOf k)).view.write (Elt F) fd ((srcM k).view.read (Elt F) (XBF m s)) Finset.univ i
      = OUT m (pe s (k.val / 2 + 1)) i := by
  intro i hi
  obtain ⟨y, hy⟩ := View.exists_emb_of_mem_set (dstM s (halfOf k)).view hi
  subst hy
  rw [View.write_emb_of_mem _ _ (Finset.mem_univ y), View.read_apply]
  show XBF m s ((srcM k).view.emb y) = _
  obtain ⟨d0, d1⟩ := dstM_emb s (halfOf k) y
  obtain ⟨s0, s1, s2⟩ := srcM_emb k y
  have hh : (halfOf k).val = k.val % 2 := rfl
  exact XBF_eq_OUT m s _ _ _ (pe_div s _) (by rw [pe_mod, s0]) (by rw [d0, s1, hh]; omega) (by rw [d1, s2])

/-- The local copy: slab 3 written over the device's own block of its result array makes that block what the result
    array must end with there. -/
theorem local_val (c : Dev nD) (fd : Buf (Elt F) ((c : Thread nD τ).loc main_v1)) :
    ∀ i ∈ (ldstM c).view.set,
      (ldstM c).view.write (Elt F) fd (lsrcM.view.read (Elt F) (XBF m c)) Finset.univ i = OUT m c i := by
  intro i hi
  obtain ⟨y, hy⟩ := View.exists_emb_of_mem_set (ldstM c).view hi
  subst hy
  rw [View.write_emb_of_mem _ _ (Finset.mem_univ y), View.read_apply]
  show XBF m c (lsrcM.view.emb y) = _
  obtain ⟨d0, d1⟩ := ldstM_emb c y
  obtain ⟨s0, s1, s2⟩ := lsrcM_emb y
  exact XBF_eq_OUT m c c _ _ rfl (by rw [s0]; omega) (by rw [d0, s1]) (by rw [d1, s2])

/-- `local_val` in the form the block is left in: one whole-view write, listed. -/
theorem local_val_listed (c : Dev nD) (fd : Buf (Elt F) ((c : Thread nD τ).loc main_v1)) :
    ∀ i ∈ (ldstM c).view.set,
      (ldstM c).view.writes (Elt F) fd [⟨Rect.whole S4096x1024, ReadAs.same.apply (View.read (Elt F) lsrcM.view (XBF m c))⟩] i = OUT m c i := by
  intro i hi
  rw [View.writes_singleton]
  refine Eq.trans ?_ (local_val m c fd i hi)
  obtain ⟨y, rfl⟩ := View.exists_emb_of_mem_set (ldstM c).view hi
  -- the whole rectangle places every index at itself, so the two views place `y` at the same element
  have e : (ldstM c).view.emb y = ((ldstM c).view.slice (Rect.whole S4096x1024)).emb y := by
    show _ = (ldstM c).view.emb ((Rect.whole S4096x1024).emb y)
    rw [Rect.emb_whole_apply]
  conv_rhs => rw [View.write_emb_of_mem _ _ (Finset.mem_univ y)]
  conv_lhs => rw [e, View.write_emb_of_mem _ _ (Finset.mem_univ y)]

end Cert.KernelIdeal.A2A

end
-- ==== Proof.Restate.lean ====
/-
  The value lemmas as entailments between points-to assertions: a window holding the stored chunks holds the converted
  slab; a half block holding a landed slab, or the block the local copy filled, holds what the result array must end with.
-/
import proofs.«900645_g7700000000000646_dist_a2a_v7x_xyz2x2x4_z_m4096_n1024_bf16_1_alg».proof.Proof.Vals
import proofs.«900645_g7700000000000646_dist_a2a_v7x_xyz2x2x4_z_m4096_n1024_bf16_1_alg».proof.Proof.Landed

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ
variable (m : (ℓ : Loc nD τ sig) → Buf (Elt F) ℓ)

theorem slab_restate (c : Dev nD) (k : Fin 6) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    {o0 : Fin 2 → ℕ} (ho0 : o0 = ![2048 * (k.val % 2) + 512 * 0, 1024 * ((c.val + (k.val / 2 + 1)) % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![2048 * (k.val % 2) + 512 * 1, 1024 * ((c.val + (k.val / 2 + 1)) % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![2048 * (k.val % 2) + 512 * 2, 1024 * ((c.val + (k.val / 2 + 1)) % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![2048 * (k.val % 2) + 512 * 3, 1024 * ((c.val + (k.val / 2 + 1)) % 4)]) {inb3 : ∀ a, o3 a + S512x1024.size a ≤ S4096x4096.size a} {hs3 : ∀ a, (Rect.unit (s := S4096x4096) o3 S512x1024.size inb3).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)} :
    (((srcM k).view.loc (c : Thread nD τ) ↦[(srcM k).view.set]{fullShare}
      (View.write (Elt F) (bM.access (Rect.unit (s := S4x4096x1024) (cOff k 3) S1x512x1024.size (cInb k 3))) (View.write (Elt F) (bM.access (Rect.unit (s := S4x4096x1024) (cOff k 2) S1x512x1024.size (cInb k 2))) (View.write (Elt F) (bM.access (Rect.unit (s := S4x4096x1024) (cOff k 1) S1x512x1024.size (cInb k 1))) (View.write (Elt F) (bM.access (Rect.unit (s := S4x4096x1024) (cOff k 0) S1x512x1024.size (cInb k 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ) : sProp 𝕄))
      ⊢ slabDone m c k :=
  Entails.of_eq (pointsTo_congr (slab_val m c k fb PAY0 hP0 PAY1 hP1 PAY2 hP2 PAY3 hP3 ho0 ho1 ho2 ho3))

theorem lslab_restate (c : Dev nD) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    (PAY4 : (S1x512x1024.Idx → F .f32) → (S1x512x1024.Idx → F .bf16)) (hP4 : PAY4 = narV)
    (PAY5 : (S1x512x1024.Idx → F .f32) → (S1x512x1024.Idx → F .bf16)) (hP5 : PAY5 = narV)
    (PAY6 : (S1x512x1024.Idx → F .f32) → (S1x512x1024.Idx → F .bf16)) (hP6 : PAY6 = narV)
    (PAY7 : (S1x512x1024.Idx → F .f32) → (S1x512x1024.Idx → F .bf16)) (hP7 : PAY7 = narV)
    {o0 : Fin 2 → ℕ} (ho0 : o0 = ![512 * 0, 1024 * (c.val % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![512 * 1, 1024 * (c.val % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![512 * 2, 1024 * (c.val % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![512 * 3, 1024 * (c.val % 4)]) {inb3 : ∀ a, o3 a + S512x1024.size a ≤ S4096x4096.size a} {hs3 : ∀ a, (Rect.unit (s := S4096x4096) o3 S512x1024.size inb3).stride a = 1}
    {o4 : Fin 2 → ℕ} (ho4 : o4 = ![512 * 4, 1024 * (c.val % 4)]) {inb4 : ∀ a, o4 a + S512x1024.size a ≤ S4096x4096.size a} {hs4 : ∀ a, (Rect.unit (s := S4096x4096) o4 S512x1024.size inb4).stride a = 1}
    {o5 : Fin 2 → ℕ} (ho5 : o5 = ![512 * 5, 1024 * (c.val % 4)]) {inb5 : ∀ a, o5 a + S512x1024.size a ≤ S4096x4096.size a} {hs5 : ∀ a, (Rect.unit (s := S4096x4096) o5 S512x1024.size inb5).stride a = 1}
    {o6 : Fin 2 → ℕ} (ho6 : o6 = ![512 * 6, 1024 * (c.val % 4)]) {inb6 : ∀ a, o6 a + S512x1024.size a ≤ S4096x4096.size a} {hs6 : ∀ a, (Rect.unit (s := S4096x4096) o6 S512x1024.size inb6).stride a = 1}
    {o7 : Fin 2 → ℕ} (ho7 : o7 = ![512 * 7, 1024 * (c.val % 4)]) {inb7 : ∀ a, o7 a + S512x1024.size a ≤ S4096x4096.size a} {hs7 : ∀ a, (Rect.unit (s := S4096x4096) o7 S512x1024.size inb7).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)}
    {P4 : List (View.Piece (Elt F) S512x1024 .f32)}
    {P5 : List (View.Piece (Elt F) S512x1024 .f32)}
    {P6 : List (View.Piece (Elt F) S512x1024 .f32)}
    {P7 : List (View.Piece (Elt F) S512x1024 .f32)} :
    ((lsrcM.view.loc (c : Thread nD τ) ↦[lsrcM.view.set]{fullShare}
      (View.write (Elt F) (bM.access (Rect.unit (s := S4x4096x1024) (lOff 7) S1x512x1024.size (lInb 7))) (View.write (Elt F) (bM.access (Rect.unit (s := S4x4096x1024) (lOff 6) S1x512x1024.size (lInb 6))) (View.write (Elt F) (bM.access (Rect.unit (s := S4x4096x1024) (lOff 5) S1x512x1024.size (lInb 5))) (View.write (Elt F) (bM.access (Rect.unit (s := S4x4096x1024) (lOff 4) S1x512x1024.size (lInb 4))) (View.write (Elt F) (bM.access (Rect.unit (s := S4x4096x1024) (lOff 3) S1x512x1024.size (lInb 3))) (View.write (Elt F) (bM.access (Rect.unit (s := S4x4096x1024) (lOff 2) S1x512x1024.size (lInb 2))) (View.write (Elt F) (bM.access (Rect.unit (s := S4x4096x1024) (lOff 1) S1x512x1024.size (lInb 1))) (View.write (Elt F) (bM.access (Rect.unit (s := S4x4096x1024) (lOff 0) S1x512x1024.size (lInb 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ)
        (PAY4 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o4 S512x1024.size inb4) hs4).view (X m c))⟩ :: P4)))) Finset.univ)
        (PAY5 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o5 S512x1024.size inb5) hs5).view (X m c))⟩ :: P5)))) Finset.univ)
        (PAY6 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o6 S512x1024.size inb6) hs6).view (X m c))⟩ :: P6)))) Finset.univ)
        (PAY7 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o7 S512x1024.size inb7) hs7).view (X m c))⟩ :: P7)))) Finset.univ) : sProp 𝕄))
      ⊢ (lsrcM.view.loc (c : Thread nD τ) ↦[lsrcM.view.set]{fullShare} XBF m c) :=
  Entails.of_eq (pointsTo_congr (lslab_val m c fb PAY0 hP0 PAY1 hP1 PAY2 hP2 PAY3 hP3 PAY4 hP4 PAY5 hP5 PAY6 hP6 PAY7 hP7 ho0 ho1 ho2 ho3 ho4 ho5 ho6 ho7))

/-- A landed half block holds what the receiver's result array must end with there. -/
theorem landed_restate (s : Dev nD) (k : Fin 6) (fd : Buf (Elt F) ((pe s (k.val / 2 + 1) : Thread nD τ).loc main_v1)) :
    (((dstM s (halfOf k)).view.loc (pe s (k.val / 2 + 1) : Thread nD τ) ↦[(dstM s (halfOf k)).view.set]{fullShare}
        ((dstM s (halfOf k)).view.write (Elt F) fd ((srcM k).view.read (Elt F) (XBF m s)) Finset.univ) : sProp 𝕄))
      ⊢ ((dstM s (halfOf k)).view.loc (pe s (k.val / 2 + 1) : Thread nD τ) ↦[(dstM s (halfOf k)).view.set]{fullShare} OUT m (pe s (k.val / 2 + 1))) :=
  Entails.of_eq (pointsTo_congr (landed_val m s k fd))

theorem local_restate (c : Dev nD) (fd : Buf (Elt F) ((c : Thread nD τ).loc main_v1)) :
    (((ldstM c).view.loc (c : Thread nD τ) ↦[(ldstM c).view.set]{fullShare}
        ((ldstM c).view.write (Elt F) fd (lsrcM.view.read (Elt F) (XBF m c)) Finset.univ) : sProp 𝕄))
      ⊢ ((ldstM c).view.loc (c : Thread nD τ) ↦[(ldstM c).view.set]{fullShare} OUT m c) :=
  Entails.of_eq (pointsTo_congr (local_val m c fd))

theorem slabDone_elim (c : Dev nD) (k : Fin 6) : (slabDone m c k : sProp 𝕄)
    ⊢ ((srcM k).view.loc (c : Thread nD τ) ↦[(srcM k).view.set]{fullShare} XBF m c) := by
  unfold slabDone; exact Entails.rfl

/-- `landed_val` with the receiver named: `r` is the member `k / 2 + 1` places on from the sender. -/
theorem landed_restate' (s r : Dev nD) (k : Fin 6) (hr : r = pe s (k.val / 2 + 1)) (fd : Buf (Elt F) ((r : Thread nD τ).loc main_v1)) :
    (((dstM s (halfOf k)).view.loc (r : Thread nD τ) ↦[(dstM s (halfOf k)).view.set]{fullShare}
        ((dstM s (halfOf k)).view.write (Elt F) fd ((srcM k).view.read (Elt F) (XBF m s)) Finset.univ) : sProp 𝕄))
      ⊢ ((dstM s (halfOf k)).view.loc (r : Thread nD τ) ↦[(dstM s (halfOf k)).view.set]{fullShare} OUT m r) := by
  subst hr; exact landed_restate m s k fd

/-- What the wait on receive cell 0 hands device `c`: the half block the member 3 places on wrote, holding what the
    result array must end with there. -/
theorem recv_done0 (c : Dev nD) : ((Rd (F := F) m).payload (recvCell c 0) 0 0 : sProp 𝕄)
    ⊢ ((dstM (pe c 3) 0).view.loc (c : Thread nD τ) ↦[(dstM (pe c 3) 0).view.set]{fullShare} OUT m c) := by
  rw [payload_recv]
  exact landed_restate' m (pe c 3) c 0 (by rw [pe_pe]; exact (pe_four c).symm) (V m c)

/-- What the wait on receive cell 1 hands device `c`: the half block the member 3 places on wrote, holding what the
    result array must end with there. -/
theorem recv_done1 (c : Dev nD) : ((Rd (F := F) m).payload (recvCell c 1) 0 0 : sProp 𝕄)
    ⊢ ((dstM (pe c 3) 1).view.loc (c : Thread nD τ) ↦[(dstM (pe c 3) 1).view.set]{fullShare} OUT m c) := by
  rw [payload_recv]
  exact landed_restate' m (pe c 3) c 1 (by rw [pe_pe]; exact (pe_four c).symm) (V m c)

/-- What the wait on receive cell 2 hands device `c`: the half block the member 2 places on wrote, holding what the
    result array must end with there. -/
theorem recv_done2 (c : Dev nD) : ((Rd (F := F) m).payload (recvCell c 2) 0 0 : sProp 𝕄)
    ⊢ ((dstM (pe c 2) 0).view.loc (c : Thread nD τ) ↦[(dstM (pe c 2) 0).view.set]{fullShare} OUT m c) := by
  rw [payload_recv]
  exact landed_restate' m (pe c 2) c 2 (by rw [pe_pe]; exact (pe_four c).symm) (V m c)

/-- What the wait on receive cell 3 hands device `c`: the half block the member 2 places on wrote, holding what the
    result array must end with there. -/
theorem recv_done3 (c : Dev nD) : ((Rd (F := F) m).payload (recvCell c 3) 0 0 : sProp 𝕄)
    ⊢ ((dstM (pe c 2) 1).view.loc (c : Thread nD τ) ↦[(dstM (pe c 2) 1).view.set]{fullShare} OUT m c) := by
  rw [payload_recv]
  exact landed_restate' m (pe c 2) c 3 (by rw [pe_pe]; exact (pe_four c).symm) (V m c)

/-- What the wait on receive cell 4 hands device `c`: the half block the member 1 place on wrote, holding what the
    result array must end with there. -/
theorem recv_done4 (c : Dev nD) : ((Rd (F := F) m).payload (recvCell c 4) 0 0 : sProp 𝕄)
    ⊢ ((dstM (pe c 1) 0).view.loc (c : Thread nD τ) ↦[(dstM (pe c 1) 0).view.set]{fullShare} OUT m c) := by
  rw [payload_recv]
  exact landed_restate' m (pe c 1) c 4 (by rw [pe_pe]; exact (pe_four c).symm) (V m c)

/-- What the wait on receive cell 5 hands device `c`: the half block the member 1 place on wrote, holding what the
    result array must end with there. -/
theorem recv_done5 (c : Dev nD) : ((Rd (F := F) m).payload (recvCell c 5) 0 0 : sProp 𝕄)
    ⊢ ((dstM (pe c 1) 1).view.loc (c : Thread nD τ) ↦[(dstM (pe c 1) 1).view.set]{fullShare} OUT m c) := by
  rw [payload_recv]
  exact landed_restate' m (pe c 1) c 5 (by rw [pe_pe]; exact (pe_four c).symm) (V m c)

/-- The block the local copy filled, as the copy leaves it (one whole write, listed), holds what the result array must
    end with there. -/
theorem local_restate_listed (c : Dev nD) (fd : Buf (Elt F) ((c : Thread nD τ).loc main_v1)) :
    (((ldstM c).view.loc (c : Thread nD τ) ↦[(ldstM c).view.set]{fullShare}
        ((ldstM c).view.writes (Elt F) fd [⟨Rect.whole S4096x1024, ReadAs.same.apply (View.read (Elt F) lsrcM.view (XBF m c))⟩]) : sProp 𝕄))
      ⊢ ((ldstM c).view.loc (c : Thread nD τ) ↦[(ldstM c).view.set]{fullShare} OUT m c) :=
  Entails.of_eq (pointsTo_congr (local_val_listed m c fd))

end Cert.KernelIdeal.A2A

end
-- ==== Proof.Ghost.lean ====
/-
  What a device holds when its kernel begins and when it ends.

  At the start: the invariants of its own thirteen cells, of the three other ring members' barrier cells and of the
  six receive cells it pays; that round 0 of every cell it pays is reached; its position at round 0 of its own cells;
  the tokens of the nine duties it pays on other devices and of its own six send duties; the credit for its barrier's
  three units and its six receive cells; the level facts; its three local semaphores at zero; its input as launched and
  its result array as launched. At the end: its input unchanged, its result array holding `OUT`, and all fifteen
  of its own semaphores at zero.
-/
import proofs.«900645_g7700000000000646_dist_a2a_v7x_xyz2x2x4_z_m4096_n1024_bf16_1_alg».proof.Proof.Sched

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The cells' invariants device `c`'s body opens, at the names the launch allocated them under. -/
def invs (KB : Dev nD → ℕ) (KS KR : Dev nD → Fin 6 → ℕ) (c : Dev nD) : sProp 𝕄 :=
  iprop(cellInv ER (Rd m) (KB c) (barCell c)
    ∗ cellInv ER (Rd m) (KS c 0) (sendCell c 0)
    ∗ cellInv ER (Rd m) (KS c 1) (sendCell c 1)
    ∗ cellInv ER (Rd m) (KS c 2) (sendCell c 2)
    ∗ cellInv ER (Rd m) (KS c 3) (sendCell c 3)
    ∗ cellInv ER (Rd m) (KS c 4) (sendCell c 4)
    ∗ cellInv ER (Rd m) (KS c 5) (sendCell c 5)
    ∗ cellInv ER (Rd m) (KR c 0) (recvCell c 0)
    ∗ cellInv ER (Rd m) (KR c 1) (recvCell c 1)
    ∗ cellInv ER (Rd m) (KR c 2) (recvCell c 2)
    ∗ cellInv ER (Rd m) (KR c 3) (recvCell c 3)
    ∗ cellInv ER (Rd m) (KR c 4) (recvCell c 4)
    ∗ cellInv ER (Rd m) (KR c 5) (recvCell c 5)
    ∗ cellInv ER (Rd m) (KB (pe c 1)) (barCell (pe c 1))
    ∗ cellInv ER (Rd m) (KB (pe c 2)) (barCell (pe c 2))
    ∗ cellInv ER (Rd m) (KB (pe c 3)) (barCell (pe c 3))
    ∗ cellInv ER (Rd m) (KR (pe c 1) 0) (recvCell (pe c 1) 0)
    ∗ cellInv ER (Rd m) (KR (pe c 1) 1) (recvCell (pe c 1) 1)
    ∗ cellInv ER (Rd m) (KR (pe c 2) 2) (recvCell (pe c 2) 2)
    ∗ cellInv ER (Rd m) (KR (pe c 2) 3) (recvCell (pe c 2) 3)
    ∗ cellInv ER (Rd m) (KR (pe c 3) 4) (recvCell (pe c 3) 4)
    ∗ cellInv ER (Rd m) (KR (pe c 3) 5) (recvCell (pe c 3) 5))

instance invs_persistent (KB : Dev nD → ℕ) (KS KR : Dev nD → Fin 6 → ℕ) (c : Dev nD) : BI.Persistent (invs m KB KS KR c) := by
  unfold invs; infer_instance

/-- Round 0 of every cell device `c` pays is reached. -/
def reacheds (c : Dev nD) : sProp 𝕄 :=
  iprop(reached ER (barCell (pe c 1)) 0
    ∗ reached ER (barCell (pe c 2)) 0
    ∗ reached ER (barCell (pe c 3)) 0
    ∗ reached ER (recvCell (pe c 1) 0) 0
    ∗ reached ER (recvCell (pe c 1) 1) 0
    ∗ reached ER (recvCell (pe c 2) 2) 0
    ∗ reached ER (recvCell (pe c 2) 3) 0
    ∗ reached ER (recvCell (pe c 3) 4) 0
    ∗ reached ER (recvCell (pe c 3) 5) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0)

instance reacheds_persistent (c : Dev nD) : BI.Persistent (reacheds (F := F) c) := by unfold reacheds; infer_instance

/-- Device `c` at round 0 of its own thirteen cells, nothing consumed. -/
def positions (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0)

/-- The tokens of the duties device `c` pays: signal `j` on the barrier cell of the member `j` places on, send `k`'s
    receive duty on the member it goes to, and its own six send duties. -/
def payToks (c : Dev nD) : sProp 𝕄 :=
  iprop(dutyTok ER (barCell (pe c 1)) 0 0
    ∗ dutyTok ER (barCell (pe c 2)) 0 1
    ∗ dutyTok ER (barCell (pe c 3)) 0 2
    ∗ dutyTok ER (recvCell (pe c 1) 0) 0 0
    ∗ dutyTok ER (recvCell (pe c 1) 1) 0 0
    ∗ dutyTok ER (recvCell (pe c 2) 2) 0 0
    ∗ dutyTok ER (recvCell (pe c 2) 3) 0 0
    ∗ dutyTok ER (recvCell (pe c 3) 4) 0 0
    ∗ dutyTok ER (recvCell (pe c 3) 5) 0 0
    ∗ dutyTok ER (sendCell c 0) 0 0
    ∗ dutyTok ER (sendCell c 1) 0 0
    ∗ dutyTok ER (sendCell c 2) 0 0
    ∗ dutyTok ER (sendCell c 3) 0 0
    ∗ dutyTok ER (sendCell c 4) 0 0
    ∗ dutyTok ER (sendCell c 5) 0 0)

/-- The credit device `c` is dealt at launch for what the others owe its cells. -/
def creds (c : Dev nD) : sProp 𝕄 :=
  iprop(cred (tallyAt (barCell c) () 3)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N))

def ghost (KB : Dev nD → ℕ) (KS KR : Dev nD → Fin 6 → ℕ) (c : Dev nD) : sProp 𝕄 :=
  iprop(invs m KB KS KR c ∗ reacheds c ∗ positions c ∗ payToks c)

/-- The three semaphores the local copies complete on, at zero. -/
def localSems (c : Dev nD) : sProp 𝕄 :=
  iprop(semVal ((c : Thread nD τ), .dma (stageS 0)) 0 ∗ semVal ((c : Thread nD τ), .dma (stageS 1)) 0 ∗ semVal ((c : Thread nD τ), .dma localS) 0)

/-- What device `c` routes into its kernel at launch. -/
def start (c : Dev nD) : sProp 𝕄 :=
  iprop((∃ KB KS KR, ghost m KB KS KR c) ∗ creds c ∗ levAts L lv ∗ localSems c
    ∗ (((c : Thread nD τ).loc main_arg0) ↦{fullShare} X m c)
    ∗ (((c : Thread nD τ).loc main_v1) ↦{fullShare} V m c))

/-- The two scratch arrays, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

/-- The kernel's own fifteen semaphores, at zero. -/
def ownZero (c : Dev nD) : sProp 𝕄 :=
  iprop(semVal (sendCell c 0) 0
    ∗ semVal (sendCell c 1) 0
    ∗ semVal (sendCell c 2) 0
    ∗ semVal (sendCell c 3) 0
    ∗ semVal (sendCell c 4) 0
    ∗ semVal (sendCell c 5) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ localSems c)

/-- After the kernel: the input as launched, the result array at `OUT`, the scratch arrays back, the own semaphores at
    zero. -/
def Φ₁ (c : Dev nD) : sProp 𝕄 :=
  iprop((((c : Thread nD τ).loc main_arg0) ↦{fullShare} X m c) ∗ (((c : Thread nD τ).loc main_v1) ↦{fullShare} OUT m c)
    ∗ scratch c ∗ ownZero c)

/-- The pipeline's proof data: no window; the invariant before the one point and after it; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.Finish.lean ====
/-
  The end of a device's kernel: every wait has returned. The six received half blocks and the locally copied block are
  the result array at `OUT`; the six half slabs and slab 3 are the narrowed staging array again, the two slots the
  staging array; the twelve transfer cells, each at its last round with nothing outstanding, close to their counters
  at zero.
-/
import proofs.«900645_g7700000000000646_dist_a2a_v7x_xyz2x2x4_z_m4096_n1024_bf16_1_alg».proof.Proof.Restate
import proofs.«900645_g7700000000000646_dist_a2a_v7x_xyz2x2x4_z_m4096_n1024_bf16_1_alg».proof.Proof.Ghost

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- The post of the one point: the invariant after it, nothing owed, no window. -/
def bodyPost (c : Dev nD) : sProp 𝕄 := iprop(Φ₁ m c ∗ (dats m 0 c).owesAt () t₀.succ ∗ emp)

set_option maxHeartbeats 1600000 in
theorem finish (c : Dev nD) (KS KR : Dev nD → Fin 6 → ℕ) (g0 g1 : Buf (Elt F) ((c : Thread nD τ).loc cc0_scratch1)) (W' : Waits sig Unit) :
    iprop(cellInv ER (Rd m) (KS c 0) (sendCell c 0)
      ∗ cellInv ER (Rd m) (KS c 1) (sendCell c 1)
      ∗ cellInv ER (Rd m) (KS c 2) (sendCell c 2)
      ∗ cellInv ER (Rd m) (KS c 3) (sendCell c 3)
      ∗ cellInv ER (Rd m) (KS c 4) (sendCell c 4)
      ∗ cellInv ER (Rd m) (KS c 5) (sendCell c 5)
      ∗ cellInv ER (Rd m) (KR c 0) (recvCell c 0)
      ∗ cellInv ER (Rd m) (KR c 1) (recvCell c 1)
      ∗ cellInv ER (Rd m) (KR c 2) (recvCell c 2)
      ∗ cellInv ER (Rd m) (KR c 3) (recvCell c 3)
      ∗ cellInv ER (Rd m) (KR c 4) (recvCell c 4)
      ∗ cellInv ER (Rd m) (KR c 5) (recvCell c 5)
      ∗ (xM.view.loc (c : Thread nD τ) ↦{fullShare} X m c)
      ∗ ((slotM 0).view.loc (c : Thread nD τ) ↦[(slotM 0).view.set]{fullShare} g0)
      ∗ ((slotM 1).view.loc (c : Thread nD τ) ↦[(slotM 1).view.set]{fullShare} g1)
      ∗ semVal ((c : Thread nD τ), .dma (stageS 0)) 0
      ∗ semVal ((c : Thread nD τ), .dma (stageS 1)) 0
      ∗ semVal ((c : Thread nD τ), .dma localS) 0
      ∗ atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ ((srcM 0).view.loc (c : Thread nD τ) ↦[(srcM 0).view.set]{fullShare} XBF m c)
      ∗ ((srcM 1).view.loc (c : Thread nD τ) ↦[(srcM 1).view.set]{fullShare} XBF m c)
      ∗ ((srcM 2).view.loc (c : Thread nD τ) ↦[(srcM 2).view.set]{fullShare} XBF m c)
      ∗ ((srcM 3).view.loc (c : Thread nD τ) ↦[(srcM 3).view.set]{fullShare} XBF m c)
      ∗ ((srcM 4).view.loc (c : Thread nD τ) ↦[(srcM 4).view.set]{fullShare} XBF m c)
      ∗ ((srcM 5).view.loc (c : Thread nD τ) ↦[(srcM 5).view.set]{fullShare} XBF m c)
      ∗ (Rd m).payload (recvCell c 0) 0 0
      ∗ (Rd m).payload (recvCell c 1) 0 0
      ∗ (Rd m).payload (recvCell c 2) 0 0
      ∗ (Rd m).payload (recvCell c 3) 0 0
      ∗ (Rd m).payload (recvCell c 4) 0 0
      ∗ (Rd m).payload (recvCell c 5) 0 0
      ∗ ((ldstM c).view.loc (c : Thread nD τ) ↦[(ldstM c).view.set]{fullShare} ((ldstM c).view.writes (Elt F) (V m c) [⟨Rect.whole S4096x1024, ReadAs.same.apply (View.read (Elt F) lsrcM.view (XBF m c))⟩]))
      ∗ (lsrcM.view.loc (c : Thread nD τ) ↦[lsrcM.view.set]{fullShare} XBF m c)
      ∗ owes (c : Thread nD τ) 0 W')
      ⊢ wp frame (wpE (defs₀ (F := F)) 𝒱₀ (c : Thread nD τ) none) Set.univ (Prog.ret PUnit.unit : Prog (TpuEff nD τ sig (Elt F) Λ₀ .tc) PUnit)
          (fun _ => bodyPost m c) := by
  iintro ⟨#HIs0, #HIs1, #HIs2, #HIs3, #HIs4, #HIs5, #HIr0, #HIr1, #HIr2, #HIr3, #HIr4, #HIr5, Hx, Hg0, Hg1, Hz12, Hz13, Hz14, HaS0, HaS1, HaS2, HaS3, HaS4, HaS5, HaR0, HaR1, HaR2, HaR3, HaR4, HaR5, HaS0_pay1, HaS1_pay1, HaS2_pay1, HaS3_pay1, HaS4_pay1, HaS5_pay1, HaR0_pay1, HaR1_pay1, HaR2_pay1, HaR3_pay1, HaR4_pay1, HaR5_pay1, Ho6, Hb6, HO⟩
  -- the result array: the six received half blocks and the locally copied block
  ihave Hw10 := (recv_done4 m c) $$ HaR4_pay1
  ihave Hw11 := (recv_done5 m c) $$ HaR5_pay1
  ihave Hw20 := (recv_done2 m c) $$ HaR2_pay1
  ihave Hw21 := (recv_done3 m c) $$ HaR3_pay1
  ihave Hw30 := (recv_done0 m c) $$ HaR0_pay1
  ihave Hw31 := (recv_done1 m c) $$ HaR1_pay1
  ihave Hw6 := (local_restate_listed m c (V m c)) $$ Ho6
  ihave Hout := (out_split c (OUT m c)).2 $$ [Hw10 Hw11 Hw20 Hw21 Hw30 Hw31 Hw6]
  · isplitl [Hw10]; · iexact Hw10
    isplitl [Hw11]; · iexact Hw11
    isplitl [Hw20]; · iexact Hw20
    isplitl [Hw21]; · iexact Hw21
    isplitl [Hw30]; · iexact Hw30
    isplitl [Hw31]; · iexact Hw31
    iexact Hw6
  -- the narrowed staging array and the two-slot staging array
  ihave Hxbf := (xbf_split c (XBF m c)).2 $$ [HaS0_pay1 HaS1_pay1 HaS2_pay1 HaS3_pay1 HaS4_pay1 HaS5_pay1 Hb6]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact Hb6
  ihave Hstage := (stage_join c g0 g1) $$ [Hg0 Hg1]
  · isplitl [Hg0]; · iexact Hg0
    iexact Hg1
  -- the twelve transfer cells close
  imod (Rounds.cell_close ER (Rd m) (Set.mem_univ (KS c 0)) (fun h => h) (R := 1) (duties_later m (sendCell c 0))) $$ [HaS0] with HzS0
  · isplitr; · iexact HIs0
    iexact HaS0
  imod (Rounds.cell_close ER (Rd m) (Set.mem_univ (KS c 1)) (fun h => h) (R := 1) (duties_later m (sendCell c 1))) $$ [HaS1] with HzS1
  · isplitr; · iexact HIs1
    iexact HaS1
  imod (Rounds.cell_close ER (Rd m) (Set.mem_univ (KS c 2)) (fun h => h) (R := 1) (duties_later m (sendCell c 2))) $$ [HaS2] with HzS2
  · isplitr; · iexact HIs2
    iexact HaS2
  imod (Rounds.cell_close ER (Rd m) (Set.mem_univ (KS c 3)) (fun h => h) (R := 1) (duties_later m (sendCell c 3))) $$ [HaS3] with HzS3
  · isplitr; · iexact HIs3
    iexact HaS3
  imod (Rounds.cell_close ER (Rd m) (Set.mem_univ (KS c 4)) (fun h => h) (R := 1) (duties_later m (sendCell c 4))) $$ [HaS4] with HzS4
  · isplitr; · iexact HIs4
    iexact HaS4
  imod (Rounds.cell_close ER (Rd m) (Set.mem_univ (KS c 5)) (fun h => h) (R := 1) (duties_later m (sendCell c 5))) $$ [HaS5] with HzS5
  · isplitr; · iexact HIs5
    iexact HaS5
  imod (Rounds.cell_close ER (Rd m) (Set.mem_univ (KR c 0)) (fun h => h) (R := 1) (duties_later m (recvCell c 0))) $$ [HaR0] with HzR0
  · isplitr; · iexact HIr0
    iexact HaR0
  imod (Rounds.cell_close ER (Rd m) (Set.mem_univ (KR c 1)) (fun h => h) (R := 1) (duties_later m (recvCell c 1))) $$ [HaR1] with HzR1
  · isplitr; · iexact HIr1
    iexact HaR1
  imod (Rounds.cell_close ER (Rd m) (Set.mem_univ (KR c 2)) (fun h => h) (R := 1) (duties_later m (recvCell c 2))) $$ [HaR2] with HzR2
  · isplitr; · iexact HIr2
    iexact HaR2
  imod (Rounds.cell_close ER (Rd m) (Set.mem_univ (KR c 3)) (fun h => h) (R := 1) (duties_later m (recvCell c 3))) $$ [HaR3] with HzR3
  · isplitr; · iexact HIr3
    iexact HaR3
  imod (Rounds.cell_close ER (Rd m) (Set.mem_univ (KR c 4)) (fun h => h) (R := 1) (duties_later m (recvCell c 4))) $$ [HaR4] with HzR4
  · isplitr; · iexact HIr4
    iexact HaR4
  imod (Rounds.cell_close ER (Rd m) (Set.mem_univ (KR c 5)) (fun h => h) (R := 1) (duties_later m (recvCell c 5))) $$ [HaR5] with HzR5
  · isplitr; · iexact HIr5
    iexact HaR5
  rw [wp_ret]; imodintro
  unfold bodyPost Φ₁ scratch ownZero localSems Dat.owesAt Pipeline.owesWithin
  rw [show (dats m 0 c).owed t₀.succ = 0 from rfl]
  isplitr [HO]
  · isplitl [Hx]; · iexact Hx
    isplitl [Hout]; · iexact Hout
    isplitl [Hxbf Hstage]
    · isplitl [Hxbf]
      · iexists _; iexact Hxbf
      · iexact Hstage
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [Hz12]; · iexact Hz12
    isplitl [Hz13]; · iexact Hz13
    iexact Hz14
  isplitl [HO]
  · iexists W'
    isplitr; · ipureintro; exact fun _ _ => Or.inl trivial
    iexact HO
  iempintro

end Cert.KernelIdeal.A2A

end
-- ==== Proof.Send.lean ====
/-
  One send, as a rule: device `c`'s send `k` reads its converted half slab and writes it over the half block of the
  member `k / 2 + 1` places on that this device was handed at the barrier; it pays the duty of its own send cell (the
  slab comes back with it) and the duty of that member's receive cell `k` (the half block goes with it, holding the
  slab written over what it held at launch).
-/
import proofs.«900645_g7700000000000646_dist_a2a_v7x_xyz2x2x4_z_m4096_n1024_bf16_1_alg».proof.Proof.Ghost

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- A half block's transfer credits its cells the half slab's credit: the credit reads the shape and element type only. -/
theorem amount_dst (s : Dev nD) (h : Fin 2) (r : DmaSem sig) : (dstM s h).view.amount (.dma r) = N := rfl

set_option maxHeartbeats 1600000 in
theorem wp_send_a2a (c n : Dev nD) (k : Fin 6) (hn : n = pe c (k.val / 2 + 1)) (KSk KRk : ℕ)
    {src : Memref sig .tc .vmem S2048x1024 .bf16} (hsrcM : src = srcM k)
    {dst : Memref sig (Dev.tc n : Thread nD τ).2.kind .hbm S2048x1024 .bf16} (hdstM : dst = dstM c (halfOf k))
    {sS sR : DmaSem sig} (hS : sS = sendS k) (hR : sR = recvS k)
    {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (O : CellTallies nD τ sig Unit) (W : Waits sig Unit) :
    iprop(cellInv ER (Rd m) KSk (sendCell c k) ∗ cellInv ER (Rd m) KRk (recvCell (pe c (k.val / 2 + 1)) k)
        ∗ ((srcM k).view.loc (c : Thread nD τ) ↦[(srcM k).view.set]{fullShare} XBF m c)
        ∗ ((dstM c (halfOf k)).view.loc (pe c (k.val / 2 + 1) : Thread nD τ) ↦[(dstM c (halfOf k)).view.set]{fullShare} V m (pe c (k.val / 2 + 1)))
        ∗ owes (c : Thread nD τ) (O + tallyAt (recvCell (pe c (k.val / 2 + 1)) k) () N) W
        ∗ dutyTok ER (sendCell c k) 0 0 ∗ reached ER (sendCell c k) 0
        ∗ dutyTok ER (recvCell (pe c (k.val / 2 + 1)) k) 0 0 ∗ reached ER (recvCell (pe c (k.val / 2 + 1)) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hsrcM hdstM hS hR
  exact Rounds.wp_send_pointsTo 𝒱₀ ER (Rd m) (c : Thread nD τ) none (c' := (pe c (k.val / 2 + 1) : Thread nD τ))
    (src := srcM k) (dst := dstM c (halfOf k)) (sS := .dma (sendS k)) (sem := .dma (recvS k)) (q := fullShare) (fs := XBF m c)
    (κ₁ := KSk) (κ₂ := KRk)
    (r₁ := 0) (r₂ := 0) (d₁ := 0) (d₂ := 0) (fd := V m (pe c (k.val / 2 + 1)))
    (by rw [duties_send]; exact Finset.mem_singleton_self _) (by rw [duties_recv]; exact Finset.mem_singleton_self _)
    () () N (amount_dst c (halfOf k) (recvS k)) (amount_send m c k 0) (amount_recv m (pe c (k.val / 2 + 1)) k 0) O rfl (W := W)
    (by rw [payload_send])
    (by
      rw [payload_recv]; unfold outDone
      have e1 : senderOf (pe c (k.val / 2 + 1)) k = c := by
        unfold senderOf; rw [pe_pe]
        have : k.val / 2 + 1 + (3 - k.val / 2) = 4 := by have := k.isLt; omega
        rw [this]; exact pe_four c
      rw [e1])

set_option maxHeartbeats 1600000 in
/-- The last send: nothing else is owed. -/
theorem wp_send_a2a_last (c n : Dev nD) (k : Fin 6) (hn : n = pe c (k.val / 2 + 1)) (KSk KRk : ℕ)
    {src : Memref sig .tc .vmem S2048x1024 .bf16} (hsrcM : src = srcM k)
    {dst : Memref sig (Dev.tc n : Thread nD τ).2.kind .hbm S2048x1024 .bf16} (hdstM : dst = dstM c (halfOf k))
    {sS sR : DmaSem sig} (hS : sS = sendS k) (hR : sR = recvS k)
    {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (W : Waits sig Unit) :
    iprop(cellInv ER (Rd m) KSk (sendCell c k) ∗ cellInv ER (Rd m) KRk (recvCell (pe c (k.val / 2 + 1)) k)
        ∗ ((srcM k).view.loc (c : Thread nD τ) ↦[(srcM k).view.set]{fullShare} XBF m c)
        ∗ ((dstM c (halfOf k)).view.loc (pe c (k.val / 2 + 1) : Thread nD τ) ↦[(dstM c (halfOf k)).view.set]{fullShare} V m (pe c (k.val / 2 + 1)))
        ∗ owes (c : Thread nD τ) (tallyAt (recvCell (pe c (k.val / 2 + 1)) k) () N) W
        ∗ dutyTok ER (sendCell c k) 0 0 ∗ reached ER (sendCell c k) 0
        ∗ dutyTok ER (recvCell (pe c (k.val / 2 + 1)) k) 0 0 ∗ reached ER (recvCell (pe c (k.val / 2 + 1)) k) 0)
      ⊢ iprop(((cred (tallyAt (sendCell c k) () N) ∗ owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hsrcM hdstM hS hR
  exact Rounds.wp_send_pointsTo 𝒱₀ ER (Rd m) (c : Thread nD τ) none (c' := (pe c (k.val / 2 + 1) : Thread nD τ))
    (src := srcM k) (dst := dstM c (halfOf k)) (sS := .dma (sendS k)) (sem := .dma (recvS k)) (q := fullShare) (fs := XBF m c)
    (κ₁ := KSk) (κ₂ := KRk)
    (r₁ := 0) (r₂ := 0) (d₁ := 0) (d₂ := 0) (fd := V m (pe c (k.val / 2 + 1)))
    (by rw [duties_send]; exact Finset.mem_singleton_self _) (by rw [duties_recv]; exact Finset.mem_singleton_self _)
    () () N (amount_dst c (halfOf k) (recvS k)) (amount_send m c k 0) (amount_recv m (pe c (k.val / 2 + 1)) k 0) 0 (zero_add _).symm (W := W)
    (by rw [payload_send])
    (by
      rw [payload_recv]; unfold outDone
      have e1 : senderOf (pe c (k.val / 2 + 1)) k = c := by
        unfold senderOf; rw [pe_pe]
        have : k.val / 2 + 1 + (3 - k.val / 2) = 4 := by have := k.isLt; omega
        rw [this]; exact pe_four c
      rw [e1])

end Cert.KernelIdeal.A2A

end
-- ==== Proof.BodyRun.lean ====
/-
  One device's kernel, run once at a symbolic device.

  From what the device holds at launch — its result array and its two scratch arrays cut into the windows the transfers
  write and read — the kernel's statements are taken in program order: the three barrier signals hand the other ring
  members the half blocks of this device's result array they write; the barrier wait brings the six half blocks this
  device writes; then, six times, four chunks of the input are copied in, narrowed and stored, the half slab they fill is
  restated as the converted slab, and the send pays its two duties; the device's own columns fill slab 3, which the local
  copy moves to its own block; the six receive waits, the local wait and the six send waits bring every array back.
-/
import proofs.«900645_g7700000000000646_dist_a2a_v7x_xyz2x2x4_z_m4096_n1024_bf16_1_alg».proof.Proof.Finish
import proofs.«900645_g7700000000000646_dist_a2a_v7x_xyz2x2x4_z_m4096_n1024_bf16_1_alg».proof.Proof.Send

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

attribute [local sl_canon] dev1_eq dev2_eq dev3_eq dev4_eq dev5_eq dev6_eq dev7_eq dev8_eq dev9_eq
attribute [local sl_rounds] duties_bar duties_send duties_recv amount_bar amount_send amount_recv expect_bar expect_send expect_recv
  payload_send payload_recv_to0 payload_recv_to1 payload_recv_to2 payload_recv_to3 payload_recv_to4 payload_recv_to5
  payload_bar_to1 payload_bar_to2 payload_bar_to3

/-- The local copy's semaphore at zero, kept folded until the copy is issued. -/
def localSemZ (c : Dev nD) : sProp 𝕄 := semVal ((c : Thread nD τ), .dma localS) 0
theorem localSemZ_elim (c : Dev nD) : (localSemZ (F := F) c) ⊢ (semVal ((c : Thread nD τ), .dma localS) 0 : sProp 𝕄) := by
  unfold localSemZ; exact Entails.rfl
/-- Slab 3, converted. -/
def lslabDone (c : Dev nD) : sProp 𝕄 := lsrcM.view.loc (c : Thread nD τ) ↦[lsrcM.view.set]{fullShare} XBF m c
theorem lslabDone_elim (c : Dev nD) : (lslabDone m c) ⊢ (lsrcM.view.loc (c : Thread nD τ) ↦[lsrcM.view.set]{fullShare} XBF m c : sProp 𝕄) := by
  unfold lslabDone; exact Entails.rfl

set_option maxHeartbeats 16000000 in
/-- The kernel from the windows held apart to its end state. -/
theorem sound_body (c : Dev nD) (KB : Dev nD → ℕ) (KS KR : Dev nD → Fin 6 → ℕ) (W : Waits sig Unit)
    (fg : Buf (Elt F) ((c : Thread nD τ).loc cc0_scratch1)) (fb : Buf (Elt F) ((c : Thread nD τ).loc cc0_scratch0)) :
    iprop(cellInv ER (Rd m) (KB c) (barCell c)
      ∗ cellInv ER (Rd m) (KS c 0) (sendCell c 0)
      ∗ cellInv ER (Rd m) (KS c 1) (sendCell c 1)
      ∗ cellInv ER (Rd m) (KS c 2) (sendCell c 2)
      ∗ cellInv ER (Rd m) (KS c 3) (sendCell c 3)
      ∗ cellInv ER (Rd m) (KS c 4) (sendCell c 4)
      ∗ cellInv ER (Rd m) (KS c 5) (sendCell c 5)
      ∗ cellInv ER (Rd m) (KR c 0) (recvCell c 0)
      ∗ cellInv ER (Rd m) (KR c 1) (recvCell c 1)
      ∗ cellInv ER (Rd m) (KR c 2) (recvCell c 2)
      ∗ cellInv ER (Rd m) (KR c 3) (recvCell c 3)
      ∗ cellInv ER (Rd m) (KR c 4) (recvCell c 4)
      ∗ cellInv ER (Rd m) (KR c 5) (recvCell c 5)
      ∗ cellInv ER (Rd m) (KB (pe c 1)) (barCell (pe c 1))
      ∗ cellInv ER (Rd m) (KB (pe c 2)) (barCell (pe c 2))
      ∗ cellInv ER (Rd m) (KB (pe c 3)) (barCell (pe c 3))
      ∗ cellInv ER (Rd m) (KR (pe c 1) 0) (recvCell (pe c 1) 0)
      ∗ cellInv ER (Rd m) (KR (pe c 1) 1) (recvCell (pe c 1) 1)
      ∗ cellInv ER (Rd m) (KR (pe c 2) 2) (recvCell (pe c 2) 2)
      ∗ cellInv ER (Rd m) (KR (pe c 2) 3) (recvCell (pe c 2) 3)
      ∗ cellInv ER (Rd m) (KR (pe c 3) 4) (recvCell (pe c 3) 4)
      ∗ cellInv ER (Rd m) (KR (pe c 3) 5) (recvCell (pe c 3) 5)
      ∗ reached ER (barCell (pe c 1)) 0
      ∗ reached ER (barCell (pe c 2)) 0
      ∗ reached ER (barCell (pe c 3)) 0
      ∗ reached ER (recvCell (pe c 1) 0) 0
      ∗ reached ER (recvCell (pe c 1) 1) 0
      ∗ reached ER (recvCell (pe c 2) 2) 0
      ∗ reached ER (recvCell (pe c 2) 3) 0
      ∗ reached ER (recvCell (pe c 3) 4) 0
      ∗ reached ER (recvCell (pe c 3) 5) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ dutyTok ER (barCell (pe c 1)) 0 0
      ∗ dutyTok ER (barCell (pe c 2)) 0 1
      ∗ dutyTok ER (barCell (pe c 3)) 0 2
      ∗ dutyTok ER (recvCell (pe c 1) 0) 0 0
      ∗ dutyTok ER (recvCell (pe c 1) 1) 0 0
      ∗ dutyTok ER (recvCell (pe c 2) 2) 0 0
      ∗ dutyTok ER (recvCell (pe c 2) 3) 0 0
      ∗ dutyTok ER (recvCell (pe c 3) 4) 0 0
      ∗ dutyTok ER (recvCell (pe c 3) 5) 0 0
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ cred (tallyAt (barCell c) () 3)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ owes (c : Thread nD τ) (O₀ c) W
      ∗ semVal ((c : Thread nD τ), .dma (stageS 0)) 0
      ∗ semVal ((c : Thread nD τ), .dma (stageS 1)) 0
      ∗ localSemZ c
      ∗ (xM.view.loc (c : Thread nD τ) ↦{fullShare} X m c)
      ∗ ((slotM 0).view.loc (c : Thread nD τ) ↦[(slotM 0).view.set]{fullShare} fg)
      ∗ ((slotM 1).view.loc (c : Thread nD τ) ↦[(slotM 1).view.set]{fullShare} fg)
      ∗ ((srcM 0).view.loc (c : Thread nD τ) ↦[(srcM 0).view.set]{fullShare} fb)
      ∗ ((srcM 1).view.loc (c : Thread nD τ) ↦[(srcM 1).view.set]{fullShare} fb)
      ∗ ((srcM 2).view.loc (c : Thread nD τ) ↦[(srcM 2).view.set]{fullShare} fb)
      ∗ ((srcM 3).view.loc (c : Thread nD τ) ↦[(srcM 3).view.set]{fullShare} fb)
      ∗ ((srcM 4).view.loc (c : Thread nD τ) ↦[(srcM 4).view.set]{fullShare} fb)
      ∗ ((srcM 5).view.loc (c : Thread nD τ) ↦[(srcM 5).view.set]{fullShare} fb)
      ∗ (lsrcM.view.loc (c : Thread nD τ) ↦[lsrcM.view.set]{fullShare} fb)
      ∗ ((dstM (pe c 1) 0).view.loc (c : Thread nD τ) ↦[(dstM (pe c 1) 0).view.set]{fullShare} V m c)
      ∗ ((dstM (pe c 1) 1).view.loc (c : Thread nD τ) ↦[(dstM (pe c 1) 1).view.set]{fullShare} V m c)
      ∗ ((dstM (pe c 2) 0).view.loc (c : Thread nD τ) ↦[(dstM (pe c 2) 0).view.set]{fullShare} V m c)
      ∗ ((dstM (pe c 2) 1).view.loc (c : Thread nD τ) ↦[(dstM (pe c 2) 1).view.set]{fullShare} V m c)
      ∗ ((dstM (pe c 3) 0).view.loc (c : Thread nD τ) ↦[(dstM (pe c 3) 0).view.set]{fullShare} V m c)
      ∗ ((dstM (pe c 3) 1).view.loc (c : Thread nD τ) ↦[(dstM (pe c 3) 1).view.set]{fullShare} V m c)
      ∗ ((ldstM c).view.loc (c : Thread nD τ) ↦[(ldstM c).view.set]{fullShare} V m c))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c) := by
  iintro ⟨#HIb, #HIs0, #HIs1, #HIs2, #HIs3, #HIs4, #HIs5, #HIr0, #HIr1, #HIr2, #HIr3, #HIr4, #HIr5, #HIbp1, #HIbp2, #HIbp3, #HIrp0, #HIrp1, #HIrp2, #HIrp3, #HIrp4, #HIrp5, #HRbp1, #HRbp2, #HRbp3, #HRrp0, #HRrp1, #HRrp2, #HRrp3, #HRrp4, #HRrp5, #HRs0, #HRs1, #HRs2, #HRs3, #HRs4, #HRs5, #Hlev, HaB, HaS0, HaS1, HaS2, HaS3, HaS4, HaS5, HaR0, HaR1, HaR2, HaR3, HaR4, HaR5, HtB1, HtB2, HtB3, HtR0, HtR1, HtR2, HtR3, HtR4, HtR5, HtS0, HtS1, HtS2, HtS3, HtS4, HtS5, HcB, HcR0, HcR1, HcR2, HcR3, HcR4, HcR5, HO, Hz12, Hz13, Hz14, Hx, Hg0, Hg1, Hb0, Hb1, Hb2, Hb3, Hb4, Hb5, Hb6, Ho0, Ho1, Ho2, Ho3, Ho4, Ho5, Ho6⟩
  have hmwB : (levAts L lv : sProp 𝕄) ⊢ MayWait (c : Thread nD τ) (.reg barS) () (owedRecv c 5 + owedRecv c 4 + owedRecv c 3 + owedRecv c 2 + owedRecv c 1 + owedRecv c 0) := mayWait_bar (F := F) c
  have hmw6 : ∀ sm : SemLoc sig, semLv sm = 0 → ((levAts L lv : sProp 𝕄) ⊢ MayWait (c : Thread nD τ) sm () (owedRecv c 5 + owedRecv c 4 + owedRecv c 3 + owedRecv c 2 + owedRecv c 1 + owedRecv c 0)) := fun sm h => mayWait_low (F := F) c 6 sm h
  have hmw5 : ∀ sm : SemLoc sig, semLv sm = 0 → ((levAts L lv : sProp 𝕄) ⊢ MayWait (c : Thread nD τ) sm () (owedRecv c 5 + owedRecv c 4 + owedRecv c 3 + owedRecv c 2 + owedRecv c 1)) := fun sm h => mayWait_low (F := F) c 5 sm h
  have hmw4 : ∀ sm : SemLoc sig, semLv sm = 0 → ((levAts L lv : sProp 𝕄) ⊢ MayWait (c : Thread nD τ) sm () (owedRecv c 5 + owedRecv c 4 + owedRecv c 3 + owedRecv c 2)) := fun sm h => mayWait_low (F := F) c 4 sm h
  have hmw3 : ∀ sm : SemLoc sig, semLv sm = 0 → ((levAts L lv : sProp 𝕄) ⊢ MayWait (c : Thread nD τ) sm () (owedRecv c 5 + owedRecv c 4 + owedRecv c 3)) := fun sm h => mayWait_low (F := F) c 3 sm h
  have hmw2 : ∀ sm : SemLoc sig, semLv sm = 0 → ((levAts L lv : sProp 𝕄) ⊢ MayWait (c : Thread nD τ) sm () (owedRecv c 5 + owedRecv c 4)) := fun sm h => mayWait_low (F := F) c 2 sm h
  have hmw1 : ∀ sm : SemLoc sig, semLv sm = 0 → ((levAts L lv : sProp 𝕄) ⊢ MayWait (c : Thread nD τ) sm () (owedRecv c 5)) := fun sm h => mayWait_low (F := F) c 1 sm h
  rw [cc0_body_eq_skeleton]; unfold cc0_body_skel O₀
  sl_exec_parts (disch := first | simp only [dev1_eq, dev2_eq, dev3_eq, dev4_eq, dev5_eq, dev6_eq, dev7_eq, dev8_eq, dev9_eq] | decide)
  ihave Hp := (Entails.of_eq (bar_payloads m c)) $$ HaB_pay1
  unfold outInit
  icases Hp with ⟨⟨Ho30, Ho31⟩, ⟨Ho20, Ho21⟩, ⟨Ho10, Ho11⟩⟩
  ihave Hb0 : slabDone m c 0 $$ [Hb0]
  · iapply (slab_restate m c 0 fb k0_pay1 pay1_eq k0_pay2 pay2_eq (fun v => k0_pay4 (k0_pay3 v)) pay4_3_eq k0_pay5 pay5_eq (off1_eq c 0) (off2_eq c 0) (off3_eq c 0) (off4_eq c 0))
    iexact Hb0
  ihave Hb0 := (slabDone_elim m c 0) $$ Hb0
  iapply (wp_send_a2a m c _ 0 rfl (KS c 0) (KR (pe c 1) 0) rfl rfl (by decide) (by decide) (owedRecv c 5 + owedRecv c 4 + owedRecv c 3 + owedRecv c 2 + owedRecv c 1) _) $$ [Hb0 Ho10 HO HtS0 HtR0]
  · isplitr; · iexact HIs0
    isplitr; · iexact HIrp0
    isplitl [Hb0]; · iexact Hb0
    isplitl [Ho10]; · iexact Ho10
    isplitl [HO]; · iexact HO
    isplitl [HtS0]; · iexact HtS0
    isplitr; · iexact HRs0
    isplitl [HtR0]; · iexact HtR0
    iexact HRrp0
  iintro ⟨HcS0, HO⟩
  sl_exec_parts (disch := first | simp only [dev1_eq, dev2_eq, dev3_eq, dev4_eq, dev5_eq, dev6_eq, dev7_eq, dev8_eq, dev9_eq] | decide)
  ihave Hb1 : slabDone m c 1 $$ [Hb1]
  · iapply (slab_restate m c 1 fb k0_pay6 pay6_eq k0_pay7 pay7_eq k0_pay8 pay8_eq k0_pay9 pay9_eq (off6_eq c 0) (off7_eq c 0) (off8_eq c 0) (off9_eq c 0))
    iexact Hb1
  ihave Hb1 := (slabDone_elim m c 1) $$ Hb1
  iapply (wp_send_a2a m c _ 1 rfl (KS c 1) (KR (pe c 1) 1) rfl rfl (by decide) (by decide) (owedRecv c 5 + owedRecv c 4 + owedRecv c 3 + owedRecv c 2) _) $$ [Hb1 Ho11 HO HtS1 HtR1]
  · isplitr; · iexact HIs1
    isplitr; · iexact HIrp1
    isplitl [Hb1]; · iexact Hb1
    isplitl [Ho11]; · iexact Ho11
    isplitl [HO]; · iexact HO
    isplitl [HtS1]; · iexact HtS1
    isplitr; · iexact HRs1
    isplitl [HtR1]; · iexact HtR1
    iexact HRrp1
  iintro ⟨HcS1, HO⟩
  sl_exec_parts (disch := first | simp only [dev1_eq, dev2_eq, dev3_eq, dev4_eq, dev5_eq, dev6_eq, dev7_eq, dev8_eq, dev9_eq] | decide)
  ihave Hb2 : slabDone m c 2 $$ [Hb2]
  · iapply (slab_restate m c 2 fb k0_pay10 pay10_eq k0_pay11 pay11_eq (fun v => k0_pay13 (k0_pay12 v)) pay13_12_eq k0_pay14 pay14_eq (off1_eq c 1) (off2_eq c 1) (off3_eq c 1) (off4_eq c 1))
    iexact Hb2
  ihave Hb2 := (slabDone_elim m c 2) $$ Hb2
  iapply (wp_send_a2a m c _ 2 rfl (KS c 2) (KR (pe c 2) 2) rfl rfl (by decide) (by decide) (owedRecv c 5 + owedRecv c 4 + owedRecv c 3) _) $$ [Hb2 Ho20 HO HtS2 HtR2]
  · isplitr; · iexact HIs2
    isplitr; · iexact HIrp2
    isplitl [Hb2]; · iexact Hb2
    isplitl [Ho20]; · iexact Ho20
    isplitl [HO]; · iexact HO
    isplitl [HtS2]; · iexact HtS2
    isplitr; · iexact HRs2
    isplitl [HtR2]; · iexact HtR2
    iexact HRrp2
  iintro ⟨HcS2, HO⟩
  sl_exec_parts (disch := first | simp only [dev1_eq, dev2_eq, dev3_eq, dev4_eq, dev5_eq, dev6_eq, dev7_eq, dev8_eq, dev9_eq] | decide)
  ihave Hb3 : slabDone m c 3 $$ [Hb3]
  · iapply (slab_restate m c 3 fb k0_pay15 pay15_eq k0_pay16 pay16_eq k0_pay17 pay17_eq k0_pay18 pay18_eq (off6_eq c 1) (off7_eq c 1) (off8_eq c 1) (off9_eq c 1))
    iexact Hb3
  ihave Hb3 := (slabDone_elim m c 3) $$ Hb3
  iapply (wp_send_a2a m c _ 3 rfl (KS c 3) (KR (pe c 2) 3) rfl rfl (by decide) (by decide) (owedRecv c 5 + owedRecv c 4) _) $$ [Hb3 Ho21 HO HtS3 HtR3]
  · isplitr; · iexact HIs3
    isplitr; · iexact HIrp3
    isplitl [Hb3]; · iexact Hb3
    isplitl [Ho21]; · iexact Ho21
    isplitl [HO]; · iexact HO
    isplitl [HtS3]; · iexact HtS3
    isplitr; · iexact HRs3
    isplitl [HtR3]; · iexact HtR3
    iexact HRrp3
  iintro ⟨HcS3, HO⟩
  sl_exec_parts (disch := first | simp only [dev1_eq, dev2_eq, dev3_eq, dev4_eq, dev5_eq, dev6_eq, dev7_eq, dev8_eq, dev9_eq] | decide)
  ihave Hb4 : slabDone m c 4 $$ [Hb4]
  · iapply (slab_restate m c 4 fb k0_pay19 pay19_eq k0_pay20 pay20_eq k0_pay21 pay21_eq k0_pay22 pay22_eq (off1_eq c 2) (off2_eq c 2) (off3_eq c 2) (off4_eq c 2))
    iexact Hb4
  ihave Hb4 := (slabDone_elim m c 4) $$ Hb4
  iapply (wp_send_a2a m c _ 4 rfl (KS c 4) (KR (pe c 3) 4) rfl rfl (by decide) (by decide) (owedRecv c 5) _) $$ [Hb4 Ho30 HO HtS4 HtR4]
  · isplitr; · iexact HIs4
    isplitr; · iexact HIrp4
    isplitl [Hb4]; · iexact Hb4
    isplitl [Ho30]; · iexact Ho30
    isplitl [HO]; · iexact HO
    isplitl [HtS4]; · iexact HtS4
    isplitr; · iexact HRs4
    isplitl [HtR4]; · iexact HtR4
    iexact HRrp4
  iintro ⟨HcS4, HO⟩
  sl_exec_parts (disch := first | simp only [dev1_eq, dev2_eq, dev3_eq, dev4_eq, dev5_eq, dev6_eq, dev7_eq, dev8_eq, dev9_eq] | decide)
  ihave Hb5 : slabDone m c 5 $$ [Hb5]
  · iapply (slab_restate m c 5 fb k0_pay23 pay23_eq k0_pay24 pay24_eq (fun v => k0_pay26 (k0_pay25 v)) pay26_25_eq k0_pay27 pay27_eq (off6_eq c 2) (off7_eq c 2) (off8_eq c 2) (off9_eq c 2))
    iexact Hb5
  ihave Hb5 := (slabDone_elim m c 5) $$ Hb5
  iapply (wp_send_a2a_last m c _ 5 rfl (KS c 5) (KR (pe c 3) 5) rfl rfl (by decide) (by decide) _) $$ [Hb5 Ho31 HO HtS5 HtR5]
  · isplitr; · iexact HIs5
    isplitr; · iexact HIrp5
    isplitl [Hb5]; · iexact Hb5
    isplitl [Ho31]; · iexact Ho31
    isplitl [HO]; · iexact HO
    isplitl [HtS5]; · iexact HtS5
    isplitr; · iexact HRs5
    isplitl [HtR5]; · iexact HtR5
    iexact HRrp5
  iintro ⟨HcS5, HO⟩
  sl_exec_parts (disch := first | simp only [dev1_eq, dev2_eq, dev3_eq, dev4_eq, dev5_eq, dev6_eq, dev7_eq, dev8_eq, dev9_eq] | decide)
  ihave Hb6 : lslabDone m c $$ [Hb6]
  · unfold lslabDone
    iapply (lslab_restate m c fb k0_pay28 pay28_eq k0_pay29 pay29_eq k0_pay30 pay30_eq k0_pay31 pay31_eq (fun v => k0_pay33 (k0_pay32 v)) pay33_32_eq k0_pay34 pay34_eq k0_pay35 pay35_eq k0_pay36 pay36_eq (k0_off10_eq c) (k0_off11_eq c) (k0_off12_eq c) (k0_off13_eq c) (k0_off14_eq c) (k0_off15_eq c) (k0_off16_eq c) (k0_off17_eq c))
    iexact Hb6
  ihave Hb6 := (lslabDone_elim m c) $$ Hb6
  ihave Hz14 := (localSemZ_elim c) $$ Hz14
  sl_exec_parts (disch := first | simp only [dev1_eq, dev2_eq, dev3_eq, dev4_eq, dev5_eq, dev6_eq, dev7_eq, dev8_eq, dev9_eq] | decide)
  iapply (finish m c KS KR _ _ _)
  isplitr; · iexact HIs0
  isplitr; · iexact HIs1
  isplitr; · iexact HIs2
  isplitr; · iexact HIs3
  isplitr; · iexact HIs4
  isplitr; · iexact HIs5
  isplitr; · iexact HIr0
  isplitr; · iexact HIr1
  isplitr; · iexact HIr2
  isplitr; · iexact HIr3
  isplitr; · iexact HIr4
  isplitr; · iexact HIr5
  isplitl [Hx]; · iexact Hx
  isplitl [Hg0]; · iexact Hg0
  isplitl [Hg1]; · iexact Hg1
  isplitl [Hz12]; · iexact Hz12
  isplitl [Hz13]; · iexact Hz13
  isplitl [Hz14]; · iexact Hz14
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaS0_pay1]; · iexact HaS0_pay1
  isplitl [HaS1_pay1]; · iexact HaS1_pay1
  isplitl [HaS2_pay1]; · iexact HaS2_pay1
  isplitl [HaS3_pay1]; · iexact HaS3_pay1
  isplitl [HaS4_pay1]; · iexact HaS4_pay1
  isplitl [HaS5_pay1]; · iexact HaS5_pay1
  isplitl [HaR0_pay1]; · iexact HaR0_pay1
  isplitl [HaR1_pay1]; · iexact HaR1_pay1
  isplitl [HaR2_pay1]; · iexact HaR2_pay1
  isplitl [HaR3_pay1]; · iexact HaR3_pay1
  isplitl [HaR4_pay1]; · iexact HaR4_pay1
  isplitl [HaR5_pay1]; · iexact HaR5_pay1
  isplitl [Ho6]; · iexact Ho6
  isplitl [Hb6]; · iexact Hb6
  iexact HO

end Cert.KernelIdeal.A2A

end
-- ==== Proof.Body.lean ====
/-
  The library's body obligation for one device: what the device holds at launch is cut into the windows the transfers
  write and read (its result array into seven, its narrowed staging array into seven, its two-slot staging array into
  two), and the kernel is run from there.
-/
import proofs.«900645_g7700000000000646_dist_a2a_v7x_xyz2x2x4_z_m4096_n1024_bf16_1_alg».proof.Proof.BodyRun

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

set_option maxRecDepth 8000 in
set_option maxHeartbeats 1600000 in
/-- The library's body obligation on device `c`: the arrays are cut into their windows and the kernel run. -/
theorem body_obligation (c : Dev nD) : BodyObligation (dats (F := F) m 0 c) (defs₀ (F := F)) 𝒱₀ () Set.univ := fun t => by
  rw [fin_N t]
  have hW : (Finset.univ : Finset (Fin cfg0.W)) = ∅ := by decide
  rw [hW, bigSep_empty, bigSep_empty]
  show iprop(Φ₀ m c ∗ (dats m 0 c).owesAt () t₀.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c)
  unfold Φ₀ start scratch ghost invs reacheds positions payToks creds localSems
  iintro ⟨⟨⟨⟨%KB, %KS, %KR, ⟨#HIb, #HIs0, #HIs1, #HIs2, #HIs3, #HIs4, #HIs5, #HIr0, #HIr1, #HIr2, #HIr3, #HIr4, #HIr5, #HIbp1, #HIbp2, #HIbp3, #HIrp0, #HIrp1, #HIrp2, #HIrp3, #HIrp4, #HIrp5⟩, ⟨#HRbp1, #HRbp2, #HRbp3, #HRrp0, #HRrp1, #HRrp2, #HRrp3, #HRrp4, #HRrp5, #HRs0, #HRs1, #HRs2, #HRs3, #HRs4, #HRs5⟩, ⟨HaB, HaS0, HaS1, HaS2, HaS3, HaS4, HaS5, HaR0, HaR1, HaR2, HaR3, HaR4, HaR5⟩, ⟨HtB1, HtB2, HtB3, HtR0, HtR1, HtR2, HtR3, HtR4, HtR5, HtS0, HtS1, HtS2, HtS3, HtS4, HtS5⟩⟩, ⟨HcB, HcR0, HcR1, HcR2, HcR3, HcR4, HcR5⟩, #Hlev, ⟨Hz12, Hz13, Hz14⟩, Hx, Hv⟩, ⟨⟨%fb, Hb⟩, ⟨%fg, Hg⟩⟩⟩, Ho, -⟩
  ihave Hbs := (xbf_split c fb).1 $$ Hb
  icases Hbs with ⟨Hb0, Hb1, Hb2, Hb3, Hb4, Hb5, Hb6⟩
  ihave Hos := (out_split c (V m c)).1 $$ Hv
  icases Hos with ⟨Ho0, Ho1, Ho2, Ho3, Ho4, Ho5, Ho6⟩
  ihave Hgs := (stage_split c fg).1 $$ Hg
  icases Hgs with ⟨Hg0, Hg1⟩
  unfold Dat.owesAt Pipeline.owesWithin
  icases Ho with ⟨%W, %hW', HO⟩
  rw [show (dats m 0 c).owed t₀.castSucc = O₀ c from rfl]
  iapply (sound_body m c KB KS KR W fg fb)
  isplitr; · iexact HIb
  isplitr; · iexact HIs0
  isplitr; · iexact HIs1
  isplitr; · iexact HIs2
  isplitr; · iexact HIs3
  isplitr; · iexact HIs4
  isplitr; · iexact HIs5
  isplitr; · iexact HIr0
  isplitr; · iexact HIr1
  isplitr; · iexact HIr2
  isplitr; · iexact HIr3
  isplitr; · iexact HIr4
  isplitr; · iexact HIr5
  isplitr; · iexact HIbp1
  isplitr; · iexact HIbp2
  isplitr; · iexact HIbp3
  isplitr; · iexact HIrp0
  isplitr; · iexact HIrp1
  isplitr; · iexact HIrp2
  isplitr; · iexact HIrp3
  isplitr; · iexact HIrp4
  isplitr; · iexact HIrp5
  isplitr; · iexact HRbp1
  isplitr; · iexact HRbp2
  isplitr; · iexact HRbp3
  isplitr; · iexact HRrp0
  isplitr; · iexact HRrp1
  isplitr; · iexact HRrp2
  isplitr; · iexact HRrp3
  isplitr; · iexact HRrp4
  isplitr; · iexact HRrp5
  isplitr; · iexact HRs0
  isplitr; · iexact HRs1
  isplitr; · iexact HRs2
  isplitr; · iexact HRs3
  isplitr; · iexact HRs4
  isplitr; · iexact HRs5
  isplitr; · iexact Hlev
  isplitl [HaB]; · iexact HaB
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HtB1]; · iexact HtB1
  isplitl [HtB2]; · iexact HtB2
  isplitl [HtB3]; · iexact HtB3
  isplitl [HtR0]; · iexact HtR0
  isplitl [HtR1]; · iexact HtR1
  isplitl [HtR2]; · iexact HtR2
  isplitl [HtR3]; · iexact HtR3
  isplitl [HtR4]; · iexact HtR4
  isplitl [HtR5]; · iexact HtR5
  isplitl [HtS0]; · iexact HtS0
  isplitl [HtS1]; · iexact HtS1
  isplitl [HtS2]; · iexact HtS2
  isplitl [HtS3]; · iexact HtS3
  isplitl [HtS4]; · iexact HtS4
  isplitl [HtS5]; · iexact HtS5
  isplitl [HcB]; · iexact HcB
  isplitl [HcR0]; · iexact HcR0
  isplitl [HcR1]; · iexact HcR1
  isplitl [HcR2]; · iexact HcR2
  isplitl [HcR3]; · iexact HcR3
  isplitl [HcR4]; · iexact HcR4
  isplitl [HcR5]; · iexact HcR5
  isplitl [HO]; · iexact HO
  isplitl [Hz12]; · iexact Hz12
  isplitl [Hz13]; · iexact Hz13
  isplitl [Hz14]; · unfold localSemZ; iexact Hz14
  isplitl [Hx]; · iexact Hx
  isplitl [Hg0]; · iexact Hg0
  isplitl [Hg1]; · iexact Hg1
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  iexact Ho6

end Cert.KernelIdeal.A2A

end
-- ==== Proof.Launch.lean ====
/-
  From one device's kernel to the whole mesh: given that each device's kernel, started from what it holds at launch,
  runs to its end state, every fair execution of the sixteen devices terminates with every result array at `OUT` and
  every input unchanged.
-/
import proofs.«900645_g7700000000000646_dist_a2a_v7x_xyz2x2x4_z_m4096_n1024_bf16_1_alg».proof.Proof.Ghost
import Idealize.ShloMosaic.Adequacy
import Idealize.ShloMosaic.Init

set_option maxRecDepth 16384

noncomputable section

namespace Cert.KernelIdeal.A2A

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the whole mesh -/

/-- The kernel's own scoped semaphores: its fifteen DMA semaphores. -/
abbrev osem : Fin 15 → SemLoc sig := fun i => .dma i

theorem ownSemFacts : Pipeline.OwnSemFacts cfg0.spec osem := by decide

/-- The thirteen cells of a device under the rounds discipline: the barrier, the six send cells, the six receive cells. -/
abbrev csem : Fin 13 → SemLoc sig := fun
  | 0 => .reg barS
  | 1 => .dma (sendS 0) | 2 => .dma (sendS 1) | 3 => .dma (sendS 2) | 4 => .dma (sendS 3) | 5 => .dma (sendS 4) | 6 => .dma (sendS 5)
  | 7 => .dma (recvS 0) | 8 => .dma (recvS 1) | 9 => .dma (recvS 2) | 10 => .dma (recvS 3) | 11 => .dma (recvS 4) | 12 => .dma (recvS 5)
abbrev kcell (ck : Dev nD × Fin 13) : GSem nD τ sig := ((ck.1 : Thread nD τ), csem ck.2)

/-- The position of a semaphore among the thirteen. -/
def semCode : SemLoc sig → ℕ
  | .reg _ => 0
  | .dma q => 1 + q.val
theorem semCode_csem (k : Fin 13) : semCode (csem k) = k.val := by revert k; decide

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := Fin.ext (by rw [← semCode_csem k, ← semCode_csem k', h2])
  subst this; rfl
def ringCells : Finset (GSem nD τ sig) := Finset.univ.map ⟨kcell, kcell_injective⟩

/-- A device's own cells' duty tokens as minted: the barrier's three, then one per send cell, then one per receive cell. -/
abbrev tokOf (cj : Dev nD × Fin 15) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0) | 6 => (sendCell cj.1 3, 0, 0) | 7 => (sendCell cj.1 4, 0, 0) | 8 => (sendCell cj.1 5, 0, 0)
  | 9 => (recvCell cj.1 0, 0, 0) | 10 => (recvCell cj.1 1, 0, 0) | 11 => (recvCell cj.1 2, 0, 0) | 12 => (recvCell cj.1 3, 0, 0) | 13 => (recvCell cj.1 4, 0, 0) | 14 => (recvCell cj.1 5, 0, 0)

/-- The position of a (semaphore, duty) pair among the fifteen. -/
def tokCode : SemLoc sig × Fin 3 → ℕ
  | (.reg _, d) => d.val
  | (.dma q, _) => 3 + q.val
theorem tokCode_tokOf (c : Dev nD) (j : Fin 15) : tokCode ((tokOf (c, j)).1.2, (tokOf (c, j)).2.2) = j.val := by
  fin_cases j <;> rfl
theorem tokOf_dev (c : Dev nD) (j : Fin 15) : (tokOf (c, j)).1.1.1 = c := by
  fin_cases j <;> rfl

theorem tokOf_injective : Function.Injective (tokOf : Dev nD × Fin 15 → GSem nD τ sig × ℕ × Fin 3) := by
  rintro ⟨c, j⟩ ⟨c', j'⟩ h
  have h1 : c = c' := by rw [← tokOf_dev c j, ← tokOf_dev c' j', h]
  subst h1
  have : j = j' := Fin.ext (by rw [← tokCode_tokOf c j, ← tokCode_tokOf c j', h])
  subst this; rfl
def ringToks : Finset (GSem nD τ sig × ℕ × Fin 3) := Finset.univ.map ⟨tokOf, tokOf_injective⟩

/-- The launch element: the pipeline library's cells (none), this protocol's cells and tokens, and the counters' unit. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0 ∗ dutyTok ER (sendCell c 3) 0 0 ∗ dutyTok ER (sendCell c 4) 0 0 ∗ dutyTok ER (sendCell c 5) 0 0
    ∗ dutyTok ER (recvCell c 0) 0 0 ∗ dutyTok ER (recvCell c 1) 0 0 ∗ dutyTok ER (recvCell c 2) 0 0 ∗ dutyTok ER (recvCell c 3) 0 0 ∗ dutyTok ER (recvCell c 4) 0 0 ∗ dutyTok ER (recvCell c 5) 0 0)

/-- What the launch element deals device `c`. -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0)) ∗ toks c)

/-- What the global step makes of it. -/
def G' (c : Dev nD) : sProp 𝕄 := iprop((∃ KB KS KR, ghost m KB KS KR c) ∗ localSems c)

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin15]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The kernel's own semaphores, listed: the six send, the six receive, the three local ones. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
      ∗ semVal (recvCell c 0) 0 ∗ semVal (recvCell c 1) 0 ∗ semVal (recvCell c 2) 0 ∗ semVal (recvCell c 3) 0 ∗ semVal (recvCell c 4) 0 ∗ semVal (recvCell c 5) 0
      ∗ semVal ((c : Thread nD τ), .dma (stageS 0)) 0 ∗ semVal ((c : Thread nD τ), .dma (stageS 1)) 0 ∗ semVal ((c : Thread nD τ), .dma localS) 0) := by
  rw [Pipeline.ownSems0_eq_of_list c osem [0, 1, 2, 3, 4, 5, 6, 7, 8, 9, 10, 11, 12, 13, 14] (by decide) (by decide)]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => semVal (kcell (c, k)) 0) ∗ localSems c : sProp 𝕄) := by
  rw [ownSems0_eq, unscopedSems0_eq, bigSep_fin13]
  unfold localSems
  iintro ⟨⟨HS0, HS1, HS2, HS3, HS4, HS5, HR0, HR1, HR2, HR3, HR4, HR5, HL⟩, HB⟩
  isplitr [HL]
  · isplitl [HB]; · iexact HB
    isplitl [HS0]; · iexact HS0
    isplitl [HS1]; · iexact HS1
    isplitl [HS2]; · iexact HS2
    isplitl [HS3]; · iexact HS3
    isplitl [HS4]; · iexact HS4
    isplitl [HS5]; · iexact HS5
    isplitl [HR0]; · iexact HR0
    isplitl [HR1]; · iexact HR1
    isplitl [HR2]; · iexact HR2
    isplitl [HR3]; · iexact HR3
    isplitl [HR4]; · iexact HR4
    iexact HR5
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant at its name, and that round 0 of every cell is reached. -/
def records (K : Dev nD × Fin 13 → ℕ) : sProp 𝕄 :=
  iprop((bigSep Finset.univ fun ck : Dev nD × Fin 13 => cellInv ER (Rd m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (ck : Dev nD × Fin 13) :
    (bigSep Finset.univ fun ck : Dev nD × Fin 13 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

/-- The names of a device's barrier, send and receive cells out of one table of names. -/
def nameB (K : Dev nD × Fin 13 → ℕ) (c : Dev nD) : ℕ := K (c, 0)
def nameS (K : Dev nD × Fin 13 → ℕ) (c : Dev nD) (k : Fin 6) : ℕ := K (c, ⟨1 + k.val, by have := k.isLt; omega⟩)
def nameR (K : Dev nD × Fin 13 → ℕ) (c : Dev nD) (k : Fin 6) : ℕ := K (c, ⟨7 + k.val, by have := k.isLt; omega⟩)

/-- What stays with device `c`: its positions, and the tokens of the duties it pays. -/
def linear (c : Dev nD) : sProp 𝕄 := iprop(positions c ∗ payToks c)

theorem ghost_intro (K : Dev nD × Fin 13 → ℕ) (c : Dev nD) :
    iprop(records m K ∗ linear c) ⊢ iprop(∃ KB KS KR, ghost m KB KS KR c) := by
  unfold records linear ghost invs reacheds
  iintro ⟨⟨#HI, #HR⟩, Hpos, Htok⟩
  iexists (nameB K), (nameS K), (nameR K)
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (c, 9)); iexact HI
    isplitr; · iapply (inv_at m K (c, 10)); iexact HI
    isplitr; · iapply (inv_at m K (c, 11)); iexact HI
    isplitr; · iapply (inv_at m K (c, 12)); iexact HI
    isplitr; · iapply (inv_at m K (pe c 1, 0)); iexact HI
    isplitr; · iapply (inv_at m K (pe c 2, 0)); iexact HI
    isplitr; · iapply (inv_at m K (pe c 3, 0)); iexact HI
    isplitr; · iapply (inv_at m K (pe c 1, 7)); iexact HI
    isplitr; · iapply (inv_at m K (pe c 1, 8)); iexact HI
    isplitr; · iapply (inv_at m K (pe c 2, 9)); iexact HI
    isplitr; · iapply (inv_at m K (pe c 2, 10)); iexact HI
    isplitr; · iapply (inv_at m K (pe c 3, 11)); iexact HI
    iapply (inv_at m K (pe c 3, 12)); iexact HI
  isplitr
  · isplitr; · iapply (reached_at (F := F) (pe c 1, 0)); iexact HR
    isplitr; · iapply (reached_at (F := F) (pe c 2, 0)); iexact HR
    isplitr; · iapply (reached_at (F := F) (pe c 3, 0)); iexact HR
    isplitr; · iapply (reached_at (F := F) (pe c 1, 7)); iexact HR
    isplitr; · iapply (reached_at (F := F) (pe c 1, 8)); iexact HR
    isplitr; · iapply (reached_at (F := F) (pe c 2, 9)); iexact HR
    isplitr; · iapply (reached_at (F := F) (pe c 2, 10)); iexact HR
    isplitr; · iapply (reached_at (F := F) (pe c 3, 11)); iexact HR
    isplitr; · iapply (reached_at (F := F) (pe c 3, 12)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [Hpos]; · iexact Hpos
  iexact Htok

/-- Going `k` places on around the ring, as a permutation of the devices: going `k'` places on undoes it when `k + k' = 4`. -/
def peE (k k' : ℕ) (h : k + k' = 4) : Dev nD ≃ Dev nD :=
  ⟨fun c => pe c k, fun c => pe c k', fun c => by show pe (pe c k) k' = c; rw [pe_pe, h]; exact pe_four c,
    fun c => by show pe (pe c k') k = c; rw [pe_pe, Nat.add_comm, h]; exact pe_four c⟩

omit [FloatOps F] in
theorem shift (k k' : ℕ) (h : k + k' = 4) (Φ : Dev nD → sProp 𝕄) :
    bigSep Finset.univ Φ ⊢ bigSep Finset.univ fun c : Dev nD => Φ (pe c k) :=
  Entails.of_eq (bigSep_univ_equiv (peE k k' h) Φ)

omit [FloatOps F] in
/-- The tokens dealt around each ring: duty `j` of a barrier cell to the member `3 - j` places on (whose signal `j + 1`
    pays it), receive cell `k`'s token to the member that sends to it. -/
theorem toks_around : (bigSep Finset.univ fun c : Dev nD => (toks c : sProp 𝕄)) ⊢ bigSep Finset.univ fun c : Dev nD => payToks c := by
  unfold toks payToks
  simp only [bigSep_sep']
  iintro ⟨B0, B1, B2, S0, S1, S2, S3, S4, S5, R0, R1, R2, R3, R4, R5⟩
  isplitl [B0]; · iapply (shift 1 3 rfl fun d : Dev nD => (dutyTok ER (barCell d) 0 0 : sProp 𝕄)); iexact B0
  isplitl [B1]; · iapply (shift 2 2 rfl fun d : Dev nD => (dutyTok ER (barCell d) 0 1 : sProp 𝕄)); iexact B1
  isplitl [B2]; · iapply (shift 3 1 rfl fun d : Dev nD => (dutyTok ER (barCell d) 0 2 : sProp 𝕄)); iexact B2
  isplitl [R0]; · iapply (shift 1 3 rfl fun d : Dev nD => (dutyTok ER (recvCell d 0) 0 0 : sProp 𝕄)); iexact R0
  isplitl [R1]; · iapply (shift 1 3 rfl fun d : Dev nD => (dutyTok ER (recvCell d 1) 0 0 : sProp 𝕄)); iexact R1
  isplitl [R2]; · iapply (shift 2 2 rfl fun d : Dev nD => (dutyTok ER (recvCell d 2) 0 0 : sProp 𝕄)); iexact R2
  isplitl [R3]; · iapply (shift 2 2 rfl fun d : Dev nD => (dutyTok ER (recvCell d 3) 0 0 : sProp 𝕄)); iexact R3
  isplitl [R4]; · iapply (shift 3 1 rfl fun d : Dev nD => (dutyTok ER (recvCell d 4) 0 0 : sProp 𝕄)); iexact R4
  isplitl [R5]; · iapply (shift 3 1 rfl fun d : Dev nD => (dutyTok ER (recvCell d 5) 0 0 : sProp 𝕄)); iexact R5
  isplitl [S0]; · iexact S0
  isplitl [S1]; · iexact S1
  isplitl [S2]; · iexact S2
  isplitl [S3]; · iexact S3
  isplitl [S4]; · iexact S4
  iexact S5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hloc⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  unfold G'
  rw [bigSep_sep']
  isplitr [Hloc]
  · iapply (bigSep_with_persistent (R := records m K) fun c _ => ghost_intro m K c)
    isplitr
    · unfold records; isplitl; · iexact HI
      iexact HR
    · iapply ((Entails.of_eq (bigSep_sep' Finset.univ (fun c : Dev nD => bigSep Finset.univ fun k : Fin 13 => (atPos ER (kcell (c, k)) 0 ∅ 0 : sProp 𝕄)) payToks).symm).trans
        (bigSep_mono fun c _ => show _ ⊢ linear c from Entails.of_eq (by unfold linear positions; rw [bigSep_fin13])))
      isplitl [Hat]; · iexact Hat
      iexact Htk
  · iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing receive cell `k` of the member it sends `k` to, each device is dealt the credit of its own receive cell `k`. -/
theorem cred_recv (k : Fin 6) (c : Dev nD) :
    (Pipeline.launchCred (fun d : Dev nD => owedRecv d k) c : sProp 𝕄) ⊢ cred (tallyAt (recvCell c k) () N) :=
  Pipeline.launchCred_tallyAt (.dma (recvS k)) (fun d => pe d (k.val / 2 + 1)) (fun d => pe d (4 - (k.val / 2 + 1)))
    (fun c => by
      show pe (pe c (4 - (k.val / 2 + 1))) (k.val / 2 + 1) = c
      rw [pe_pe, show 4 - (k.val / 2 + 1) + (k.val / 2 + 1) = 4 from by have := k.isLt; omega]; exact pe_four c)
    (fun d => by
      show pe (pe d (k.val / 2 + 1)) (4 - (k.val / 2 + 1)) = d
      rw [pe_pe, show k.val / 2 + 1 + (4 - (k.val / 2 + 1)) = 4 from by have := k.isLt; omega]; exact pe_four d)
    () N c

omit [FloatOps F] in
/-- Every device owing one unit to the barrier cell of the member `j` places on, each device is dealt one unit of credit
    on its own barrier cell. -/
theorem cred_bar (j j' : ℕ) (h : j + j' = 4) (c : Dev nD) :
    (Pipeline.launchCred (fun d : Dev nD => (tallyAt (barCell (pe d j)) () 1 : CellTallies nD τ sig Unit)) c : sProp 𝕄)
      ⊢ cred (tallyAt (barCell c) () 1) :=
  Pipeline.launchCred_tallyAt (.reg barS) (fun d => pe d j) (fun d => pe d j')
    (fun c => by show pe (pe c j') j = c; rw [pe_pe, Nat.add_comm, h]; exact pe_four c)
    (fun d => by show pe (pe d j) j' = d; rw [pe_pe, h]; exact pe_four d)
    () 1 c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

omit [FloatOps F] in
/-- What the launch deals device `c` for the others' dues: three units on its barrier cell, one transfer on each receive cell. -/
theorem creds_intro (c : Dev nD) : (Pipeline.launchCred O₀ c : sProp 𝕄) ⊢ creds c := by
  show (Pipeline.launchCred (fun d : Dev nD => owedRecv d 5 + owedRecv d 4 + owedRecv d 3 + owedRecv d 2 + owedRecv d 1 + owedRecv d 0
    + tallyAt (barCell (pe d 3)) () 1 + tallyAt (barCell (pe d 2)) () 1 + tallyAt (barCell (pe d 1)) () 1) c : sProp 𝕄) ⊢ creds c
  rw [Pipeline.launchCred_add, Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨H5, H4⟩, H3⟩, H2⟩, H1⟩, H0⟩, B3⟩, B2⟩, B1⟩
  isplitl [B1 B2 B3]
  · iapply (cred_three (F := F) (barCell c))
    isplitl [B1]; · iapply (cred_bar (F := F) 1 3 rfl c); iexact B1
    isplitl [B2]; · iapply (cred_bar (F := F) 2 2 rfl c); iexact B2
    iapply (cred_bar (F := F) 3 1 rfl c); iexact B3
  isplitl [H0]; · iapply (cred_recv (F := F) 0 c); iexact H0
  isplitl [H1]; · iapply (cred_recv (F := F) 1 c); iexact H1
  isplitl [H2]; · iapply (cred_recv (F := F) 2 c); iexact H2
  isplitl [H3]; · iapply (cred_recv (F := F) 3 c); iexact H3
  isplitl [H4]; · iapply (cred_recv (F := F) 4 c); iexact H4
  iapply (cred_recv (F := F) 5 c); iexact H5

/-! ## The launch theorem's side conditions -/

/-- What the run leaves a device holding of its two arrays: the input as launched, the result at `OUT`. -/
def Yc (c : Dev nD) : sProp 𝕄 :=
  iprop((((c : Thread nD τ).loc main_arg0) ↦{fullShare} X m c) ∗ (((c : Thread nD τ).loc main_v1) ↦{fullShare} OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, HG, Hloc⟩
  ihave Hc := (creds_intro (F := F) c) $$ Hcr
  imodintro
  unfold start
  isplitl
  · isplitl [HG]; · iexact HG
    isplitl [Hc]; · iexact Hc
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ ownZero localSems scratch Yc
  iintro ⟨Hx, Ho, Hscr, HS0, HS1, HS2, HS3, HS4, HS5, HR0, HR1, HR2, HR3, HR4, HR5, HL⟩
  isplitl [Hx Ho]
  · isplitl [Hx] <;> iassumption
  isplitr [Hscr]
  · isplitl [HS0]; · iexact HS0
    isplitl [HS1]; · iexact HS1
    isplitl [HS2]; · iexact HS2
    isplitl [HS3]; · iexact HS3
    isplitl [HS4]; · iexact HS4
    isplitl [HS5]; · iexact HS5
    isplitl [HR0]; · iexact HR0
    isplitl [HR1]; · iexact HR1
    isplitl [HR2]; · iexact HR2
    isplitl [HR3]; · iexact HR3
    isplitl [HR4]; · iexact HR4
    isplitl [HR5]; · iexact HR5
    iexact HL
  · iexact Hscr

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-- Reading the two arrays a device holds whole against the machine's memory. -/
theorem read_out (c : Dev nD) (s' : Phys nD τ sig (Elt F)) :
    iprop(Yc m c ∗ emp ∗ SI s') ⊢ (|={Set.univ}=> iprop(⌜s'.mem.mem ((c : Thread nD τ).loc main_v1) = OUT m c
      ∧ s'.mem.mem ((c : Thread nD τ).loc main_arg0) = X m c⌝ ∗ SI s') : sProp 𝕄) := by
  unfold Yc
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-- At the compiled mesh of sixteen devices, for any float values, from any memory with zero counters: if each device's
    kernel meets its obligation, every weakly fair execution of @main terminates, nothing faulting, and every final
    state has each device's result array at `OUT m c` and its input array as launched. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR (initOf ringCells ringToks) (1 : Counters)) $$ HX
      icases H2 with ⟨HX, -⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = X m c)
    (hY := read_out m)
    (hQ := fun _ h c => (h c).2.2)

/-- info: 'Cert.KernelIdeal.A2A.run_main' depends on axioms: [propext, Classical.choice, Quot.sound] -/
#guard_msgs in #print axioms run_main

end Cert.KernelIdeal.A2A

end
-- ==== Proof.Word.Spec.lean ====
/-
  What every device of the mesh ends with, named once, for the all-to-all along the mesh's last axis.

  The sixteen devices are numbered row-major over the mesh (2, 2, 4): device `c` has the coordinate `c % 4` on the
  last axis, and the four devices `c / 4 * 4 + j` (`j < 4`) are its ring. Device `c` holds the rows of the whole
  input its ring position names, as a 4096 × 4096 array; the result it must end with is the column block
  `c % 4` (1024 columns) of every row of the whole input: rows `4096 j … 4096 j + 4095` of its result are what
  ring member `j` holds, at the columns `1024 (c % 4) …`, each element narrowed to the result's format.
-/
import proofs.«900645_g7700000000000646_dist_a2a_v7x_xyz2x2x4_z_m4096_n1024_bf16_1_alg».proof.Kernel
import Idealize.ShloMosaic.Lib.ValueIdx

noncomputable section

namespace Cert.Kernel.Spec

open Cert.Kernel
open Idealize.ShloMosaic Idealize.ShloMosaic.TcCoe Idealize.ShloMosaic.ValueIdx

variable {F : FTy → Type} [FloatOps F]

/-- The ring member `k` places after `c` (cyclically) on the mesh's last axis. -/
def pe (c : Dev nD) (k : ℕ) : Dev nD := ⟨c.val / 4 * 4 + (c.val + k) % 4, by have h : c.val < 16 := c.isLt; show _ < 16; omega⟩

/-- The member of `c`'s ring whose coordinate on the last axis is `j % 4`. -/
def ringAt (c : Dev nD) (j : ℕ) : Dev nD := ⟨c.val / 4 * 4 + j % 4, by have h : c.val < 16 := c.isLt; show _ < 16; omega⟩

theorem pe_val (c : Dev nD) (k : ℕ) : (pe c k).val = c.val / 4 * 4 + (c.val + k) % 4 := rfl
theorem ringAt_val (c : Dev nD) (j : ℕ) : (ringAt c j).val = c.val / 4 * 4 + j % 4 := rfl

variable (m : (ℓ : Loc nD τ sig) → Buf (Elt F) ℓ)

/-- Device `c`'s rows of the input, as launched. -/
def X (c : Dev nD) : S4096x4096.Idx → F .f32 := m ((c : Thread nD τ).loc main_arg0)

/-- One element narrowed to the result's format. -/
def nar (x : F .f32) : F .bf16 := FloatOps.truncf .bf16 (by decide) x

/-- What device `c`'s result array ends holding: at row `R`, column `q`, the element of ring member `R / 4096`'s
    input at row `R % 4096`, column `1024 (c % 4) + q`, narrowed. -/
def OUT (c : Dev nD) : S16384x1024.Idx → F .bf16 := fun i =>
  nar (X m (ringAt c ((i 0).val / 4096))
    (ix2 ⟨(i 0).val % 4096, Nat.mod_lt _ (by decide)⟩
         ⟨1024 * (c.val % 4) + (i 1).val, by have := (i 1).isLt; have : (i 1).val < 1024 := this; omega⟩))

/-- What device `c`'s narrowed staging array holds once every block is converted: slab `a < 3` the columns of the
    ring member `a + 1` places on, slab `3` its own columns. -/
def XBF (c : Dev nD) : S4x4096x1024.Idx → F .bf16 := fun i =>
  nar (X m c
    (ix2 ⟨(i 1).val, (i 1).isLt⟩
         ⟨1024 * ((c.val + ((i 0).val + 1)) % 4) + (i 2).val, by have := (i 2).isLt; have : (i 2).val < 1024 := this; omega⟩))

end Cert.Kernel.Spec

end
-- ==== Proof.Word.Views.lean ====
/-
  The memory views and semaphore cells of the all-to-all, named once.

  Every device converts, for each of the three other members of its ring, the 1024 columns of its input that member
  is to receive, half the rows (2048) at a time, into slab `a` (`a = 0, 1, 2` for the member `a + 1` places on) of a
  narrowed staging array, and sends each half to that member's result array at the rows its own ring position
  names; its own columns go to slab 3 and from there, by a local copy, to its own rows of its result. A send
  `k = 2 a + h` (slab `a`, half `h`) has a send cell on the sender and a receive cell on the receiver.
-/
import proofs.«900645_g7700000000000646_dist_a2a_v7x_xyz2x2x4_z_m4096_n1024_bf16_1_alg».proof.Proof.Gen.Kernel.Frame
import proofs.«900645_g7700000000000646_dist_a2a_v7x_xyz2x2x4_z_m4096_n1024_bf16_1_alg».proof.Proof.Gen.Kernel.Skeleton
import proofs.«900645_g7700000000000646_dist_a2a_v7x_xyz2x2x4_z_m4096_n1024_bf16_1_alg».proof.Proof.Word.Spec
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Who is addressed -/

theorem dev1_eq (c : Dev nD) : (⟨k0_dev1 c, k0_dev1_lt c⟩ : Dev nD) = pe c 1 := by revert c; decide +kernel
theorem dev2_eq (c : Dev nD) : (⟨k0_dev2 c, k0_dev2_lt c⟩ : Dev nD) = pe c 2 := by revert c; decide +kernel
theorem dev3_eq (c : Dev nD) : (⟨k0_dev3 c, k0_dev3_lt c⟩ : Dev nD) = pe c 3 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 2 := by revert c; decide +kernel
theorem dev7_eq (c : Dev nD) : (⟨k0_dev7 c, k0_dev7_lt c⟩ : Dev nD) = pe c 2 := by revert c; decide +kernel
theorem dev8_eq (c : Dev nD) : (⟨k0_dev8 c, k0_dev8_lt c⟩ : Dev nD) = pe c 3 := by revert c; decide +kernel
theorem dev9_eq (c : Dev nD) : (⟨k0_dev9 c, k0_dev9_lt c⟩ : Dev nD) = pe c 3 := by revert c; decide +kernel

/-- Going `a` places on and then `b` is going `a + b` places on; four places on is staying. -/
theorem pe_pe (c : Dev nD) (a b : ℕ) : pe (pe c a) b = pe c (a + b) := by
  apply Fin.ext; have h : c.val < 16 := c.isLt; simp only [pe_val]; omega
theorem pe_four (c : Dev nD) : pe c 4 = c := by
  apply Fin.ext; have h : c.val < 16 := c.isLt; simp only [pe_val]; omega
theorem pe_mod (c : Dev nD) (k : ℕ) : (pe c k).val % 4 = (c.val + k) % 4 := by
  have h : c.val < 16 := c.isLt; simp only [pe_val]; omega
theorem pe_div (c : Dev nD) (k : ℕ) : (pe c k).val / 4 = c.val / 4 := by
  have h : c.val < 16 := c.isLt; simp only [pe_val]; omega

/-! ## Where the input's chunks are read: the column offsets in closed form -/

theorem off1_eq : ∀ d0 : Dev nD, ∀ r : Fin 3, k0_off1 d0 (BitVec.ofNat 32 (1 + r.val)) = ![0, 1024 * ((d0.val + (1 + r.val)) % 4)] := by decide +kernel
theorem off2_eq : ∀ d0 : Dev nD, ∀ r : Fin 3, k0_off2 d0 (BitVec.ofNat 32 (1 + r.val)) = ![512, 1024 * ((d0.val + (1 + r.val)) % 4)] := by decide +kernel
theorem off3_eq : ∀ d0 : Dev nD, ∀ r : Fin 3, k0_off3 d0 (BitVec.ofNat 32 (1 + r.val)) = ![1024, 1024 * ((d0.val + (1 + r.val)) % 4)] := by decide +kernel
theorem off4_eq : ∀ d0 : Dev nD, ∀ r : Fin 3, k0_off4 d0 (BitVec.ofNat 32 (1 + r.val)) = ![1536, 1024 * ((d0.val + (1 + r.val)) % 4)] := by decide +kernel
theorem off6_eq : ∀ d0 : Dev nD, ∀ r : Fin 3, k0_off6 d0 (BitVec.ofNat 32 (1 + r.val)) = ![2048, 1024 * ((d0.val + (1 + r.val)) % 4)] := by decide +kernel
theorem off7_eq : ∀ d0 : Dev nD, ∀ r : Fin 3, k0_off7 d0 (BitVec.ofNat 32 (1 + r.val)) = ![2560, 1024 * ((d0.val + (1 + r.val)) % 4)] := by decide +kernel
theorem off8_eq : ∀ d0 : Dev nD, ∀ r : Fin 3, k0_off8 d0 (BitVec.ofNat 32 (1 + r.val)) = ![3072, 1024 * ((d0.val + (1 + r.val)) % 4)] := by decide +kernel
theorem off9_eq : ∀ d0 : Dev nD, ∀ r : Fin 3, k0_off9 d0 (BitVec.ofNat 32 (1 + r.val)) = ![3584, 1024 * ((d0.val + (1 + r.val)) % 4)] := by decide +kernel

/-! ## The arrays and their windows -/

abbrev xM : Memref sig .tc .hbm S4096x4096 .f32 := Memref.whole main_arg0
abbrev oM : Memref sig .tc .hbm S16384x1024 .bf16 := Memref.whole main_v1
abbrev bM : Memref sig .tc .vmem S4x4096x1024 .bf16 := Memref.whole cc0_scratch0
abbrev gM : Memref sig .tc .vmem S2x512x1024 .f32 := Memref.whole cc0_scratch1

/-- Send `k`'s window of the narrowed staging array starts at slab `k / 2`, row `2048 (k % 2)`. -/
abbrev srcOff : Fin 6 → Fin 3 → Nat
  | 0 => ![0, 0, 0] | 1 => ![0, 2048, 0] | 2 => ![1, 0, 0] | 3 => ![1, 2048, 0] | 4 => ![2, 0, 0] | 5 => ![2, 2048, 0]
theorem srcInb : ∀ (k : Fin 6) (a : Fin 3), srcOff k a + S1x2048x1024.size a ≤ S4x4096x1024.size a := by decide
/-- The half slab send `k` reads. -/
abbrev srcM (k : Fin 6) : Memref sig .tc .vmem S2048x1024 .bf16 :=
  (bM.slice (Rect.unit (s := S4x4096x1024) (srcOff k) S1x2048x1024.size (srcInb k)) (fun _ => rfl)).squeeze S2048x1024 squeezes_S1x2048x1024_S2048x1024
/-- Slab 3, the device's own columns: what the local copy reads. -/
abbrev lsrcM : Memref sig .tc .vmem S4096x1024 .bf16 :=
  (bM.slice (Rect.unit (s := S4x4096x1024) ![3, 0, 0] S1x4096x1024.size inb_S4x4096x1024_S1x4096x1024_3_0_0) (fun _ => rfl)).squeeze S4096x1024 squeezes_S1x4096x1024_S4096x1024
/-- The rows of a result array that sender `s` writes with its half `h`: `4096 (s % 4) + 2048 h` on. -/
abbrev dstM (s : Dev nD) (h : Fin 2) : Memref sig .tc .hbm S2048x1024 .bf16 :=
  oM.slice (Rect.unit (s := S16384x1024) (k0_off5 s (BitVec.ofNat 32 (2048 * h.val))) S2048x1024.size (k0_off5_inb s h)) (fun _ => rfl)
/-- The rows of its own result array a device fills by its local copy: `4096 (c % 4)` on. -/
abbrev ldstM (c : Dev nD) : Memref sig .tc .hbm S4096x1024 .bf16 :=
  oM.slice (Rect.unit (s := S16384x1024) (k0_off18 c) S4096x1024.size (k0_off18_inb c)) (fun _ => rfl)

/-- Slot `j` of the two-slot f32 staging array the input's chunks are copied into. -/
abbrev slotOff : Fin 2 → Fin 3 → Nat
  | 0 => ![0, 0, 0] | 1 => ![1, 0, 0]
theorem slotInb : ∀ (j : Fin 2) (a : Fin 3), slotOff j a + S1x512x1024.size a ≤ S2x512x1024.size a := by decide
abbrev slotM (j : Fin 2) : Memref sig .tc .vmem S512x1024 .f32 :=
  (gM.slice (Rect.unit (s := S2x512x1024) (slotOff j) S1x512x1024.size (slotInb j)) (fun _ => rfl)).squeeze S512x1024 squeezes_S1x512x1024_S512x1024

/-! ## The semaphore cells -/

abbrev barS : Sem sig := (SemArray.scalar (sig.barrier 0 rfl) : Sems sig S_).sem
/-- Send `k`'s send semaphore (on the sender) and receive semaphore (on the receiver). -/
abbrev sendS (k : Fin 6) : DmaSem sig := ⟨k.val, by have := k.isLt; show k.val < 15; omega⟩
abbrev recvS (k : Fin 6) : DmaSem sig := ⟨6 + k.val, by have := k.isLt; show 6 + k.val < 15; omega⟩
abbrev stageS (j : Fin 2) : DmaSem sig := ⟨12 + j.val, by have := j.isLt; show 12 + j.val < 15; omega⟩
abbrev localS : DmaSem sig := ⟨14, by show 14 < 15; omega⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- What one half-slab transfer credits each of its two cells. -/
abbrev N : ℕ := (srcM 0).view.dmaCredit
theorem N_pos : 0 < N := View.dmaCredit_pos _ (by decide)

end Cert.Kernel.A2A

end
-- ==== Proof.Word.Regions.lean ====
/-
  How a device's result array and its narrowed staging array fall into the windows the transfers write and read:
  seven windows each, pairwise disjoint, covering the array.
-/
import proofs.«900645_g7700000000000646_dist_a2a_v7x_xyz2x2x4_z_m4096_n1024_bf16_1_alg».proof.Proof.Word.Views

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type}

local notation "𝕃" => MT nD τ sig Ix (Elt F) Name U Lvl

/-- Membership in a sender's half block of the result array: its 2048 rows. -/
theorem mem_dstM (s : Dev nD) (h : Fin 2) (i : S16384x1024.Idx) :
    i ∈ (dstM s h).view.set ↔
      (4096 * (s.val % 4) + 2048 * h.val ≤ (i 0).val ∧ (i 0).val < 4096 * (s.val % 4) + 2048 * h.val + 2048) := by
  have e : (dstM s h).view.set = (Rect.unit (s := S16384x1024) (k0_off5 s (BitVec.ofNat 32 (2048 * h.val))) S2048x1024.size (k0_off5_inb s h)).set :=
    View.set_slice_whole main_v1 _
  rw [e, Rect.mem_set_unit, k0_off5_eq]
  have h1 : (i 1).val < 1024 := (i 1).isLt
  rw [Fin.forall_fin_two]
  simp only [Matrix.cons_val_zero, Matrix.cons_val_one]
  omega

/-- Membership in the block a device fills itself: its 4096 rows. -/
theorem mem_ldstM (c : Dev nD) (i : S16384x1024.Idx) :
    i ∈ (ldstM c).view.set ↔ (4096 * (c.val % 4) ≤ (i 0).val ∧ (i 0).val < 4096 * (c.val % 4) + 4096) := by
  have e : (ldstM c).view.set = (Rect.unit (s := S16384x1024) (k0_off18 c) S4096x1024.size (k0_off18_inb c)).set :=
    View.set_slice_whole main_v1 _
  rw [e, Rect.mem_set_unit, k0_off18_eq]
  have h1 : (i 1).val < 1024 := (i 1).isLt
  rw [Fin.forall_fin_two]
  simp only [Matrix.cons_val_zero, Matrix.cons_val_one]
  omega

/-- The seven windows of device `c`'s result array. -/
def outK (c : Dev nD) : Fin 7 → Finset (Idx ((c : Thread nD τ).loc main_v1))
  | 0 => (dstM (pe c 1) 0).view.set
  | 1 => (dstM (pe c 1) 1).view.set
  | 2 => (dstM (pe c 2) 0).view.set
  | 3 => (dstM (pe c 2) 1).view.set
  | 4 => (dstM (pe c 3) 0).view.set
  | 5 => (dstM (pe c 3) 1).view.set
  | 6 => (ldstM c).view.set

/-- The rows of window `t`: from `lo` on, `len` of them. -/
def outLo (c : Dev nD) : Fin 7 → ℕ
  | 0 => 4096 * ((c.val + 1) % 4)
  | 1 => 4096 * ((c.val + 1) % 4) + 2048
  | 2 => 4096 * ((c.val + 2) % 4)
  | 3 => 4096 * ((c.val + 2) % 4) + 2048
  | 4 => 4096 * ((c.val + 3) % 4)
  | 5 => 4096 * ((c.val + 3) % 4) + 2048
  | 6 => 4096 * (c.val % 4)
def outLen : Fin 7 → ℕ
  | 0 => 2048 | 1 => 2048 | 2 => 2048 | 3 => 2048 | 4 => 2048 | 5 => 2048 | 6 => 4096

theorem mem_outK (c : Dev nD) (t : Fin 7) (i : S16384x1024.Idx) :
    i ∈ outK c t ↔ (outLo c t ≤ (i 0).val ∧ (i 0).val < outLo c t + outLen t) := by
  fin_cases t
  · show i ∈ (dstM (pe c 1) 0).view.set ↔ _
    rw [mem_dstM, pe_mod]; simp only [outLo, outLen]; omega
  · show i ∈ (dstM (pe c 1) 1).view.set ↔ _
    rw [mem_dstM, pe_mod]; simp only [outLo, outLen]; omega
  · show i ∈ (dstM (pe c 2) 0).view.set ↔ _
    rw [mem_dstM, pe_mod]; simp only [outLo, outLen]; omega
  · show i ∈ (dstM (pe c 2) 1).view.set ↔ _
    rw [mem_dstM, pe_mod]; simp only [outLo, outLen]; omega
  · show i ∈ (dstM (pe c 3) 0).view.set ↔ _
    rw [mem_dstM, pe_mod]; simp only [outLo, outLen]; omega
  · show i ∈ (dstM (pe c 3) 1).view.set ↔ _
    rw [mem_dstM, pe_mod]; simp only [outLo, outLen]; omega
  · show i ∈ (ldstM c).view.set ↔ _
    rw [mem_ldstM]; simp only [outLo, outLen]

theorem out_cover (c : Dev nD) :
    (Finset.univ : Finset (Idx ((c : Thread nD τ).loc main_v1))) = Finset.univ.biUnion (outK c) := by
  ext i
  simp only [Finset.mem_univ, Finset.mem_biUnion, true_and, true_iff]
  have hi : (i 0).val < 16384 := (i 0).isLt
  have hc : c.val % 4 = 0 ∨ c.val % 4 = 1 ∨ c.val % 4 = 2 ∨ c.val % 4 = 3 := by omega
  by_contra hne
  have n0 : ¬ i ∈ outK c 0 := fun h => hne ⟨0, h⟩
  have n1 : ¬ i ∈ outK c 1 := fun h => hne ⟨1, h⟩
  have n2 : ¬ i ∈ outK c 2 := fun h => hne ⟨2, h⟩
  have n3 : ¬ i ∈ outK c 3 := fun h => hne ⟨3, h⟩
  have n4 : ¬ i ∈ outK c 4 := fun h => hne ⟨4, h⟩
  have n5 : ¬ i ∈ outK c 5 := fun h => hne ⟨5, h⟩
  have n6 : ¬ i ∈ outK c 6 := fun h => hne ⟨6, h⟩
  rw [mem_outK] at n0 n1 n2 n3 n4 n5 n6
  simp only [outLo, outLen] at n0 n1 n2 n3 n4 n5 n6
  rcases hc with hc | hc | hc | hc <;> omega

theorem out_disj (c : Dev nD) (t t' : Fin 7) (h : t ≠ t') : Disjoint (outK c t) (outK c t') := by
  rw [Finset.disjoint_left]
  intro i h1 h2
  rw [mem_outK] at h1 h2
  have hc : c.val % 4 = 0 ∨ c.val % 4 = 1 ∨ c.val % 4 = 2 ∨ c.val % 4 = 3 := by omega
  have ht : t.val ≠ t'.val := fun e => h (Fin.ext e)
  fin_cases t <;> fin_cases t' <;> simp only [outLo, outLen] at h1 h2 <;> first | exact absurd rfl ht | (rcases hc with hc | hc | hc | hc <;> omega)

/-- A device's result array, held whole, is its seven windows: the six half blocks the three other members of its
    ring write (sender `pe c j`, half `h`) and the block it fills itself. -/
theorem out_split (c : Dev nD) (f : Buf (Elt F) ((c : Thread nD τ).loc main_v1)) :
    ((((c : Thread nD τ).loc main_v1) ↦{fullShare} f : sProp 𝕃))
      ⊣⊢ iprop(((dstM (pe c 1) 0).view.loc (c : Thread nD τ) ↦[(dstM (pe c 1) 0).view.set]{fullShare} f)
        ∗ ((dstM (pe c 1) 1).view.loc (c : Thread nD τ) ↦[(dstM (pe c 1) 1).view.set]{fullShare} f)
        ∗ ((dstM (pe c 2) 0).view.loc (c : Thread nD τ) ↦[(dstM (pe c 2) 0).view.set]{fullShare} f)
        ∗ ((dstM (pe c 2) 1).view.loc (c : Thread nD τ) ↦[(dstM (pe c 2) 1).view.set]{fullShare} f)
        ∗ ((dstM (pe c 3) 0).view.loc (c : Thread nD τ) ↦[(dstM (pe c 3) 0).view.set]{fullShare} f)
        ∗ ((dstM (pe c 3) 1).view.loc (c : Thread nD τ) ↦[(dstM (pe c 3) 1).view.set]{fullShare} f)
        ∗ ((ldstM c).view.loc (c : Thread nD τ) ↦[(ldstM c).view.set]{fullShare} f)) := by
  refine BIBase.BiEntails.of_eq ?_
  rw [out_cover c, pointsTo_biUnion Finset.univ (outK c) (fun t _ t' _ h => out_disj c t t' h),
    bigSep_univ_eq_bigSepL [0, 1, 2, 3, 4, 5, 6] (by decide) (by decide)]
  rfl

theorem forall_fin3 {P : Fin 3 → Prop} : (∀ a, P a) ↔ P 0 ∧ P 1 ∧ P 2 :=
  ⟨fun h => ⟨h 0, h 1, h 2⟩, fun ⟨h0, h1, h2⟩ a => by fin_cases a <;> assumption⟩

/-- Membership in the half slab send `k` reads: slab `k / 2`, its rows from `2048 (k % 2)` on. -/
theorem mem_srcM (k : Fin 6) (i : S4x4096x1024.Idx) :
    i ∈ (srcM k).view.set ↔
      ((i 0).val = k.val / 2 ∧ 2048 * (k.val % 2) ≤ (i 1).val ∧ (i 1).val < 2048 * (k.val % 2) + 2048) := by
  have e : (srcM k).view.set = (Rect.unit (s := S4x4096x1024) (srcOff k) S1x2048x1024.size (srcInb k)).set :=
    (View.set_reshape _ _).trans (View.set_slice_whole cc0_scratch0 _)
  rw [e, Rect.mem_set_unit, forall_fin3]
  have h2 : (i 2).val < 1024 := (i 2).isLt
  fin_cases k <;> simp only [srcOff, Matrix.cons_val_zero, Matrix.cons_val_one, Matrix.cons_val_two, Matrix.head_cons, Matrix.tail_cons] <;> omega

/-- Membership in slab 3. -/
theorem mem_lsrcM (i : S4x4096x1024.Idx) : i ∈ lsrcM.view.set ↔ (i 0).val = 3 := by
  have e : lsrcM.view.set = (Rect.unit (s := S4x4096x1024) ![3, 0, 0] S1x4096x1024.size inb_S4x4096x1024_S1x4096x1024_3_0_0).set :=
    (View.set_reshape _ _).trans (View.set_slice_whole cc0_scratch0 _)
  rw [e, Rect.mem_set_unit, forall_fin3]
  have h1 : (i 1).val < 4096 := (i 1).isLt
  have h2 : (i 2).val < 1024 := (i 2).isLt
  simp only [Matrix.cons_val_zero, Matrix.cons_val_one, Matrix.cons_val_two, Matrix.head_cons, Matrix.tail_cons]
  omega

/-- The seven windows of a device's narrowed staging array. -/
def xbfK (c : Dev nD) : Fin 7 → Finset (Idx ((c : Thread nD τ).loc cc0_scratch0))
  | 0 => (srcM 0).view.set
  | 1 => (srcM 1).view.set
  | 2 => (srcM 2).view.set
  | 3 => (srcM 3).view.set
  | 4 => (srcM 4).view.set
  | 5 => (srcM 5).view.set
  | 6 => lsrcM.view.set

/-- Window `t` lies in slab `xSlab t`, at the rows from `xLo t` on, `xLen t` of them. -/
def xSlab : Fin 7 → ℕ
  | 0 => 0 | 1 => 0 | 2 => 1 | 3 => 1 | 4 => 2 | 5 => 2 | 6 => 3
def xLo : Fin 7 → ℕ
  | 0 => 0 | 1 => 2048 | 2 => 0 | 3 => 2048 | 4 => 0 | 5 => 2048 | 6 => 0
def xLen : Fin 7 → ℕ
  | 0 => 2048 | 1 => 2048 | 2 => 2048 | 3 => 2048 | 4 => 2048 | 5 => 2048 | 6 => 4096

theorem mem_xbfK (c : Dev nD) (t : Fin 7) (i : S4x4096x1024.Idx) :
    i ∈ xbfK c t ↔ ((i 0).val = xSlab t ∧ xLo t ≤ (i 1).val ∧ (i 1).val < xLo t + xLen t) := by
  have h1 : (i 1).val < 4096 := (i 1).isLt
  fin_cases t
  · show i ∈ (srcM 0).view.set ↔ _
    rw [mem_srcM]; simp only [xSlab, xLo, xLen]; omega
  · show i ∈ (srcM 1).view.set ↔ _
    rw [mem_srcM]; simp only [xSlab, xLo, xLen]; omega
  · show i ∈ (srcM 2).view.set ↔ _
    rw [mem_srcM]; simp only [xSlab, xLo, xLen]; omega
  · show i ∈ (srcM 3).view.set ↔ _
    rw [mem_srcM]; simp only [xSlab, xLo, xLen]; omega
  · show i ∈ (srcM 4).view.set ↔ _
    rw [mem_srcM]; simp only [xSlab, xLo, xLen]; omega
  · show i ∈ (srcM 5).view.set ↔ _
    rw [mem_srcM]; simp only [xSlab, xLo, xLen]; omega
  · show i ∈ lsrcM.view.set ↔ _
    rw [mem_lsrcM]; simp only [xSlab, xLo, xLen]; omega

theorem xbf_cover (c : Dev nD) :
    (Finset.univ : Finset (Idx ((c : Thread nD τ).loc cc0_scratch0))) = Finset.univ.biUnion (xbfK c) := by
  ext i
  simp only [Finset.mem_univ, Finset.mem_biUnion, true_and, true_iff]
  have h0 : (i 0).val < 4 := (i 0).isLt
  have h1 : (i 1).val < 4096 := (i 1).isLt
  by_contra hne
  have n0 : ¬ i ∈ xbfK c 0 := fun h => hne ⟨0, h⟩
  have n1 : ¬ i ∈ xbfK c 1 := fun h => hne ⟨1, h⟩
  have n2 : ¬ i ∈ xbfK c 2 := fun h => hne ⟨2, h⟩
  have n3 : ¬ i ∈ xbfK c 3 := fun h => hne ⟨3, h⟩
  have n4 : ¬ i ∈ xbfK c 4 := fun h => hne ⟨4, h⟩
  have n5 : ¬ i ∈ xbfK c 5 := fun h => hne ⟨5, h⟩
  have n6 : ¬ i ∈ xbfK c 6 := fun h => hne ⟨6, h⟩
  rw [mem_xbfK] at n0 n1 n2 n3 n4 n5 n6
  simp only [xSlab, xLo, xLen] at n0 n1 n2 n3 n4 n5 n6
  omega

theorem xbf_disj (c : Dev nD) (t t' : Fin 7) (h : t ≠ t') : Disjoint (xbfK c t) (xbfK c t') := by
  rw [Finset.disjoint_left]
  intro i h1 h2
  rw [mem_xbfK] at h1 h2
  have ht : t.val ≠ t'.val := fun e => h (Fin.ext e)
  fin_cases t <;> fin_cases t' <;> simp only [xSlab, xLo, xLen] at h1 h2 <;> first | exact absurd rfl ht | omega

/-- A device's narrowed staging array, held whole, is its seven windows: the six half slabs the sends read and
    slab 3. -/
theorem xbf_split (c : Dev nD) (f : Buf (Elt F) ((c : Thread nD τ).loc cc0_scratch0)) :
    ((((c : Thread nD τ).loc cc0_scratch0) ↦{fullShare} f : sProp 𝕃))
      ⊣⊢ iprop(((srcM 0).view.loc (c : Thread nD τ) ↦[(srcM 0).view.set]{fullShare} f)
        ∗ ((srcM 1).view.loc (c : Thread nD τ) ↦[(srcM 1).view.set]{fullShare} f)
        ∗ ((srcM 2).view.loc (c : Thread nD τ) ↦[(srcM 2).view.set]{fullShare} f)
        ∗ ((srcM 3).view.loc (c : Thread nD τ) ↦[(srcM 3).view.set]{fullShare} f)
        ∗ ((srcM 4).view.loc (c : Thread nD τ) ↦[(srcM 4).view.set]{fullShare} f)
        ∗ ((srcM 5).view.loc (c : Thread nD τ) ↦[(srcM 5).view.set]{fullShare} f)
        ∗ (lsrcM.view.loc (c : Thread nD τ) ↦[lsrcM.view.set]{fullShare} f)) := by
  refine BIBase.BiEntails.of_eq ?_
  rw [xbf_cover c, pointsTo_biUnion Finset.univ (xbfK c) (fun t _ t' _ h => xbf_disj c t t' h),
    bigSep_univ_eq_bigSepL [0, 1, 2, 3, 4, 5, 6] (by decide) (by decide)]
  rfl

/-- Membership in slot `j` of the two-slot staging array. -/
theorem mem_slotM (j : Fin 2) (i : S2x512x1024.Idx) : i ∈ (slotM j).view.set ↔ (i 0).val = j.val := by
  have e : (slotM j).view.set = (Rect.unit (s := S2x512x1024) (slotOff j) S1x512x1024.size (slotInb j)).set :=
    (View.set_reshape _ _).trans (View.set_slice_whole cc0_scratch1 _)
  rw [e, Rect.mem_set_unit, forall_fin3]
  have h1 : (i 1).val < 512 := (i 1).isLt
  have h2 : (i 2).val < 1024 := (i 2).isLt
  fin_cases j <;> simp only [slotOff, Matrix.cons_val_zero, Matrix.cons_val_one, Matrix.cons_val_two, Matrix.head_cons, Matrix.tail_cons] <;> omega

/-- The two windows of a device's two-slot staging array. -/
def stageK (c : Dev nD) : Fin 2 → Finset (Idx ((c : Thread nD τ).loc cc0_scratch1))
  | 0 => (slotM 0).view.set
  | 1 => (slotM 1).view.set

theorem mem_stageK (c : Dev nD) (t : Fin 2) (i : S2x512x1024.Idx) : i ∈ stageK c t ↔ (i 0).val = t.val := by
  fin_cases t
  · exact mem_slotM 0 i
  · exact mem_slotM 1 i

theorem stage_cover (c : Dev nD) :
    (Finset.univ : Finset (Idx ((c : Thread nD τ).loc cc0_scratch1))) = Finset.univ.biUnion (stageK c) := by
  ext i
  simp only [Finset.mem_univ, Finset.mem_biUnion, true_and, true_iff]
  have h0 : (i 0).val < 2 := (i 0).isLt
  by_contra hne
  have n0 : ¬ (i 0).val = 0 := fun h => hne ⟨0, (mem_stageK c 0 i).mpr h⟩
  have n1 : ¬ (i 0).val = 1 := fun h => hne ⟨1, (mem_stageK c 1 i).mpr h⟩
  omega

theorem stage_disj (c : Dev nD) (t t' : Fin 2) (h : t ≠ t') : Disjoint (stageK c t) (stageK c t') := by
  rw [Finset.disjoint_left]
  intro i h1 h2
  have e1 := (mem_stageK c t i).mp h1
  have e2 := (mem_stageK c t' i).mp h2
  exact h (Fin.ext (e1.symm.trans e2))

/-- The two-slot staging array, held whole, is its two slots. -/
theorem stage_split (c : Dev nD) (f : Buf (Elt F) ((c : Thread nD τ).loc cc0_scratch1)) :
    ((((c : Thread nD τ).loc cc0_scratch1) ↦{fullShare} f : sProp 𝕃))
      ⊣⊢ iprop(((slotM 0).view.loc (c : Thread nD τ) ↦[(slotM 0).view.set]{fullShare} f)
        ∗ ((slotM 1).view.loc (c : Thread nD τ) ↦[(slotM 1).view.set]{fullShare} f)) := by
  refine BIBase.BiEntails.of_eq ?_
  rw [stage_cover c, pointsTo_biUnion Finset.univ (stageK c) (fun t _ t' _ h => stage_disj c t t' h),
    bigSep_univ_eq_bigSepL [0, 1] (by decide) (by decide)]
  rfl

/-- The two slots together are the whole two-slot staging array. -/
theorem stage_union (c : Dev nD) :
    ((slotM 0).view.set ∪ (slotM 1).view.set : Finset (Idx ((c : Thread nD τ).loc cc0_scratch1))) = Finset.univ := by
  ext i
  simp only [Finset.mem_union, Finset.mem_univ, iff_true]
  have h0 : (i 0).val < 2 := (i 0).isLt
  rcases (show (i 0).val = 0 ∨ (i 0).val = 1 by omega) with h | h
  · exact Or.inl ((mem_slotM 0 i).mpr h)
  · exact Or.inr ((mem_slotM 1 i).mpr h)

/-- The two slots, each at its own contents, are the staging array whole at some contents. -/
theorem stage_join (c : Dev nD) (f0 f1 : Buf (Elt F) ((c : Thread nD τ).loc cc0_scratch1)) :
    iprop(((slotM 0).view.loc (c : Thread nD τ) ↦[(slotM 0).view.set]{fullShare} f0)
        ∗ ((slotM 1).view.loc (c : Thread nD τ) ↦[(slotM 1).view.set]{fullShare} f1))
      ⊢ (iprop(∃ f : Buf (Elt F) ((c : Thread nD τ).loc cc0_scratch1), ((c : Thread nD τ).loc cc0_scratch1) ↦{fullShare} f) : sProp 𝕃) := by
  have hd : Disjoint ((slotM 0).view.set : Finset (Idx ((c : Thread nD τ).loc cc0_scratch1))) (slotM 1).view.set :=
    stage_disj c 0 1 (by decide)
  have key : iprop((((c : Thread nD τ).loc cc0_scratch1) ↦[(slotM 0).view.set]{fullShare} f0)
        ∗ (((c : Thread nD τ).loc cc0_scratch1) ↦[(slotM 1).view.set]{fullShare} f1))
      ⊢ ((((c : Thread nD τ).loc cc0_scratch1) ↦{fullShare} ((slotM 1).view.set.piecewise f1 f0)) : sProp 𝕃) := by
    have h := pointsTo_join (Ix := Ix) (Name := Name) (U := U) (Lvl := Lvl) (q := fullShare) (f := f0) (g := f1) hd
    rwa [stage_union c] at h
  iintro H
  iexists ((slotM 1).view.set.piecewise f1 f0)
  iapply key
  iexact H

end Cert.Kernel.A2A

end
-- ==== Proof.Word.Sched.lean ====
/-
  The protocol of the all-to-all under the rounds discipline: one round per semaphore cell.

  A device's barrier cell has three unit duties, duty `j` paid by the ring member `3 - j` places on (its signal
  `j + 1`); that member hands over with it the two half blocks of ITS result array that this device will write
  (this device's rows of it). A send cell and a receive cell have one duty each, of the half block's credit: the send
  cell gives the sender its half slab back, the receive cell gives the receiver the half block of its result array
  holding what the sender's slab held. Barrier cells lie above the local cells and below the receive cells, so a
  device may wait on its barrier while it still owes its six transfers, and on its local copies at any time.
-/
import proofs.«900645_g7700000000000646_dist_a2a_v7x_xyz2x2x4_z_m4096_n1024_bf16_1_alg».proof.Proof.Word.Views

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
/-- The user algebra: the pipeline library's copy of the rounds algebra, this protocol's copy (duties `Fin 3`), and the
    exclusive counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The payloads -/

/-- Device `d`'s result array as launched. -/
def V (d : Dev nD) : Buf (Elt F) ((d : Thread nD τ).loc main_v1) := m ((d : Thread nD τ).loc main_v1)

/-- The half block `h` that sender `s` writes, on device `d`'s result array, still as launched. -/
def outInit (s : Dev nD) (h : Fin 2) (d : Dev nD) : sProp 𝕄 :=
  (dstM s h).view.loc (d : Thread nD τ) ↦[(dstM s h).view.set]{fullShare} (V m d)
/-- The same half block once sender `s`'s send `k` has landed in it: the sender's converted half slab written
    over it. -/
def outDone (s : Dev nD) (h : Fin 2) (k : Fin 6) (d : Dev nD) : sProp 𝕄 :=
  (dstM s h).view.loc (d : Thread nD τ) ↦[(dstM s h).view.set]{fullShare}
    ((dstM s h).view.write (Elt F) (V m d) ((srcM k).view.read (Elt F) (XBF m s)) Finset.univ)
/-- Send `k`'s half slab on device `c`, converted. -/
def slabDone (c : Dev nD) (k : Fin 6) : sProp 𝕄 :=
  (srcM k).view.loc (c : Thread nD τ) ↦[(srcM k).view.set]{fullShare} (XBF m c)

/-- What the ring member `3 - j` places on hands device `c` with its barrier signal: the two half blocks of its own
    result array that `c` writes. -/
def barPay (c : Dev nD) (j : Fin 3) : sProp 𝕄 :=
  iprop(outInit m c 0 (pe c (3 - j.val)) ∗ outInit m c 1 (pe c (3 - j.val)))

/-- Which transfer a DMA semaphore belongs to, if any: `(false, k)` send `k`'s send semaphore, `(true, k)` its
    receive semaphore. -/
def xferOf : SemLoc sig → Option (Bool × Fin 6)
  | .dma q => if h : q.val < 6 then some (false, ⟨q.val, h⟩) else if h2 : q.val < 12 then some (true, ⟨q.val - 6, by omega⟩) else none
  | .reg _ => none

theorem xferOf_send (k : Fin 6) : xferOf (.dma (sendS k) : SemLoc sig) = some (false, k) := by
  revert k; decide
theorem xferOf_recv (k : Fin 6) : xferOf (.dma (recvS k) : SemLoc sig) = some (true, k) := by
  revert k; decide
theorem xferOf_bar : xferOf (.reg barS : SemLoc sig) = none := rfl

/-- The ring member that pays receive cell `k` of a device is the one `k / 2 + 1` places BACK, which is
    `3 - k / 2` places on. -/
def senderOf (c : Dev nD) (k : Fin 6) : Dev nD := pe c (3 - k.val / 2)
def halfOf (k : Fin 6) : Fin 2 := ⟨k.val % 2, Nat.mod_lt _ (by decide)⟩

def Rd : Rounds.Schedule (GSem nD τ sig) (Fin 3) 𝕄 where
  duties g r :=
    if r = 0 ∧ g.1.2 = .tc ∧ g.2 = .reg barS then Finset.univ
    else if r = 0 ∧ g.1.2 = .tc ∧ (xferOf g.2).isSome then {0} else ∅
  unitless _ := False
  amount g _ _ := if g.2 = .reg barS then 1 else N
  payload g _ d :=
    if g.2 = .reg barS then barPay m g.1.1 d
    else match xferOf g.2 with
      | some (false, k) => slabDone m g.1.1 k
      | some (true, k) => outDone m (senderOf g.1.1 k) (halfOf k) k g.1.1
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (if g.2 = .reg barS then barPay m g.1.1 d
    else match xferOf g.2 with
      | some (false, k) => slabDone m g.1.1 k
      | some (true, k) => outDone m (senderOf g.1.1 k) (halfOf k) k g.1.1
      | none => iprop(emp))
  unfold barPay outInit slabDone outDone
  (repeat' split) <;> infer_instance

/-! ## The schedule's tables -/

section Tables
variable (c : Dev nD)

theorem duties_bar : (Rd (F := F) m).duties (barCell c) 0 = Finset.univ := by dsimp only [Rd]; exact if_pos ⟨rfl, rfl, rfl⟩
theorem duties_send (k : Fin 6) : (Rd (F := F) m).duties (sendCell c k) 0 = {0} := by
  dsimp only [Rd]; rw [if_neg (fun h => by cases h.2.2), if_pos ⟨rfl, rfl, by rw [xferOf_send]; rfl⟩]
theorem duties_recv (k : Fin 6) : (Rd (F := F) m).duties (recvCell c k) 0 = {0} := by
  dsimp only [Rd]; rw [if_neg (fun h => by cases h.2.2), if_pos ⟨rfl, rfl, by rw [xferOf_recv]; rfl⟩]
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (k : Fin 6) (d : Fin 3) : (Rd (F := F) m).amount (sendCell c k) 0 d = N := by
  dsimp only [Rd]; exact if_neg (fun h => by cases h)
theorem amount_recv (k : Fin 6) (d : Fin 3) : (Rd (F := F) m).amount (recvCell c k) 0 d = N := by
  dsimp only [Rd]; exact if_neg (fun h => by cases h)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (k : Fin 6) : (Rd (F := F) m).expect (sendCell c k) 0 = N := by
  unfold Schedule.expect Schedule.amountOf; rw [duties_send, Finset.sum_singleton, amount_send]
theorem expect_recv (k : Fin 6) : (Rd (F := F) m).expect (recvCell c k) 0 = N := by
  unfold Schedule.expect Schedule.amountOf; rw [duties_recv, Finset.sum_singleton, amount_recv]

theorem payload_bar (j : Fin 3) : (Rd (F := F) m).payload (barCell c) 0 j = barPay m c j := by dsimp only [Rd]; rw [if_pos rfl]
theorem payload_send (k : Fin 6) (d : Fin 3) : (Rd (F := F) m).payload (sendCell c k) 0 d
    = ((srcM k).view.loc (c : Thread nD τ) ↦[(srcM k).view.set]{fullShare} (XBF m c)) := by
  dsimp only [Rd]; rw [if_neg (fun h => by cases h), xferOf_send]; rfl
theorem payload_recv (k : Fin 6) (d : Fin 3) : (Rd (F := F) m).payload (recvCell c k) 0 d = outDone m (senderOf c k) (halfOf k) k c := by
  dsimp only [Rd]; rw [if_neg (fun h => by cases h), xferOf_recv]

/-- Send 0 of device `c` lands on the member 1 place on: that member's receive cell 0 hands it the half block. -/
theorem payload_recv_to0 (d : Fin 3) : (Rd (F := F) m).payload (recvCell (pe c 1) 0) 0 d
    = ((dstM c 0).view.loc (pe c 1 : Thread nD τ) ↦[(dstM c 0).view.set]{fullShare}
        ((dstM c 0).view.write (Elt F) (V m (pe c 1)) ((srcM 0).view.read (Elt F) (XBF m c)) Finset.univ)) := by
  rw [payload_recv]; unfold outDone
  have e1 : senderOf (pe c 1) 0 = c := by unfold senderOf; rw [pe_pe]; exact pe_four c
  have e2 : halfOf 0 = 0 := rfl
  rw [e1, e2]

/-- Send 1 of device `c` lands on the member 1 place on: that member's receive cell 1 hands it the half block. -/
theorem payload_recv_to1 (d : Fin 3) : (Rd (F := F) m).payload (recvCell (pe c 1) 1) 0 d
    = ((dstM c 1).view.loc (pe c 1 : Thread nD τ) ↦[(dstM c 1).view.set]{fullShare}
        ((dstM c 1).view.write (Elt F) (V m (pe c 1)) ((srcM 1).view.read (Elt F) (XBF m c)) Finset.univ)) := by
  rw [payload_recv]; unfold outDone
  have e1 : senderOf (pe c 1) 1 = c := by unfold senderOf; rw [pe_pe]; exact pe_four c
  have e2 : halfOf 1 = 1 := rfl
  rw [e1, e2]

/-- Send 2 of device `c` lands on the member 2 places on: that member's receive cell 2 hands it the half block. -/
theorem payload_recv_to2 (d : Fin 3) : (Rd (F := F) m).payload (recvCell (pe c 2) 2) 0 d
    = ((dstM c 0).view.loc (pe c 2 : Thread nD τ) ↦[(dstM c 0).view.set]{fullShare}
        ((dstM c 0).view.write (Elt F) (V m (pe c 2)) ((srcM 2).view.read (Elt F) (XBF m c)) Finset.univ)) := by
  rw [payload_recv]; unfold outDone
  have e1 : senderOf (pe c 2) 2 = c := by unfold senderOf; rw [pe_pe]; exact pe_four c
  have e2 : halfOf 2 = 0 := rfl
  rw [e1, e2]

/-- Send 3 of device `c` lands on the member 2 places on: that member's receive cell 3 hands it the half block. -/
theorem payload_recv_to3 (d : Fin 3) : (Rd (F := F) m).payload (recvCell (pe c 2) 3) 0 d
    = ((dstM c 1).view.loc (pe c 2 : Thread nD τ) ↦[(dstM c 1).view.set]{fullShare}
        ((dstM c 1).view.write (Elt F) (V m (pe c 2)) ((srcM 3).view.read (Elt F) (XBF m c)) Finset.univ)) := by
  rw [payload_recv]; unfold outDone
  have e1 : senderOf (pe c 2) 3 = c := by unfold senderOf; rw [pe_pe]; exact pe_four c
  have e2 : halfOf 3 = 1 := rfl
  rw [e1, e2]

/-- Send 4 of device `c` lands on the member 3 places on: that member's receive cell 4 hands it the half block. -/
theorem payload_recv_to4 (d : Fin 3) : (Rd (F := F) m).payload (recvCell (pe c 3) 4) 0 d
    = ((dstM c 0).view.loc (pe c 3 : Thread nD τ) ↦[(dstM c 0).view.set]{fullShare}
        ((dstM c 0).view.write (Elt F) (V m (pe c 3)) ((srcM 4).view.read (Elt F) (XBF m c)) Finset.univ)) := by
  rw [payload_recv]; unfold outDone
  have e1 : senderOf (pe c 3) 4 = c := by unfold senderOf; rw [pe_pe]; exact pe_four c
  have e2 : halfOf 4 = 0 := rfl
  rw [e1, e2]

/-- Send 5 of device `c` lands on the member 3 places on: that member's receive cell 5 hands it the half block. -/
theorem payload_recv_to5 (d : Fin 3) : (Rd (F := F) m).payload (recvCell (pe c 3) 5) 0 d
    = ((dstM c 1).view.loc (pe c 3 : Thread nD τ) ↦[(dstM c 1).view.set]{fullShare}
        ((dstM c 1).view.write (Elt F) (V m (pe c 3)) ((srcM 5).view.read (Elt F) (XBF m c)) Finset.univ)) := by
  rw [payload_recv]; unfold outDone
  have e1 : senderOf (pe c 3) 5 = c := by unfold senderOf; rw [pe_pe]; exact pe_four c
  have e2 : halfOf 5 = 1 := rfl
  rw [e1, e2]

/-- Device `c`'s signal 1 pays duty 0 of the barrier cell of the member 1 place on, and hands over the two half
    blocks of `c`'s own result array that member writes. -/
theorem payload_bar_to1 : (Rd (F := F) m).payload (barCell (pe c 1)) 0 0
    = iprop(((dstM (pe c 1) 0).view.loc (c : Thread nD τ) ↦[(dstM (pe c 1) 0).view.set]{fullShare} (V m c))
      ∗ ((dstM (pe c 1) 1).view.loc (c : Thread nD τ) ↦[(dstM (pe c 1) 1).view.set]{fullShare} (V m c))) := by
  rw [payload_bar]; unfold barPay outInit
  have e1 : pe (pe c 1) (3 - (0 : Fin 3).val) = c := by rw [pe_pe]; exact pe_four c
  rw [e1]

/-- Device `c`'s signal 2 pays duty 1 of the barrier cell of the member 2 places on, and hands over the two half
    blocks of `c`'s own result array that member writes. -/
theorem payload_bar_to2 : (Rd (F := F) m).payload (barCell (pe c 2)) 0 1
    = iprop(((dstM (pe c 2) 0).view.loc (c : Thread nD τ) ↦[(dstM (pe c 2) 0).view.set]{fullShare} (V m c))
      ∗ ((dstM (pe c 2) 1).view.loc (c : Thread nD τ) ↦[(dstM (pe c 2) 1).view.set]{fullShare} (V m c))) := by
  rw [payload_bar]; unfold barPay outInit
  have e1 : pe (pe c 2) (3 - (1 : Fin 3).val) = c := by rw [pe_pe]; exact pe_four c
  rw [e1]

/-- Device `c`'s signal 3 pays duty 2 of the barrier cell of the member 3 places on, and hands over the two half
    blocks of `c`'s own result array that member writes. -/
theorem payload_bar_to3 : (Rd (F := F) m).payload (barCell (pe c 3)) 0 2
    = iprop(((dstM (pe c 3) 0).view.loc (c : Thread nD τ) ↦[(dstM (pe c 3) 0).view.set]{fullShare} (V m c))
      ∗ ((dstM (pe c 3) 1).view.loc (c : Thread nD τ) ↦[(dstM (pe c 3) 1).view.set]{fullShare} (V m c))) := by
  rw [payload_bar]; unfold barPay outInit
  have e1 : pe (pe c 3) (3 - (2 : Fin 3).val) = c := by rw [pe_pe]; exact pe_four c
  rw [e1]

/-- What the barrier wait hands device `c`: from each of the three other members of its ring, the two half blocks of
    that member's result array that `c` writes, as launched. -/
theorem bar_payloads : bigSep Finset.univ (fun d : Fin 3 => (Rd (F := F) m).payload (barCell c) 0 d)
    = iprop((outInit m c 0 (pe c 3) ∗ outInit m c 1 (pe c 3)) ∗ (outInit m c 0 (pe c 2) ∗ outInit m c 1 (pe c 2))
        ∗ (outInit m c 0 (pe c 1) ∗ outInit m c 1 (pe c 1))) := by
  rw [bigSep_univ_eq_bigSepL [0, 1, 2] (by decide) (by decide), bigSepL_cons_cons, bigSepL_cons_cons, bigSepL_singleton,
    payload_bar, payload_bar, payload_bar]
  rfl

end Tables

/-! ## What each device owes at launch; the levels -/

/-- What device `c` owes receive cell `k` of the member it sends `k` to. -/
abbrev owedRecv (c : Dev nD) (k : Fin 6) : CellTallies nD τ sig Unit := tallyAt (recvCell (pe c (k.val / 2 + 1)) k) () N

/-- The receive credits still owed once the first `6 - n` sends are issued (send 0 is issued first and peels the last
    summand). -/
def OR (c : Dev nD) : ℕ → CellTallies nD τ sig Unit
  | 0 => 0
  | 1 => owedRecv c 5
  | 2 => owedRecv c 5 + owedRecv c 4
  | 3 => owedRecv c 5 + owedRecv c 4 + owedRecv c 3
  | 4 => owedRecv c 5 + owedRecv c 4 + owedRecv c 3 + owedRecv c 2
  | 5 => owedRecv c 5 + owedRecv c 4 + owedRecv c 3 + owedRecv c 2 + owedRecv c 1
  | _ => owedRecv c 5 + owedRecv c 4 + owedRecv c 3 + owedRecv c 2 + owedRecv c 1 + owedRecv c 0

/-- At launch: the six receive credits and one unit to each other member's barrier cell (signal 1 peels the last). -/
def O₀ (c : Dev nD) : CellTallies nD τ sig Unit :=
  owedRecv c 5 + owedRecv c 4 + owedRecv c 3 + owedRecv c 2 + owedRecv c 1 + owedRecv c 0
    + tallyAt (barCell (pe c 3)) () 1 + tallyAt (barCell (pe c 2)) () 1 + tallyAt (barCell (pe c 1)) () 1

def isRecvSem : SemLoc sig → Bool
  | .dma q => decide (6 ≤ q.val ∧ q.val < 12)
  | .reg _ => false

def L (g : GSem nD τ sig) : Finset Unit := if g.1.2 = .tc then {()} else ∅
/-- Barrier cells at 1, receive cells at 2, every other cell at 0. -/
def semLv (sm : SemLoc sig) : ℕ := if sm = .reg barS then 1 else if isRecvSem sm then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := by unfold lv semLv; exact if_pos rfl
theorem lv_recv (d : Dev nD) (k : Fin 6) : lv (recvCell d k) () = 2 := by
  unfold lv semLv; rw [if_neg (fun h => by cases h)]
  have : isRecvSem (recvCell d k).2 = true := by show decide (6 ≤ 6 + k.val ∧ 6 + k.val < 12) = true; have := k.isLt; exact decide_eq_true ⟨by omega, by omega⟩
  rw [if_pos this]

/-- Everything owed lies on TensorCore cells strictly above level `b`. -/
def OnlyAbove (b : ℕ) (O : CellTallies nD τ sig Unit) : Prop := ∀ g u, 0 < O g u → g.1.2 = .tc ∧ b < lv g u

theorem onlyAbove_zero (b : ℕ) : OnlyAbove b (0 : CellTallies nD τ sig Unit) := fun g u h => absurd h (Nat.lt_irrefl 0)
theorem onlyAbove_add {b : ℕ} {A B : CellTallies nD τ sig Unit} (hA : OnlyAbove b A) (hB : OnlyAbove b B) : OnlyAbove b (A + B) :=
  fun g u h => (Pipeline.add_pos_cases h).elim (hA g u) (hB g u)
theorem onlyAbove_recv {b : ℕ} (hb : b < 2) (d : Dev nD) (k : Fin 6) (n : ℕ) : OnlyAbove b (tallyAt (recvCell d k) () n) := fun g u h => by
  rw [tallyAt_apply] at h
  by_cases hg : g = recvCell d k ∧ u = ()
  · rw [hg.1]; exact ⟨rfl, by rw [lv_recv]; exact hb⟩
  · rw [if_neg hg] at h; exact absurd h (Nat.lt_irrefl 0)
theorem onlyAbove_bar {b : ℕ} (hb : b < 1) (d : Dev nD) (n : ℕ) : OnlyAbove b (tallyAt (barCell d) () n) := fun g u h => by
  rw [tallyAt_apply] at h
  by_cases hg : g = barCell d ∧ u = ()
  · rw [hg.1]; exact ⟨rfl, by rw [lv_bar]; exact hb⟩
  · rw [if_neg hg] at h; exact absurd h (Nat.lt_irrefl 0)

/-- A device may wait on a cell at level at most `b` while everything it owes lies above `b`. -/
theorem mayWait_below (c : Dev nD) (sm : SemLoc sig) (b : ℕ) (hsm : semLv sm ≤ b)
    (O : CellTallies nD τ sig Unit) (hO : OnlyAbove b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by
      have h1 := (hO g u hg).1
      obtain ⟨⟨d, pr⟩, sm'⟩ := g
      simp only at h1; subst h1
      rw [L_tc]; exact Finset.mem_singleton_self _)
    (fun p hp => by rw [Finset.mem_singleton.mp hp]; exact hsm)
    (fun g u hg => (hO g u hg).2)

theorem onlyAbove_OR (c : Dev nD) : ∀ n, OnlyAbove 1 (OR c n)
  | 0 => onlyAbove_zero 1
  | 1 => onlyAbove_recv (by decide) _ _ _
  | 2 => onlyAbove_add (onlyAbove_recv (by decide) _ _ _) (onlyAbove_recv (by decide) _ _ _)
  | 3 => onlyAbove_add (onlyAbove_add (onlyAbove_recv (by decide) _ _ _) (onlyAbove_recv (by decide) _ _ _)) (onlyAbove_recv (by decide) _ _ _)
  | 4 => onlyAbove_add (onlyAbove_add (onlyAbove_add (onlyAbove_recv (by decide) _ _ _) (onlyAbove_recv (by decide) _ _ _)) (onlyAbove_recv (by decide) _ _ _)) (onlyAbove_recv (by decide) _ _ _)
  | 5 => onlyAbove_add (onlyAbove_add (onlyAbove_add (onlyAbove_add (onlyAbove_recv (by decide) _ _ _) (onlyAbove_recv (by decide) _ _ _)) (onlyAbove_recv (by decide) _ _ _)) (onlyAbove_recv (by decide) _ _ _)) (onlyAbove_recv (by decide) _ _ _)
  | (n + 6) => onlyAbove_add (onlyAbove_add (onlyAbove_add (onlyAbove_add (onlyAbove_add (onlyAbove_recv (by decide) _ _ _) (onlyAbove_recv (by decide) _ _ _)) (onlyAbove_recv (by decide) _ _ _)) (onlyAbove_recv (by decide) _ _ _)) (onlyAbove_recv (by decide) _ _ _)) (onlyAbove_recv (by decide) _ _ _)

theorem OnlyAbove.mono {a b : ℕ} (hab : a ≤ b) {O : CellTallies nD τ sig Unit} (h : OnlyAbove b O) : OnlyAbove a O :=
  fun g u hg => ⟨(h g u hg).1, Nat.lt_of_le_of_lt hab (h g u hg).2⟩

/-- On a cell at level 0 a device may wait whatever receive credits it still owes. -/
theorem mayWait_low (c : Dev nD) (n : ℕ) (sm : SemLoc sig) (hsm : semLv sm = 0) :
    (levAts L lv : sProp 𝕄) ⊢ MayWait (c : Thread nD τ) sm () (OR c n) :=
  mayWait_below c sm 0 (Nat.le_of_eq hsm) _ ((onlyAbove_OR c n).mono (Nat.zero_le 1))

/-- On its barrier cell (level 1) a device may wait while it owes its six receive credits (level 2). -/
theorem mayWait_bar (c : Dev nD) :
    (levAts L lv : sProp 𝕄) ⊢ MayWait (c : Thread nD τ) (.reg barS) () (OR c 6) :=
  mayWait_below c _ 1 (by unfold semLv; rw [if_pos rfl]) _ (onlyAbove_OR c 6)

end Cert.Kernel.A2A

end
-- ==== Proof.Word.Vals.lean ====
/-
  What the converted slabs and the landed half blocks hold, index by index.

  A chunk of 512 rows of the input (1024 columns of it) is copied into a slot of the two-slot staging array, read back,
  narrowed element by element and stored at its rows of a slab; four chunks fill a half slab, eight fill slab 3. A half
  slab written over a half block of a result array makes that half block the narrowed input of the sender at the
  receiver's columns.
-/
import proofs.«900645_g7700000000000646_dist_a2a_v7x_xyz2x2x4_z_m4096_n1024_bf16_1_alg».proof.Proof.Word.Regions
import proofs.«900645_g7700000000000646_dist_a2a_v7x_xyz2x2x4_z_m4096_n1024_bf16_1_alg».proof.Proof.Word.Sched
import Idealize.ShloMosaic.Lib.Pipeline.Value
import Idealize.ShloMosaic.Lib.ValueIdx

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- A vector narrowed element by element. -/
def narV {s : Shape} (v : s.Idx → F .f32) : s.Idx → F .bf16 := fun j => nar (v j)

/-! ## Every chunk's payload narrows element by element (the shape casts undo each other) -/

/-- Dropping the unit axis, narrowing, and putting the unit axis back is narrowing element by element: the two shape
    casts undo each other, and narrowing a vector narrows each element. -/
theorem narV_roundtrip (h1 : S1x512x1024.ShapeCasts S512x1024) (h2 : S512x1024.ShapeCasts S1x512x1024)
    (hb : FTy.bits .bf16 < FTy.bits .f32) (v : S1x512x1024.Idx → F .f32) :
    shapeCast S1x512x1024 (truncf .bf16 (shapeCast S512x1024 v h1) hb) h2 = narV v := by
  have e : truncf .bf16 (shapeCast S512x1024 v h1) hb = shapeCast S512x1024 (narV v) h1 := rfl
  rw [e, shapeCast_shapeCast]

theorem pay1_eq : (k0_pay1 : (S1x512x1024.Idx → F .f32) → (S1x512x1024.Idx → F .bf16)) = narV :=
  funext fun v => narV_roundtrip _ _ _ v
theorem pay2_eq : (k0_pay2 : (S1x512x1024.Idx → F .f32) → (S1x512x1024.Idx → F .bf16)) = narV :=
  funext fun v => narV_roundtrip _ _ _ v
theorem pay4_3_eq : (fun v => k0_pay4 (k0_pay3 v) : (S1x512x1024.Idx → F .f32) → (S1x512x1024.Idx → F .bf16)) = narV :=
  funext fun v => narV_roundtrip _ _ _ v
theorem pay5_eq : (k0_pay5 : (S1x512x1024.Idx → F .f32) → (S1x512x1024.Idx → F .bf16)) = narV :=
  funext fun v => narV_roundtrip _ _ _ v
theorem pay6_eq : (k0_pay6 : (S1x512x1024.Idx → F .f32) → (S1x512x1024.Idx → F .bf16)) = narV :=
  funext fun v => narV_roundtrip _ _ _ v
theorem pay7_eq : (k0_pay7 : (S1x512x1024.Idx → F .f32) → (S1x512x1024.Idx → F .bf16)) = narV :=
  funext fun v => narV_roundtrip _ _ _ v
theorem pay8_eq : (k0_pay8 : (S1x512x1024.Idx → F .f32) → (S1x512x1024.Idx → F .bf16)) = narV :=
  funext fun v => narV_roundtrip _ _ _ v
theorem pay9_eq : (k0_pay9 : (S1x512x1024.Idx → F .f32) → (S1x512x1024.Idx → F .bf16)) = narV :=
  funext fun v => narV_roundtrip _ _ _ v
theorem pay10_eq : (k0_pay10 : (S1x512x1024.Idx → F .f32) → (S1x512x1024.Idx → F .bf16)) = narV :=
  funext fun v => narV_roundtrip _ _ _ v
theorem pay11_eq : (k0_pay11 : (S1x512x1024.Idx → F .f32) → (S1x512x1024.Idx → F .bf16)) = narV :=
  funext fun v => narV_roundtrip _ _ _ v
theorem pay13_12_eq : (fun v => k0_pay13 (k0_pay12 v) : (S1x512x1024.Idx → F .f32) → (S1x512x1024.Idx → F .bf16)) = narV :=
  funext fun v => narV_roundtrip _ _ _ v
theorem pay14_eq : (k0_pay14 : (S1x512x1024.Idx → F .f32) → (S1x512x1024.Idx → F .bf16)) = narV :=
  funext fun v => narV_roundtrip _ _ _ v
theorem pay15_eq : (k0_pay15 : (S1x512x1024.Idx → F .f32) → (S1x512x1024.Idx → F .bf16)) = narV :=
  funext fun v => narV_roundtrip _ _ _ v
theorem pay16_eq : (k0_pay16 : (S1x512x1024.Idx → F .f32) → (S1x512x1024.Idx → F .bf16)) = narV :=
  funext fun v => narV_roundtrip _ _ _ v
theorem pay17_eq : (k0_pay17 : (S1x512x1024.Idx → F .f32) → (S1x512x1024.Idx → F .bf16)) = narV :=
  funext fun v => narV_roundtrip _ _ _ v
theorem pay18_eq : (k0_pay18 : (S1x512x1024.Idx → F .f32) → (S1x512x1024.Idx → F .bf16)) = narV :=
  funext fun v => narV_roundtrip _ _ _ v
theorem pay19_eq : (k0_pay19 : (S1x512x1024.Idx → F .f32) → (S1x512x1024.Idx → F .bf16)) = narV :=
  funext fun v => narV_roundtrip _ _ _ v
theorem pay20_eq : (k0_pay20 : (S1x512x1024.Idx → F .f32) → (S1x512x1024.Idx → F .bf16)) = narV :=
  funext fun v => narV_roundtrip _ _ _ v
theorem pay21_eq : (k0_pay21 : (S1x512x1024.Idx → F .f32) → (S1x512x1024.Idx → F .bf16)) = narV :=
  funext fun v => narV_roundtrip _ _ _ v
theorem pay22_eq : (k0_pay22 : (S1x512x1024.Idx → F .f32) → (S1x512x1024.Idx → F .bf16)) = narV :=
  funext fun v => narV_roundtrip _ _ _ v
theorem pay23_eq : (k0_pay23 : (S1x512x1024.Idx → F .f32) → (S1x512x1024.Idx → F .bf16)) = narV :=
  funext fun v => narV_roundtrip _ _ _ v
theorem pay24_eq : (k0_pay24 : (S1x512x1024.Idx → F .f32) → (S1x512x1024.Idx → F .bf16)) = narV :=
  funext fun v => narV_roundtrip _ _ _ v
theorem pay26_25_eq : (fun v => k0_pay26 (k0_pay25 v) : (S1x512x1024.Idx → F .f32) → (S1x512x1024.Idx → F .bf16)) = narV :=
  funext fun v => narV_roundtrip _ _ _ v
theorem pay27_eq : (k0_pay27 : (S1x512x1024.Idx → F .f32) → (S1x512x1024.Idx → F .bf16)) = narV :=
  funext fun v => narV_roundtrip _ _ _ v
theorem pay28_eq : (k0_pay28 : (S1x512x1024.Idx → F .f32) → (S1x512x1024.Idx → F .bf16)) = narV :=
  funext fun v => narV_roundtrip _ _ _ v
theorem pay29_eq : (k0_pay29 : (S1x512x1024.Idx → F .f32) → (S1x512x1024.Idx → F .bf16)) = narV :=
  funext fun v => narV_roundtrip _ _ _ v
theorem pay30_eq : (k0_pay30 : (S1x512x1024.Idx → F .f32) → (S1x512x1024.Idx → F .bf16)) = narV :=
  funext fun v => narV_roundtrip _ _ _ v
theorem pay31_eq : (k0_pay31 : (S1x512x1024.Idx → F .f32) → (S1x512x1024.Idx → F .bf16)) = narV :=
  funext fun v => narV_roundtrip _ _ _ v
theorem pay33_32_eq : (fun v => k0_pay33 (k0_pay32 v) : (S1x512x1024.Idx → F .f32) → (S1x512x1024.Idx → F .bf16)) = narV :=
  funext fun v => narV_roundtrip _ _ _ v
theorem pay34_eq : (k0_pay34 : (S1x512x1024.Idx → F .f32) → (S1x512x1024.Idx → F .bf16)) = narV :=
  funext fun v => narV_roundtrip _ _ _ v
theorem pay35_eq : (k0_pay35 : (S1x512x1024.Idx → F .f32) → (S1x512x1024.Idx → F .bf16)) = narV :=
  funext fun v => narV_roundtrip _ _ _ v
theorem pay36_eq : (k0_pay36 : (S1x512x1024.Idx → F .f32) → (S1x512x1024.Idx → F .bf16)) = narV :=
  funext fun v => narV_roundtrip _ _ _ v

/-! ## One chunk: copied into a slot, read back, narrowed, stored at its box -/

/-- What a load of slot `j` through the whole staging array reads when the newest write of the slot is the chunk of the
    input at `o`: at `(0, r, q)`, the input at `(o 0 + r, o 1 + q)`. -/
theorem slot_load (c : Dev nD) (j : Fin 2) {o : Fin 2 → ℕ} {inbo : ∀ a, o a + S512x1024.size a ≤ S4096x4096.size a}
    {hs : ∀ a, (Rect.unit (s := S4096x4096) o S512x1024.size inbo).stride a = 1}
    (P : List (View.Piece (Elt F) S512x1024 .f32)) (y : S1x512x1024.Idx) :
    View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P)) y
      = X m c (ix2 ⟨o 0 + (y 1).val, by have := inbo 0; have : (y 1).val < 512 := (y 1).isLt; have h : o 0 + 512 ≤ 4096 := inbo 0; omega⟩
                   ⟨o 1 + (y 2).val, by have : (y 2).val < 1024 := (y 2).isLt; have h : o 1 + 1024 ≤ 4096 := inbo 1; omega⟩) := by
  -- the load at the slot's box is the slot's own read with the unit axis put back
  have e1 : ∀ W, View.readAt (Elt F) gM.view (Rect.unit (s := S2x512x1024) (slotOff j) S1x512x1024.size (slotInb j)).toLoadRect W
      = shapeCast S1x512x1024 ((slotM j).view.read (Elt F) W) shapeCasts_S512x1024_S1x512x1024 := by
    intro W
    rw [Memref.read_squeeze_slice gM _ _ _ shapeCasts_S1x512x1024_S512x1024]
    exact (shapeCast_shapeCast (s := S1x512x1024) (t := S512x1024) _ _ _).symm
  rw [e1, shapeCast_addUnit_apply]
  have e2 := View.read_writes_cons_emb (slotM j).view (slotM j).view.junk (Rect.whole S512x1024)
    (ReadAs.same.apply (View.read (Elt F) (xM.slice (Rect.unit (s := S4096x4096) o S512x1024.size inbo) hs).view (X m c))) P
    (fun a => y a.succ)
  have e3 : (Rect.whole S512x1024).emb (fun a : Fin 2 => y a.succ : S512x1024.Idx) = (fun a : Fin 2 => y a.succ : S512x1024.Idx) :=
    Rect.emb_whole_apply S512x1024 _
  rw [e3] at e2
  rw [e2]
  show X m c _ = X m c _
  refine congrArg (X m c) ?_
  funext a
  match a with
  | ⟨0, _⟩ => exact Fin.ext (by show o 0 + 1 * (y 1).val = o 0 + (y 1).val; omega)
  | ⟨1, _⟩ => exact Fin.ext (by show o 1 + 1 * (y 2).val = o 1 + (y 2).val; omega)

/-- A store of a chunk through the narrowed staging array at a box leaves, under the box, the payload at the box's own
    index; -/
theorem store_in (c : Dev nD) {off : Fin 3 → ℕ} (inb : ∀ a, off a + S1x512x1024.size a ≤ S4x4096x1024.size a)
    (f : Buf (Elt F) ((c : Thread nD τ).loc cc0_scratch0)) (w : S1x512x1024.Idx → F .bf16) (y : S1x512x1024.Idx) :
    View.write (Elt F) (bM.access (Rect.unit (s := S4x4096x1024) off S1x512x1024.size inb)) f w Finset.univ
      ((Rect.unit (s := S4x4096x1024) off S1x512x1024.size inb).emb y) = w y :=
  View.write_emb_of_mem (v := bM.access (Rect.unit (s := S4x4096x1024) off S1x512x1024.size inb)) (Val := Elt F) f w
    (M := Finset.univ) (x := y) (Finset.mem_univ _)

/-- and off the box what was there. -/
theorem store_out (c : Dev nD) {off : Fin 3 → ℕ} (inb : ∀ a, off a + S1x512x1024.size a ≤ S4x4096x1024.size a)
    (f : Buf (Elt F) ((c : Thread nD τ).loc cc0_scratch0)) (w : S1x512x1024.Idx → F .bf16) (i : S4x4096x1024.Idx)
    (hi : i ∉ (Rect.unit (s := S4x4096x1024) off S1x512x1024.size inb).set) :
    View.write (Elt F) (bM.access (Rect.unit (s := S4x4096x1024) off S1x512x1024.size inb)) f w Finset.univ i = f i :=
  View.write_of_not_mem _ _ _ (by rw [View.setOn_univ, View.set_slice_whole]; exact hi)

/-- Membership in a chunk's box, axis by axis. -/
theorem mem_box {off : Fin 3 → ℕ} (inb : ∀ a, off a + S1x512x1024.size a ≤ S4x4096x1024.size a) (i : S4x4096x1024.Idx) :
    i ∈ (Rect.unit (s := S4x4096x1024) off S1x512x1024.size inb).set ↔
      (off 0 ≤ (i 0).val ∧ (i 0).val < off 0 + 1) ∧ (off 1 ≤ (i 1).val ∧ (i 1).val < off 1 + 512)
        ∧ (off 2 ≤ (i 2).val ∧ (i 2).val < off 2 + 1024) := by
  rw [Rect.mem_set_unit, forall_fin3]; exact Iff.rfl

/-- One chunk: under its box the stored array holds the narrowed input, when the box's rows are the chunk's rows of the
    input, its slab `a` names the columns of the ring member `a + 1` places on, and it spans all 1024 columns. -/
theorem chunk_val (c : Dev nD) {off : Fin 3 → ℕ} (inb : ∀ a, off a + S1x512x1024.size a ≤ S4x4096x1024.size a) (j : Fin 2)
    {o : Fin 2 → ℕ} {inbo : ∀ a, o a + S512x1024.size a ≤ S4096x4096.size a}
    {hs : ∀ a, (Rect.unit (s := S4096x4096) o S512x1024.size inbo).stride a = 1}
    (P : List (View.Piece (Elt F) S512x1024 .f32))
    (PAY : (S1x512x1024.Idx → F .f32) → (S1x512x1024.Idx → F .bf16)) (hP : PAY = narV)
    (f : Buf (Elt F) ((c : Thread nD τ).loc cc0_scratch0))
    (h0 : o 0 = off 1) (h1 : o 1 = 1024 * ((c.val + (off 0 + 1)) % 4)) (h2 : off 2 = 0)
    (i : S4x4096x1024.Idx) (hi : i ∈ (Rect.unit (s := S4x4096x1024) off S1x512x1024.size inb).set) :
    View.write (Elt F) (bM.access (Rect.unit (s := S4x4096x1024) off S1x512x1024.size inb)) f
      (PAY (View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P))))
      Finset.univ i = XBF m c i := by
  obtain ⟨y, rfl⟩ := (Rect.unit (s := S4x4096x1024) off S1x512x1024.size inb).exists_idx_of_mem hi
  subst hP
  have e := store_in c inb f (narV (View.readAt (Elt F) gM.view (Rect.unit (s := S2x512x1024) (slotOff j) S1x512x1024.size (slotInb j)).toLoadRect
          ((slotM j).view.writes (Elt F) (slotM j).view.junk
            (⟨Rect.whole S512x1024, ReadAs.same.apply (View.read (Elt F) (xM.slice (Rect.unit (s := S4096x4096) o S512x1024.size inbo) hs).view (X m c))⟩ :: P)))) y
  refine e.trans ?_
  show nar _ = nar _
  rw [slot_load]
  have y0 : (y 0).val < 1 := (y 0).isLt
  show nar (X m c _) = nar (X m c _)
  refine congrArg nar (congrArg (X m c) ?_)
  funext a
  match a with
  | ⟨0, _⟩ =>
    refine Fin.ext ?_
    show o 0 + (y 1).val = off 1 + 1 * (y 1).val
    omega
  | ⟨1, _⟩ =>
    refine Fin.ext ?_
    show o 1 + (y 2).val = 1024 * ((c.val + ((off 0 + 1 * (y 0).val) + 1)) % 4) + (off 2 + 1 * (y 2).val)
    have y00 : (y 0).val = 0 := by omega
    rw [h1, h2, y00]; omega

/-! ## Where the chunks of a half slab are stored -/

/-- Chunk `t` of send `k`'s half slab: slab `k / 2`, rows `2048 (k % 2) + 512 t` on. -/
abbrev cOff (k : Fin 6) (t : Fin 4) : Fin 3 → ℕ := ![k.val / 2, 2048 * (k.val % 2) + 512 * t.val, 0]
theorem cInb : ∀ (k : Fin 6) (t : Fin 4) (a : Fin 3), cOff k t a + S1x512x1024.size a ≤ S4x4096x1024.size a := by decide
/-- Chunk `t` of slab 3: rows `512 t` on. -/
abbrev lOff (t : Fin 8) : Fin 3 → ℕ := ![3, 512 * t.val, 0]
theorem lInb : ∀ (t : Fin 8) (a : Fin 3), lOff t a + S1x512x1024.size a ≤ S4x4096x1024.size a := by decide

/-- Membership in chunk `t`'s box of send `k`'s half slab. -/
theorem mem_cbox (k : Fin 6) (t : Fin 4) (i : S4x4096x1024.Idx) :
    i ∈ (Rect.unit (s := S4x4096x1024) (cOff k t) S1x512x1024.size (cInb k t)).set ↔
      (i 0).val = k.val / 2 ∧ 2048 * (k.val % 2) + 512 * t.val ≤ (i 1).val
        ∧ (i 1).val < 2048 * (k.val % 2) + 512 * t.val + 512 := by
  rw [mem_box]
  have h2 : (i 2).val < 1024 := (i 2).isLt
  show (k.val / 2 ≤ (i 0).val ∧ (i 0).val < k.val / 2 + 1)
      ∧ (2048 * (k.val % 2) + 512 * t.val ≤ (i 1).val ∧ (i 1).val < 2048 * (k.val % 2) + 512 * t.val + 512)
      ∧ (0 ≤ (i 2).val ∧ (i 2).val < 0 + 1024) ↔ _
  omega

/-- Membership in chunk `t`'s box of slab 3. -/
theorem mem_lbox (t : Fin 8) (i : S4x4096x1024.Idx) :
    i ∈ (Rect.unit (s := S4x4096x1024) (lOff t) S1x512x1024.size (lInb t)).set ↔
      (i 0).val = 3 ∧ 512 * t.val ≤ (i 1).val ∧ (i 1).val < 512 * t.val + 512 := by
  rw [mem_box]
  have h2 : (i 2).val < 1024 := (i 2).isLt
  show (3 ≤ (i 0).val ∧ (i 0).val < 3 + 1) ∧ (512 * t.val ≤ (i 1).val ∧ (i 1).val < 512 * t.val + 512)
      ∧ (0 ≤ (i 2).val ∧ (i 2).val < 0 + 1024) ↔ _
  omega

/-- Four chunks stored one after the other fill send `k`'s half slab with the narrowed input at the columns of the ring
    member `k / 2 + 1` places on: whatever the array held before, and whatever else the staging slots were written with
    earlier (the tails `P`). -/
theorem slab_val (c : Dev nD) (k : Fin 6) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    {o0 : Fin 2 → ℕ} (ho0 : o0 = ![2048 * (k.val % 2) + 512 * 0, 1024 * ((c.val + (k.val / 2 + 1)) % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![2048 * (k.val % 2) + 512 * 1, 1024 * ((c.val + (k.val / 2 + 1)) % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![2048 * (k.val % 2) + 512 * 2, 1024 * ((c.val + (k.val / 2 + 1)) % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![2048 * (k.val % 2) + 512 * 3, 1024 * ((c.val + (k.val / 2 + 1)) % 4)]) {inb3 : ∀ a, o3 a + S512x1024.size a ≤ S4096x4096.size a} {hs3 : ∀ a, (Rect.unit (s := S4096x4096) o3 S512x1024.size inb3).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)} :
    ∀ i ∈ (srcM k).view.set,
      (View.write (Elt F) (bM.access (Rect.unit (s := S4x4096x1024) (cOff k 3) S1x512x1024.size (cInb k 3))) (View.write (Elt F) (bM.access (Rect.unit (s := S4x4096x1024) (cOff k 2) S1x512x1024.size (cInb k 2))) (View.write (Elt F) (bM.access (Rect.unit (s := S4x4096x1024) (cOff k 1) S1x512x1024.size (cInb k 1))) (View.write (Elt F) (bM.access (Rect.unit (s := S4x4096x1024) (cOff k 0) S1x512x1024.size (cInb k 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ) i
      = XBF m c i := by
  intro i hi
  subst ho0 ho1 ho2 ho3
  have hsrc := (mem_srcM k i).mp hi
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  -- peel the stores from the newest: the index is under exactly one chunk's box
  by_cases h3 : i ∈ (Rect.unit (s := S4x4096x1024) (cOff k 3) S1x512x1024.size (cInb k 3)).set
  · exact chunk_val m c (cInb k 3) 1 P3 PAY3 hP3 _ (by rfl) (by rfl) (by rfl) i h3
  rw [store_out c (cInb k 3) _ _ i h3]
  by_cases h2 : i ∈ (Rect.unit (s := S4x4096x1024) (cOff k 2) S1x512x1024.size (cInb k 2)).set
  · exact chunk_val m c (cInb k 2) 0 P2 PAY2 hP2 _ (by rfl) (by rfl) (by rfl) i h2
  rw [store_out c (cInb k 2) _ _ i h2]
  by_cases h1 : i ∈ (Rect.unit (s := S4x4096x1024) (cOff k 1) S1x512x1024.size (cInb k 1)).set
  · exact chunk_val m c (cInb k 1) 1 P1 PAY1 hP1 _ (by rfl) (by rfl) (by rfl) i h1
  rw [store_out c (cInb k 1) _ _ i h1]
  by_cases h0 : i ∈ (Rect.unit (s := S4x4096x1024) (cOff k 0) S1x512x1024.size (cInb k 0)).set
  · exact chunk_val m c (cInb k 0) 0 P0 PAY0 hP0 _ (by rfl) (by rfl) (by rfl) i h0
  exfalso
  rw [mem_cbox] at h0 h1 h2 h3
  omega

/-- Eight chunks fill slab 3 with the narrowed input at the device's own columns. -/
theorem lslab_val (c : Dev nD) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    (PAY4 : (S1x512x1024.Idx → F .f32) → (S1x512x1024.Idx → F .bf16)) (hP4 : PAY4 = narV)
    (PAY5 : (S1x512x1024.Idx → F .f32) → (S1x512x1024.Idx → F .bf16)) (hP5 : PAY5 = narV)
    (PAY6 : (S1x512x1024.Idx → F .f32) → (S1x512x1024.Idx → F .bf16)) (hP6 : PAY6 = narV)
    (PAY7 : (S1x512x1024.Idx → F .f32) → (S1x512x1024.Idx → F .bf16)) (hP7 : PAY7 = narV)
    {o0 : Fin 2 → ℕ} (ho0 : o0 = ![512 * 0, 1024 * (c.val % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![512 * 1, 1024 * (c.val % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![512 * 2, 1024 * (c.val % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![512 * 3, 1024 * (c.val % 4)]) {inb3 : ∀ a, o3 a + S512x1024.size a ≤ S4096x4096.size a} {hs3 : ∀ a, (Rect.unit (s := S4096x4096) o3 S512x1024.size inb3).stride a = 1}
    {o4 : Fin 2 → ℕ} (ho4 : o4 = ![512 * 4, 1024 * (c.val % 4)]) {inb4 : ∀ a, o4 a + S512x1024.size a ≤ S4096x4096.size a} {hs4 : ∀ a, (Rect.unit (s := S4096x4096) o4 S512x1024.size inb4).stride a = 1}
    {o5 : Fin 2 → ℕ} (ho5 : o5 = ![512 * 5, 1024 * (c.val % 4)]) {inb5 : ∀ a, o5 a + S512x1024.size a ≤ S4096x4096.size a} {hs5 : ∀ a, (Rect.unit (s := S4096x4096) o5 S512x1024.size inb5).stride a = 1}
    {o6 : Fin 2 → ℕ} (ho6 : o6 = ![512 * 6, 1024 * (c.val % 4)]) {inb6 : ∀ a, o6 a + S512x1024.size a ≤ S4096x4096.size a} {hs6 : ∀ a, (Rect.unit (s := S4096x4096) o6 S512x1024.size inb6).stride a = 1}
    {o7 : Fin 2 → ℕ} (ho7 : o7 = ![512 * 7, 1024 * (c.val % 4)]) {inb7 : ∀ a, o7 a + S512x1024.size a ≤ S4096x4096.size a} {hs7 : ∀ a, (Rect.unit (s := S4096x4096) o7 S512x1024.size inb7).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)}
    {P4 : List (View.Piece (Elt F) S512x1024 .f32)}
    {P5 : List (View.Piece (Elt F) S512x1024 .f32)}
    {P6 : List (View.Piece (Elt F) S512x1024 .f32)}
    {P7 : List (View.Piece (Elt F) S512x1024 .f32)} :
    ∀ i ∈ lsrcM.view.set,
      (View.write (Elt F) (bM.access (Rect.unit (s := S4x4096x1024) (lOff 7) S1x512x1024.size (lInb 7))) (View.write (Elt F) (bM.access (Rect.unit (s := S4x4096x1024) (lOff 6) S1x512x1024.size (lInb 6))) (View.write (Elt F) (bM.access (Rect.unit (s := S4x4096x1024) (lOff 5) S1x512x1024.size (lInb 5))) (View.write (Elt F) (bM.access (Rect.unit (s := S4x4096x1024) (lOff 4) S1x512x1024.size (lInb 4))) (View.write (Elt F) (bM.access (Rect.unit (s := S4x4096x1024) (lOff 3) S1x512x1024.size (lInb 3))) (View.write (Elt F) (bM.access (Rect.unit (s := S4x4096x1024) (lOff 2) S1x512x1024.size (lInb 2))) (View.write (Elt F) (bM.access (Rect.unit (s := S4x4096x1024) (lOff 1) S1x512x1024.size (lInb 1))) (View.write (Elt F) (bM.access (Rect.unit (s := S4x4096x1024) (lOff 0) S1x512x1024.size (lInb 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ)
        (PAY4 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o4 S512x1024.size inb4) hs4).view (X m c))⟩ :: P4)))) Finset.univ)
        (PAY5 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o5 S512x1024.size inb5) hs5).view (X m c))⟩ :: P5)))) Finset.univ)
        (PAY6 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o6 S512x1024.size inb6) hs6).view (X m c))⟩ :: P6)))) Finset.univ)
        (PAY7 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o7 S512x1024.size inb7) hs7).view (X m c))⟩ :: P7)))) Finset.univ) i
      = XBF m c i := by
  intro i hi
  subst ho0 ho1 ho2 ho3 ho4 ho5 ho6 ho7
  have hsrc := (mem_lsrcM i).mp hi
  have hrow : (i 1).val < 4096 := (i 1).isLt
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  have hcol : 1024 * (c.val % 4) = 1024 * ((c.val + (3 + 1)) % 4) := by omega
  -- peel the stores from the newest: the index is under exactly one chunk's box
  by_cases h7 : i ∈ (Rect.unit (s := S4x4096x1024) (lOff 7) S1x512x1024.size (lInb 7)).set
  · exact chunk_val m c (lInb 7) 1 P7 PAY7 hP7 _ (by rfl) hcol (by rfl) i h7
  rw [store_out c (lInb 7) _ _ i h7]
  by_cases h6 : i ∈ (Rect.unit (s := S4x4096x1024) (lOff 6) S1x512x1024.size (lInb 6)).set
  · exact chunk_val m c (lInb 6) 0 P6 PAY6 hP6 _ (by rfl) hcol (by rfl) i h6
  rw [store_out c (lInb 6) _ _ i h6]
  by_cases h5 : i ∈ (Rect.unit (s := S4x4096x1024) (lOff 5) S1x512x1024.size (lInb 5)).set
  · exact chunk_val m c (lInb 5) 1 P5 PAY5 hP5 _ (by rfl) hcol (by rfl) i h5
  rw [store_out c (lInb 5) _ _ i h5]
  by_cases h4 : i ∈ (Rect.unit (s := S4x4096x1024) (lOff 4) S1x512x1024.size (lInb 4)).set
  · exact chunk_val m c (lInb 4) 0 P4 PAY4 hP4 _ (by rfl) hcol (by rfl) i h4
  rw [store_out c (lInb 4) _ _ i h4]
  by_cases h3 : i ∈ (Rect.unit (s := S4x4096x1024) (lOff 3) S1x512x1024.size (lInb 3)).set
  · exact chunk_val m c (lInb 3) 1 P3 PAY3 hP3 _ (by rfl) hcol (by rfl) i h3
  rw [store_out c (lInb 3) _ _ i h3]
  by_cases h2 : i ∈ (Rect.unit (s := S4x4096x1024) (lOff 2) S1x512x1024.size (lInb 2)).set
  · exact chunk_val m c (lInb 2) 0 P2 PAY2 hP2 _ (by rfl) hcol (by rfl) i h2
  rw [store_out c (lInb 2) _ _ i h2]
  by_cases h1 : i ∈ (Rect.unit (s := S4x4096x1024) (lOff 1) S1x512x1024.size (lInb 1)).set
  · exact chunk_val m c (lInb 1) 1 P1 PAY1 hP1 _ (by rfl) hcol (by rfl) i h1
  rw [store_out c (lInb 1) _ _ i h1]
  by_cases h0 : i ∈ (Rect.unit (s := S4x4096x1024) (lOff 0) S1x512x1024.size (lInb 0)).set
  · exact chunk_val m c (lInb 0) 0 P0 PAY0 hP0 _ (by rfl) hcol (by rfl) i h0
  exfalso
  rw [mem_lbox] at h0 h1 h2 h3 h4 h5 h6 h7
  omega

end Cert.Kernel.A2A

end
-- ==== Proof.Word.Landed.lean ====
/-
  A converted half slab written over a half block of a result array makes that half block the narrowed input of the
  sender at the receiver's columns, which is what the receiver's result array must end with there.
-/
import proofs.«900645_g7700000000000646_dist_a2a_v7x_xyz2x2x4_z_m4096_n1024_bf16_1_alg».proof.Proof.Word.Regions
import proofs.«900645_g7700000000000646_dist_a2a_v7x_xyz2x2x4_z_m4096_n1024_bf16_1_alg».proof.Proof.Word.Sched
import Idealize.ShloMosaic.Lib.Pipeline.Value
import Idealize.ShloMosaic.Lib.ValueIdx
import Idealize.ShloMosaic.Lib.ValueLayout

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- Two rank-2 indices with equal coordinates are equal. -/
theorem ix2_congr {n0 n1 : ℕ} {a a' : Fin n0} {b b' : Fin n1} (ha : a.val = a'.val) (hb : b.val = b'.val) :
    ix2 a b = ix2 a' b' := by
  have ea : a = a' := Fin.ext ha
  have eb : b = b' := Fin.ext hb
  subst ea eb; rfl

/-- The narrowed staging array of `s` at slab `p 0`, row `p 1`, column `p 2` is what a member `r` of `s`'s ring whose
    ring coordinate is `s`'s moved `p 0 + 1` places on must end with at row `4096 (s % 4) + p 1`, column `p 2`. -/
theorem XBF_eq_OUT (s r : Dev nD) (p : S4x4096x1024.Idx) (i : S16384x1024.Idx)
    (hd : r.val / 4 = s.val / 4) (hm : r.val % 4 = (s.val + ((p 0).val + 1)) % 4)
    (h0 : (i 0).val = 4096 * (s.val % 4) + (p 1).val) (h1 : (i 1).val = (p 2).val) :
    XBF m s p = OUT m r i := by
  have hp1 : (p 1).val < 4096 := (p 1).isLt
  have hs : s.val < 16 := s.isLt
  have hr : ringAt r ((i 0).val / 4096) = s := by
    apply Fin.ext; rw [ringAt_val]; omega
  unfold XBF OUT
  rw [hr]
  refine congrArg nar (congrArg (X m s) (ix2_congr ?_ ?_))
  · show (p 1).val = (i 0).val % 4096
    omega
  · show 1024 * ((s.val + ((p 0).val + 1)) % 4) + (p 2).val = 1024 * (r.val % 4) + (i 1).val
    omega

/-- Where a sender's half block puts its local row and column in the result array. -/
theorem dstM_emb (s : Dev nD) (h : Fin 2) (y : S2048x1024.Idx) :
    (((dstM s h).view.emb y : S16384x1024.Idx) 0).val = 4096 * (s.val % 4) + 2048 * h.val + (y 0).val
    ∧ (((dstM s h).view.emb y : S16384x1024.Idx) 1).val = (y 1).val := by
  have e := k0_off5_eq s h
  constructor
  · show (k0_off5 s (BitVec.ofNat 32 (2048 * h.val))) 0 + 1 * (y 0).val = _
    rw [e]; simp only [Matrix.cons_val_zero]; omega
  · show (k0_off5 s (BitVec.ofNat 32 (2048 * h.val))) 1 + 1 * (y 1).val = _
    rw [e]; simp only [Matrix.cons_val_one, Matrix.cons_val_zero, Matrix.head_cons]; omega

/-- Where the block a device fills itself puts its local row and column in the result array. -/
theorem ldstM_emb (c : Dev nD) (y : S4096x1024.Idx) :
    (((ldstM c).view.emb y : S16384x1024.Idx) 0).val = 4096 * (c.val % 4) + (y 0).val
    ∧ (((ldstM c).view.emb y : S16384x1024.Idx) 1).val = (y 1).val := by
  have e := k0_off18_eq c
  constructor
  · show (k0_off18 c) 0 + 1 * (y 0).val = _
    rw [e]; simp only [Matrix.cons_val_zero]; omega
  · show (k0_off18 c) 1 + 1 * (y 1).val = _
    rw [e]; simp only [Matrix.cons_val_one, Matrix.cons_val_zero, Matrix.head_cons]; omega

/-- Where send `k`'s half slab puts its local row and column in the narrowed staging array: slab `k / 2`, the rows from
    `2048 (k % 2)` on. -/
theorem srcM_emb (k : Fin 6) (y : S2048x1024.Idx) :
    (((srcM k).view.emb y : S4x4096x1024.Idx) 0).val = k.val / 2
    ∧ (((srcM k).view.emb y : S4x4096x1024.Idx) 1).val = 2048 * (k.val % 2) + (y 0).val
    ∧ (((srcM k).view.emb y : S4x4096x1024.Idx) 2).val = (y 1).val := by
  obtain ⟨a, b, rfl⟩ : ∃ a b, y = ix2 a b := ⟨y 0, y 1, eq_ix2 y⟩
  have e : (srcM k).view.emb (ix2 a b)
      = (Rect.unit (s := S4x4096x1024) (srcOff k) S1x2048x1024.size (srcInb k)).emb (ix3 (⟨0, Nat.one_pos⟩ : Fin 1) a b) :=
    congrArg (Rect.unit (s := S4x4096x1024) (srcOff k) S1x2048x1024.size (srcInb k)).emb (reshapeEquiv_ix2_1ab _ a b)
  rw [e]
  refine ⟨?_, ?_, ?_⟩
  · show srcOff k 0 + 1 * 0 = _
    fin_cases k <;> simp only [srcOff, Matrix.cons_val_zero, Matrix.cons_val_one, Matrix.cons_val_two, Matrix.head_cons, Matrix.tail_cons] <;> omega
  · show srcOff k 1 + 1 * a.val = 2048 * (k.val % 2) + a.val
    fin_cases k <;> simp only [srcOff, Matrix.cons_val_zero, Matrix.cons_val_one, Matrix.cons_val_two, Matrix.head_cons, Matrix.tail_cons] <;> omega
  · show srcOff k 2 + 1 * b.val = b.val
    fin_cases k <;> simp only [srcOff, Matrix.cons_val_zero, Matrix.cons_val_one, Matrix.cons_val_two, Matrix.head_cons, Matrix.tail_cons] <;> omega

/-- Where slab 3 puts its local row and column in the narrowed staging array. -/
theorem lsrcM_emb (y : S4096x1024.Idx) :
    ((lsrcM.view.emb y : S4x4096x1024.Idx) 0).val = 3
    ∧ ((lsrcM.view.emb y : S4x4096x1024.Idx) 1).val = (y 0).val
    ∧ ((lsrcM.view.emb y : S4x4096x1024.Idx) 2).val = (y 1).val := by
  obtain ⟨a, b, rfl⟩ : ∃ a b, y = ix2 a b := ⟨y 0, y 1, eq_ix2 y⟩
  have e : lsrcM.view.emb (ix2 a b)
      = (Rect.unit (s := S4x4096x1024) ![3, 0, 0] S1x4096x1024.size inb_S4x4096x1024_S1x4096x1024_3_0_0).emb (ix3 (⟨0, Nat.one_pos⟩ : Fin 1) a b) :=
    congrArg (Rect.unit (s := S4x4096x1024) ![3, 0, 0] S1x4096x1024.size inb_S4x4096x1024_S1x4096x1024_3_0_0).emb (reshapeEquiv_ix2_1ab _ a b)
  rw [e]
  refine ⟨?_, ?_, ?_⟩
  · show (![3, 0, 0] : Fin 3 → ℕ) 0 + 1 * 0 = 3
    simp only [Matrix.cons_val_zero]
  · show (![3, 0, 0] : Fin 3 → ℕ) 1 + 1 * a.val = a.val
    simp only [Matrix.cons_val_one, Matrix.cons_val_zero, Matrix.head_cons]; omega
  · show (![3, 0, 0] : Fin 3 → ℕ) 2 + 1 * b.val = b.val
    simp only [Matrix.cons_val_two, Matrix.cons_val_one, Matrix.cons_val_zero, Matrix.head_cons, Matrix.tail_cons]; omega

/-- Send `k` of sender `s`, landed on the member `k / 2 + 1` places on, makes the half block it writes what that member's
    result array must end with. -/
theorem landed_val (s : Dev nD) (k : Fin 6) (fd : Buf (Elt F) ((pe s (k.val / 2 + 1) : Thread nD τ).loc main_v1)) :
    ∀ i ∈ (dstM s (halfOf k)).view.set,
      (dstM s (halfOf k)).view.write (Elt F) fd ((srcM k).view.read (Elt F) (XBF m s)) Finset.univ i
      = OUT m (pe s (k.val / 2 + 1)) i := by
  intro i hi
  obtain ⟨y, hy⟩ := View.exists_emb_of_mem_set (dstM s (halfOf k)).view hi
  subst hy
  rw [View.write_emb_of_mem _ _ (Finset.mem_univ y), View.read_apply]
  show XBF m s ((srcM k).view.emb y) = _
  obtain ⟨d0, d1⟩ := dstM_emb s (halfOf k) y
  obtain ⟨s0, s1, s2⟩ := srcM_emb k y
  have hh : (halfOf k).val = k.val % 2 := rfl
  exact XBF_eq_OUT m s _ _ _ (pe_div s _) (by rw [pe_mod, s0]) (by rw [d0, s1, hh]; omega) (by rw [d1, s2])

/-- The local copy: slab 3 written over the device's own block of its result array makes that block what the result
    array must end with there. -/
theorem local_val (c : Dev nD) (fd : Buf (Elt F) ((c : Thread nD τ).loc main_v1)) :
    ∀ i ∈ (ldstM c).view.set,
      (ldstM c).view.write (Elt F) fd (lsrcM.view.read (Elt F) (XBF m c)) Finset.univ i = OUT m c i := by
  intro i hi
  obtain ⟨y, hy⟩ := View.exists_emb_of_mem_set (ldstM c).view hi
  subst hy
  rw [View.write_emb_of_mem _ _ (Finset.mem_univ y), View.read_apply]
  show XBF m c (lsrcM.view.emb y) = _
  obtain ⟨d0, d1⟩ := ldstM_emb c y
  obtain ⟨s0, s1, s2⟩ := lsrcM_emb y
  exact XBF_eq_OUT m c c _ _ rfl (by rw [s0]; omega) (by rw [d0, s1]) (by rw [d1, s2])

/-- `local_val` in the form the block is left in: one whole-view write, listed. -/
theorem local_val_listed (c : Dev nD) (fd : Buf (Elt F) ((c : Thread nD τ).loc main_v1)) :
    ∀ i ∈ (ldstM c).view.set,
      (ldstM c).view.writes (Elt F) fd [⟨Rect.whole S4096x1024, ReadAs.same.apply (View.read (Elt F) lsrcM.view (XBF m c))⟩] i = OUT m c i := by
  intro i hi
  rw [View.writes_singleton]
  refine Eq.trans ?_ (local_val m c fd i hi)
  obtain ⟨y, rfl⟩ := View.exists_emb_of_mem_set (ldstM c).view hi
  -- the whole rectangle places every index at itself, so the two views place `y` at the same element
  have e : (ldstM c).view.emb y = ((ldstM c).view.slice (Rect.whole S4096x1024)).emb y := by
    show _ = (ldstM c).view.emb ((Rect.whole S4096x1024).emb y)
    rw [Rect.emb_whole_apply]
  conv_rhs => rw [View.write_emb_of_mem _ _ (Finset.mem_univ y)]
  conv_lhs => rw [e, View.write_emb_of_mem _ _ (Finset.mem_univ y)]

end Cert.Kernel.A2A

end
-- ==== Proof.Word.Restate.lean ====
/-
  The value lemmas as entailments between points-to assertions: a window holding the stored chunks holds the converted
  slab; a half block holding a landed slab, or the block the local copy filled, holds what the result array must end with.
-/
import proofs.«900645_g7700000000000646_dist_a2a_v7x_xyz2x2x4_z_m4096_n1024_bf16_1_alg».proof.Proof.Word.Vals
import proofs.«900645_g7700000000000646_dist_a2a_v7x_xyz2x2x4_z_m4096_n1024_bf16_1_alg».proof.Proof.Word.Landed

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ
variable (m : (ℓ : Loc nD τ sig) → Buf (Elt F) ℓ)

theorem slab_restate (c : Dev nD) (k : Fin 6) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    {o0 : Fin 2 → ℕ} (ho0 : o0 = ![2048 * (k.val % 2) + 512 * 0, 1024 * ((c.val + (k.val / 2 + 1)) % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![2048 * (k.val % 2) + 512 * 1, 1024 * ((c.val + (k.val / 2 + 1)) % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![2048 * (k.val % 2) + 512 * 2, 1024 * ((c.val + (k.val / 2 + 1)) % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![2048 * (k.val % 2) + 512 * 3, 1024 * ((c.val + (k.val / 2 + 1)) % 4)]) {inb3 : ∀ a, o3 a + S512x1024.size a ≤ S4096x4096.size a} {hs3 : ∀ a, (Rect.unit (s := S4096x4096) o3 S512x1024.size inb3).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)} :
    (((srcM k).view.loc (c : Thread nD τ) ↦[(srcM k).view.set]{fullShare}
      (View.write (Elt F) (bM.access (Rect.unit (s := S4x4096x1024) (cOff k 3) S1x512x1024.size (cInb k 3))) (View.write (Elt F) (bM.access (Rect.unit (s := S4x4096x1024) (cOff k 2) S1x512x1024.size (cInb k 2))) (View.write (Elt F) (bM.access (Rect.unit (s := S4x4096x1024) (cOff k 1) S1x512x1024.size (cInb k 1))) (View.write (Elt F) (bM.access (Rect.unit (s := S4x4096x1024) (cOff k 0) S1x512x1024.size (cInb k 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ) : sProp 𝕄))
      ⊢ slabDone m c k :=
  Entails.of_eq (pointsTo_congr (slab_val m c k fb PAY0 hP0 PAY1 hP1 PAY2 hP2 PAY3 hP3 ho0 ho1 ho2 ho3))

theorem lslab_restate (c : Dev nD) (fb : Buf (Elt F) ((c : Thread nD τ).loc cc0_scratch0))
    (PAY0 : (S1x512x1024.Idx → F .f32) → (S1x512x1024.Idx → F .bf16)) (hP0 : PAY0 = narV)
    (PAY1 : (S1x512x1024.Idx → F .f32) → (S1x512x1024.Idx → F .bf16)) (hP1 : PAY1 = narV)
    (PAY2 : (S1x512x1024.Idx → F .f32) → (S1x512x1024.Idx → F .bf16)) (hP2 : PAY2 = narV)
    (PAY3 : (S1x512x1024.Idx → F .f32) → (S1x512x1024.Idx → F .bf16)) (hP3 : PAY3 = narV)
    (PAY4 : (S1x512x1024.Idx → F .f32) → (S1x512x1024.Idx → F .bf16)) (hP4 : PAY4 = narV)
    (PAY5 : (S1x512x1024.Idx → F .f32) → (S1x512x1024.Idx → F .bf16)) (hP5 : PAY5 = narV)
    (PAY6 : (S1x512x1024.Idx → F .f32) → (S1x512x1024.Idx → F .bf16)) (hP6 : PAY6 = narV)
    (PAY7 : (S1x512x1024.Idx → F .f32) → (S1x512x1024.Idx → F .bf16)) (hP7 : PAY7 = narV)
    {o0 : Fin 2 → ℕ} (ho0 : o0 = ![512 * 0, 1024 * (c.val % 4)]) {inb0 : ∀ a, o0 a + S512x1024.size a ≤ S4096x4096.size a} {hs0 : ∀ a, (Rect.unit (s := S4096x4096) o0 S512x1024.size inb0).stride a = 1}
    {o1 : Fin 2 → ℕ} (ho1 : o1 = ![512 * 1, 1024 * (c.val % 4)]) {inb1 : ∀ a, o1 a + S512x1024.size a ≤ S4096x4096.size a} {hs1 : ∀ a, (Rect.unit (s := S4096x4096) o1 S512x1024.size inb1).stride a = 1}
    {o2 : Fin 2 → ℕ} (ho2 : o2 = ![512 * 2, 1024 * (c.val % 4)]) {inb2 : ∀ a, o2 a + S512x1024.size a ≤ S4096x4096.size a} {hs2 : ∀ a, (Rect.unit (s := S4096x4096) o2 S512x1024.size inb2).stride a = 1}
    {o3 : Fin 2 → ℕ} (ho3 : o3 = ![512 * 3, 1024 * (c.val % 4)]) {inb3 : ∀ a, o3 a + S512x1024.size a ≤ S4096x4096.size a} {hs3 : ∀ a, (Rect.unit (s := S4096x4096) o3 S512x1024.size inb3).stride a = 1}
    {o4 : Fin 2 → ℕ} (ho4 : o4 = ![512 * 4, 1024 * (c.val % 4)]) {inb4 : ∀ a, o4 a + S512x1024.size a ≤ S4096x4096.size a} {hs4 : ∀ a, (Rect.unit (s := S4096x4096) o4 S512x1024.size inb4).stride a = 1}
    {o5 : Fin 2 → ℕ} (ho5 : o5 = ![512 * 5, 1024 * (c.val % 4)]) {inb5 : ∀ a, o5 a + S512x1024.size a ≤ S4096x4096.size a} {hs5 : ∀ a, (Rect.unit (s := S4096x4096) o5 S512x1024.size inb5).stride a = 1}
    {o6 : Fin 2 → ℕ} (ho6 : o6 = ![512 * 6, 1024 * (c.val % 4)]) {inb6 : ∀ a, o6 a + S512x1024.size a ≤ S4096x4096.size a} {hs6 : ∀ a, (Rect.unit (s := S4096x4096) o6 S512x1024.size inb6).stride a = 1}
    {o7 : Fin 2 → ℕ} (ho7 : o7 = ![512 * 7, 1024 * (c.val % 4)]) {inb7 : ∀ a, o7 a + S512x1024.size a ≤ S4096x4096.size a} {hs7 : ∀ a, (Rect.unit (s := S4096x4096) o7 S512x1024.size inb7).stride a = 1}
    {P0 : List (View.Piece (Elt F) S512x1024 .f32)}
    {P1 : List (View.Piece (Elt F) S512x1024 .f32)}
    {P2 : List (View.Piece (Elt F) S512x1024 .f32)}
    {P3 : List (View.Piece (Elt F) S512x1024 .f32)}
    {P4 : List (View.Piece (Elt F) S512x1024 .f32)}
    {P5 : List (View.Piece (Elt F) S512x1024 .f32)}
    {P6 : List (View.Piece (Elt F) S512x1024 .f32)}
    {P7 : List (View.Piece (Elt F) S512x1024 .f32)} :
    ((lsrcM.view.loc (c : Thread nD τ) ↦[lsrcM.view.set]{fullShare}
      (View.write (Elt F) (bM.access (Rect.unit (s := S4x4096x1024) (lOff 7) S1x512x1024.size (lInb 7))) (View.write (Elt F) (bM.access (Rect.unit (s := S4x4096x1024) (lOff 6) S1x512x1024.size (lInb 6))) (View.write (Elt F) (bM.access (Rect.unit (s := S4x4096x1024) (lOff 5) S1x512x1024.size (lInb 5))) (View.write (Elt F) (bM.access (Rect.unit (s := S4x4096x1024) (lOff 4) S1x512x1024.size (lInb 4))) (View.write (Elt F) (bM.access (Rect.unit (s := S4x4096x1024) (lOff 3) S1x512x1024.size (lInb 3))) (View.write (Elt F) (bM.access (Rect.unit (s := S4x4096x1024) (lOff 2) S1x512x1024.size (lInb 2))) (View.write (Elt F) (bM.access (Rect.unit (s := S4x4096x1024) (lOff 1) S1x512x1024.size (lInb 1))) (View.write (Elt F) (bM.access (Rect.unit (s := S4x4096x1024) (lOff 0) S1x512x1024.size (lInb 0))) fb
        (PAY0 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o0 S512x1024.size inb0) hs0).view (X m c))⟩ :: P0)))) Finset.univ)
        (PAY1 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o1 S512x1024.size inb1) hs1).view (X m c))⟩ :: P1)))) Finset.univ)
        (PAY2 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o2 S512x1024.size inb2) hs2).view (X m c))⟩ :: P2)))) Finset.univ)
        (PAY3 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o3 S512x1024.size inb3) hs3).view (X m c))⟩ :: P3)))) Finset.univ)
        (PAY4 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o4 S512x1024.size inb4) hs4).view (X m c))⟩ :: P4)))) Finset.univ)
        (PAY5 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o5 S512x1024.size inb5) hs5).view (X m c))⟩ :: P5)))) Finset.univ)
        (PAY6 (View.readAt (Elt F) gM.view (Rect.unit (s := S2x512x1024) (slotOff 0) S1x512x1024.size (slotInb 0)).toLoadRect
          ((slotM 0).view.writes (Elt F) (slotM 0).view.junk
            (⟨Rect.whole S512x1024, ReadAs.same.apply (View.read (Elt F) (xM.slice (Rect.unit (s := S4096x4096) o6 S512x1024.size inb6) hs6).view (X m c))⟩ :: P6)))) Finset.univ)
        (PAY7 (View.readAt (Elt F) gM.view (Rect.unit (s := S2x512x1024) (slotOff 1) S1x512x1024.size (slotInb 1)).toLoadRect
          ((slotM 1).view.writes (Elt F) (slotM 1).view.junk
            (⟨Rect.whole S512x1024, ReadAs.same.apply (View.read (Elt F) (xM.slice (Rect.unit (s := S4096x4096) o7 S512x1024.size inb7) hs7).view (X m c))⟩ :: P7)))) Finset.univ) : sProp 𝕄))
      ⊢ (lsrcM.view.loc (c : Thread nD τ) ↦[lsrcM.view.set]{fullShare} XBF m c) :=
  Entails.of_eq (pointsTo_congr (lslab_val m c fb PAY0 hP0 PAY1 hP1 PAY2 hP2 PAY3 hP3 PAY4 hP4 PAY5 hP5 PAY6 hP6 PAY7 hP7 ho0 ho1 ho2 ho3 ho4 ho5 ho6 ho7))

/-- A landed half block holds what the receiver's result array must end with there. -/
theorem landed_restate (s : Dev nD) (k : Fin 6) (fd : Buf (Elt F) ((pe s (k.val / 2 + 1) : Thread nD τ).loc main_v1)) :
    (((dstM s (halfOf k)).view.loc (pe s (k.val / 2 + 1) : Thread nD τ) ↦[(dstM s (halfOf k)).view.set]{fullShare}
        ((dstM s (halfOf k)).view.write (Elt F) fd ((srcM k).view.read (Elt F) (XBF m s)) Finset.univ) : sProp 𝕄))
      ⊢ ((dstM s (halfOf k)).view.loc (pe s (k.val / 2 + 1) : Thread nD τ) ↦[(dstM s (halfOf k)).view.set]{fullShare} OUT m (pe s (k.val / 2 + 1))) :=
  Entails.of_eq (pointsTo_congr (landed_val m s k fd))

theorem local_restate (c : Dev nD) (fd : Buf (Elt F) ((c : Thread nD τ).loc main_v1)) :
    (((ldstM c).view.loc (c : Thread nD τ) ↦[(ldstM c).view.set]{fullShare}
        ((ldstM c).view.write (Elt F) fd (lsrcM.view.read (Elt F) (XBF m c)) Finset.univ) : sProp 𝕄))
      ⊢ ((ldstM c).view.loc (c : Thread nD τ) ↦[(ldstM c).view.set]{fullShare} OUT m c) :=
  Entails.of_eq (pointsTo_congr (local_val m c fd))

theorem slabDone_elim (c : Dev nD) (k : Fin 6) : (slabDone m c k : sProp 𝕄)
    ⊢ ((srcM k).view.loc (c : Thread nD τ) ↦[(srcM k).view.set]{fullShare} XBF m c) := by
  unfold slabDone; exact Entails.rfl

/-- `landed_val` with the receiver named: `r` is the member `k / 2 + 1` places on from the sender. -/
theorem landed_restate' (s r : Dev nD) (k : Fin 6) (hr : r = pe s (k.val / 2 + 1)) (fd : Buf (Elt F) ((r : Thread nD τ).loc main_v1)) :
    (((dstM s (halfOf k)).view.loc (r : Thread nD τ) ↦[(dstM s (halfOf k)).view.set]{fullShare}
        ((dstM s (halfOf k)).view.write (Elt F) fd ((srcM k).view.read (Elt F) (XBF m s)) Finset.univ) : sProp 𝕄))
      ⊢ ((dstM s (halfOf k)).view.loc (r : Thread nD τ) ↦[(dstM s (halfOf k)).view.set]{fullShare} OUT m r) := by
  subst hr; exact landed_restate m s k fd

/-- What the wait on receive cell 0 hands device `c`: the half block the member 3 places on wrote, holding what the
    result array must end with there. -/
theorem recv_done0 (c : Dev nD) : ((Rd (F := F) m).payload (recvCell c 0) 0 0 : sProp 𝕄)
    ⊢ ((dstM (pe c 3) 0).view.loc (c : Thread nD τ) ↦[(dstM (pe c 3) 0).view.set]{fullShare} OUT m c) := by
  rw [payload_recv]
  exact landed_restate' m (pe c 3) c 0 (by rw [pe_pe]; exact (pe_four c).symm) (V m c)

/-- What the wait on receive cell 1 hands device `c`: the half block the member 3 places on wrote, holding what the
    result array must end with there. -/
theorem recv_done1 (c : Dev nD) : ((Rd (F := F) m).payload (recvCell c 1) 0 0 : sProp 𝕄)
    ⊢ ((dstM (pe c 3) 1).view.loc (c : Thread nD τ) ↦[(dstM (pe c 3) 1).view.set]{fullShare} OUT m c) := by
  rw [payload_recv]
  exact landed_restate' m (pe c 3) c 1 (by rw [pe_pe]; exact (pe_four c).symm) (V m c)

/-- What the wait on receive cell 2 hands device `c`: the half block the member 2 places on wrote, holding what the
    result array must end with there. -/
theorem recv_done2 (c : Dev nD) : ((Rd (F := F) m).payload (recvCell c 2) 0 0 : sProp 𝕄)
    ⊢ ((dstM (pe c 2) 0).view.loc (c : Thread nD τ) ↦[(dstM (pe c 2) 0).view.set]{fullShare} OUT m c) := by
  rw [payload_recv]
  exact landed_restate' m (pe c 2) c 2 (by rw [pe_pe]; exact (pe_four c).symm) (V m c)

/-- What the wait on receive cell 3 hands device `c`: the half block the member 2 places on wrote, holding what the
    result array must end with there. -/
theorem recv_done3 (c : Dev nD) : ((Rd (F := F) m).payload (recvCell c 3) 0 0 : sProp 𝕄)
    ⊢ ((dstM (pe c 2) 1).view.loc (c : Thread nD τ) ↦[(dstM (pe c 2) 1).view.set]{fullShare} OUT m c) := by
  rw [payload_recv]
  exact landed_restate' m (pe c 2) c 3 (by rw [pe_pe]; exact (pe_four c).symm) (V m c)

/-- What the wait on receive cell 4 hands device `c`: the half block the member 1 place on wrote, holding what the
    result array must end with there. -/
theorem recv_done4 (c : Dev nD) : ((Rd (F := F) m).payload (recvCell c 4) 0 0 : sProp 𝕄)
    ⊢ ((dstM (pe c 1) 0).view.loc (c : Thread nD τ) ↦[(dstM (pe c 1) 0).view.set]{fullShare} OUT m c) := by
  rw [payload_recv]
  exact landed_restate' m (pe c 1) c 4 (by rw [pe_pe]; exact (pe_four c).symm) (V m c)

/-- What the wait on receive cell 5 hands device `c`: the half block the member 1 place on wrote, holding what the
    result array must end with there. -/
theorem recv_done5 (c : Dev nD) : ((Rd (F := F) m).payload (recvCell c 5) 0 0 : sProp 𝕄)
    ⊢ ((dstM (pe c 1) 1).view.loc (c : Thread nD τ) ↦[(dstM (pe c 1) 1).view.set]{fullShare} OUT m c) := by
  rw [payload_recv]
  exact landed_restate' m (pe c 1) c 5 (by rw [pe_pe]; exact (pe_four c).symm) (V m c)

/-- The block the local copy filled, as the copy leaves it (one whole write, listed), holds what the result array must
    end with there. -/
theorem local_restate_listed (c : Dev nD) (fd : Buf (Elt F) ((c : Thread nD τ).loc main_v1)) :
    (((ldstM c).view.loc (c : Thread nD τ) ↦[(ldstM c).view.set]{fullShare}
        ((ldstM c).view.writes (Elt F) fd [⟨Rect.whole S4096x1024, ReadAs.same.apply (View.read (Elt F) lsrcM.view (XBF m c))⟩]) : sProp 𝕄))
      ⊢ ((ldstM c).view.loc (c : Thread nD τ) ↦[(ldstM c).view.set]{fullShare} OUT m c) :=
  Entails.of_eq (pointsTo_congr (local_val_listed m c fd))

end Cert.Kernel.A2A

end
-- ==== Proof.Word.Ghost.lean ====
/-
  What a device holds when its kernel begins and when it ends.

  At the start: the invariants of its own thirteen cells, of the three other ring members' barrier cells and of the
  six receive cells it pays; that round 0 of every cell it pays is reached; its position at round 0 of its own cells;
  the tokens of the nine duties it pays on other devices and of its own six send duties; the credit for its barrier's
  three units and its six receive cells; the level facts; its three local semaphores at zero; its input as launched and
  its result array as launched. At the end: its input unchanged, its result array holding `OUT`, and all fifteen
  of its own semaphores at zero.
-/
import proofs.«900645_g7700000000000646_dist_a2a_v7x_xyz2x2x4_z_m4096_n1024_bf16_1_alg».proof.Proof.Word.Sched

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The cells' invariants device `c`'s body opens, at the names the launch allocated them under. -/
def invs (KB : Dev nD → ℕ) (KS KR : Dev nD → Fin 6 → ℕ) (c : Dev nD) : sProp 𝕄 :=
  iprop(cellInv ER (Rd m) (KB c) (barCell c)
    ∗ cellInv ER (Rd m) (KS c 0) (sendCell c 0)
    ∗ cellInv ER (Rd m) (KS c 1) (sendCell c 1)
    ∗ cellInv ER (Rd m) (KS c 2) (sendCell c 2)
    ∗ cellInv ER (Rd m) (KS c 3) (sendCell c 3)
    ∗ cellInv ER (Rd m) (KS c 4) (sendCell c 4)
    ∗ cellInv ER (Rd m) (KS c 5) (sendCell c 5)
    ∗ cellInv ER (Rd m) (KR c 0) (recvCell c 0)
    ∗ cellInv ER (Rd m) (KR c 1) (recvCell c 1)
    ∗ cellInv ER (Rd m) (KR c 2) (recvCell c 2)
    ∗ cellInv ER (Rd m) (KR c 3) (recvCell c 3)
    ∗ cellInv ER (Rd m) (KR c 4) (recvCell c 4)
    ∗ cellInv ER (Rd m) (KR c 5) (recvCell c 5)
    ∗ cellInv ER (Rd m) (KB (pe c 1)) (barCell (pe c 1))
    ∗ cellInv ER (Rd m) (KB (pe c 2)) (barCell (pe c 2))
    ∗ cellInv ER (Rd m) (KB (pe c 3)) (barCell (pe c 3))
    ∗ cellInv ER (Rd m) (KR (pe c 1) 0) (recvCell (pe c 1) 0)
    ∗ cellInv ER (Rd m) (KR (pe c 1) 1) (recvCell (pe c 1) 1)
    ∗ cellInv ER (Rd m) (KR (pe c 2) 2) (recvCell (pe c 2) 2)
    ∗ cellInv ER (Rd m) (KR (pe c 2) 3) (recvCell (pe c 2) 3)
    ∗ cellInv ER (Rd m) (KR (pe c 3) 4) (recvCell (pe c 3) 4)
    ∗ cellInv ER (Rd m) (KR (pe c 3) 5) (recvCell (pe c 3) 5))

instance invs_persistent (KB : Dev nD → ℕ) (KS KR : Dev nD → Fin 6 → ℕ) (c : Dev nD) : BI.Persistent (invs m KB KS KR c) := by
  unfold invs; infer_instance

/-- Round 0 of every cell device `c` pays is reached. -/
def reacheds (c : Dev nD) : sProp 𝕄 :=
  iprop(reached ER (barCell (pe c 1)) 0
    ∗ reached ER (barCell (pe c 2)) 0
    ∗ reached ER (barCell (pe c 3)) 0
    ∗ reached ER (recvCell (pe c 1) 0) 0
    ∗ reached ER (recvCell (pe c 1) 1) 0
    ∗ reached ER (recvCell (pe c 2) 2) 0
    ∗ reached ER (recvCell (pe c 2) 3) 0
    ∗ reached ER (recvCell (pe c 3) 4) 0
    ∗ reached ER (recvCell (pe c 3) 5) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0)

instance reacheds_persistent (c : Dev nD) : BI.Persistent (reacheds (F := F) c) := by unfold reacheds; infer_instance

/-- Device `c` at round 0 of its own thirteen cells, nothing consumed. -/
def positions (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0)

/-- The tokens of the duties device `c` pays: signal `j` on the barrier cell of the member `j` places on, send `k`'s
    receive duty on the member it goes to, and its own six send duties. -/
def payToks (c : Dev nD) : sProp 𝕄 :=
  iprop(dutyTok ER (barCell (pe c 1)) 0 0
    ∗ dutyTok ER (barCell (pe c 2)) 0 1
    ∗ dutyTok ER (barCell (pe c 3)) 0 2
    ∗ dutyTok ER (recvCell (pe c 1) 0) 0 0
    ∗ dutyTok ER (recvCell (pe c 1) 1) 0 0
    ∗ dutyTok ER (recvCell (pe c 2) 2) 0 0
    ∗ dutyTok ER (recvCell (pe c 2) 3) 0 0
    ∗ dutyTok ER (recvCell (pe c 3) 4) 0 0
    ∗ dutyTok ER (recvCell (pe c 3) 5) 0 0
    ∗ dutyTok ER (sendCell c 0) 0 0
    ∗ dutyTok ER (sendCell c 1) 0 0
    ∗ dutyTok ER (sendCell c 2) 0 0
    ∗ dutyTok ER (sendCell c 3) 0 0
    ∗ dutyTok ER (sendCell c 4) 0 0
    ∗ dutyTok ER (sendCell c 5) 0 0)

/-- The credit device `c` is dealt at launch for what the others owe its cells. -/
def creds (c : Dev nD) : sProp 𝕄 :=
  iprop(cred (tallyAt (barCell c) () 3)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N))

def ghost (KB : Dev nD → ℕ) (KS KR : Dev nD → Fin 6 → ℕ) (c : Dev nD) : sProp 𝕄 :=
  iprop(invs m KB KS KR c ∗ reacheds c ∗ positions c ∗ payToks c)

/-- The three semaphores the local copies complete on, at zero. -/
def localSems (c : Dev nD) : sProp 𝕄 :=
  iprop(semVal ((c : Thread nD τ), .dma (stageS 0)) 0 ∗ semVal ((c : Thread nD τ), .dma (stageS 1)) 0 ∗ semVal ((c : Thread nD τ), .dma localS) 0)

/-- What device `c` routes into its kernel at launch. -/
def start (c : Dev nD) : sProp 𝕄 :=
  iprop((∃ KB KS KR, ghost m KB KS KR c) ∗ creds c ∗ levAts L lv ∗ localSems c
    ∗ (((c : Thread nD τ).loc main_arg0) ↦{fullShare} X m c)
    ∗ (((c : Thread nD τ).loc main_v1) ↦{fullShare} V m c))

/-- The two scratch arrays, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

/-- The kernel's own fifteen semaphores, at zero. -/
def ownZero (c : Dev nD) : sProp 𝕄 :=
  iprop(semVal (sendCell c 0) 0
    ∗ semVal (sendCell c 1) 0
    ∗ semVal (sendCell c 2) 0
    ∗ semVal (sendCell c 3) 0
    ∗ semVal (sendCell c 4) 0
    ∗ semVal (sendCell c 5) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ localSems c)

/-- After the kernel: the input as launched, the result array at `OUT`, the scratch arrays back, the own semaphores at
    zero. -/
def Φ₁ (c : Dev nD) : sProp 𝕄 :=
  iprop((((c : Thread nD τ).loc main_arg0) ↦{fullShare} X m c) ∗ (((c : Thread nD τ).loc main_v1) ↦{fullShare} OUT m c)
    ∗ scratch c ∗ ownZero c)

/-- The pipeline's proof data: no window; the invariant before the one point and after it; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.Word.Finish.lean ====
/-
  The end of a device's kernel: every wait has returned. The six received half blocks and the locally copied block are
  the result array at `OUT`; the six half slabs and slab 3 are the narrowed staging array again, the two slots the
  staging array; the twelve transfer cells, each at its last round with nothing outstanding, close to their counters
  at zero.
-/
import proofs.«900645_g7700000000000646_dist_a2a_v7x_xyz2x2x4_z_m4096_n1024_bf16_1_alg».proof.Proof.Word.Restate
import proofs.«900645_g7700000000000646_dist_a2a_v7x_xyz2x2x4_z_m4096_n1024_bf16_1_alg».proof.Proof.Word.Ghost

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- The post of the one point: the invariant after it, nothing owed, no window. -/
def bodyPost (c : Dev nD) : sProp 𝕄 := iprop(Φ₁ m c ∗ (dats m 0 c).owesAt () t₀.succ ∗ emp)

set_option maxHeartbeats 1600000 in
theorem finish (c : Dev nD) (KS KR : Dev nD → Fin 6 → ℕ) (g0 g1 : Buf (Elt F) ((c : Thread nD τ).loc cc0_scratch1)) (W' : Waits sig Unit) :
    iprop(cellInv ER (Rd m) (KS c 0) (sendCell c 0)
      ∗ cellInv ER (Rd m) (KS c 1) (sendCell c 1)
      ∗ cellInv ER (Rd m) (KS c 2) (sendCell c 2)
      ∗ cellInv ER (Rd m) (KS c 3) (sendCell c 3)
      ∗ cellInv ER (Rd m) (KS c 4) (sendCell c 4)
      ∗ cellInv ER (Rd m) (KS c 5) (sendCell c 5)
      ∗ cellInv ER (Rd m) (KR c 0) (recvCell c 0)
      ∗ cellInv ER (Rd m) (KR c 1) (recvCell c 1)
      ∗ cellInv ER (Rd m) (KR c 2) (recvCell c 2)
      ∗ cellInv ER (Rd m) (KR c 3) (recvCell c 3)
      ∗ cellInv ER (Rd m) (KR c 4) (recvCell c 4)
      ∗ cellInv ER (Rd m) (KR c 5) (recvCell c 5)
      ∗ (xM.view.loc (c : Thread nD τ) ↦{fullShare} X m c)
      ∗ ((slotM 0).view.loc (c : Thread nD τ) ↦[(slotM 0).view.set]{fullShare} g0)
      ∗ ((slotM 1).view.loc (c : Thread nD τ) ↦[(slotM 1).view.set]{fullShare} g1)
      ∗ semVal ((c : Thread nD τ), .dma (stageS 0)) 0
      ∗ semVal ((c : Thread nD τ), .dma (stageS 1)) 0
      ∗ semVal ((c : Thread nD τ), .dma localS) 0
      ∗ atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ ((srcM 0).view.loc (c : Thread nD τ) ↦[(srcM 0).view.set]{fullShare} XBF m c)
      ∗ ((srcM 1).view.loc (c : Thread nD τ) ↦[(srcM 1).view.set]{fullShare} XBF m c)
      ∗ ((srcM 2).view.loc (c : Thread nD τ) ↦[(srcM 2).view.set]{fullShare} XBF m c)
      ∗ ((srcM 3).view.loc (c : Thread nD τ) ↦[(srcM 3).view.set]{fullShare} XBF m c)
      ∗ ((srcM 4).view.loc (c : Thread nD τ) ↦[(srcM 4).view.set]{fullShare} XBF m c)
      ∗ ((srcM 5).view.loc (c : Thread nD τ) ↦[(srcM 5).view.set]{fullShare} XBF m c)
      ∗ (Rd m).payload (recvCell c 0) 0 0
      ∗ (Rd m).payload (recvCell c 1) 0 0
      ∗ (Rd m).payload (recvCell c 2) 0 0
      ∗ (Rd m).payload (recvCell c 3) 0 0
      ∗ (Rd m).payload (recvCell c 4) 0 0
      ∗ (Rd m).payload (recvCell c 5) 0 0
      ∗ ((ldstM c).view.loc (c : Thread nD τ) ↦[(ldstM c).view.set]{fullShare} ((ldstM c).view.writes (Elt F) (V m c) [⟨Rect.whole S4096x1024, ReadAs.same.apply (View.read (Elt F) lsrcM.view (XBF m c))⟩]))
      ∗ (lsrcM.view.loc (c : Thread nD τ) ↦[lsrcM.view.set]{fullShare} XBF m c)
      ∗ owes (c : Thread nD τ) 0 W')
      ⊢ wp frame (wpE (defs₀ (F := F)) 𝒱₀ (c : Thread nD τ) none) Set.univ (Prog.ret PUnit.unit : Prog (TpuEff nD τ sig (Elt F) Λ₀ .tc) PUnit)
          (fun _ => bodyPost m c) := by
  iintro ⟨#HIs0, #HIs1, #HIs2, #HIs3, #HIs4, #HIs5, #HIr0, #HIr1, #HIr2, #HIr3, #HIr4, #HIr5, Hx, Hg0, Hg1, Hz12, Hz13, Hz14, HaS0, HaS1, HaS2, HaS3, HaS4, HaS5, HaR0, HaR1, HaR2, HaR3, HaR4, HaR5, HaS0_pay1, HaS1_pay1, HaS2_pay1, HaS3_pay1, HaS4_pay1, HaS5_pay1, HaR0_pay1, HaR1_pay1, HaR2_pay1, HaR3_pay1, HaR4_pay1, HaR5_pay1, Ho6, Hb6, HO⟩
  -- the result array: the six received half blocks and the locally copied block
  ihave Hw10 := (recv_done4 m c) $$ HaR4_pay1
  ihave Hw11 := (recv_done5 m c) $$ HaR5_pay1
  ihave Hw20 := (recv_done2 m c) $$ HaR2_pay1
  ihave Hw21 := (recv_done3 m c) $$ HaR3_pay1
  ihave Hw30 := (recv_done0 m c) $$ HaR0_pay1
  ihave Hw31 := (recv_done1 m c) $$ HaR1_pay1
  ihave Hw6 := (local_restate_listed m c (V m c)) $$ Ho6
  ihave Hout := (out_split c (OUT m c)).2 $$ [Hw10 Hw11 Hw20 Hw21 Hw30 Hw31 Hw6]
  · isplitl [Hw10]; · iexact Hw10
    isplitl [Hw11]; · iexact Hw11
    isplitl [Hw20]; · iexact Hw20
    isplitl [Hw21]; · iexact Hw21
    isplitl [Hw30]; · iexact Hw30
    isplitl [Hw31]; · iexact Hw31
    iexact Hw6
  -- the narrowed staging array and the two-slot staging array
  ihave Hxbf := (xbf_split c (XBF m c)).2 $$ [HaS0_pay1 HaS1_pay1 HaS2_pay1 HaS3_pay1 HaS4_pay1 HaS5_pay1 Hb6]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact Hb6
  ihave Hstage := (stage_join c g0 g1) $$ [Hg0 Hg1]
  · isplitl [Hg0]; · iexact Hg0
    iexact Hg1
  -- the twelve transfer cells close
  imod (Rounds.cell_close ER (Rd m) (Set.mem_univ (KS c 0)) (fun h => h) (R := 1) (duties_later m (sendCell c 0))) $$ [HaS0] with HzS0
  · isplitr; · iexact HIs0
    iexact HaS0
  imod (Rounds.cell_close ER (Rd m) (Set.mem_univ (KS c 1)) (fun h => h) (R := 1) (duties_later m (sendCell c 1))) $$ [HaS1] with HzS1
  · isplitr; · iexact HIs1
    iexact HaS1
  imod (Rounds.cell_close ER (Rd m) (Set.mem_univ (KS c 2)) (fun h => h) (R := 1) (duties_later m (sendCell c 2))) $$ [HaS2] with HzS2
  · isplitr; · iexact HIs2
    iexact HaS2
  imod (Rounds.cell_close ER (Rd m) (Set.mem_univ (KS c 3)) (fun h => h) (R := 1) (duties_later m (sendCell c 3))) $$ [HaS3] with HzS3
  · isplitr; · iexact HIs3
    iexact HaS3
  imod (Rounds.cell_close ER (Rd m) (Set.mem_univ (KS c 4)) (fun h => h) (R := 1) (duties_later m (sendCell c 4))) $$ [HaS4] with HzS4
  · isplitr; · iexact HIs4
    iexact HaS4
  imod (Rounds.cell_close ER (Rd m) (Set.mem_univ (KS c 5)) (fun h => h) (R := 1) (duties_later m (sendCell c 5))) $$ [HaS5] with HzS5
  · isplitr; · iexact HIs5
    iexact HaS5
  imod (Rounds.cell_close ER (Rd m) (Set.mem_univ (KR c 0)) (fun h => h) (R := 1) (duties_later m (recvCell c 0))) $$ [HaR0] with HzR0
  · isplitr; · iexact HIr0
    iexact HaR0
  imod (Rounds.cell_close ER (Rd m) (Set.mem_univ (KR c 1)) (fun h => h) (R := 1) (duties_later m (recvCell c 1))) $$ [HaR1] with HzR1
  · isplitr; · iexact HIr1
    iexact HaR1
  imod (Rounds.cell_close ER (Rd m) (Set.mem_univ (KR c 2)) (fun h => h) (R := 1) (duties_later m (recvCell c 2))) $$ [HaR2] with HzR2
  · isplitr; · iexact HIr2
    iexact HaR2
  imod (Rounds.cell_close ER (Rd m) (Set.mem_univ (KR c 3)) (fun h => h) (R := 1) (duties_later m (recvCell c 3))) $$ [HaR3] with HzR3
  · isplitr; · iexact HIr3
    iexact HaR3
  imod (Rounds.cell_close ER (Rd m) (Set.mem_univ (KR c 4)) (fun h => h) (R := 1) (duties_later m (recvCell c 4))) $$ [HaR4] with HzR4
  · isplitr; · iexact HIr4
    iexact HaR4
  imod (Rounds.cell_close ER (Rd m) (Set.mem_univ (KR c 5)) (fun h => h) (R := 1) (duties_later m (recvCell c 5))) $$ [HaR5] with HzR5
  · isplitr; · iexact HIr5
    iexact HaR5
  rw [wp_ret]; imodintro
  unfold bodyPost Φ₁ scratch ownZero localSems Dat.owesAt Pipeline.owesWithin
  rw [show (dats m 0 c).owed t₀.succ = 0 from rfl]
  isplitr [HO]
  · isplitl [Hx]; · iexact Hx
    isplitl [Hout]; · iexact Hout
    isplitl [Hxbf Hstage]
    · isplitl [Hxbf]
      · iexists _; iexact Hxbf
      · iexact Hstage
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [Hz12]; · iexact Hz12
    isplitl [Hz13]; · iexact Hz13
    iexact Hz14
  isplitl [HO]
  · iexists W'
    isplitr; · ipureintro; exact fun _ _ => Or.inl trivial
    iexact HO
  iempintro

end Cert.Kernel.A2A

end
-- ==== Proof.Word.Send.lean ====
/-
  One send, as a rule: device `c`'s send `k` reads its converted half slab and writes it over the half block of the
  member `k / 2 + 1` places on that this device was handed at the barrier; it pays the duty of its own send cell (the
  slab comes back with it) and the duty of that member's receive cell `k` (the half block goes with it, holding the
  slab written over what it held at launch).
-/
import proofs.«900645_g7700000000000646_dist_a2a_v7x_xyz2x2x4_z_m4096_n1024_bf16_1_alg».proof.Proof.Word.Ghost

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- A half block's transfer credits its cells the half slab's credit: the credit reads the shape and element type only. -/
theorem amount_dst (s : Dev nD) (h : Fin 2) (r : DmaSem sig) : (dstM s h).view.amount (.dma r) = N := rfl

set_option maxHeartbeats 1600000 in
theorem wp_send_a2a (c n : Dev nD) (k : Fin 6) (hn : n = pe c (k.val / 2 + 1)) (KSk KRk : ℕ)
    {src : Memref sig .tc .vmem S2048x1024 .bf16} (hsrcM : src = srcM k)
    {dst : Memref sig (Dev.tc n : Thread nD τ).2.kind .hbm S2048x1024 .bf16} (hdstM : dst = dstM c (halfOf k))
    {sS sR : DmaSem sig} (hS : sS = sendS k) (hR : sR = recvS k)
    {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (O : CellTallies nD τ sig Unit) (W : Waits sig Unit) :
    iprop(cellInv ER (Rd m) KSk (sendCell c k) ∗ cellInv ER (Rd m) KRk (recvCell (pe c (k.val / 2 + 1)) k)
        ∗ ((srcM k).view.loc (c : Thread nD τ) ↦[(srcM k).view.set]{fullShare} XBF m c)
        ∗ ((dstM c (halfOf k)).view.loc (pe c (k.val / 2 + 1) : Thread nD τ) ↦[(dstM c (halfOf k)).view.set]{fullShare} V m (pe c (k.val / 2 + 1)))
        ∗ owes (c : Thread nD τ) (O + tallyAt (recvCell (pe c (k.val / 2 + 1)) k) () N) W
        ∗ dutyTok ER (sendCell c k) 0 0 ∗ reached ER (sendCell c k) 0
        ∗ dutyTok ER (recvCell (pe c (k.val / 2 + 1)) k) 0 0 ∗ reached ER (recvCell (pe c (k.val / 2 + 1)) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hsrcM hdstM hS hR
  exact Rounds.wp_send_pointsTo 𝒱₀ ER (Rd m) (c : Thread nD τ) none (c' := (pe c (k.val / 2 + 1) : Thread nD τ))
    (src := srcM k) (dst := dstM c (halfOf k)) (sS := .dma (sendS k)) (sem := .dma (recvS k)) (q := fullShare) (fs := XBF m c)
    (κ₁ := KSk) (κ₂ := KRk)
    (r₁ := 0) (r₂ := 0) (d₁ := 0) (d₂ := 0) (fd := V m (pe c (k.val / 2 + 1)))
    (by rw [duties_send]; exact Finset.mem_singleton_self _) (by rw [duties_recv]; exact Finset.mem_singleton_self _)
    () () N (amount_dst c (halfOf k) (recvS k)) (amount_send m c k 0) (amount_recv m (pe c (k.val / 2 + 1)) k 0) O rfl (W := W)
    (by rw [payload_send])
    (by
      rw [payload_recv]; unfold outDone
      have e1 : senderOf (pe c (k.val / 2 + 1)) k = c := by
        unfold senderOf; rw [pe_pe]
        have : k.val / 2 + 1 + (3 - k.val / 2) = 4 := by have := k.isLt; omega
        rw [this]; exact pe_four c
      rw [e1])

set_option maxHeartbeats 1600000 in
/-- The last send: nothing else is owed. -/
theorem wp_send_a2a_last (c n : Dev nD) (k : Fin 6) (hn : n = pe c (k.val / 2 + 1)) (KSk KRk : ℕ)
    {src : Memref sig .tc .vmem S2048x1024 .bf16} (hsrcM : src = srcM k)
    {dst : Memref sig (Dev.tc n : Thread nD τ).2.kind .hbm S2048x1024 .bf16} (hdstM : dst = dstM c (halfOf k))
    {sS sR : DmaSem sig} (hS : sS = sendS k) (hR : sR = recvS k)
    {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (W : Waits sig Unit) :
    iprop(cellInv ER (Rd m) KSk (sendCell c k) ∗ cellInv ER (Rd m) KRk (recvCell (pe c (k.val / 2 + 1)) k)
        ∗ ((srcM k).view.loc (c : Thread nD τ) ↦[(srcM k).view.set]{fullShare} XBF m c)
        ∗ ((dstM c (halfOf k)).view.loc (pe c (k.val / 2 + 1) : Thread nD τ) ↦[(dstM c (halfOf k)).view.set]{fullShare} V m (pe c (k.val / 2 + 1)))
        ∗ owes (c : Thread nD τ) (tallyAt (recvCell (pe c (k.val / 2 + 1)) k) () N) W
        ∗ dutyTok ER (sendCell c k) 0 0 ∗ reached ER (sendCell c k) 0
        ∗ dutyTok ER (recvCell (pe c (k.val / 2 + 1)) k) 0 0 ∗ reached ER (recvCell (pe c (k.val / 2 + 1)) k) 0)
      ⊢ iprop(((cred (tallyAt (sendCell c k) () N) ∗ owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hsrcM hdstM hS hR
  exact Rounds.wp_send_pointsTo 𝒱₀ ER (Rd m) (c : Thread nD τ) none (c' := (pe c (k.val / 2 + 1) : Thread nD τ))
    (src := srcM k) (dst := dstM c (halfOf k)) (sS := .dma (sendS k)) (sem := .dma (recvS k)) (q := fullShare) (fs := XBF m c)
    (κ₁ := KSk) (κ₂ := KRk)
    (r₁ := 0) (r₂ := 0) (d₁ := 0) (d₂ := 0) (fd := V m (pe c (k.val / 2 + 1)))
    (by rw [duties_send]; exact Finset.mem_singleton_self _) (by rw [duties_recv]; exact Finset.mem_singleton_self _)
    () () N (amount_dst c (halfOf k) (recvS k)) (amount_send m c k 0) (amount_recv m (pe c (k.val / 2 + 1)) k 0) 0 (zero_add _).symm (W := W)
    (by rw [payload_send])
    (by
      rw [payload_recv]; unfold outDone
      have e1 : senderOf (pe c (k.val / 2 + 1)) k = c := by
        unfold senderOf; rw [pe_pe]
        have : k.val / 2 + 1 + (3 - k.val / 2) = 4 := by have := k.isLt; omega
        rw [this]; exact pe_four c
      rw [e1])

end Cert.Kernel.A2A

end
-- ==== Proof.Word.BodyRun.lean ====
/-
  One device's kernel, run once at a symbolic device.

  From what the device holds at launch — its result array and its two scratch arrays cut into the windows the transfers
  write and read — the kernel's statements are taken in program order: the three barrier signals hand the other ring
  members the half blocks of this device's result array they write; the barrier wait brings the six half blocks this
  device writes; then, six times, four chunks of the input are copied in, narrowed and stored, the half slab they fill is
  restated as the converted slab, and the send pays its two duties; the device's own columns fill slab 3, which the local
  copy moves to its own block; the six receive waits, the local wait and the six send waits bring every array back.
-/
import proofs.«900645_g7700000000000646_dist_a2a_v7x_xyz2x2x4_z_m4096_n1024_bf16_1_alg».proof.Proof.Word.Finish
import proofs.«900645_g7700000000000646_dist_a2a_v7x_xyz2x2x4_z_m4096_n1024_bf16_1_alg».proof.Proof.Word.Send

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

attribute [local sl_canon] dev1_eq dev2_eq dev3_eq dev4_eq dev5_eq dev6_eq dev7_eq dev8_eq dev9_eq
attribute [local sl_rounds] duties_bar duties_send duties_recv amount_bar amount_send amount_recv expect_bar expect_send expect_recv
  payload_send payload_recv_to0 payload_recv_to1 payload_recv_to2 payload_recv_to3 payload_recv_to4 payload_recv_to5
  payload_bar_to1 payload_bar_to2 payload_bar_to3

/-- The local copy's semaphore at zero, kept folded until the copy is issued. -/
def localSemZ (c : Dev nD) : sProp 𝕄 := semVal ((c : Thread nD τ), .dma localS) 0
theorem localSemZ_elim (c : Dev nD) : (localSemZ (F := F) c) ⊢ (semVal ((c : Thread nD τ), .dma localS) 0 : sProp 𝕄) := by
  unfold localSemZ; exact Entails.rfl
/-- Slab 3, converted. -/
def lslabDone (c : Dev nD) : sProp 𝕄 := lsrcM.view.loc (c : Thread nD τ) ↦[lsrcM.view.set]{fullShare} XBF m c
theorem lslabDone_elim (c : Dev nD) : (lslabDone m c) ⊢ (lsrcM.view.loc (c : Thread nD τ) ↦[lsrcM.view.set]{fullShare} XBF m c : sProp 𝕄) := by
  unfold lslabDone; exact Entails.rfl

set_option maxHeartbeats 16000000 in
/-- The kernel from the windows held apart to its end state. -/
theorem sound_body (c : Dev nD) (KB : Dev nD → ℕ) (KS KR : Dev nD → Fin 6 → ℕ) (W : Waits sig Unit)
    (fg : Buf (Elt F) ((c : Thread nD τ).loc cc0_scratch1)) (fb : Buf (Elt F) ((c : Thread nD τ).loc cc0_scratch0)) :
    iprop(cellInv ER (Rd m) (KB c) (barCell c)
      ∗ cellInv ER (Rd m) (KS c 0) (sendCell c 0)
      ∗ cellInv ER (Rd m) (KS c 1) (sendCell c 1)
      ∗ cellInv ER (Rd m) (KS c 2) (sendCell c 2)
      ∗ cellInv ER (Rd m) (KS c 3) (sendCell c 3)
      ∗ cellInv ER (Rd m) (KS c 4) (sendCell c 4)
      ∗ cellInv ER (Rd m) (KS c 5) (sendCell c 5)
      ∗ cellInv ER (Rd m) (KR c 0) (recvCell c 0)
      ∗ cellInv ER (Rd m) (KR c 1) (recvCell c 1)
      ∗ cellInv ER (Rd m) (KR c 2) (recvCell c 2)
      ∗ cellInv ER (Rd m) (KR c 3) (recvCell c 3)
      ∗ cellInv ER (Rd m) (KR c 4) (recvCell c 4)
      ∗ cellInv ER (Rd m) (KR c 5) (recvCell c 5)
      ∗ cellInv ER (Rd m) (KB (pe c 1)) (barCell (pe c 1))
      ∗ cellInv ER (Rd m) (KB (pe c 2)) (barCell (pe c 2))
      ∗ cellInv ER (Rd m) (KB (pe c 3)) (barCell (pe c 3))
      ∗ cellInv ER (Rd m) (KR (pe c 1) 0) (recvCell (pe c 1) 0)
      ∗ cellInv ER (Rd m) (KR (pe c 1) 1) (recvCell (pe c 1) 1)
      ∗ cellInv ER (Rd m) (KR (pe c 2) 2) (recvCell (pe c 2) 2)
      ∗ cellInv ER (Rd m) (KR (pe c 2) 3) (recvCell (pe c 2) 3)
      ∗ cellInv ER (Rd m) (KR (pe c 3) 4) (recvCell (pe c 3) 4)
      ∗ cellInv ER (Rd m) (KR (pe c 3) 5) (recvCell (pe c 3) 5)
      ∗ reached ER (barCell (pe c 1)) 0
      ∗ reached ER (barCell (pe c 2)) 0
      ∗ reached ER (barCell (pe c 3)) 0
      ∗ reached ER (recvCell (pe c 1) 0) 0
      ∗ reached ER (recvCell (pe c 1) 1) 0
      ∗ reached ER (recvCell (pe c 2) 2) 0
      ∗ reached ER (recvCell (pe c 2) 3) 0
      ∗ reached ER (recvCell (pe c 3) 4) 0
      ∗ reached ER (recvCell (pe c 3) 5) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ dutyTok ER (barCell (pe c 1)) 0 0
      ∗ dutyTok ER (barCell (pe c 2)) 0 1
      ∗ dutyTok ER (barCell (pe c 3)) 0 2
      ∗ dutyTok ER (recvCell (pe c 1) 0) 0 0
      ∗ dutyTok ER (recvCell (pe c 1) 1) 0 0
      ∗ dutyTok ER (recvCell (pe c 2) 2) 0 0
      ∗ dutyTok ER (recvCell (pe c 2) 3) 0 0
      ∗ dutyTok ER (recvCell (pe c 3) 4) 0 0
      ∗ dutyTok ER (recvCell (pe c 3) 5) 0 0
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ cred (tallyAt (barCell c) () 3)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ owes (c : Thread nD τ) (O₀ c) W
      ∗ semVal ((c : Thread nD τ), .dma (stageS 0)) 0
      ∗ semVal ((c : Thread nD τ), .dma (stageS 1)) 0
      ∗ localSemZ c
      ∗ (xM.view.loc (c : Thread nD τ) ↦{fullShare} X m c)
      ∗ ((slotM 0).view.loc (c : Thread nD τ) ↦[(slotM 0).view.set]{fullShare} fg)
      ∗ ((slotM 1).view.loc (c : Thread nD τ) ↦[(slotM 1).view.set]{fullShare} fg)
      ∗ ((srcM 0).view.loc (c : Thread nD τ) ↦[(srcM 0).view.set]{fullShare} fb)
      ∗ ((srcM 1).view.loc (c : Thread nD τ) ↦[(srcM 1).view.set]{fullShare} fb)
      ∗ ((srcM 2).view.loc (c : Thread nD τ) ↦[(srcM 2).view.set]{fullShare} fb)
      ∗ ((srcM 3).view.loc (c : Thread nD τ) ↦[(srcM 3).view.set]{fullShare} fb)
      ∗ ((srcM 4).view.loc (c : Thread nD τ) ↦[(srcM 4).view.set]{fullShare} fb)
      ∗ ((srcM 5).view.loc (c : Thread nD τ) ↦[(srcM 5).view.set]{fullShare} fb)
      ∗ (lsrcM.view.loc (c : Thread nD τ) ↦[lsrcM.view.set]{fullShare} fb)
      ∗ ((dstM (pe c 1) 0).view.loc (c : Thread nD τ) ↦[(dstM (pe c 1) 0).view.set]{fullShare} V m c)
      ∗ ((dstM (pe c 1) 1).view.loc (c : Thread nD τ) ↦[(dstM (pe c 1) 1).view.set]{fullShare} V m c)
      ∗ ((dstM (pe c 2) 0).view.loc (c : Thread nD τ) ↦[(dstM (pe c 2) 0).view.set]{fullShare} V m c)
      ∗ ((dstM (pe c 2) 1).view.loc (c : Thread nD τ) ↦[(dstM (pe c 2) 1).view.set]{fullShare} V m c)
      ∗ ((dstM (pe c 3) 0).view.loc (c : Thread nD τ) ↦[(dstM (pe c 3) 0).view.set]{fullShare} V m c)
      ∗ ((dstM (pe c 3) 1).view.loc (c : Thread nD τ) ↦[(dstM (pe c 3) 1).view.set]{fullShare} V m c)
      ∗ ((ldstM c).view.loc (c : Thread nD τ) ↦[(ldstM c).view.set]{fullShare} V m c))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c) := by
  iintro ⟨#HIb, #HIs0, #HIs1, #HIs2, #HIs3, #HIs4, #HIs5, #HIr0, #HIr1, #HIr2, #HIr3, #HIr4, #HIr5, #HIbp1, #HIbp2, #HIbp3, #HIrp0, #HIrp1, #HIrp2, #HIrp3, #HIrp4, #HIrp5, #HRbp1, #HRbp2, #HRbp3, #HRrp0, #HRrp1, #HRrp2, #HRrp3, #HRrp4, #HRrp5, #HRs0, #HRs1, #HRs2, #HRs3, #HRs4, #HRs5, #Hlev, HaB, HaS0, HaS1, HaS2, HaS3, HaS4, HaS5, HaR0, HaR1, HaR2, HaR3, HaR4, HaR5, HtB1, HtB2, HtB3, HtR0, HtR1, HtR2, HtR3, HtR4, HtR5, HtS0, HtS1, HtS2, HtS3, HtS4, HtS5, HcB, HcR0, HcR1, HcR2, HcR3, HcR4, HcR5, HO, Hz12, Hz13, Hz14, Hx, Hg0, Hg1, Hb0, Hb1, Hb2, Hb3, Hb4, Hb5, Hb6, Ho0, Ho1, Ho2, Ho3, Ho4, Ho5, Ho6⟩
  have hmwB : (levAts L lv : sProp 𝕄) ⊢ MayWait (c : Thread nD τ) (.reg barS) () (owedRecv c 5 + owedRecv c 4 + owedRecv c 3 + owedRecv c 2 + owedRecv c 1 + owedRecv c 0) := mayWait_bar (F := F) c
  have hmw6 : ∀ sm : SemLoc sig, semLv sm = 0 → ((levAts L lv : sProp 𝕄) ⊢ MayWait (c : Thread nD τ) sm () (owedRecv c 5 + owedRecv c 4 + owedRecv c 3 + owedRecv c 2 + owedRecv c 1 + owedRecv c 0)) := fun sm h => mayWait_low (F := F) c 6 sm h
  have hmw5 : ∀ sm : SemLoc sig, semLv sm = 0 → ((levAts L lv : sProp 𝕄) ⊢ MayWait (c : Thread nD τ) sm () (owedRecv c 5 + owedRecv c 4 + owedRecv c 3 + owedRecv c 2 + owedRecv c 1)) := fun sm h => mayWait_low (F := F) c 5 sm h
  have hmw4 : ∀ sm : SemLoc sig, semLv sm = 0 → ((levAts L lv : sProp 𝕄) ⊢ MayWait (c : Thread nD τ) sm () (owedRecv c 5 + owedRecv c 4 + owedRecv c 3 + owedRecv c 2)) := fun sm h => mayWait_low (F := F) c 4 sm h
  have hmw3 : ∀ sm : SemLoc sig, semLv sm = 0 → ((levAts L lv : sProp 𝕄) ⊢ MayWait (c : Thread nD τ) sm () (owedRecv c 5 + owedRecv c 4 + owedRecv c 3)) := fun sm h => mayWait_low (F := F) c 3 sm h
  have hmw2 : ∀ sm : SemLoc sig, semLv sm = 0 → ((levAts L lv : sProp 𝕄) ⊢ MayWait (c : Thread nD τ) sm () (owedRecv c 5 + owedRecv c 4)) := fun sm h => mayWait_low (F := F) c 2 sm h
  have hmw1 : ∀ sm : SemLoc sig, semLv sm = 0 → ((levAts L lv : sProp 𝕄) ⊢ MayWait (c : Thread nD τ) sm () (owedRecv c 5)) := fun sm h => mayWait_low (F := F) c 1 sm h
  rw [cc0_body_eq_skeleton]; unfold cc0_body_skel O₀
  sl_exec_parts (disch := first | simp only [dev1_eq, dev2_eq, dev3_eq, dev4_eq, dev5_eq, dev6_eq, dev7_eq, dev8_eq, dev9_eq] | decide)
  ihave Hp := (Entails.of_eq (bar_payloads m c)) $$ HaB_pay1
  unfold outInit
  icases Hp with ⟨⟨Ho30, Ho31⟩, ⟨Ho20, Ho21⟩, ⟨Ho10, Ho11⟩⟩
  ihave Hb0 : slabDone m c 0 $$ [Hb0]
  · iapply (slab_restate m c 0 fb k0_pay1 pay1_eq k0_pay2 pay2_eq (fun v => k0_pay4 (k0_pay3 v)) pay4_3_eq k0_pay5 pay5_eq (off1_eq c 0) (off2_eq c 0) (off3_eq c 0) (off4_eq c 0))
    iexact Hb0
  ihave Hb0 := (slabDone_elim m c 0) $$ Hb0
  iapply (wp_send_a2a m c _ 0 rfl (KS c 0) (KR (pe c 1) 0) rfl rfl (by decide) (by decide) (owedRecv c 5 + owedRecv c 4 + owedRecv c 3 + owedRecv c 2 + owedRecv c 1) _) $$ [Hb0 Ho10 HO HtS0 HtR0]
  · isplitr; · iexact HIs0
    isplitr; · iexact HIrp0
    isplitl [Hb0]; · iexact Hb0
    isplitl [Ho10]; · iexact Ho10
    isplitl [HO]; · iexact HO
    isplitl [HtS0]; · iexact HtS0
    isplitr; · iexact HRs0
    isplitl [HtR0]; · iexact HtR0
    iexact HRrp0
  iintro ⟨HcS0, HO⟩
  sl_exec_parts (disch := first | simp only [dev1_eq, dev2_eq, dev3_eq, dev4_eq, dev5_eq, dev6_eq, dev7_eq, dev8_eq, dev9_eq] | decide)
  ihave Hb1 : slabDone m c 1 $$ [Hb1]
  · iapply (slab_restate m c 1 fb k0_pay6 pay6_eq k0_pay7 pay7_eq k0_pay8 pay8_eq k0_pay9 pay9_eq (off6_eq c 0) (off7_eq c 0) (off8_eq c 0) (off9_eq c 0))
    iexact Hb1
  ihave Hb1 := (slabDone_elim m c 1) $$ Hb1
  iapply (wp_send_a2a m c _ 1 rfl (KS c 1) (KR (pe c 1) 1) rfl rfl (by decide) (by decide) (owedRecv c 5 + owedRecv c 4 + owedRecv c 3 + owedRecv c 2) _) $$ [Hb1 Ho11 HO HtS1 HtR1]
  · isplitr; · iexact HIs1
    isplitr; · iexact HIrp1
    isplitl [Hb1]; · iexact Hb1
    isplitl [Ho11]; · iexact Ho11
    isplitl [HO]; · iexact HO
    isplitl [HtS1]; · iexact HtS1
    isplitr; · iexact HRs1
    isplitl [HtR1]; · iexact HtR1
    iexact HRrp1
  iintro ⟨HcS1, HO⟩
  sl_exec_parts (disch := first | simp only [dev1_eq, dev2_eq, dev3_eq, dev4_eq, dev5_eq, dev6_eq, dev7_eq, dev8_eq, dev9_eq] | decide)
  ihave Hb2 : slabDone m c 2 $$ [Hb2]
  · iapply (slab_restate m c 2 fb k0_pay10 pay10_eq k0_pay11 pay11_eq (fun v => k0_pay13 (k0_pay12 v)) pay13_12_eq k0_pay14 pay14_eq (off1_eq c 1) (off2_eq c 1) (off3_eq c 1) (off4_eq c 1))
    iexact Hb2
  ihave Hb2 := (slabDone_elim m c 2) $$ Hb2
  iapply (wp_send_a2a m c _ 2 rfl (KS c 2) (KR (pe c 2) 2) rfl rfl (by decide) (by decide) (owedRecv c 5 + owedRecv c 4 + owedRecv c 3) _) $$ [Hb2 Ho20 HO HtS2 HtR2]
  · isplitr; · iexact HIs2
    isplitr; · iexact HIrp2
    isplitl [Hb2]; · iexact Hb2
    isplitl [Ho20]; · iexact Ho20
    isplitl [HO]; · iexact HO
    isplitl [HtS2]; · iexact HtS2
    isplitr; · iexact HRs2
    isplitl [HtR2]; · iexact HtR2
    iexact HRrp2
  iintro ⟨HcS2, HO⟩
  sl_exec_parts (disch := first | simp only [dev1_eq, dev2_eq, dev3_eq, dev4_eq, dev5_eq, dev6_eq, dev7_eq, dev8_eq, dev9_eq] | decide)
  ihave Hb3 : slabDone m c 3 $$ [Hb3]
  · iapply (slab_restate m c 3 fb k0_pay15 pay15_eq k0_pay16 pay16_eq k0_pay17 pay17_eq k0_pay18 pay18_eq (off6_eq c 1) (off7_eq c 1) (off8_eq c 1) (off9_eq c 1))
    iexact Hb3
  ihave Hb3 := (slabDone_elim m c 3) $$ Hb3
  iapply (wp_send_a2a m c _ 3 rfl (KS c 3) (KR (pe c 2) 3) rfl rfl (by decide) (by decide) (owedRecv c 5 + owedRecv c 4) _) $$ [Hb3 Ho21 HO HtS3 HtR3]
  · isplitr; · iexact HIs3
    isplitr; · iexact HIrp3
    isplitl [Hb3]; · iexact Hb3
    isplitl [Ho21]; · iexact Ho21
    isplitl [HO]; · iexact HO
    isplitl [HtS3]; · iexact HtS3
    isplitr; · iexact HRs3
    isplitl [HtR3]; · iexact HtR3
    iexact HRrp3
  iintro ⟨HcS3, HO⟩
  sl_exec_parts (disch := first | simp only [dev1_eq, dev2_eq, dev3_eq, dev4_eq, dev5_eq, dev6_eq, dev7_eq, dev8_eq, dev9_eq] | decide)
  ihave Hb4 : slabDone m c 4 $$ [Hb4]
  · iapply (slab_restate m c 4 fb k0_pay19 pay19_eq k0_pay20 pay20_eq k0_pay21 pay21_eq k0_pay22 pay22_eq (off1_eq c 2) (off2_eq c 2) (off3_eq c 2) (off4_eq c 2))
    iexact Hb4
  ihave Hb4 := (slabDone_elim m c 4) $$ Hb4
  iapply (wp_send_a2a m c _ 4 rfl (KS c 4) (KR (pe c 3) 4) rfl rfl (by decide) (by decide) (owedRecv c 5) _) $$ [Hb4 Ho30 HO HtS4 HtR4]
  · isplitr; · iexact HIs4
    isplitr; · iexact HIrp4
    isplitl [Hb4]; · iexact Hb4
    isplitl [Ho30]; · iexact Ho30
    isplitl [HO]; · iexact HO
    isplitl [HtS4]; · iexact HtS4
    isplitr; · iexact HRs4
    isplitl [HtR4]; · iexact HtR4
    iexact HRrp4
  iintro ⟨HcS4, HO⟩
  sl_exec_parts (disch := first | simp only [dev1_eq, dev2_eq, dev3_eq, dev4_eq, dev5_eq, dev6_eq, dev7_eq, dev8_eq, dev9_eq] | decide)
  ihave Hb5 : slabDone m c 5 $$ [Hb5]
  · iapply (slab_restate m c 5 fb k0_pay23 pay23_eq k0_pay24 pay24_eq (fun v => k0_pay26 (k0_pay25 v)) pay26_25_eq k0_pay27 pay27_eq (off6_eq c 2) (off7_eq c 2) (off8_eq c 2) (off9_eq c 2))
    iexact Hb5
  ihave Hb5 := (slabDone_elim m c 5) $$ Hb5
  iapply (wp_send_a2a_last m c _ 5 rfl (KS c 5) (KR (pe c 3) 5) rfl rfl (by decide) (by decide) _) $$ [Hb5 Ho31 HO HtS5 HtR5]
  · isplitr; · iexact HIs5
    isplitr; · iexact HIrp5
    isplitl [Hb5]; · iexact Hb5
    isplitl [Ho31]; · iexact Ho31
    isplitl [HO]; · iexact HO
    isplitl [HtS5]; · iexact HtS5
    isplitr; · iexact HRs5
    isplitl [HtR5]; · iexact HtR5
    iexact HRrp5
  iintro ⟨HcS5, HO⟩
  sl_exec_parts (disch := first | simp only [dev1_eq, dev2_eq, dev3_eq, dev4_eq, dev5_eq, dev6_eq, dev7_eq, dev8_eq, dev9_eq] | decide)
  ihave Hb6 : lslabDone m c $$ [Hb6]
  · unfold lslabDone
    iapply (lslab_restate m c fb k0_pay28 pay28_eq k0_pay29 pay29_eq k0_pay30 pay30_eq k0_pay31 pay31_eq (fun v => k0_pay33 (k0_pay32 v)) pay33_32_eq k0_pay34 pay34_eq k0_pay35 pay35_eq k0_pay36 pay36_eq (k0_off10_eq c) (k0_off11_eq c) (k0_off12_eq c) (k0_off13_eq c) (k0_off14_eq c) (k0_off15_eq c) (k0_off16_eq c) (k0_off17_eq c))
    iexact Hb6
  ihave Hb6 := (lslabDone_elim m c) $$ Hb6
  ihave Hz14 := (localSemZ_elim c) $$ Hz14
  sl_exec_parts (disch := first | simp only [dev1_eq, dev2_eq, dev3_eq, dev4_eq, dev5_eq, dev6_eq, dev7_eq, dev8_eq, dev9_eq] | decide)
  iapply (finish m c KS KR _ _ _)
  isplitr; · iexact HIs0
  isplitr; · iexact HIs1
  isplitr; · iexact HIs2
  isplitr; · iexact HIs3
  isplitr; · iexact HIs4
  isplitr; · iexact HIs5
  isplitr; · iexact HIr0
  isplitr; · iexact HIr1
  isplitr; · iexact HIr2
  isplitr; · iexact HIr3
  isplitr; · iexact HIr4
  isplitr; · iexact HIr5
  isplitl [Hx]; · iexact Hx
  isplitl [Hg0]; · iexact Hg0
  isplitl [Hg1]; · iexact Hg1
  isplitl [Hz12]; · iexact Hz12
  isplitl [Hz13]; · iexact Hz13
  isplitl [Hz14]; · iexact Hz14
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaS0_pay1]; · iexact HaS0_pay1
  isplitl [HaS1_pay1]; · iexact HaS1_pay1
  isplitl [HaS2_pay1]; · iexact HaS2_pay1
  isplitl [HaS3_pay1]; · iexact HaS3_pay1
  isplitl [HaS4_pay1]; · iexact HaS4_pay1
  isplitl [HaS5_pay1]; · iexact HaS5_pay1
  isplitl [HaR0_pay1]; · iexact HaR0_pay1
  isplitl [HaR1_pay1]; · iexact HaR1_pay1
  isplitl [HaR2_pay1]; · iexact HaR2_pay1
  isplitl [HaR3_pay1]; · iexact HaR3_pay1
  isplitl [HaR4_pay1]; · iexact HaR4_pay1
  isplitl [HaR5_pay1]; · iexact HaR5_pay1
  isplitl [Ho6]; · iexact Ho6
  isplitl [Hb6]; · iexact Hb6
  iexact HO

end Cert.Kernel.A2A

end
-- ==== Proof.Word.Body.lean ====
/-
  The library's body obligation for one device: what the device holds at launch is cut into the windows the transfers
  write and read (its result array into seven, its narrowed staging array into seven, its two-slot staging array into
  two), and the kernel is run from there.
-/
import proofs.«900645_g7700000000000646_dist_a2a_v7x_xyz2x2x4_z_m4096_n1024_bf16_1_alg».proof.Proof.Word.BodyRun

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

set_option maxRecDepth 8000 in
set_option maxHeartbeats 1600000 in
/-- The library's body obligation on device `c`: the arrays are cut into their windows and the kernel run. -/
theorem body_obligation (c : Dev nD) : BodyObligation (dats (F := F) m 0 c) (defs₀ (F := F)) 𝒱₀ () Set.univ := fun t => by
  rw [fin_N t]
  have hW : (Finset.univ : Finset (Fin cfg0.W)) = ∅ := by decide
  rw [hW, bigSep_empty, bigSep_empty]
  show iprop(Φ₀ m c ∗ (dats m 0 c).owesAt () t₀.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c)
  unfold Φ₀ start scratch ghost invs reacheds positions payToks creds localSems
  iintro ⟨⟨⟨⟨%KB, %KS, %KR, ⟨#HIb, #HIs0, #HIs1, #HIs2, #HIs3, #HIs4, #HIs5, #HIr0, #HIr1, #HIr2, #HIr3, #HIr4, #HIr5, #HIbp1, #HIbp2, #HIbp3, #HIrp0, #HIrp1, #HIrp2, #HIrp3, #HIrp4, #HIrp5⟩, ⟨#HRbp1, #HRbp2, #HRbp3, #HRrp0, #HRrp1, #HRrp2, #HRrp3, #HRrp4, #HRrp5, #HRs0, #HRs1, #HRs2, #HRs3, #HRs4, #HRs5⟩, ⟨HaB, HaS0, HaS1, HaS2, HaS3, HaS4, HaS5, HaR0, HaR1, HaR2, HaR3, HaR4, HaR5⟩, ⟨HtB1, HtB2, HtB3, HtR0, HtR1, HtR2, HtR3, HtR4, HtR5, HtS0, HtS1, HtS2, HtS3, HtS4, HtS5⟩⟩, ⟨HcB, HcR0, HcR1, HcR2, HcR3, HcR4, HcR5⟩, #Hlev, ⟨Hz12, Hz13, Hz14⟩, Hx, Hv⟩, ⟨⟨%fb, Hb⟩, ⟨%fg, Hg⟩⟩⟩, Ho, -⟩
  ihave Hbs := (xbf_split c fb).1 $$ Hb
  icases Hbs with ⟨Hb0, Hb1, Hb2, Hb3, Hb4, Hb5, Hb6⟩
  ihave Hos := (out_split c (V m c)).1 $$ Hv
  icases Hos with ⟨Ho0, Ho1, Ho2, Ho3, Ho4, Ho5, Ho6⟩
  ihave Hgs := (stage_split c fg).1 $$ Hg
  icases Hgs with ⟨Hg0, Hg1⟩
  unfold Dat.owesAt Pipeline.owesWithin
  icases Ho with ⟨%W, %hW', HO⟩
  rw [show (dats m 0 c).owed t₀.castSucc = O₀ c from rfl]
  iapply (sound_body m c KB KS KR W fg fb)
  isplitr; · iexact HIb
  isplitr; · iexact HIs0
  isplitr; · iexact HIs1
  isplitr; · iexact HIs2
  isplitr; · iexact HIs3
  isplitr; · iexact HIs4
  isplitr; · iexact HIs5
  isplitr; · iexact HIr0
  isplitr; · iexact HIr1
  isplitr; · iexact HIr2
  isplitr; · iexact HIr3
  isplitr; · iexact HIr4
  isplitr; · iexact HIr5
  isplitr; · iexact HIbp1
  isplitr; · iexact HIbp2
  isplitr; · iexact HIbp3
  isplitr; · iexact HIrp0
  isplitr; · iexact HIrp1
  isplitr; · iexact HIrp2
  isplitr; · iexact HIrp3
  isplitr; · iexact HIrp4
  isplitr; · iexact HIrp5
  isplitr; · iexact HRbp1
  isplitr; · iexact HRbp2
  isplitr; · iexact HRbp3
  isplitr; · iexact HRrp0
  isplitr; · iexact HRrp1
  isplitr; · iexact HRrp2
  isplitr; · iexact HRrp3
  isplitr; · iexact HRrp4
  isplitr; · iexact HRrp5
  isplitr; · iexact HRs0
  isplitr; · iexact HRs1
  isplitr; · iexact HRs2
  isplitr; · iexact HRs3
  isplitr; · iexact HRs4
  isplitr; · iexact HRs5
  isplitr; · iexact Hlev
  isplitl [HaB]; · iexact HaB
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HtB1]; · iexact HtB1
  isplitl [HtB2]; · iexact HtB2
  isplitl [HtB3]; · iexact HtB3
  isplitl [HtR0]; · iexact HtR0
  isplitl [HtR1]; · iexact HtR1
  isplitl [HtR2]; · iexact HtR2
  isplitl [HtR3]; · iexact HtR3
  isplitl [HtR4]; · iexact HtR4
  isplitl [HtR5]; · iexact HtR5
  isplitl [HtS0]; · iexact HtS0
  isplitl [HtS1]; · iexact HtS1
  isplitl [HtS2]; · iexact HtS2
  isplitl [HtS3]; · iexact HtS3
  isplitl [HtS4]; · iexact HtS4
  isplitl [HtS5]; · iexact HtS5
  isplitl [HcB]; · iexact HcB
  isplitl [HcR0]; · iexact HcR0
  isplitl [HcR1]; · iexact HcR1
  isplitl [HcR2]; · iexact HcR2
  isplitl [HcR3]; · iexact HcR3
  isplitl [HcR4]; · iexact HcR4
  isplitl [HcR5]; · iexact HcR5
  isplitl [HO]; · iexact HO
  isplitl [Hz12]; · iexact Hz12
  isplitl [Hz13]; · iexact Hz13
  isplitl [Hz14]; · unfold localSemZ; iexact Hz14
  isplitl [Hx]; · iexact Hx
  isplitl [Hg0]; · iexact Hg0
  isplitl [Hg1]; · iexact Hg1
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  iexact Ho6

end Cert.Kernel.A2A

end
-- ==== Proof.Word.Launch.lean ====
/-
  From one device's kernel to the whole mesh: given that each device's kernel, started from what it holds at launch,
  runs to its end state, every fair execution of the sixteen devices terminates with every result array at `OUT` and
  every input unchanged.
-/
import proofs.«900645_g7700000000000646_dist_a2a_v7x_xyz2x2x4_z_m4096_n1024_bf16_1_alg».proof.Proof.Word.Ghost
import Idealize.ShloMosaic.Adequacy
import Idealize.ShloMosaic.Init

set_option maxRecDepth 16384

noncomputable section

namespace Cert.Kernel.A2A

open Cert.Kernel Cert.Kernel.Gen Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the whole mesh -/

/-- The kernel's own scoped semaphores: its fifteen DMA semaphores. -/
abbrev osem : Fin 15 → SemLoc sig := fun i => .dma i

theorem ownSemFacts : Pipeline.OwnSemFacts cfg0.spec osem := by decide

/-- The thirteen cells of a device under the rounds discipline: the barrier, the six send cells, the six receive cells. -/
abbrev csem : Fin 13 → SemLoc sig := fun
  | 0 => .reg barS
  | 1 => .dma (sendS 0) | 2 => .dma (sendS 1) | 3 => .dma (sendS 2) | 4 => .dma (sendS 3) | 5 => .dma (sendS 4) | 6 => .dma (sendS 5)
  | 7 => .dma (recvS 0) | 8 => .dma (recvS 1) | 9 => .dma (recvS 2) | 10 => .dma (recvS 3) | 11 => .dma (recvS 4) | 12 => .dma (recvS 5)
abbrev kcell (ck : Dev nD × Fin 13) : GSem nD τ sig := ((ck.1 : Thread nD τ), csem ck.2)

/-- The position of a semaphore among the thirteen. -/
def semCode : SemLoc sig → ℕ
  | .reg _ => 0
  | .dma q => 1 + q.val
theorem semCode_csem (k : Fin 13) : semCode (csem k) = k.val := by revert k; decide

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := Fin.ext (by rw [← semCode_csem k, ← semCode_csem k', h2])
  subst this; rfl
def ringCells : Finset (GSem nD τ sig) := Finset.univ.map ⟨kcell, kcell_injective⟩

/-- A device's own cells' duty tokens as minted: the barrier's three, then one per send cell, then one per receive cell. -/
abbrev tokOf (cj : Dev nD × Fin 15) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0) | 6 => (sendCell cj.1 3, 0, 0) | 7 => (sendCell cj.1 4, 0, 0) | 8 => (sendCell cj.1 5, 0, 0)
  | 9 => (recvCell cj.1 0, 0, 0) | 10 => (recvCell cj.1 1, 0, 0) | 11 => (recvCell cj.1 2, 0, 0) | 12 => (recvCell cj.1 3, 0, 0) | 13 => (recvCell cj.1 4, 0, 0) | 14 => (recvCell cj.1 5, 0, 0)

/-- The position of a (semaphore, duty) pair among the fifteen. -/
def tokCode : SemLoc sig × Fin 3 → ℕ
  | (.reg _, d) => d.val
  | (.dma q, _) => 3 + q.val
theorem tokCode_tokOf (c : Dev nD) (j : Fin 15) : tokCode ((tokOf (c, j)).1.2, (tokOf (c, j)).2.2) = j.val := by
  fin_cases j <;> rfl
theorem tokOf_dev (c : Dev nD) (j : Fin 15) : (tokOf (c, j)).1.1.1 = c := by
  fin_cases j <;> rfl

theorem tokOf_injective : Function.Injective (tokOf : Dev nD × Fin 15 → GSem nD τ sig × ℕ × Fin 3) := by
  rintro ⟨c, j⟩ ⟨c', j'⟩ h
  have h1 : c = c' := by rw [← tokOf_dev c j, ← tokOf_dev c' j', h]
  subst h1
  have : j = j' := Fin.ext (by rw [← tokCode_tokOf c j, ← tokCode_tokOf c j', h])
  subst this; rfl
def ringToks : Finset (GSem nD τ sig × ℕ × Fin 3) := Finset.univ.map ⟨tokOf, tokOf_injective⟩

/-- The launch element: the pipeline library's cells (none), this protocol's cells and tokens, and the counters' unit. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0 ∗ dutyTok ER (sendCell c 3) 0 0 ∗ dutyTok ER (sendCell c 4) 0 0 ∗ dutyTok ER (sendCell c 5) 0 0
    ∗ dutyTok ER (recvCell c 0) 0 0 ∗ dutyTok ER (recvCell c 1) 0 0 ∗ dutyTok ER (recvCell c 2) 0 0 ∗ dutyTok ER (recvCell c 3) 0 0 ∗ dutyTok ER (recvCell c 4) 0 0 ∗ dutyTok ER (recvCell c 5) 0 0)

/-- What the launch element deals device `c`. -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0)) ∗ toks c)

/-- What the global step makes of it. -/
def G' (c : Dev nD) : sProp 𝕄 := iprop((∃ KB KS KR, ghost m KB KS KR c) ∗ localSems c)

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin15]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The kernel's own semaphores, listed: the six send, the six receive, the three local ones. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
      ∗ semVal (recvCell c 0) 0 ∗ semVal (recvCell c 1) 0 ∗ semVal (recvCell c 2) 0 ∗ semVal (recvCell c 3) 0 ∗ semVal (recvCell c 4) 0 ∗ semVal (recvCell c 5) 0
      ∗ semVal ((c : Thread nD τ), .dma (stageS 0)) 0 ∗ semVal ((c : Thread nD τ), .dma (stageS 1)) 0 ∗ semVal ((c : Thread nD τ), .dma localS) 0) := by
  rw [Pipeline.ownSems0_eq_of_list c osem [0, 1, 2, 3, 4, 5, 6, 7, 8, 9, 10, 11, 12, 13, 14] (by decide) (by decide)]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => semVal (kcell (c, k)) 0) ∗ localSems c : sProp 𝕄) := by
  rw [ownSems0_eq, unscopedSems0_eq, bigSep_fin13]
  unfold localSems
  iintro ⟨⟨HS0, HS1, HS2, HS3, HS4, HS5, HR0, HR1, HR2, HR3, HR4, HR5, HL⟩, HB⟩
  isplitr [HL]
  · isplitl [HB]; · iexact HB
    isplitl [HS0]; · iexact HS0
    isplitl [HS1]; · iexact HS1
    isplitl [HS2]; · iexact HS2
    isplitl [HS3]; · iexact HS3
    isplitl [HS4]; · iexact HS4
    isplitl [HS5]; · iexact HS5
    isplitl [HR0]; · iexact HR0
    isplitl [HR1]; · iexact HR1
    isplitl [HR2]; · iexact HR2
    isplitl [HR3]; · iexact HR3
    isplitl [HR4]; · iexact HR4
    iexact HR5
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant at its name, and that round 0 of every cell is reached. -/
def records (K : Dev nD × Fin 13 → ℕ) : sProp 𝕄 :=
  iprop((bigSep Finset.univ fun ck : Dev nD × Fin 13 => cellInv ER (Rd m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (ck : Dev nD × Fin 13) :
    (bigSep Finset.univ fun ck : Dev nD × Fin 13 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

/-- The names of a device's barrier, send and receive cells out of one table of names. -/
def nameB (K : Dev nD × Fin 13 → ℕ) (c : Dev nD) : ℕ := K (c, 0)
def nameS (K : Dev nD × Fin 13 → ℕ) (c : Dev nD) (k : Fin 6) : ℕ := K (c, ⟨1 + k.val, by have := k.isLt; omega⟩)
def nameR (K : Dev nD × Fin 13 → ℕ) (c : Dev nD) (k : Fin 6) : ℕ := K (c, ⟨7 + k.val, by have := k.isLt; omega⟩)

/-- What stays with device `c`: its positions, and the tokens of the duties it pays. -/
def linear (c : Dev nD) : sProp 𝕄 := iprop(positions c ∗ payToks c)

theorem ghost_intro (K : Dev nD × Fin 13 → ℕ) (c : Dev nD) :
    iprop(records m K ∗ linear c) ⊢ iprop(∃ KB KS KR, ghost m KB KS KR c) := by
  unfold records linear ghost invs reacheds
  iintro ⟨⟨#HI, #HR⟩, Hpos, Htok⟩
  iexists (nameB K), (nameS K), (nameR K)
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (c, 9)); iexact HI
    isplitr; · iapply (inv_at m K (c, 10)); iexact HI
    isplitr; · iapply (inv_at m K (c, 11)); iexact HI
    isplitr; · iapply (inv_at m K (c, 12)); iexact HI
    isplitr; · iapply (inv_at m K (pe c 1, 0)); iexact HI
    isplitr; · iapply (inv_at m K (pe c 2, 0)); iexact HI
    isplitr; · iapply (inv_at m K (pe c 3, 0)); iexact HI
    isplitr; · iapply (inv_at m K (pe c 1, 7)); iexact HI
    isplitr; · iapply (inv_at m K (pe c 1, 8)); iexact HI
    isplitr; · iapply (inv_at m K (pe c 2, 9)); iexact HI
    isplitr; · iapply (inv_at m K (pe c 2, 10)); iexact HI
    isplitr; · iapply (inv_at m K (pe c 3, 11)); iexact HI
    iapply (inv_at m K (pe c 3, 12)); iexact HI
  isplitr
  · isplitr; · iapply (reached_at (F := F) (pe c 1, 0)); iexact HR
    isplitr; · iapply (reached_at (F := F) (pe c 2, 0)); iexact HR
    isplitr; · iapply (reached_at (F := F) (pe c 3, 0)); iexact HR
    isplitr; · iapply (reached_at (F := F) (pe c 1, 7)); iexact HR
    isplitr; · iapply (reached_at (F := F) (pe c 1, 8)); iexact HR
    isplitr; · iapply (reached_at (F := F) (pe c 2, 9)); iexact HR
    isplitr; · iapply (reached_at (F := F) (pe c 2, 10)); iexact HR
    isplitr; · iapply (reached_at (F := F) (pe c 3, 11)); iexact HR
    isplitr; · iapply (reached_at (F := F) (pe c 3, 12)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [Hpos]; · iexact Hpos
  iexact Htok

/-- Going `k` places on around the ring, as a permutation of the devices: going `k'` places on undoes it when `k + k' = 4`. -/
def peE (k k' : ℕ) (h : k + k' = 4) : Dev nD ≃ Dev nD :=
  ⟨fun c => pe c k, fun c => pe c k', fun c => by show pe (pe c k) k' = c; rw [pe_pe, h]; exact pe_four c,
    fun c => by show pe (pe c k') k = c; rw [pe_pe, Nat.add_comm, h]; exact pe_four c⟩

omit [FloatOps F] in
theorem shift (k k' : ℕ) (h : k + k' = 4) (Φ : Dev nD → sProp 𝕄) :
    bigSep Finset.univ Φ ⊢ bigSep Finset.univ fun c : Dev nD => Φ (pe c k) :=
  Entails.of_eq (bigSep_univ_equiv (peE k k' h) Φ)

omit [FloatOps F] in
/-- The tokens dealt around each ring: duty `j` of a barrier cell to the member `3 - j` places on (whose signal `j + 1`
    pays it), receive cell `k`'s token to the member that sends to it. -/
theorem toks_around : (bigSep Finset.univ fun c : Dev nD => (toks c : sProp 𝕄)) ⊢ bigSep Finset.univ fun c : Dev nD => payToks c := by
  unfold toks payToks
  simp only [bigSep_sep']
  iintro ⟨B0, B1, B2, S0, S1, S2, S3, S4, S5, R0, R1, R2, R3, R4, R5⟩
  isplitl [B0]; · iapply (shift 1 3 rfl fun d : Dev nD => (dutyTok ER (barCell d) 0 0 : sProp 𝕄)); iexact B0
  isplitl [B1]; · iapply (shift 2 2 rfl fun d : Dev nD => (dutyTok ER (barCell d) 0 1 : sProp 𝕄)); iexact B1
  isplitl [B2]; · iapply (shift 3 1 rfl fun d : Dev nD => (dutyTok ER (barCell d) 0 2 : sProp 𝕄)); iexact B2
  isplitl [R0]; · iapply (shift 1 3 rfl fun d : Dev nD => (dutyTok ER (recvCell d 0) 0 0 : sProp 𝕄)); iexact R0
  isplitl [R1]; · iapply (shift 1 3 rfl fun d : Dev nD => (dutyTok ER (recvCell d 1) 0 0 : sProp 𝕄)); iexact R1
  isplitl [R2]; · iapply (shift 2 2 rfl fun d : Dev nD => (dutyTok ER (recvCell d 2) 0 0 : sProp 𝕄)); iexact R2
  isplitl [R3]; · iapply (shift 2 2 rfl fun d : Dev nD => (dutyTok ER (recvCell d 3) 0 0 : sProp 𝕄)); iexact R3
  isplitl [R4]; · iapply (shift 3 1 rfl fun d : Dev nD => (dutyTok ER (recvCell d 4) 0 0 : sProp 𝕄)); iexact R4
  isplitl [R5]; · iapply (shift 3 1 rfl fun d : Dev nD => (dutyTok ER (recvCell d 5) 0 0 : sProp 𝕄)); iexact R5
  isplitl [S0]; · iexact S0
  isplitl [S1]; · iexact S1
  isplitl [S2]; · iexact S2
  isplitl [S3]; · iexact S3
  isplitl [S4]; · iexact S4
  iexact S5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hloc⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  unfold G'
  rw [bigSep_sep']
  isplitr [Hloc]
  · iapply (bigSep_with_persistent (R := records m K) fun c _ => ghost_intro m K c)
    isplitr
    · unfold records; isplitl; · iexact HI
      iexact HR
    · iapply ((Entails.of_eq (bigSep_sep' Finset.univ (fun c : Dev nD => bigSep Finset.univ fun k : Fin 13 => (atPos ER (kcell (c, k)) 0 ∅ 0 : sProp 𝕄)) payToks).symm).trans
        (bigSep_mono fun c _ => show _ ⊢ linear c from Entails.of_eq (by unfold linear positions; rw [bigSep_fin13])))
      isplitl [Hat]; · iexact Hat
      iexact Htk
  · iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing receive cell `k` of the member it sends `k` to, each device is dealt the credit of its own receive cell `k`. -/
theorem cred_recv (k : Fin 6) (c : Dev nD) :
    (Pipeline.launchCred (fun d : Dev nD => owedRecv d k) c : sProp 𝕄) ⊢ cred (tallyAt (recvCell c k) () N) :=
  Pipeline.launchCred_tallyAt (.dma (recvS k)) (fun d => pe d (k.val / 2 + 1)) (fun d => pe d (4 - (k.val / 2 + 1)))
    (fun c => by
      show pe (pe c (4 - (k.val / 2 + 1))) (k.val / 2 + 1) = c
      rw [pe_pe, show 4 - (k.val / 2 + 1) + (k.val / 2 + 1) = 4 from by have := k.isLt; omega]; exact pe_four c)
    (fun d => by
      show pe (pe d (k.val / 2 + 1)) (4 - (k.val / 2 + 1)) = d
      rw [pe_pe, show k.val / 2 + 1 + (4 - (k.val / 2 + 1)) = 4 from by have := k.isLt; omega]; exact pe_four d)
    () N c

omit [FloatOps F] in
/-- Every device owing one unit to the barrier cell of the member `j` places on, each device is dealt one unit of credit
    on its own barrier cell. -/
theorem cred_bar (j j' : ℕ) (h : j + j' = 4) (c : Dev nD) :
    (Pipeline.launchCred (fun d : Dev nD => (tallyAt (barCell (pe d j)) () 1 : CellTallies nD τ sig Unit)) c : sProp 𝕄)
      ⊢ cred (tallyAt (barCell c) () 1) :=
  Pipeline.launchCred_tallyAt (.reg barS) (fun d => pe d j) (fun d => pe d j')
    (fun c => by show pe (pe c j') j = c; rw [pe_pe, Nat.add_comm, h]; exact pe_four c)
    (fun d => by show pe (pe d j) j' = d; rw [pe_pe, h]; exact pe_four d)
    () 1 c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

omit [FloatOps F] in
/-- What the launch deals device `c` for the others' dues: three units on its barrier cell, one transfer on each receive cell. -/
theorem creds_intro (c : Dev nD) : (Pipeline.launchCred O₀ c : sProp 𝕄) ⊢ creds c := by
  show (Pipeline.launchCred (fun d : Dev nD => owedRecv d 5 + owedRecv d 4 + owedRecv d 3 + owedRecv d 2 + owedRecv d 1 + owedRecv d 0
    + tallyAt (barCell (pe d 3)) () 1 + tallyAt (barCell (pe d 2)) () 1 + tallyAt (barCell (pe d 1)) () 1) c : sProp 𝕄) ⊢ creds c
  rw [Pipeline.launchCred_add, Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨H5, H4⟩, H3⟩, H2⟩, H1⟩, H0⟩, B3⟩, B2⟩, B1⟩
  isplitl [B1 B2 B3]
  · iapply (cred_three (F := F) (barCell c))
    isplitl [B1]; · iapply (cred_bar (F := F) 1 3 rfl c); iexact B1
    isplitl [B2]; · iapply (cred_bar (F := F) 2 2 rfl c); iexact B2
    iapply (cred_bar (F := F) 3 1 rfl c); iexact B3
  isplitl [H0]; · iapply (cred_recv (F := F) 0 c); iexact H0
  isplitl [H1]; · iapply (cred_recv (F := F) 1 c); iexact H1
  isplitl [H2]; · iapply (cred_recv (F := F) 2 c); iexact H2
  isplitl [H3]; · iapply (cred_recv (F := F) 3 c); iexact H3
  isplitl [H4]; · iapply (cred_recv (F := F) 4 c); iexact H4
  iapply (cred_recv (F := F) 5 c); iexact H5

/-! ## The launch theorem's side conditions -/

/-- What the run leaves a device holding of its two arrays: the input as launched, the result at `OUT`. -/
def Yc (c : Dev nD) : sProp 𝕄 :=
  iprop((((c : Thread nD τ).loc main_arg0) ↦{fullShare} X m c) ∗ (((c : Thread nD τ).loc main_v1) ↦{fullShare} OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, HG, Hloc⟩
  ihave Hc := (creds_intro (F := F) c) $$ Hcr
  imodintro
  unfold start
  isplitl
  · isplitl [HG]; · iexact HG
    isplitl [Hc]; · iexact Hc
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ ownZero localSems scratch Yc
  iintro ⟨Hx, Ho, Hscr, HS0, HS1, HS2, HS3, HS4, HS5, HR0, HR1, HR2, HR3, HR4, HR5, HL⟩
  isplitl [Hx Ho]
  · isplitl [Hx] <;> iassumption
  isplitr [Hscr]
  · isplitl [HS0]; · iexact HS0
    isplitl [HS1]; · iexact HS1
    isplitl [HS2]; · iexact HS2
    isplitl [HS3]; · iexact HS3
    isplitl [HS4]; · iexact HS4
    isplitl [HS5]; · iexact HS5
    isplitl [HR0]; · iexact HR0
    isplitl [HR1]; · iexact HR1
    isplitl [HR2]; · iexact HR2
    isplitl [HR3]; · iexact HR3
    isplitl [HR4]; · iexact HR4
    isplitl [HR5]; · iexact HR5
    iexact HL
  · iexact Hscr

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-- Reading the two arrays a device holds whole against the machine's memory. -/
theorem read_out (c : Dev nD) (s' : Phys nD τ sig (Elt F)) :
    iprop(Yc m c ∗ emp ∗ SI s') ⊢ (|={Set.univ}=> iprop(⌜s'.mem.mem ((c : Thread nD τ).loc main_v1) = OUT m c
      ∧ s'.mem.mem ((c : Thread nD τ).loc main_arg0) = X m c⌝ ∗ SI s') : sProp 𝕄) := by
  unfold Yc
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-- At the compiled mesh of sixteen devices, for any float values, from any memory with zero counters: if each device's
    kernel meets its obligation, every weakly fair execution of @main terminates, nothing faulting, and every final
    state has each device's result array at `OUT m c` and its input array as launched. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR (initOf ringCells ringToks) (1 : Counters)) $$ HX
      icases H2 with ⟨HX, -⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = X m c)
    (hY := read_out m)
    (hQ := fun _ h c => (h c).2.2)

/-- info: 'Cert.Kernel.A2A.run_main' depends on axioms: [propext, Classical.choice, Quot.sound] -/
#guard_msgs in #print axioms run_main

end Cert.Kernel.A2A

end
-- ==== Proof.lean ====
/-
  The all-to-all along the last axis of the 2 × 2 × 4 mesh equals, device by device, the column block of the whole
  input narrowed to the result's format.

  Each device converts the columns every other member of its ring is to receive and sends them, half the rows at a
  time, into that member's result array, after an entry handshake on the barrier semaphore by which every member hands
  the others the rows of its result array they will write; its own columns it copies locally. The protocol is one
  round per semaphore cell (the schedule `Rd`); each device's kernel is run once, symbolically, from what it holds at
  launch to its end state (`body_obligation`), and the launch theorem turns the sixteen kernels into one run of the
  mesh (`run_main`): every result array ends at `OUT`, every input unchanged. At the ideal instance `OUT` is the
  device's column block of the reference's result, which is the whole input (a change of format is the identity):
  `out_block`. The same protocol proof, read at the word-level instance, gives the word-level program's frame.
-/
import proofs.«900645_g7700000000000646_dist_a2a_v7x_xyz2x2x4_z_m4096_n1024_bf16_1_alg».proof.Defs
import proofs.«900645_g7700000000000646_dist_a2a_v7x_xyz2x2x4_z_m4096_n1024_bf16_1_alg».proof.Proof.Gen.Kernel
import proofs.«900645_g7700000000000646_dist_a2a_v7x_xyz2x2x4_z_m4096_n1024_bf16_1_alg».proof.Proof.Gen.KernelIdeal
import proofs.«900645_g7700000000000646_dist_a2a_v7x_xyz2x2x4_z_m4096_n1024_bf16_1_alg».proof.Proof.Gen.ReferenceIdeal
import proofs.«900645_g7700000000000646_dist_a2a_v7x_xyz2x2x4_z_m4096_n1024_bf16_1_alg».proof.Proof.Gen.Pre_finite_inputs_Kernel
import proofs.«900645_g7700000000000646_dist_a2a_v7x_xyz2x2x4_z_m4096_n1024_bf16_1_alg».proof.Proof.Gen.Pre_finite_inputs_ReferenceIdeal
import proofs.«900645_g7700000000000646_dist_a2a_v7x_xyz2x2x4_z_m4096_n1024_bf16_1_alg».proof.Proof.RefValue
import proofs.«900645_g7700000000000646_dist_a2a_v7x_xyz2x2x4_z_m4096_n1024_bf16_1_alg».proof.Proof.Body
import proofs.«900645_g7700000000000646_dist_a2a_v7x_xyz2x2x4_z_m4096_n1024_bf16_1_alg».proof.Proof.Launch
import proofs.«900645_g7700000000000646_dist_a2a_v7x_xyz2x2x4_z_m4096_n1024_bf16_1_alg».proof.Proof.Word.Body
import proofs.«900645_g7700000000000646_dist_a2a_v7x_xyz2x2x4_z_m4096_n1024_bf16_1_alg».proof.Proof.Word.Launch
import Idealize.ShloMosaic.Adequacy
import Idealize.ShloMosaic.Init

noncomputable section

namespace Cert.Proof

open Idealize.ShloMosaic Idealize.SL.Sem

/-- The word-level program runs and leaves its input unchanged: the mesh run with the values dropped. -/
theorem frame_k : Cert.frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).2)
    (Cert.Kernel.A2A.run_main (F := Bits) m g (Cert.Kernel.A2A.body_obligation (F := Bits) m))

/-- The idealized program likewise. -/
theorem frame_ki : Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono (fun _ h c => (h c).2)
    (Cert.KernelIdeal.A2A.run_main (F := Ideal) m g (Cert.KernelIdeal.A2A.body_obligation (F := Ideal) m))

/-- Every device's result array ends as its column block of the reference's result. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m g m' g' _ hagree =>
    ⟨Cert.Proof.RefValue.refV m',
      (θ_run (Cert.KernelIdeal.defs (F := Ideal)) _ _).mono
        (fun _ h c => ⟨(h c).1.trans (Cert.Proof.RefValue.out_block m m' hagree c), (h c).2⟩)
        (Cert.KernelIdeal.A2A.run_main (F := Ideal) m g (Cert.KernelIdeal.A2A.body_obligation (F := Ideal) m)),
      Cert.Proof.RefValue.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Proof.RefValue.frame_ri, trivial, algebraic⟩

end Cert.Proof

end
